-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg2 : IVec S50000 32) (main_arg9 : FVec F S10x128 .f32) (main_arg10 : FVec F S10 .f32) (main_v33 : IVec S_ 1) : IVec S_ 1 :=
  let main_v34 : FVec F S10x128 .f32 := Host.absf main_arg9
  let main_cst_12 : FVec F S_ .f32 := constant S_ .f32 0x7F800000#32
  let main_v35 : FVec F S10x128 .f32 := broadcastInDim S10x128 ![] bcast_S_S10x128 main_cst_12
  let main_v36 : IVec S10x128 1 := cmpf .olt main_v34 main_v35
  let main_c_13 : IVec S_ 1 := constantI S_ 1 1#1
  let main_v37 : IVec S_ 1 := (fun x v => Host.reduce IntOp.andi x v reducesTo_S10x128_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_c_16 : IVec S_ 32 := constantI S_ 32 0#32
  let main_v44 : IVec S50000 32 := broadcastInDim S50000 ![] bcast_S_S50000 main_c_16
  let main_v45 : IVec S50000 1 := cmpi .sge main_arg2 main_v44
  let main_c_17 : IVec S_ 1 := constantI S_ 1 1#1
  let main_v46 : IVec S_ 1 := (fun x v => Host.reduce IntOp.andi x v reducesTo_S50000_S_d0 h_S_) main_v45 main_c_17
  let main_v47 : IVec S_ 1 := andi main_v43 main_v46
  main_v47

def fn_part1 {F : FTy → Type} [FloatOps F] (main_arg2 : IVec S50000 32) (main_arg6 : FVec F S128 .f32) (main_arg7 : FVec F S128x128 .f32) (main_arg8 : FVec F S128 .f32) (main_arg9 : FVec F S10x128 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg9 main_arg10 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S10x128 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩
abbrev S512 : Shape := ⟨1, ![512]⟩
abbrev S50000x1 : Shape := ⟨2, ![50000, 1]⟩
abbrev S512x1 : Shape := ⟨2, ![512, 1]⟩
abbrev S1x10 : Shape := ⟨2, ![1, 10]⟩
abbrev S512x10 : Shape := ⟨2, ![512, 10]⟩
abbrev S5000x1 : Shape := ⟨2, ![5000, 1]⟩
abbrev S512x128 : Shape := ⟨2, ![512, 128]⟩
abbrev S5000x512 : Shape := ⟨2, ![5000, 512]⟩

abbrev nBuf : Space → Nat
  | .hbm => 162
  | .vmem => 52
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S10x128, .f32⟩
  | 10 => ⟨S10, .f32⟩
  | 11 => ⟨S50000, .i32⟩
  | 12 => ⟨S1x600000, .i32⟩
  | 13 => ⟨S600000, .i32⟩
  | 14 => ⟨S650000, .i32⟩
  | 15 => ⟨S1x600000, .i32⟩
  | 16 => ⟨S600000, .i32⟩
  | 17 => ⟨S650000, .i32⟩
  | 18 => ⟨S_, .f32⟩
  | 19 => ⟨S650000, .f32⟩
  | 20 => ⟨S_, .f32⟩
  | 21 => ⟨S50000, .f32⟩
  | 22 => ⟨S650000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S650000, .i32⟩
  | 34 => ⟨S650000, .i1⟩
  | 35 => ⟨S_, .i32⟩
  | 36 => ⟨S650000, .i32⟩
  | 37 => ⟨S650000, .i32⟩
  | 38 => ⟨S650000, .i32⟩
  | 39 => ⟨S650000x1, .i32⟩
  | 40 => ⟨S650000, .f32⟩
  | 41 => ⟨S_, .i32⟩
  | 42 => ⟨S650000, .i32⟩
  | 43 => ⟨S650000, .i1⟩
  | 44 => ⟨S_, .i32⟩
  | 45 => ⟨S650000, .i32⟩
  | 46 => ⟨S650000, .i32⟩
  | 47 => ⟨S650000, .i32⟩
  | 48 => ⟨S650000x1, .i32⟩
  | 49 => ⟨S650000, .f32⟩
  | 50 => ⟨S650000, .f32⟩
  | 51 => ⟨S50000x128, .f32⟩
  | 52 => ⟨S650000x1, .f32⟩
  | 53 => ⟨S_, .i32⟩
  | 54 => ⟨S650000, .i32⟩
  | 55 => ⟨S650000, .i1⟩
  | 56 => ⟨S_, .i32⟩
  | 57 => ⟨S650000, .i32⟩
  | 58 => ⟨S650000, .i32⟩
  | 59 => ⟨S650000, .i32⟩
  | 60 => ⟨S650000x1, .i32⟩
  | 61 => ⟨S650000x128, .f32⟩
  | 62 => ⟨S650000x128, .f32⟩
  | 63 => ⟨S650000x128, .f32⟩
  | 64 => ⟨S_, .f32⟩
  | 65 => ⟨S50000x128, .f32⟩
  | 66 => ⟨S650000x1, .i32⟩
  | 67 => ⟨S50000x128, .f32⟩
  | 68 => ⟨S1x128, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S_, .f32⟩
  | 75 => ⟨S1x128, .f32⟩
  | 76 => ⟨S1x128, .f32⟩
  | 77 => ⟨S1x128, .f32⟩
  | 78 => ⟨S1x128, .f32⟩
  | 79 => ⟨S_, .f32⟩
  | 80 => ⟨S1x128, .f32⟩
  | 81 => ⟨S1x128, .f32⟩
  | 82 => ⟨S1x128, .f32⟩
  | 83 => ⟨S50000x128, .f32⟩
  | 84 => ⟨S50000x128, .f32⟩
  | 85 => ⟨S650000x1, .f32⟩
  | 86 => ⟨S_, .i32⟩
  | 87 => ⟨S650000, .i32⟩
  | 88 => ⟨S650000, .i1⟩
  | 89 => ⟨S_, .i32⟩
  | 90 => ⟨S650000, .i32⟩
  | 91 => ⟨S650000, .i32⟩
  | 92 => ⟨S650000, .i32⟩
  | 93 => ⟨S650000x1, .i32⟩
  | 94 => ⟨S650000x128, .f32⟩
  | 95 => ⟨S650000x128, .f32⟩
  | 96 => ⟨S650000x128, .f32⟩
  | 97 => ⟨S_, .f32⟩
  | 98 => ⟨S50000x128, .f32⟩
  | 99 => ⟨S650000x1, .i32⟩
  | 100 => ⟨S50000x128, .f32⟩
  | 101 => ⟨S1x128, .f32⟩
  | 102 => ⟨S1x128, .f32⟩
  | 103 => ⟨S1x128, .f32⟩
  | 104 => ⟨S_, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S1x128, .f32⟩
  | 111 => ⟨S1x128, .f32⟩
  | 112 => ⟨S_, .f32⟩
  | 113 => ⟨S1x128, .f32⟩
  | 114 => ⟨S1x128, .f32⟩
  | 115 => ⟨S1x128, .f32⟩
  | 116 => ⟨S50000x128, .f32⟩
  | 117 => ⟨S50000x128, .f32⟩
  | 118 => ⟨S650000x1, .f32⟩
  | 119 => ⟨S_, .i32⟩
  | 120 => ⟨S650000, .i32⟩
  | 121 => ⟨S650000, .i1⟩
  | 122 => ⟨S_, .i32⟩
  | 123 => ⟨S650000, .i32⟩
  | 124 => ⟨S650000, .i32⟩
  | 125 => ⟨S650000, .i32⟩
  | 126 => ⟨S650000x1, .i32⟩
  | 127 => ⟨S650000x128, .f32⟩
  | _ => ⟨S50000x128, .f32⟩

abbrev hbmTy0_1 (i : Nat) : BufTy := match i % 128 with
  | 0 => ⟨S650000x128, .f32⟩
  | 1 => ⟨S650000x128, .f32⟩
  | 2 => ⟨S_, .f32⟩
  | 3 => ⟨S50000x128, .f32⟩
  | 4 => ⟨S650000x1, .i32⟩
  | 5 => ⟨S50000x128, .f32⟩
  | 6 => ⟨S1x128, .f32⟩
  | 7 => ⟨S50000x128, .f32⟩
  | 8 => ⟨S50000x128, .f32⟩
  | 9 => ⟨S_, .i32⟩
  | 10 => ⟨S512, .i32⟩
  | 11 => ⟨S_, .i32⟩
  | 12 => ⟨S_, .i32⟩
  | 13 => ⟨S50000, .i32⟩
  | 14 => ⟨S50000, .i32⟩
  | 15 => ⟨S_, .i32⟩
  | 16 => ⟨S50000, .i32⟩
  | 17 => ⟨S50000, .i1⟩
  | 18 => ⟨S_, .i32⟩
  | 19 => ⟨S50000, .i32⟩
  | 20 => ⟨S50000, .i32⟩
  | 21 => ⟨S50000, .i32⟩
  | 22 => ⟨S50000x1, .i32⟩
  | 23 => ⟨S_, .i32⟩
  | 24 => ⟨S50000, .i32⟩
  | 25 => ⟨S512, .i32⟩
  | 26 => ⟨S512, .f32⟩
  | 27 => ⟨S50000x1, .i32⟩
  | 28 => ⟨S_, .f32⟩
  | 29 => ⟨S512, .f32⟩
  | 30 => ⟨S512, .f32⟩
  | 31 => ⟨S512x1, .f32⟩
  | 32 => ⟨S1x10, .f32⟩
  | 33 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x1, .i32⟩
  | .local _ .vmem, ⟨46, _⟩ => ⟨S5000x1, .i32⟩
  | .local _ .vmem, ⟨47, _⟩ => ⟨S512x1, .f32⟩
  | .local _ .vmem, ⟨48, _⟩ => ⟨S10x128, .f32⟩
  | .local _ .vmem, ⟨49, _⟩ => ⟨S1x10, .f32⟩
  | .local _ .vmem, ⟨50, _⟩ => ⟨S512x10, .f32⟩
  | .local _ .vmem, ⟨51, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45_0 : Ref sig .tc := ⟨.hbm, 69, rfl⟩
abbrev main_v45_1 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71_0 : Ref sig .tc := ⟨.hbm, 102, rfl⟩
abbrev main_v71_1 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_cst_16 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_17 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_18 : Ref sig .tc := ⟨.hbm, 119, rfl⟩
abbrev main_v84 : Ref sig .tc := ⟨.hbm, 120, rfl⟩
abbrev main_v85 : Ref sig .tc := ⟨.hbm, 121, rfl⟩
abbrev main_c_19 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_20 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_21 : Ref sig .tc := ⟨.hbm, 137, rfl⟩
abbrev main_v99 : Ref sig .tc := ⟨.hbm, 138, rfl⟩
abbrev main_c_22 : Ref sig .tc := ⟨.hbm, 139, rfl⟩
abbrev main_call1_v0 : Ref sig .tc := ⟨.hbm, 140, rfl⟩
abbrev main_call1_v1 : Ref sig .tc := ⟨.hbm, 141, rfl⟩
abbrev main_v100 : Ref sig .tc := ⟨.hbm, 142, rfl⟩
abbrev main_c_23 : Ref sig .tc := ⟨.hbm, 143, rfl⟩
abbrev main_v101 : Ref sig .tc := ⟨.hbm, 144, rfl⟩
abbrev main_v102 : Ref sig .tc := ⟨.hbm, 145, rfl⟩
abbrev main_c_24 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_c_25 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_26 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_scratch0 : Ref sig .tc := ⟨.vmem, 29, rfl⟩
abbrev cc4_scratch1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg4_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg1_1 : Ref sig .tc := ⟨.vmem, 46, rfl⟩
abbrev cc7_stg2_0 : Ref sig .tc := ⟨.vmem, 47, rfl⟩
abbrev cc7_stg3_0 : Ref sig .tc := ⟨.vmem, 48, rfl⟩
abbrev cc7_stg4_0 : Ref sig .tc := ⟨.vmem, 49, rfl⟩
abbrev cc7_stg5_0 : Ref sig .tc := ⟨.vmem, 50, rfl⟩
abbrev cc7_scratch0 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem4_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem4_0 : DmaSem sig := 32
abbrev cc5_sem4_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem1_1 : DmaSem sig := 42
abbrev cc7_sem2_0 : DmaSem sig := 43
abbrev cc7_sem3_0 : DmaSem sig := 44
abbrev cc7_sem4_0 : DmaSem sig := 45
abbrev cc7_sem5_0 : DmaSem sig := 46

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S512x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S10x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x10 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S512x10 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  reduces_S5000x128_S128 : S5000x128.Reduces [0] S128
  bcast_S_S1x128 : S_.BroadcastsInDim S1x128 (![] : Fin 0 → Fin S1x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512 : S_.BroadcastsInDim S512 (![] : Fin 0 → Fin S512.rank)
  bcast_S50000_S50000x1_0 : S50000.BroadcastsInDim S50000x1 (![0] : Fin 1 → Fin S50000x1.rank)
  shapeCasts_S50000_S50000x1 : S50000.ShapeCasts S50000x1
  shapeCasts_S512_S512x1 : S512.ShapeCasts S512x1
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x512_d1_w32 : S5000x512.Iotas .tc 32 [1]
  broadcasts_S5000x1_S5000x512 : S5000x1.Broadcasts S5000x512
  natLt_1_32 : 1 < 32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  inb_S10x128_S10x128_0_0 : ∀ a, (![0, 0] : Fin 2 → Nat) a + S10x128.size a ≤ S10x128.size a
  h_S10x128 : 0 < S10x128.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_1_0_0_n_n_wf : DotDims.WF S5000x128 S128x128 S5000x128 [1] [1] [0] [0] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S512_S50000x1_S50000_n_0_0_1_wf : ScatterDims.WF S512 S50000x1 S50000 [] [0] [0] 1
  dot_S5000x512_S5000x128_S512x128_0_0_1_1_n_n_wf : DotDims.WF S5000x512 S5000x128 S512x128 [0] [0] [1] [1] [] []
  dot_S512x128_S10x128_S512x10_1_1_0_0_n_n_wf : DotDims.WF S512x128 S10x128 S512x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S50000x1.size a
  hwx7_1 : ∀ i : grid7.Coords, EltTy.bits .i32 = 32 ∨ (Rect.block (s := S50000x1) S5000x1.size (cc7_transform_1 i) (hinb7_1 i)).WholeWords (EltTy.packing .i32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S512x1.size a ≤ S512x1.size a
  hwx7_2 : ∀ i : grid7.Coords, EltTy.bits .f32 = 32 ∨ (Rect.block (s := S512x1) S512x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S10x128.size a ≤ S10x128.size a
  hwx7_3 : ∀ i : grid7.Coords, EltTy.bits .f32 = 32 ∨ (Rect.block (s := S10x128) S10x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x10.size a ≤ S1x10.size a
  hwx7_4 : ∀ i : grid7.Coords, EltTy.bits .f32 = 32 ∨ (Rect.block (s := S1x10) S1x10.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S512x10.size a ≤ S512x10.size a
  hwx7_5 : ∀ i : grid7.Coords, EltTy.bits .f32 = 32 ∨ (Rect.block (s := S512x10) S512x10.size (cc7_transform_5 i) (hinb7_5 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf
def dot_S512x128_S10x128_S512x10_1_1_0_0_n_n : DotDims S512x128 S10x128 S512x10 where
  lhsContracting := [1]
  rhsContracting := [1]
  lhsNonContracting := [0]
  rhsNonContracting := [0]
  lhsBatch := []
  rhsBatch := []
  wf := dot_S512x128_S10x128_S512x10_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v55) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v69) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun i => !(k4_cond2 i == 1#1) | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v69) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v73) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v80) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v81) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v81) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v98) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v110) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v113) S512x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg9) S10x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v114) S1x10.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v115) S512x10.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev idle7 : Fin 6 → grid7.Coords → Bool := fun | 0 => fun _ => false | 1 => fun _ => false | 2 => fun _ => false | 3 => fun _ => false | 4 => fun _ => false | 5 => fun i => !(k7_cond2 i == 1#1) | ⟨_ + 6, h⟩ => absurd h (Nat.not_lt.2 (Nat.le_add_left _ _))

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S128x10 : Shape := ⟨2, ![128, 10]⟩
abbrev S512x10 : Shape := ⟨2, ![512, 10]⟩
abbrev S1x10 : Shape := ⟨2, ![1, 10]⟩

abbrev nBuf : Space → Nat
  | .hbm => 189
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S10x128, .f32⟩
  | 10 => ⟨S10, .f32⟩
  | 11 => ⟨S50000, .i32⟩
  | 12 => ⟨S1x600000, .i32⟩
  | 13 => ⟨S600000, .i32⟩
  | 14 => ⟨S650000, .i32⟩
  | 15 => ⟨S1x600000, .i32⟩
  | 16 => ⟨S600000, .i32⟩
  | 17 => ⟨S650000, .i32⟩
  | 18 => ⟨S_, .f32⟩
  | 19 => ⟨S650000, .f32⟩
  | 20 => ⟨S_, .f32⟩
  | 21 => ⟨S50000, .f32⟩
  | 22 => ⟨S650000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S650000, .i32⟩
  | 34 => ⟨S650000, .i1⟩
  | 35 => ⟨S_, .i32⟩
  | 36 => ⟨S650000, .i32⟩
  | 37 => ⟨S650000, .i32⟩
  | 38 => ⟨S650000, .i32⟩
  | 39 => ⟨S650000x1, .i32⟩
  | 40 => ⟨S650000, .f32⟩
  | 41 => ⟨S_, .i32⟩
  | 42 => ⟨S650000, .i32⟩
  | 43 => ⟨S650000, .i1⟩
  | 44 => ⟨S_, .i32⟩
  | 45 => ⟨S650000, .i32⟩
  | 46 => ⟨S650000, .i32⟩
  | 47 => ⟨S650000, .i32⟩
  | 48 => ⟨S650000x1, .i32⟩
  | 49 => ⟨S650000, .f32⟩
  | 50 => ⟨S650000, .f32⟩
  | 51 => ⟨S128x128, .f32⟩
  | 52 => ⟨S50000x128, .f32⟩
  | 53 => ⟨S650000x1, .f32⟩
  | 54 => ⟨S_, .i32⟩
  | 55 => ⟨S650000, .i32⟩
  | 56 => ⟨S650000, .i1⟩
  | 57 => ⟨S_, .i32⟩
  | 58 => ⟨S650000, .i32⟩
  | 59 => ⟨S650000, .i32⟩
  | 60 => ⟨S650000, .i32⟩
  | 61 => ⟨S650000x1, .i32⟩
  | 62 => ⟨S650000x128, .f32⟩
  | 63 => ⟨S650000x128, .f32⟩
  | 64 => ⟨S650000x128, .f32⟩
  | 65 => ⟨S_, .f32⟩
  | 66 => ⟨S50000x128, .f32⟩
  | 67 => ⟨S650000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S128, .f32⟩
  | 74 => ⟨S_, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S50000x128, .f32⟩
  | 81 => ⟨S_, .f32⟩
  | 82 => ⟨S128, .f32⟩
  | 83 => ⟨S_, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S_, .f32⟩
  | 90 => ⟨S128, .f32⟩
  | 91 => ⟨S128, .f32⟩
  | 92 => ⟨S128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S128x128, .f32⟩
  | 100 => ⟨S50000x128, .f32⟩
  | 101 => ⟨S650000x1, .f32⟩
  | 102 => ⟨S_, .i32⟩
  | 103 => ⟨S650000, .i32⟩
  | 104 => ⟨S650000, .i1⟩
  | 105 => ⟨S_, .i32⟩
  | 106 => ⟨S650000, .i32⟩
  | 107 => ⟨S650000, .i32⟩
  | 108 => ⟨S650000, .i32⟩
  | 109 => ⟨S650000x1, .i32⟩
  | 110 => ⟨S650000x128, .f32⟩
  | 111 => ⟨S650000x128, .f32⟩
  | 112 => ⟨S650000x128, .f32⟩
  | 113 => ⟨S_, .f32⟩
  | 114 => ⟨S50000x128, .f32⟩
  | 115 => ⟨S650000x1, .i32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S128, .f32⟩
  | 122 => ⟨S_, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S128, .f32⟩
  | 3 => ⟨S_, .f32⟩
  | 4 => ⟨S128, .f32⟩
  | 5 => ⟨S128, .f32⟩
  | 6 => ⟨S1x128, .f32⟩
  | 7 => ⟨S50000x128, .f32⟩
  | 8 => ⟨S50000x128, .f32⟩
  | 9 => ⟨S_, .f32⟩
  | 10 => ⟨S128, .f32⟩
  | 11 => ⟨S128, .f32⟩
  | 12 => ⟨S128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S128x128, .f32⟩
  | 20 => ⟨S50000x128, .f32⟩
  | 21 => ⟨S650000x1, .f32⟩
  | 22 => ⟨S_, .i32⟩
  | 23 => ⟨S650000, .i32⟩
  | 24 => ⟨S650000, .i1⟩
  | 25 => ⟨S_, .i32⟩
  | 26 => ⟨S650000, .i32⟩
  | 27 => ⟨S650000, .i32⟩
  | 28 => ⟨S650000, .i32⟩
  | 29 => ⟨S650000x1, .i32⟩
  | 30 => ⟨S650000x128, .f32⟩
  | 31 => ⟨S650000x128, .f32⟩
  | 32 => ⟨S650000x128, .f32⟩
  | 33 => ⟨S_, .f32⟩
  | 34 => ⟨S50000x128, .f32⟩
  | 35 => ⟨S650000x1, .i32⟩
  | 36 => ⟨S50000x128, .f32⟩
  | 37 => ⟨S1x128, .f32⟩
  | 38 => ⟨S50000x128, .f32⟩
  | 39 => ⟨S50000x128, .f32⟩
  | 40 => ⟨S_, .f32⟩
  | 41 => ⟨S512x128, .f32⟩
  | 42 => ⟨S50000x1, .i32⟩
  | 43 => ⟨S512x128, .f32⟩
  | 44 => ⟨S_, .f32⟩
  | 45 => ⟨S50000, .f32⟩
  | 46 => ⟨S_, .f32⟩
  | 47 => ⟨S512, .f32⟩
  | 48 => ⟨S50000x1, .i32⟩
  | 49 => ⟨S512, .f32⟩
  | 50 => ⟨S_, .f32⟩
  | 51 => ⟨S512, .f32⟩
  | 52 => ⟨S512, .f32⟩
  | 53 => ⟨S512x1, .f32⟩
  | 54 => ⟨S512x128, .f32⟩
  | 55 => ⟨S512x128, .f32⟩
  | 56 => ⟨S128x10, .f32⟩
  | 57 => ⟨S512x10, .f32⟩
  | 58 => ⟨S1x10, .f32⟩
  | 59 => ⟨S512x10, .f32⟩
  | 60 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call1_cst : Ref sig .tc := ⟨.hbm, 96, rfl⟩
abbrev main_call1_v0 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_14 : Ref sig .tc := ⟨.hbm, 102, rfl⟩
abbrev main_v71 : Ref sig .tc := ⟨.hbm, 103, rfl⟩
abbrev main_v72 : Ref sig .tc := ⟨.hbm, 104, rfl⟩
abbrev main_c_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_16 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_17 : Ref sig .tc := ⟨.hbm, 120, rfl⟩
abbrev main_v86 : Ref sig .tc := ⟨.hbm, 121, rfl⟩
abbrev main_cst_18 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_19 : Ref sig .tc := ⟨.hbm, 129, rfl⟩
abbrev main_v93 : Ref sig .tc := ⟨.hbm, 130, rfl⟩
abbrev main_cst_20 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_21 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_call2_cst : Ref sig .tc := ⟨.hbm, 144, rfl⟩
abbrev main_call2_v0 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_c_22 : Ref sig .tc := ⟨.hbm, 150, rfl⟩
abbrev main_v109 : Ref sig .tc := ⟨.hbm, 151, rfl⟩
abbrev main_v110 : Ref sig .tc := ⟨.hbm, 152, rfl⟩
abbrev main_c_23 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_24 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_25 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_26 : Ref sig .tc := ⟨.hbm, 172, rfl⟩
abbrev main_v127 : Ref sig .tc := ⟨.hbm, 173, rfl⟩
abbrev main_cst_27 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_28 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  transposes_S128x128_S128x128_1_0 : S128x128.Transposes [1, 0] S128x128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  transposes_S10x128_S128x10_1_0 : S10x128.Transposes [1, 0] S128x10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x10_S512x10_1_0_0_1_n_n_wf : DotDims.WF S512x128 S128x10 S512x10 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.K.R0.lean ====
/-
  Region 0 of the program: a dense layer without bias, out = x · Wᵀ, computed one row tile at a time.

  The row dimension (50000) is split into ten tiles of 5000 rows. At grid point t the body reads the t-th
  row tile of x and the whole 128 × 128 weight matrix, and overwrites the t-th row tile of the output with the
  product of the tile by the transposed weights. Nothing is carried from one tile to the next, so the
  region's invariant is only "what the body never touches stays as it is".

  Everything here is stated at arbitrary buffer contents V at the moment the region is entered, and for any
  float instance: the statements concern which cells are read and written, not what the arithmetic gives.
-/
import proofs.«429275_j68899865363005_1_alg».proof.Proof.Gen.Kernel.Launch
import proofs.«429275_j68899865363005_1_alg».proof.Proof.Gen.Kernel.Skeleton
import proofs.«429275_j68899865363005_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles the body is handed -/

/-- The part of window w's array that grid point t looks at, taken from the array as it stands on entry. -/
def tile0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The x tile is in its buffer whenever the body runs. The body does not change it and every point loads a
    fresh tile, so the buffer holds exactly the t-th row tile of the entry array. -/
theorem finds0_x {c : Dev nD} (dat : Dat τ (Elt F) Unit ℕ (UR sig nD τ) ℕ cfg0 c)
    (hA : dat.A 0 = V c (Pipeline.arrRef spec0 0)) (hkeep : ∀ t, dat.after 0 t = tile0 V c 0 t)
    (t : Fin cfg0.N) (d) : dat.before 0 t d = tile0 V c 0 t :=
  (dat.before_in_eq_fetched 0 rfl (fun _ => rfl) (fun _ _ _ => rfl)
      (fun t => by rw [hkeep]; unfold Dat.blockOf tile0; rw [hA]; try rfl) t d).trans
    (by unfold Dat.fetched Dat.blockOf tile0; rw [hA]; try rfl)

/-- The weight matrix is loaded once, at the first point; its window never moves and the body leaves it alone,
    so at every later point the buffer still holds the same matrix. -/
theorem finds0_w {c : Dev nD} (dat : Dat τ (Elt F) Unit ℕ (UR sig nD τ) ℕ cfg0 c)
    (hA : dat.A 1 = V c (Pipeline.arrRef spec0 1)) (hkeep : ∀ t, dat.after 1 t = tile0 V c 1 t)
    (t : Fin cfg0.N) (d) : dat.before 1 t d = tile0 V c 1 t :=
  (dat.before_in_eq_fetched 1 rfl (fun _ => rfl) (fun _ _ _ => rfl)
      (fun t => by rw [hkeep]; unfold Dat.blockOf tile0; rw [hA]; try rfl) t d).trans
    (by unfold Dat.fetched Dat.blockOf tile0; rw [hA]; try rfl)

/-! ## What one run of the body writes -/

/-- The whole 5000 × 128 tile, as a rectangle of itself. -/
abbrev whole_x : Rect S5000x128 := Rect.unit (s := S5000x128) ![0, 0] S5000x128.size inb_S5000x128_S5000x128_0_0
/-- The whole 128 × 128 matrix, as a rectangle of itself. -/
abbrev whole_w : Rect S128x128 := Rect.unit (s := S128x128) ![0, 0] S128x128.size inb_S128x128_S128x128_0_0

/-- The output tile after the body: a single store over the whole tile, of the product of the x tile by the
    transposed weights. -/
def prod0 (x : Vec F S5000x128 .f32) (w : Vec F S128x128 .f32) : Vec F S5000x128 .f32 :=
  View.canon [⟨whole_x, k0_pay1 (View.ld x whole_x) (View.ld w whole_w)⟩]

/-- One store over the whole tile reaches every cell of it. -/
theorem prod0_total (p : Vec F S5000x128 .f32) (y : S5000x128.Idx) :
    ∃ pc ∈ ([⟨whole_x, p⟩] : List (View.Piece (Elt F) S5000x128 .f32)), y ∈ pc.1.set :=
  View.cover_of_tiled [⟨whole_x, p⟩] S5000x128.size (by rfl) y

/-! ## The body on three buffers -/

set_option maxHeartbeats 1000000 in
/-- Run on a buffer holding x, a buffer holding w and an output buffer holding anything, the body returns the first
    two unchanged and the third holding prod0 x w. (The body also reads the output buffer before overwriting it;
    what it reads there is not used.) -/
theorem linear_triple0 (c : Dev nD) (E : Set ℕ) (i : grid0.Coords)
    (a1 : Memref sig .tc .vmem S5000x128 .f32) (h1 : a1.IsWhole)
    (a2 : Memref sig .tc .vmem S128x128 .f32) (h2 : a2.IsWhole)
    (a3 : Memref sig .tc .vmem S5000x128 .f32) (h3 : a3.IsWhole)
    (x : Vec F S5000x128 .f32) (w : Vec F S128x128 .f32) (K : PUnit → sProp 𝕄) :
    iprop(owns (c : Thread nD τ) a1 fullShare x ∗ owns (c : Thread nD τ) a2 fullShare w
        ∗ (∃ d, owns (c : Thread nD τ) a3 fullShare d)
        ∗ (iprop(owns (c : Thread nD τ) a1 fullShare x ∗ owns (c : Thread nD τ) a2 fullShare w
            ∗ owns (c : Thread nD τ) a3 fullShare (prod0 x w)) -∗ K ⟨⟩))
      ⊢ wp frame (wpE (defs₀ (F := F)) Variants.none c none) E (cc0__linear_kernel i a1 h1 a2 h2 a3 h3) K := by
  simp only [cc0__linear_kernel_eq_skeleton]; unfold cc0__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod0_total _)

/-! ## The region's data -/

/-- The data of region 0 on core c. The arrays start at V. After the body at point t, the two input buffers hold
    what they held (their tiles) and the output buffer holds the product of the two. The invariant says only that
    the rest of the core's scoped memory and its generator register exist; the full share of every array is held
    and nothing is owed to other cores. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => prod0 (tile0 V c 0 t) (tile0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- After the body: the x buffer still holds the x tile, -/
theorem after0_x (c : Dev nD) (t : Fin cfg0.N) : (dat0 V c).after 0 t = tile0 V c 0 t := by dsimp only [dat0]
/-- the w buffer still holds the weights, -/
theorem after0_w (c : Dev nD) (t : Fin cfg0.N) : (dat0 V c).after 1 t = tile0 V c 1 t := by dsimp only [dat0]
/-- and the output buffer holds their product. -/
theorem after0_out (c : Dev nD) (t : Fin cfg0.N) :
    (dat0 V c).after 2 t = prod0 (tile0 V c 0 t) (tile0 V c 1 t) := by dsimp only [dat0]

theorem before0_x (c : Dev nD) (t : Fin cfg0.N) (d) : (dat0 V c).before 0 t d = tile0 V c 0 t :=
  finds0_x V (dat0 V c) (A_eq0 V c 0) (after0_x V c) t d
theorem before0_w (c : Dev nD) (t : Fin cfg0.N) (d) : (dat0 V c).before 1 t d = tile0 V c 1 t :=
  finds0_w V (dat0 V c) (A_eq0 V c 1) (after0_w V c) t d

/-! ## The body at a grid point -/

/-- What the pipeline gives the body at point t: the invariant, the debt ledger, and the three current buffers. -/
def given0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body gives back. -/
def back0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At every point the input buffers hold their tiles, so the triple above applies; invariant and ledger are not
    looked at. -/
theorem point0 (c : Dev nD) (t : Fin cfg0.N) :
    given0 V c t ⊢ wp frame (wpE (defs₀ (F := F)) Variants.none c none) Set.univ (bodyAt0 t) (fun _ => back0 V c t) := by
  unfold given0 back0 bodyAt0
  simp only [before0_x, before0_w]
  rw [show (dat0 V c).Φ t.succ = (dat0 V c).Φ t.castSucc from rfl,
    show (dat0 V c).owesAt () t.succ = (dat0 V c).owesAt () t.castSucc from rfl,
    after0_x, after0_w, after0_out]
  iintro ⟨HΦ, Ho, ⟨%d0, H0⟩, ⟨%d1, H1⟩, ⟨%d2, H2⟩⟩
  iapply (linear_triple0 c Set.univ _ _ _ _ _ _ _ (tile0 V c 0 t) (tile0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) :
    BodyObligation (dat0 (F := F) V c) (defs₀ (F := F)) Variants.none () Set.univ := fun t => by
  rw [bigSep_W0, bigSep_W0]
  exact point0 V c t

/-! ## The two ends of the invariant -/

/-- Entering: the generator register and the untouched scoped memory are exactly the invariant before point 0. -/
theorem phi_in0 (c : Dev nD) :
    iprop((∃ r, prngReg c r) ∗ Pipeline.scopedRest (Ix := Unit) (Name := ℕ) (U := UR sig nD τ) (Lvl := ℕ) spec0 c)
      ⊢ ((dat0 (F := F) V c).Φ 0 : sProp 𝕄) := by
  show _ ⊢ Pipeline.ΦA spec0 c
  unfold Pipeline.ΦA
  iintro ⟨Hp, Hs⟩
  isplitl [Hs]; · iexact Hs
  iexact Hp

/-- Leaving: the invariant after the last point gives the same two things back. -/
theorem phi_out0 (c : Dev nD) :
    ((dat0 (F := F) V c).Φ (Fin.last cfg0.N) : sProp 𝕄)
      ⊢ iprop((∃ r, prngReg c r) ∗ Pipeline.scopedRest (Ix := Unit) (Name := ℕ) (U := UR sig nD τ) (Lvl := ℕ) spec0 c) := by
  show Pipeline.ΦA spec0 c ⊢ _
  unfold Pipeline.ΦA
  iintro ⟨Hs, Hp⟩
  isplitl [Hp]; · iexact Hp
  iexact Hs

end Cert.Kernel.Reg
-- ==== Proof.K.R1.lean ====
/-
  Region 1 of @main (the column sums of the biased matrix and of its square, row tile by row tile): the proof
  data of its pipeline at any entry contents `V`, the body obligation, and how the region's invariant is entered
  and left. The kernel keeps two running sums in buffers of its own across the ten row tiles — reset at the first,
  added to at each, copied to the two outputs at the last — so the invariant carries those two buffers at the
  running sums, and an output window is handed back as found at the tiles where nothing is stored into it.
  Generic in the float instance.
-/
import proofs.«429275_j68899865363005_1_alg».proof.Proof.Gen.Kernel.Launch
import proofs.«429275_j68899865363005_1_alg».proof.Proof.Gen.Kernel.Skeleton
import proofs.«429275_j68899865363005_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the body branches

The body has two conditionals on the grid coordinate: the first resets the two running sums and is taken
at the first row tile only; the second copies them to the outputs and is taken at the last row tile only. -/

/-- The condition of the reset, as the kernel computes it from the grid coordinate. -/
abbrev atFirst1 (i : grid1.Coords) : Prop :=
  (Scalar.cmpi .ne (Scalar.extui (Scalar.cmpi .eq (BitVec.ofNat 32 (i 0).val) 0#32)) 0#32) = 1#1
/-- It holds at row tile 0 only. -/
theorem atFirst1_iff : ∀ t : Fin cfg1.N, atFirst1 (grid1.coords t) ↔ t.val = 0 :=
  (by decide +kernel : ∀ t : Fin grid1.N, atFirst1 (grid1.coords t) ↔ t.val = 0)
/-- The condition of the copy to the outputs. -/
abbrev atLast1 (i : grid1.Coords) : Prop := k1_cond2 i = 1#1
/-- It holds at row tile 9 only. -/
theorem atLast1_iff : ∀ t : Fin cfg1.N, atLast1 (grid1.coords t) ↔ t.val = 9 :=
  (by decide +kernel : ∀ t : Fin grid1.N, atLast1 (grid1.coords t) ↔ t.val = 9)

/-! ## Whole-buffer stores -/

/-- The offsets of every access of the body: the origin. -/
theorem origin2 : (![0, 0] : Fin 2 → Nat) = fun _ => 0 := funext fun a => by fin_cases a <;> rfl

/-- A rectangle at the origin with the shape's own extents holds every index. -/
theorem mem_full_rect {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- After a last store through such a rectangle the buffer reads as that store's payload, whatever was stored before. -/
theorem read_after_full_store {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, mem_full_rect h inb y⟩), View.canon_cons_unit_zero h]

/-! ## The body's three runs

Each on whole memrefs: the input windows' buffers at the tile `x` and the bias row `b`. -/

set_option maxHeartbeats 1000000 in
/-- THE FIRST ROW TILE. The body resets the two carried buffers (held at anything), then adds the tile's column sums:
    they end at the sums started from the reset value; the output buffers are not touched. -/
theorem run_first1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hf : atFirst1 i) (hl : ¬atLast1 i)
    (x : Vec F S5000x128 .f32) (b : Vec F S1x128 .f32) (K : PUnit → sProp 𝕄) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (k1_pay4 x b k1_pay1) ∗ owns (c : Thread nD τ) arg6 fullShare (k1_pay5 x b k1_pay2)) -∗ K ⟨⟩))
      ⊢ wp frame (wpE (defs₀ (F := F)) Variants.none c none) E (cc1__bn_reduce_kernel i arg1 harg1 arg2 harg2 arg3 harg3 arg4 harg4 arg5 harg5 arg6 harg6) K := by
  simp only [cc1__bn_reduce_kernel_eq_skeleton]; unfold cc1__bn_reduce_kernel_skel
  unfold owns
  iintro ⟨⟨%f1, %hf1, H1⟩, ⟨%f2, %hf2, H2⟩, ⟨%d5, %f5, -, H5⟩, ⟨%d6, %f6, -, H6⟩, Hk⟩
  obtain rfl := harg1.eq_unread hf1; obtain rfl := harg2.eq_unread hf2
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H5]
  · iexists _; isplitr
    swap; · iexact H5
    ipureintro
    sl_unfold_words
    rw [read_after_full_store _ _ origin2]
    simp only [View.readCov_unit_zero (S := S1x128) _ origin2, View.readAt_eq_ld, harg1.read_unread, harg2.read_unread, View.ld_unit_zero (S := S5000x128) origin2, View.ld_unit_zero (S := S1x128) origin2]
  iexists _; isplitr
  swap; · iexact H6
  · ipureintro
    sl_unfold_words
    rw [read_after_full_store _ _ origin2]
    simp only [View.readCov_unit_zero (S := S1x128) _ origin2, View.readAt_eq_ld, harg1.read_unread, harg2.read_unread, View.ld_unit_zero (S := S5000x128) origin2, View.ld_unit_zero (S := S1x128) origin2]

set_option maxHeartbeats 1000000 in
/-- A MIDDLE ROW TILE. The body adds the tile's column sums to the two carried buffers, held at `s0`, `s1`; the
    output buffers are not touched. -/
theorem run_mid1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hf : ¬atFirst1 i) (hl : ¬atLast1 i)
    (x : Vec F S5000x128 .f32) (b s0 s1 : Vec F S1x128 .f32) (K : PUnit → sProp 𝕄) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (k1_pay4 x b s0) ∗ owns (c : Thread nD τ) arg6 fullShare (k1_pay5 x b s1)) -∗ K ⟨⟩))
      ⊢ wp frame (wpE (defs₀ (F := F)) Variants.none c none) E (cc1__bn_reduce_kernel i arg1 harg1 arg2 harg2 arg3 harg3 arg4 harg4 arg5 harg5 arg6 harg6) K := by
  simp only [cc1__bn_reduce_kernel_eq_skeleton]; unfold cc1__bn_reduce_kernel_skel
  unfold owns
  iintro ⟨⟨%f1, %hf1, H1⟩, ⟨%f2, %hf2, H2⟩, ⟨%f5, %hf5, H5⟩, ⟨%f6, %hf6, H6⟩, Hk⟩
  obtain rfl := harg1.eq_unread hf1; obtain rfl := harg2.eq_unread hf2
  obtain rfl := harg5.eq_unread hf5; obtain rfl := harg6.eq_unread hf6
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H5]
  · iexists _; isplitr
    swap; · iexact H5
    ipureintro
    rw [read_after_full_store _ _ origin2]
    simp only [View.readAt_eq_ld, harg1.read_unread, harg2.read_unread, harg5.read_unread, View.ld_unit_zero (S := S5000x128) origin2, View.ld_unit_zero (S := S1x128) origin2]
  iexists _; isplitr
  swap; · iexact H6
  ipureintro
  rw [read_after_full_store _ _ origin2]
  simp only [View.readAt_eq_ld, harg1.read_unread, harg2.read_unread, harg6.read_unread, View.ld_unit_zero (S := S5000x128) origin2, View.ld_unit_zero (S := S1x128) origin2]

set_option maxHeartbeats 1000000 in
/-- THE LAST ROW TILE. As in the middle, and then each carried buffer is copied to its output buffer (held at
    anything): both end at the updated sums. -/
theorem run_last1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hf : ¬atFirst1 i) (hl : atLast1 i)
    (x : Vec F S5000x128 .f32) (b s0 s1 : Vec F S1x128 .f32) (K : PUnit → sProp 𝕄) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (k1_pay4 x b s0) ∗ owns (c : Thread nD τ) arg4 fullShare (k1_pay5 x b s1)
            ∗ owns (c : Thread nD τ) arg5 fullShare (k1_pay4 x b s0) ∗ owns (c : Thread nD τ) arg6 fullShare (k1_pay5 x b s1)) -∗ K ⟨⟩))
      ⊢ wp frame (wpE (defs₀ (F := F)) Variants.none c none) E (cc1__bn_reduce_kernel i arg1 harg1 arg2 harg2 arg3 harg3 arg4 harg4 arg5 harg5 arg6 harg6) K := by
  simp only [cc1__bn_reduce_kernel_eq_skeleton]; unfold cc1__bn_reduce_kernel_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  obtain rfl := harg1.eq_unread hf1; obtain rfl := harg2.eq_unread hf2
  obtain rfl := harg5.eq_unread hf5; obtain rfl := harg6.eq_unread hf6
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    sl_unfold_words
    rw [read_after_full_store _ _ origin2]
    simp only [View.readCov_unit_zero (S := S1x128) _ origin2, View.readAt_eq_ld, harg1.read_unread, harg2.read_unread, harg5.read_unread, View.ld_unit_zero (S := S5000x128) origin2, View.ld_unit_zero (S := S1x128) origin2]
  isplitl [H4]
  · iexists _; isplitr
    swap; · iexact H4
    ipureintro
    sl_unfold_words
    rw [read_after_full_store _ _ origin2]
    simp only [View.readCov_unit_zero (S := S1x128) _ origin2, View.readAt_eq_ld, harg1.read_unread, harg2.read_unread, harg6.read_unread, View.ld_unit_zero (S := S5000x128) origin2, View.ld_unit_zero (S := S1x128) origin2]
  isplitl [H5]
  · iexists _; isplitr
    swap; · iexact H5
    ipureintro
    sl_unfold_words
    rw [read_after_full_store _ _ origin2]
    simp only [View.readCov_unit_zero (S := S1x128) _ origin2, View.readAt_eq_ld, harg1.read_unread, harg2.read_unread, harg5.read_unread, View.ld_unit_zero (S := S5000x128) origin2, View.ld_unit_zero (S := S1x128) origin2]
  iexists _; isplitr
  swap; · iexact H6
  · ipureintro
    sl_unfold_words
    rw [read_after_full_store _ _ origin2]
    simp only [View.readCov_unit_zero (S := S1x128) _ origin2, View.readAt_eq_ld, harg1.read_unread, harg2.read_unread, harg6.read_unread, View.ld_unit_zero (S := S5000x128) origin2, View.ld_unit_zero (S := S1x128) origin2]

/-! ## The windows' blocks and the running sums -/

/-- Window `w`'s block at row tile `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Row tile `t` of the matrix, at its literal type. -/
abbrev tile1 (c : Dev nD) (t : Fin cfg1.N) : Vec F S5000x128 .f32 := blk1 V c 0 t
/-- The bias row as row tile `t` sees it, at its literal type. -/
abbrev bias1 (c : Dev nD) (t : Fin cfg1.N) : Vec F S1x128 .f32 := blk1 V c 1 t

/-- THE RUNNING SUMS: what the two carried buffers hold after row tile `n` — the column sums of the biased
    tile and of its square, started from the reset value at tile 0 and from the previous tile's sums afterwards. -/
def sums1 (c : Dev nD) : (n : ℕ) → n < cfg1.N → Vec F S1x128 .f32 × Vec F S1x128 .f32
  | 0, h => (k1_pay4 (tile1 V c ⟨0, h⟩) (bias1 V c ⟨0, h⟩) k1_pay1, k1_pay5 (tile1 V c ⟨0, h⟩) (bias1 V c ⟨0, h⟩) k1_pay2)
  | n + 1, h =>
    (k1_pay4 (tile1 V c ⟨n + 1, h⟩) (bias1 V c ⟨n + 1, h⟩) (sums1 c n (Nat.lt_of_succ_lt h)).1,
     k1_pay5 (tile1 V c ⟨n + 1, h⟩) (bias1 V c ⟨n + 1, h⟩) (sums1 c n (Nat.lt_of_succ_lt h)).2)

/-- At the first row tile the sums start from the reset value. -/
theorem sums1_first (c : Dev nD) (t : Fin cfg1.N) (hz : t.val = 0) :
    sums1 V c t.val t.isLt = (k1_pay4 (tile1 V c t) (bias1 V c t) k1_pay1, k1_pay5 (tile1 V c t) (bias1 V c t) k1_pay2) := by
  obtain ⟨n, hn⟩ := t
  cases n with
  | zero => rfl
  | succ n => exact absurd hz (Nat.succ_ne_zero n)

/-- At a later row tile they continue the previous tile's. -/
theorem sums1_later (c : Dev nD) (t : Fin cfg1.N) (hz : t.val ≠ 0) :
    sums1 V c t.val t.isLt
      = (k1_pay4 (tile1 V c t) (bias1 V c t) (sums1 V c (t.val - 1) (Nat.lt_of_le_of_lt (Nat.sub_le _ _) t.isLt)).1,
         k1_pay5 (tile1 V c t) (bias1 V c t) (sums1 V c (t.val - 1) (Nat.lt_of_le_of_lt (Nat.sub_le _ _) t.isLt)).2) := by
  obtain ⟨n, hn⟩ := t
  cases n with
  | zero => exact absurd rfl hz
  | succ n => rfl

/-! ## The invariant -/

/-- The first carried buffer, as the memref the body is called with. -/
abbrev acc1_0 : Memref sig .tc .vmem S1x128 .f32 := Memref.whole cc1_scratch0
/-- The second. -/
abbrev acc1_1 : Memref sig .tc .vmem S1x128 .f32 := Memref.whole cc1_scratch1

/-- Before row tile `n`: at the region's entry the generator register and every scoped buffer that is no staging
    buffer of the region, at any contents (at tile 0 the body overwrites both carried buffers before it uses what they hold);
    afterwards the generator register, the two carried buffers at the running sums over the tiles before `n`, and
    the other scoped buffers unopened. -/
def Inv1 (c : Dev nD) : (n : ℕ) → n ≤ cfg1.N → sProp 𝕄
  | 0, _ => iprop((∃ r, prngReg c r) ∗ Pipeline.scopedRest (Ix := Unit) (Name := ℕ) (U := UR sig nD τ) (Lvl := ℕ) spec1 c)
  | n + 1, h =>
    iprop((∃ r, prngReg c r)
      ∗ iprop(owns (c : Thread nD τ) acc1_0 fullShare (sums1 V c n h).1 ∗ owns (c : Thread nD τ) acc1_1 fullShare (sums1 V c n h).2)
      ∗ Pipeline.scopedRestBut (Ix := Unit) (Name := ℕ) (U := UR sig nD τ) (Lvl := ℕ) (Val := Elt F) spec1 c [cc1_scratch0, cc1_scratch1])

theorem Inv1_entry (c : Dev nD) (n : ℕ) (h : n ≤ cfg1.N) (hz : n = 0) :
    Inv1 V c n h = iprop((∃ r, prngReg c r) ∗ Pipeline.scopedRest (Ix := Unit) (Name := ℕ) (U := UR sig nD τ) (Lvl := ℕ) spec1 c) := by
  subst hz; rfl

theorem Inv1_next (c : Dev nD) (n : ℕ) (h : n < cfg1.N) :
    Inv1 V c (n + 1) h = iprop((∃ r, prngReg c r)
      ∗ iprop(owns (c : Thread nD τ) acc1_0 fullShare (sums1 V c n h).1 ∗ owns (c : Thread nD τ) acc1_1 fullShare (sums1 V c n h).2)
      ∗ Pipeline.scopedRestBut (Ix := Unit) (Name := ℕ) (U := UR sig nD τ) (Lvl := ℕ) (Val := Elt F) spec1 c [cc1_scratch0, cc1_scratch1]) := rfl

theorem Inv1_later (c : Dev nD) (n : ℕ) (h : n ≤ cfg1.N) (hz : n ≠ 0) :
    Inv1 V c n h = iprop((∃ r, prngReg c r)
      ∗ iprop(owns (c : Thread nD τ) acc1_0 fullShare (sums1 V c (n - 1) (by omega)).1 ∗ owns (c : Thread nD τ) acc1_1 fullShare (sums1 V c (n - 1) (by omega)).2)
      ∗ Pipeline.scopedRestBut (Ix := Unit) (Name := ℕ) (U := UR sig nD τ) (Lvl := ℕ) (Val := Elt F) spec1 c [cc1_scratch0, cc1_scratch1]) := by
  cases n with
  | zero => exact absurd rfl hz
  | succ n => rfl

/-- The scoped buffers at the region's entry, with the two carried buffers as memrefs owned at some contents. -/
theorem scoped_entry1 (c : Dev nD) :
    (Pipeline.scopedRest (Ix := Unit) (Name := ℕ) (U := UR sig nD τ) (Lvl := ℕ) spec1 c : sProp 𝕄)
      = iprop(iprop((∃ d, owns (c : Thread nD τ) acc1_0 fullShare d) ∗ (∃ d, owns (c : Thread nD τ) acc1_1 fullShare d))
          ∗ Pipeline.scopedRestBut (Ix := Unit) (Name := ℕ) (U := UR sig nD τ) (Lvl := ℕ) (Val := Elt F) spec1 c [cc1_scratch0, cc1_scratch1]) := by
  rw [scopedRest1_split]; simp only [acc1_0, acc1_1, owns_whole]; try rfl

/-! ## The proof data -/

/-- The proof data of the region on core `c`: the arrays as the region finds them; after the body at row tile `t`
    each input's buffer at its block and the two outputs' at the running sums (written back at the last tile only);
    the invariant `Inv1`; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (sums1 V c t.val t.isLt).1
    | ⟨3, _⟩ => (sums1 V c t.val t.isLt).2
  Φ t := Inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
/-- What the write-back of the first output writes: the column sums. -/
theorem after1_2 (c : Dev nD) (t : Fin cfg1.N) : (dat1 V c).after 2 t = (sums1 V c t.val t.isLt).1 := by dsimp only [dat1]
/-- What the write-back of the second output writes: the column sums of squares. -/
theorem after1_3 (c : Dev nD) (t : Fin cfg1.N) : (dat1 V c).after 3 t = (sums1 V c t.val t.isLt).2 := by dsimp only [dat1]

theorem Phi1_at (c : Dev nD) (t : Fin cfg1.N) :
    (dat1 V c).Φ t.castSucc = Inv1 V c t.val (Nat.le_of_lt t.isLt) := by
  dsimp only [dat1]; simp only [Fin.coe_castSucc]

/-- The matrix window's buffer holds the row tile at every point. -/
theorem found1_0 (c : Dev nD) (t : Fin cfg1.N) (d) : (dat1 V c).before 0 t d = blk1 V c 0 t := by
  refine ((dat1 V c).before_in_eq_fetched 0 rfl (fun _ => rfl) (fun _ _ _ => rfl) (fun t => ?_) t d).trans ?_
  · rw [after1_0]; unfold Dat.blockOf blk1; rw [A_eq1]; try rfl
  · unfold Dat.fetched Dat.blockOf blk1; rw [A_eq1]; try rfl

/-- The bias window's buffer holds the bias row at every point, though it is fetched at the first only. -/
theorem found1_1 (c : Dev nD) (t : Fin cfg1.N) (d) : (dat1 V c).before 1 t d = blk1 V c 1 t := by
  refine ((dat1 V c).before_in_eq_fetched 1 rfl (fun _ => rfl) (fun _ _ _ => rfl) (fun t => ?_) t d).trans ?_
  · rw [after1_1]; unfold Dat.blockOf blk1; rw [A_eq1]; try rfl
  · unfold Dat.fetched Dat.blockOf blk1; rw [A_eq1]; try rfl

/-! ## Where the output windows are idle -/

theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬atLast1 (grid1.coords t) → cfg1.idle 2 (grid1.coords t) = true := by decide +kernel
theorem idle1_3 : ∀ t : Fin cfg1.N, ¬atLast1 (grid1.coords t) → cfg1.idle 3 (grid1.coords t) = true := by decide +kernel
theorem keep1_2 : ∀ t : Fin cfg1.N, ¬atLast1 (grid1.coords t) → (cfg1.win 2).flush t = false := by decide +kernel
theorem keep1_3 : ∀ t : Fin cfg1.N, ¬atLast1 (grid1.coords t) → (cfg1.win 3).flush t = false := by decide +kernel
theorem live1_2 : ∀ t : Fin cfg1.N, atLast1 (grid1.coords t) → cfg1.idle 2 (grid1.coords t) = false := by decide +kernel
theorem live1_3 : ∀ t : Fin cfg1.N, atLast1 (grid1.coords t) → cfg1.idle 3 (grid1.coords t) = false := by decide +kernel

/-! ## The body obligation -/

/-- What the body is called with at row tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (st1_0 t) fullShare (blk1 V c 0 t) := by
  unfold Dat.leavesExact; rw [live1_0 t, after1_0]
theorem leaves1_1 (c : Dev nD) (t : Fin cfg1.N) :
    (dat1 V c).leavesExact 1 t = owns (c : Thread nD τ) (st1_1 t) fullShare (blk1 V c 1 t) := by
  unfold Dat.leavesExact; rw [live1_1 t, after1_1]
theorem leaves1_2_last (c : Dev nD) (t : Fin cfg1.N) (hl : atLast1 (grid1.coords t)) :
    (dat1 V c).leavesExact 2 t = owns (c : Thread nD τ) (st1_2 t) fullShare (sums1 V c t.val t.isLt).1 := by
  unfold Dat.leavesExact; rw [live1_2 t hl, after1_2]
theorem leaves1_3_last (c : Dev nD) (t : Fin cfg1.N) (hl : atLast1 (grid1.coords t)) :
    (dat1 V c).leavesExact 3 t = owns (c : Thread nD τ) (st1_3 t) fullShare (sums1 V c t.val t.isLt).2 := by
  unfold Dat.leavesExact; rw [live1_3 t hl, after1_3]

set_option maxHeartbeats 4000000 in
/-- The body at any row tile: the input windows hold their blocks; the grid coordinate decides which of the three
    runs applies; the invariant hands the body the two carried buffers (at anything at the first tile, at the
    previous sums later) and takes them back at this tile's sums; an output window is handed back as found except
    at the last tile, where it is left at the sums. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1]
  rw [show (dat1 V c).owesAt () t.succ = (dat1 V c).owesAt () t.castSucc from rfl]
  rw [show (dat1 V c).Φ t.succ = Inv1 V c (t.val + 1) t.isLt from rfl, Inv1_next, leaves1_0, leaves1_1, Phi1_at]
  have hN : t.val < 10 := lt_of_lt_of_eq t.isLt (show cfg1.N = 10 from N_1)
  by_cases hz : t.val = 0
  · have hf : atFirst1 (grid1.coords t) := (atFirst1_iff t).mpr hz
    have hl : ¬atLast1 (grid1.coords t) := fun h => by have := (atLast1_iff t).mp h; omega
    rw [Dat.leavesExact_idle (dat1 V c) 2 t (idle1_2 t hl) (keep1_2 t hl),
      Dat.leavesExact_idle (dat1 V c) 3 t (idle1_3 t hl) (keep1_3 t hl),
      sums1_first V c t hz, Inv1_entry V c _ _ hz, scoped_entry1]
    iintro ⟨⟨Hg, ⟨⟨%e0, HS0⟩, ⟨%e1, HS1⟩⟩, Hr⟩, Ho, ⟨%d0, H0⟩, ⟨%d1, H1⟩, ⟨%d2, H2⟩, ⟨%d3, H3⟩⟩
    iapply (run_first1 c Set.univ (grid1.coords t) _ _ _ _ _ _ _ _ _ _ _ _ hf hl (tile1 V c t) (bias1 V c t) _)
    isplitl [H0]; · iexact H0
    isplitl [H1]; · iexact H1
    isplitl [HS0]; · iexists _; iexact HS0
    isplitl [HS1]; · iexists _; iexact HS1
    iintro ⟨H0, H1, HS0, HS1⟩
    isplitl [Hg HS0 HS1 Hr]
    · isplitl [Hg]; · iexact Hg
      isplitl [HS0 HS1]
      · isplitl [HS0]; · iexact HS0
        iexact HS1
      iexact Hr
    isplitl [Ho]; · iexact Ho
    isplitl [H0]; · iexact H0
    isplitl [H1]; · iexact H1
    isplitl [H2]; · iexists _; iexact H2
    iexists _; iexact H3
  · have hf : ¬atFirst1 (grid1.coords t) := fun h => hz ((atFirst1_iff t).mp h)
    rw [sums1_later V c t hz, Inv1_later V c _ _ hz]
    by_cases h9 : t.val = 9
    · have hl : atLast1 (grid1.coords t) := (atLast1_iff t).mpr h9
      rw [leaves1_2_last V c t hl, leaves1_3_last V c t hl, sums1_later V c t hz]
      iintro ⟨⟨Hg, ⟨HS0, HS1⟩, Hr⟩, Ho, ⟨%d0, H0⟩, ⟨%d1, H1⟩, ⟨%d2, H2⟩, ⟨%d3, H3⟩⟩
      iapply (run_last1 c Set.univ (grid1.coords t) _ _ _ _ _ _ _ _ _ _ _ _ hf hl (tile1 V c t) (bias1 V c t) _ _ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      iexact H3
    · have hl : ¬atLast1 (grid1.coords t) := fun h => h9 ((atLast1_iff t).mp h)
      rw [Dat.leavesExact_idle (dat1 V c) 2 t (idle1_2 t hl) (keep1_2 t hl),
        Dat.leavesExact_idle (dat1 V c) 3 t (idle1_3 t hl) (keep1_3 t hl)]
      iintro ⟨⟨Hg, ⟨HS0, HS1⟩, Hr⟩, Ho, ⟨%d0, H0⟩, ⟨%d1, H1⟩, ⟨%d2, H2⟩, ⟨%d3, H3⟩⟩
      iapply (run_mid1 c Set.univ (grid1.coords t) _ _ _ _ _ _ _ _ _ _ _ _ hf hl (tile1 V c t) (bias1 V c t) _ _ _)
      isplitl [H0]; · iexact H0
      isplitl [H1]; · iexact H1
      isplitl [HS0]; · iexact HS0
      isplitl [HS1]; · iexact HS1
      iintro ⟨H0, H1, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexists _; iexact H2
      iexists _; iexact H3

/-- The library's body obligation, at every row tile. -/
theorem body_obligation1 (c : Dev nD) : BodyObligation (dat1 (F := F) V c) (defs₀ (F := F)) Variants.none () Set.univ := fun t => by
  rw [bigSep_W1, bigSep_W1]
  exact sound_body1 V c t

/-! ## Entering and leaving the region -/

/-- What the region is entered with is the invariant before the first row tile. -/
theorem phi_in1 (c : Dev nD) :
    iprop((∃ r, prngReg c r) ∗ Pipeline.scopedRest (Ix := Unit) (Name := ℕ) (U := UR sig nD τ) (Lvl := ℕ) spec1 c)
      ⊢ ((dat1 (F := F) V c).Φ 0 : sProp 𝕄) := by
  rw [show (dat1 V c).Φ 0 = Inv1 V c 0 (Nat.zero_le _) from rfl, Inv1_entry V c 0 _ rfl]

/-- After the last row tile the invariant gives the same back: the sums in the two carried buffers are forgotten. -/
theorem phi_out1 (c : Dev nD) :
    ((dat1 (F := F) V c).Φ (Fin.last cfg1.N) : sProp 𝕄)
      ⊢ iprop((∃ r, prngReg c r) ∗ Pipeline.scopedRest (Ix := Unit) (Name := ℕ) (U := UR sig nD τ) (Lvl := ℕ) spec1 c) := by
  rw [show (dat1 V c).Φ (Fin.last cfg1.N) = Inv1 V c (Fin.last cfg1.N).val (Nat.le_of_lt_succ (Fin.last cfg1.N).isLt) from rfl,
    Inv1_later V c _ _ (by rw [Fin.val_last]; have : cfg1.N = 10 := N_1; omega), scoped_entry1]
  iintro ⟨Hg, ⟨HS0, HS1⟩, Hr⟩
  isplitl [Hg]; · iexact Hg
  isplitl [HS0 HS1]
  · isplitl [HS0]; · iexists _; iexact HS0
    iexists _; iexact HS1
  iexact Hr

end Cert.Kernel.Reg

end
-- ==== Proof.K.R2.lean ====
import proofs.«429275_j68899865363005_1_alg».proof.Proof.Gen.Kernel.Launch
import proofs.«429275_j68899865363005_1_alg».proof.Proof.Gen.Kernel.Skeleton
import proofs.«429275_j68899865363005_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the normalise-and-clamp pass over the row tiles

Region 2 walks the ten row tiles of a 50000 x 128 array. At each tile it reads the tile and three
1 x 128 rows (an offset, a mean, an inverse deviation), and overwrites the matching tile of the
output array with a pointwise function of those four values. Nothing is carried from one tile to the
next, so the region's invariant is only "the rest of the scoped memory and the generator register
are somewhere", the same at every point.

Everything here is stated at the contents V the TensorCore's buffers have when the region is entered,
and at an arbitrary float model.
-/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tile a window shows at a grid point -/

/-- The part of window w's array (as the region finds it) that lies under the window at point t. -/
def tile2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-! ## What the body writes -/

/-- The whole 5000 x 128 staging buffer as one rectangle, and the whole 1 x 128 one. -/
abbrev big2 : Rect S5000x128 := Rect.unit (s := S5000x128) ![0, 0] S5000x128.size inb_S5000x128_S5000x128_0_0
abbrev row2 : Rect S1x128 := Rect.unit (s := S1x128) ![0, 0] S1x128.size inb_S1x128_S1x128_0_0

/-- The output staging buffer after the body: its single whole-buffer store, of the pointwise payload
    applied to what the four input buffers hold. -/
def res2 (x : Vec F S5000x128 .f32) (b mu sg : Vec F S1x128 .f32) : Vec F S5000x128 .f32 :=
  View.canon [⟨big2, k2_pay1 (View.ld x big2) (View.ld b row2) (View.ld mu row2) (View.ld sg row2)⟩]

/-- One store of the whole rectangle leaves no element of the buffer unwritten. -/
theorem res2_total (p : Vec F S5000x128 .f32) (y : S5000x128.Idx) :
    ∃ pc ∈ ([⟨big2, p⟩] : List (View.Piece (Elt F) S5000x128 .f32)), y ∈ pc.1.set :=
  View.cover_of_tiled [⟨big2, p⟩] S5000x128.size (by rfl) y

/-! ## Running the body once -/

set_option maxHeartbeats 1000000 in
/-- The body, given whole staging buffers with the four inputs at known contents and the output at
    anything, ends with the inputs unchanged and the output at res2 of them. -/
theorem run_kernel2 (c : Dev nD) (E : Set ℕ) (i : grid2.Coords)
    (a1 : Memref sig .tc .vmem S5000x128 .f32) (h1 : a1.IsWhole)
    (a2 : Memref sig .tc .vmem S1x128 .f32) (h2 : a2.IsWhole)
    (a3 : Memref sig .tc .vmem S1x128 .f32) (h3 : a3.IsWhole)
    (a4 : Memref sig .tc .vmem S1x128 .f32) (h4 : a4.IsWhole)
    (a5 : Memref sig .tc .vmem S5000x128 .f32) (h5 : a5.IsWhole)
    (x : Vec F S5000x128 .f32) (b mu sg : Vec F S1x128 .f32) (K : PUnit → sProp 𝕄) :
    iprop(owns (c : Thread nD τ) a1 fullShare x ∗ owns (c : Thread nD τ) a2 fullShare b
        ∗ owns (c : Thread nD τ) a3 fullShare mu ∗ owns (c : Thread nD τ) a4 fullShare sg
        ∗ (∃ d, owns (c : Thread nD τ) a5 fullShare d)
        ∗ (iprop(owns (c : Thread nD τ) a1 fullShare x ∗ owns (c : Thread nD τ) a2 fullShare b
            ∗ owns (c : Thread nD τ) a3 fullShare mu ∗ owns (c : Thread nD τ) a4 fullShare sg
            ∗ owns (c : Thread nD τ) a5 fullShare (res2 x b mu sg)) -∗ K ⟨⟩))
      ⊢ wp frame (wpE (defs₀ (F := F)) Variants.none c none) E
          (cc2__bn_norm_relu_kernel i a1 h1 a2 h2 a3 h3 a4 h4 a5 h5) K := by
  simp only [cc2__bn_norm_relu_kernel_eq_skeleton]; unfold cc2__bn_norm_relu_kernel_skel
  unfold owns
  iintro ⟨⟨%f1, %e1, H1⟩, ⟨%f2, %e2, H2⟩, ⟨%f3, %e3, H3⟩, ⟨%f4, %e4, H4⟩, ⟨%d5, %f5, -, H5⟩, Hk⟩
  subst e1; subst e2; subst e3; subst e4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (res2_total _)

/-! ## An input window keeps showing its tile

The big tile is fetched afresh at every point. The three rows are fetched at the first point only,
but their block index never moves, so what was fetched then is still what a fetch would bring now. In
all four cases the staging buffer the body is handed holds the window's tile of the entry array, for
any proof data whose array is V's and whose body leaves that tile in place. -/

theorem shows2_0 {c : Dev nD} (dat : Dat τ (Elt F) Unit ℕ (UR sig nD τ) ℕ cfg2 c)
    (hA : dat.A 0 = V c (Pipeline.arrRef spec2 0)) (hkeep : ∀ t, dat.after 0 t = tile2 V c 0 t)
    (t : Fin cfg2.N) (d) : dat.before 0 t d = tile2 V c 0 t :=
  (dat.before_in_eq_fetched 0 rfl (fun _ => rfl) (fun _ _ _ => rfl)
      (fun t => by rw [hkeep]; unfold Dat.blockOf tile2; rw [hA]; try rfl) t d).trans
    (by unfold Dat.fetched Dat.blockOf tile2; rw [hA]; try rfl)

theorem shows2_1 {c : Dev nD} (dat : Dat τ (Elt F) Unit ℕ (UR sig nD τ) ℕ cfg2 c)
    (hA : dat.A 1 = V c (Pipeline.arrRef spec2 1)) (hkeep : ∀ t, dat.after 1 t = tile2 V c 1 t)
    (t : Fin cfg2.N) (d) : dat.before 1 t d = tile2 V c 1 t :=
  (dat.before_in_eq_fetched 1 rfl (fun _ => rfl) (fun _ _ _ => rfl)
      (fun t => by rw [hkeep]; unfold Dat.blockOf tile2; rw [hA]; try rfl) t d).trans
    (by unfold Dat.fetched Dat.blockOf tile2; rw [hA]; try rfl)

theorem shows2_2 {c : Dev nD} (dat : Dat τ (Elt F) Unit ℕ (UR sig nD τ) ℕ cfg2 c)
    (hA : dat.A 2 = V c (Pipeline.arrRef spec2 2)) (hkeep : ∀ t, dat.after 2 t = tile2 V c 2 t)
    (t : Fin cfg2.N) (d) : dat.before 2 t d = tile2 V c 2 t :=
  (dat.before_in_eq_fetched 2 rfl (fun _ => rfl) (fun _ _ _ => rfl)
      (fun t => by rw [hkeep]; unfold Dat.blockOf tile2; rw [hA]; try rfl) t d).trans
    (by unfold Dat.fetched Dat.blockOf tile2; rw [hA]; try rfl)

theorem shows2_3 {c : Dev nD} (dat : Dat τ (Elt F) Unit ℕ (UR sig nD τ) ℕ cfg2 c)
    (hA : dat.A 3 = V c (Pipeline.arrRef spec2 3)) (hkeep : ∀ t, dat.after 3 t = tile2 V c 3 t)
    (t : Fin cfg2.N) (d) : dat.before 3 t d = tile2 V c 3 t :=
  (dat.before_in_eq_fetched 3 rfl (fun _ => rfl) (fun _ _ _ => rfl)
      (fun t => by rw [hkeep]; unfold Dat.blockOf tile2; rw [hA]; try rfl) t d).trans
    (by unfold Dat.fetched Dat.blockOf tile2; rw [hA]; try rfl)

/-! ## The region's proof data -/

/-- Region 2 on core c: the arrays as found on entry; after the body at point t each input buffer
    still at its tile and the output buffer at res2 of the four tiles; the invariant is the rest of
    the scoped memory and the generator register, wherever they are; full shares; nothing owed. -/
def dat2 (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => tile2 V c 2 t
    | ⟨3, _⟩ => tile2 V c 3 t
    | ⟨4, _⟩ => res2 (tile2 V c 0 t) (tile2 V c 1 t) (tile2 V c 2 t) (tile2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves in each window's buffer at point t. -/
theorem after2_0 (c : Dev nD) (t : Fin cfg2.N) : (dat2 V c).after 0 t = tile2 V c 0 t := by dsimp only [dat2]
theorem after2_1 (c : Dev nD) (t : Fin cfg2.N) : (dat2 V c).after 1 t = tile2 V c 1 t := by dsimp only [dat2]
theorem after2_2 (c : Dev nD) (t : Fin cfg2.N) : (dat2 V c).after 2 t = tile2 V c 2 t := by dsimp only [dat2]
theorem after2_3 (c : Dev nD) (t : Fin cfg2.N) : (dat2 V c).after 3 t = tile2 V c 3 t := by dsimp only [dat2]
theorem after2_4 (c : Dev nD) (t : Fin cfg2.N) :
    (dat2 V c).after 4 t = res2 (tile2 V c 0 t) (tile2 V c 1 t) (tile2 V c 2 t) (tile2 V c 3 t) := by
  dsimp only [dat2]

/-- What the body finds in each input window's buffer at point t. -/
theorem before2_0 (c : Dev nD) (t : Fin cfg2.N) (d) : (dat2 V c).before 0 t d = tile2 V c 0 t :=
  shows2_0 V (dat2 V c) (A_eq2 V c 0) (after2_0 V c) t d
theorem before2_1 (c : Dev nD) (t : Fin cfg2.N) (d) : (dat2 V c).before 1 t d = tile2 V c 1 t :=
  shows2_1 V (dat2 V c) (A_eq2 V c 1) (after2_1 V c) t d
theorem before2_2 (c : Dev nD) (t : Fin cfg2.N) (d) : (dat2 V c).before 2 t d = tile2 V c 2 t :=
  shows2_2 V (dat2 V c) (A_eq2 V c 2) (after2_2 V c) t d
theorem before2_3 (c : Dev nD) (t : Fin cfg2.N) (d) : (dat2 V c).before 3 t d = tile2 V c 3 t :=
  shows2_3 V (dat2 V c) (A_eq2 V c 3) (after2_3 V c) t d

/-! ## The body at a grid point -/

/-- What the pipeline hands the body at point t, -/
def given2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it must hand back. -/
def left2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- At any point the four input buffers show their tiles, so the body's triple applies; the invariant
    and the tally of what is owed are passed along untouched. -/
theorem run_body2 (c : Dev nD) (t : Fin cfg2.N) :
    given2 V c t ⊢ wp frame (wpE (defs₀ (F := F)) Variants.none c none) Set.univ (bodyAt2 t) (fun _ => left2 V c t) := by
  unfold given2 left2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (run_kernel2 c Set.univ _ _ _ _ _ _ _ _ _ _ _
    (tile2 V c 0 t) (tile2 V c 1 t) (tile2 V c 2 t) (tile2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) :
    BodyObligation (dat2 (F := F) V c) (defs₀ (F := F)) Variants.none () Set.univ := fun t => by
  rw [bigSep_W2, bigSep_W2]
  exact run_body2 V c t

/-! ## Entering and leaving the invariant -/

/-- The generator register and the scoped rest, in either order, are the invariant at the first point, -/
theorem phi_in2 (c : Dev nD) :
    iprop((∃ r, prngReg c r) ∗ Pipeline.scopedRest (Ix := Unit) (Name := ℕ) (U := UR sig nD τ) (Lvl := ℕ) spec2 c)
      ⊢ ((dat2 (F := F) V c).Φ 0 : sProp 𝕄) := by
  rw [show (dat2 (F := F) V c).Φ 0 = Pipeline.ΦA spec2 c from rfl]; unfold Pipeline.ΦA
  iintro ⟨Hp, Hr⟩
  isplitl [Hr]; · iexact Hr
  iexact Hp

/-- and the invariant after the last point gives both back. -/
theorem phi_out2 (c : Dev nD) :
    ((dat2 (F := F) V c).Φ (Fin.last cfg2.N) : sProp 𝕄)
      ⊢ iprop((∃ r, prngReg c r) ∗ Pipeline.scopedRest (Ix := Unit) (Name := ℕ) (U := UR sig nD τ) (Lvl := ℕ) spec2 c) := by
  rw [show (dat2 (F := F) V c).Φ (Fin.last cfg2.N) = Pipeline.ΦA spec2 c from rfl]; unfold Pipeline.ΦA
  iintro ⟨Hr, Hp⟩
  isplitl [Hp]; · iexact Hp
  iexact Hr

end Cert.Kernel.Reg

end
-- ==== Proof.K.R3.lean ====
/-
  Region 3 of the program: a dense layer without bias, out = x · Wᵀ, computed one row tile at a time.

  The row dimension (50000) is split into ten tiles of 5000 rows. At grid point t the body reads the t-th
  row tile of x and the whole 128 × 128 weight matrix, and overwrites the t-th row tile of the output with the
  product of the tile by the transposed weights. Nothing is carried from one tile to the next, so the
  region's invariant is only "what the body never touches stays as it is".

  Everything here is stated at arbitrary buffer contents V at the moment the region is entered, and for any
  float instance: the statements concern which cells are read and written, not what the arithmetic gives.
-/
import proofs.«429275_j68899865363005_1_alg».proof.Proof.Gen.Kernel.Launch
import proofs.«429275_j68899865363005_1_alg».proof.Proof.Gen.Kernel.Skeleton
import proofs.«429275_j68899865363005_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles the body is handed -/

/-- The part of window w's array that grid point t looks at, taken from the array as it stands on entry. -/
def tile3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The x tile is in its buffer whenever the body runs. The body does not change it and every point loads a
    fresh tile, so the buffer holds exactly the t-th row tile of the entry array. -/
theorem finds3_x {c : Dev nD} (dat : Dat τ (Elt F) Unit ℕ (UR sig nD τ) ℕ cfg3 c)
    (hA : dat.A 0 = V c (Pipeline.arrRef spec3 0)) (hkeep : ∀ t, dat.after 0 t = tile3 V c 0 t)
    (t : Fin cfg3.N) (d) : dat.before 0 t d = tile3 V c 0 t :=
  (dat.before_in_eq_fetched 0 rfl (fun _ => rfl) (fun _ _ _ => rfl)
      (fun t => by rw [hkeep]; unfold Dat.blockOf tile3; rw [hA]; try rfl) t d).trans
    (by unfold Dat.fetched Dat.blockOf tile3; rw [hA]; try rfl)

/-- The weight matrix is loaded once, at the first point; its window never moves and the body leaves it alone,
    so at every later point the buffer still holds the same matrix. -/
theorem finds3_w {c : Dev nD} (dat : Dat τ (Elt F) Unit ℕ (UR sig nD τ) ℕ cfg3 c)
    (hA : dat.A 1 = V c (Pipeline.arrRef spec3 1)) (hkeep : ∀ t, dat.after 1 t = tile3 V c 1 t)
    (t : Fin cfg3.N) (d) : dat.before 1 t d = tile3 V c 1 t :=
  (dat.before_in_eq_fetched 1 rfl (fun _ => rfl) (fun _ _ _ => rfl)
      (fun t => by rw [hkeep]; unfold Dat.blockOf tile3; rw [hA]; try rfl) t d).trans
    (by unfold Dat.fetched Dat.blockOf tile3; rw [hA]; try rfl)

/-! ## What one run of the body writes -/

/-- The whole 5000 × 128 tile, as a rectangle of itself. -/
abbrev whole_x3 : Rect S5000x128 := Rect.unit (s := S5000x128) ![0, 0] S5000x128.size inb_S5000x128_S5000x128_0_0
/-- The whole 128 × 128 matrix, as a rectangle of itself. -/
abbrev whole_w3 : Rect S128x128 := Rect.unit (s := S128x128) ![0, 0] S128x128.size inb_S128x128_S128x128_0_0

/-- The output tile after the body: a single store over the whole tile, of the product of the x tile by the
    transposed weights. -/
def prod3 (x : Vec F S5000x128 .f32) (w : Vec F S128x128 .f32) : Vec F S5000x128 .f32 :=
  View.canon [⟨whole_x3, k3_pay1 (View.ld x whole_x3) (View.ld w whole_w3)⟩]

/-- One store over the whole tile reaches every cell of it. -/
theorem prod3_total (p : Vec F S5000x128 .f32) (y : S5000x128.Idx) :
    ∃ pc ∈ ([⟨whole_x3, p⟩] : List (View.Piece (Elt F) S5000x128 .f32)), y ∈ pc.1.set :=
  View.cover_of_tiled [⟨whole_x3, p⟩] S5000x128.size (by rfl) y

/-! ## The body on three buffers -/

set_option maxHeartbeats 1000000 in
/-- Run on a buffer holding x, a buffer holding w and an output buffer holding anything, the body returns the first
    two unchanged and the third holding prod3 x w. (The body also reads the output buffer before overwriting it;
    what it reads there is not used.) -/
theorem linear_triple3 (c : Dev nD) (E : Set ℕ) (i : grid3.Coords)
    (a1 : Memref sig .tc .vmem S5000x128 .f32) (h1 : a1.IsWhole)
    (a2 : Memref sig .tc .vmem S128x128 .f32) (h2 : a2.IsWhole)
    (a3 : Memref sig .tc .vmem S5000x128 .f32) (h3 : a3.IsWhole)
    (x : Vec F S5000x128 .f32) (w : Vec F S128x128 .f32) (K : PUnit → sProp 𝕄) :
    iprop(owns (c : Thread nD τ) a1 fullShare x ∗ owns (c : Thread nD τ) a2 fullShare w
        ∗ (∃ d, owns (c : Thread nD τ) a3 fullShare d)
        ∗ (iprop(owns (c : Thread nD τ) a1 fullShare x ∗ owns (c : Thread nD τ) a2 fullShare w
            ∗ owns (c : Thread nD τ) a3 fullShare (prod3 x w)) -∗ K ⟨⟩))
      ⊢ wp frame (wpE (defs₀ (F := F)) Variants.none c none) E (cc3__linear_kernel i a1 h1 a2 h2 a3 h3) K := by
  simp only [cc3__linear_kernel_eq_skeleton]; unfold cc3__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod3_total _)

/-! ## The region's data -/

/-- The data of region 3 on core c. The arrays start at V. After the body at point t, the two input buffers hold
    what they held (their tiles) and the output buffer holds the product of the two. The invariant says only that
    the rest of the core's scoped memory and its generator register exist; the full share of every array is held
    and nothing is owed to other cores. -/
def dat3 (c : Dev nD) : Dat τ (Elt F) Unit ℕ (UR sig nD τ) ℕ cfg3 c where
  A w := V c (Pipeline.arrRef spec3 w)
  after w t := match w with
    | ⟨0, _⟩ => tile3 V c 0 t
    | ⟨1, _⟩ => tile3 V c 1 t
    | ⟨2, _⟩ => prod3 (tile3 V c 0 t) (tile3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

/-- After the body: the x buffer still holds the x tile, -/
theorem after3_x (c : Dev nD) (t : Fin cfg3.N) : (dat3 V c).after 0 t = tile3 V c 0 t := by dsimp only [dat3]
/-- the w buffer still holds the weights, -/
theorem after3_w (c : Dev nD) (t : Fin cfg3.N) : (dat3 V c).after 1 t = tile3 V c 1 t := by dsimp only [dat3]
/-- and the output buffer holds their product. -/
theorem after3_out (c : Dev nD) (t : Fin cfg3.N) :
    (dat3 V c).after 2 t = prod3 (tile3 V c 0 t) (tile3 V c 1 t) := by dsimp only [dat3]

theorem before3_x (c : Dev nD) (t : Fin cfg3.N) (d) : (dat3 V c).before 0 t d = tile3 V c 0 t :=
  finds3_x V (dat3 V c) (A_eq3 V c 0) (after3_x V c) t d
theorem before3_w (c : Dev nD) (t : Fin cfg3.N) (d) : (dat3 V c).before 1 t d = tile3 V c 1 t :=
  finds3_w V (dat3 V c) (A_eq3 V c 1) (after3_w V c) t d

/-! ## The body at a grid point -/

/-- What the pipeline gives the body at point t: the invariant, the debt ledger, and the three current buffers. -/
def given3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- What the body gives back. -/
def back3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- At every point the input buffers hold their tiles, so the triple above applies; invariant and ledger are not
    looked at. -/
theorem point3 (c : Dev nD) (t : Fin cfg3.N) :
    given3 V c t ⊢ wp frame (wpE (defs₀ (F := F)) Variants.none c none) Set.univ (bodyAt3 t) (fun _ => back3 V c t) := by
  unfold given3 back3 bodyAt3
  simp only [before3_x, before3_w]
  rw [show (dat3 V c).Φ t.succ = (dat3 V c).Φ t.castSucc from rfl,
    show (dat3 V c).owesAt () t.succ = (dat3 V c).owesAt () t.castSucc from rfl,
    after3_x, after3_w, after3_out]
  iintro ⟨HΦ, Ho, ⟨%d0, H0⟩, ⟨%d1, H1⟩, ⟨%d2, H2⟩⟩
  iapply (linear_triple3 c Set.univ _ _ _ _ _ _ _ (tile3 V c 0 t) (tile3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) :
    BodyObligation (dat3 (F := F) V c) (defs₀ (F := F)) Variants.none () Set.univ := fun t => by
  rw [bigSep_W3, bigSep_W3]
  exact point3 V c t

/-! ## The two ends of the invariant -/

/-- Entering: the generator register and the untouched scoped memory are exactly the invariant before point 0. -/
theorem phi_in3 (c : Dev nD) :
    iprop((∃ r, prngReg c r) ∗ Pipeline.scopedRest (Ix := Unit) (Name := ℕ) (U := UR sig nD τ) (Lvl := ℕ) spec3 c)
      ⊢ ((dat3 (F := F) V c).Φ 0 : sProp 𝕄) := by
  show _ ⊢ Pipeline.ΦA spec3 c
  unfold Pipeline.ΦA
  iintro ⟨Hp, Hs⟩
  isplitl [Hs]; · iexact Hs
  iexact Hp

/-- Leaving: the invariant after the last point gives the same two things back. -/
theorem phi_out3 (c : Dev nD) :
    ((dat3 (F := F) V c).Φ (Fin.last cfg3.N) : sProp 𝕄)
      ⊢ iprop((∃ r, prngReg c r) ∗ Pipeline.scopedRest (Ix := Unit) (Name := ℕ) (U := UR sig nD τ) (Lvl := ℕ) spec3 c) := by
  show Pipeline.ΦA spec3 c ⊢ _
  unfold Pipeline.ΦA
  iintro ⟨Hs, Hp⟩
  isplitl [Hp]; · iexact Hp
  iexact Hs

end Cert.Kernel.Reg
-- ==== Proof.K.R4.lean ====
/-
  Region 4 of @main (the column sums of the biased matrix and of its square, row tile by row tile): the proof
  data of its pipeline at any entry contents `V`, the body obligation, and how the region's invariant is entered
  and left. The kernel keeps two running sums in buffers of its own across the ten row tiles — reset at the first,
  added to at each, copied to the two outputs at the last — so the invariant carries those two buffers at the
  running sums, and an output window is handed back as found at the tiles where nothing is stored into it.
  Generic in the float instance.
-/
import proofs.«429275_j68899865363005_1_alg».proof.Proof.Gen.Kernel.Launch
import proofs.«429275_j68899865363005_1_alg».proof.Proof.Gen.Kernel.Skeleton
import proofs.«429275_j68899865363005_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the body branches

The body has two conditionals on the grid coordinate: the first resets the two running sums and is taken
at the first row tile only; the second copies them to the outputs and is taken at the last row tile only. -/

/-- The condition of the reset, as the kernel computes it from the grid coordinate. -/
abbrev atFirst4 (i : grid4.Coords) : Prop :=
  (Scalar.cmpi .ne (Scalar.extui (Scalar.cmpi .eq (BitVec.ofNat 32 (i 0).val) 0#32)) 0#32) = 1#1
/-- It holds at row tile 0 only. -/
theorem atFirst4_iff : ∀ t : Fin cfg4.N, atFirst4 (grid4.coords t) ↔ t.val = 0 :=
  (by decide +kernel : ∀ t : Fin grid4.N, atFirst4 (grid4.coords t) ↔ t.val = 0)
/-- The condition of the copy to the outputs. -/
abbrev atLast4 (i : grid4.Coords) : Prop := k4_cond2 i = 1#1
/-- It holds at row tile 9 only. -/
theorem atLast4_iff : ∀ t : Fin cfg4.N, atLast4 (grid4.coords t) ↔ t.val = 9 :=
  (by decide +kernel : ∀ t : Fin grid4.N, atLast4 (grid4.coords t) ↔ t.val = 9)

/-! ## Whole-buffer stores -/

/-- The offsets of every access of the body: the origin. -/
theorem origin2_r4 : (![0, 0] : Fin 2 → Nat) = fun _ => 0 := funext fun a => by fin_cases a <;> rfl

/-- A rectangle at the origin with the shape's own extents holds every index. -/
theorem mem_full_rect_r4 {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- After a last store through such a rectangle the buffer reads as that store's payload, whatever was stored before. -/
theorem read_after_full_store_r4 {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, mem_full_rect_r4 h inb y⟩), View.canon_cons_unit_zero h]

/-! ## The body's three runs

Each on whole memrefs: the input windows' buffers at the tile `x` and the bias row `b`. -/

set_option maxHeartbeats 1000000 in
/-- THE FIRST ROW TILE. The body resets the two carried buffers (held at anything), then adds the tile's column sums:
    they end at the sums started from the reset value; the output buffers are not touched. -/
theorem run_first4 (c : Dev nD) (E : Set ℕ) (i : grid4.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hf : atFirst4 i) (hl : ¬atLast4 i)
    (x : Vec F S5000x128 .f32) (b : Vec F S1x128 .f32) (K : PUnit → sProp 𝕄) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (k4_pay4 x b k4_pay1) ∗ owns (c : Thread nD τ) arg6 fullShare (k4_pay5 x b k4_pay2)) -∗ K ⟨⟩))
      ⊢ wp frame (wpE (defs₀ (F := F)) Variants.none c none) E (cc4__bn_reduce_kernel i arg1 harg1 arg2 harg2 arg3 harg3 arg4 harg4 arg5 harg5 arg6 harg6) K := by
  simp only [cc4__bn_reduce_kernel_eq_skeleton]; unfold cc4__bn_reduce_kernel_skel
  unfold owns
  iintro ⟨⟨%f1, %hf1, H1⟩, ⟨%f2, %hf2, H2⟩, ⟨%d5, %f5, -, H5⟩, ⟨%d6, %f6, -, H6⟩, Hk⟩
  obtain rfl := harg1.eq_unread hf1; obtain rfl := harg2.eq_unread hf2
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H5]
  · iexists _; isplitr
    swap; · iexact H5
    ipureintro
    sl_unfold_words
    rw [read_after_full_store_r4 _ _ origin2_r4]
    simp only [View.readCov_unit_zero (S := S1x128) _ origin2_r4, View.readAt_eq_ld, harg1.read_unread, harg2.read_unread, View.ld_unit_zero (S := S5000x128) origin2_r4, View.ld_unit_zero (S := S1x128) origin2_r4]
  iexists _; isplitr
  swap; · iexact H6
  · ipureintro
    sl_unfold_words
    rw [read_after_full_store_r4 _ _ origin2_r4]
    simp only [View.readCov_unit_zero (S := S1x128) _ origin2_r4, View.readAt_eq_ld, harg1.read_unread, harg2.read_unread, View.ld_unit_zero (S := S5000x128) origin2_r4, View.ld_unit_zero (S := S1x128) origin2_r4]

set_option maxHeartbeats 1000000 in
/-- A MIDDLE ROW TILE. The body adds the tile's column sums to the two carried buffers, held at `s0`, `s1`; the
    output buffers are not touched. -/
theorem run_mid4 (c : Dev nD) (E : Set ℕ) (i : grid4.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hf : ¬atFirst4 i) (hl : ¬atLast4 i)
    (x : Vec F S5000x128 .f32) (b s0 s1 : Vec F S1x128 .f32) (K : PUnit → sProp 𝕄) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (k4_pay4 x b s0) ∗ owns (c : Thread nD τ) arg6 fullShare (k4_pay5 x b s1)) -∗ K ⟨⟩))
      ⊢ wp frame (wpE (defs₀ (F := F)) Variants.none c none) E (cc4__bn_reduce_kernel i arg1 harg1 arg2 harg2 arg3 harg3 arg4 harg4 arg5 harg5 arg6 harg6) K := by
  simp only [cc4__bn_reduce_kernel_eq_skeleton]; unfold cc4__bn_reduce_kernel_skel
  unfold owns
  iintro ⟨⟨%f1, %hf1, H1⟩, ⟨%f2, %hf2, H2⟩, ⟨%f5, %hf5, H5⟩, ⟨%f6, %hf6, H6⟩, Hk⟩
  obtain rfl := harg1.eq_unread hf1; obtain rfl := harg2.eq_unread hf2
  obtain rfl := harg5.eq_unread hf5; obtain rfl := harg6.eq_unread hf6
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H5]
  · iexists _; isplitr
    swap; · iexact H5
    ipureintro
    rw [read_after_full_store_r4 _ _ origin2_r4]
    simp only [View.readAt_eq_ld, harg1.read_unread, harg2.read_unread, harg5.read_unread, View.ld_unit_zero (S := S5000x128) origin2_r4, View.ld_unit_zero (S := S1x128) origin2_r4]
  iexists _; isplitr
  swap; · iexact H6
  ipureintro
  rw [read_after_full_store_r4 _ _ origin2_r4]
  simp only [View.readAt_eq_ld, harg1.read_unread, harg2.read_unread, harg6.read_unread, View.ld_unit_zero (S := S5000x128) origin2_r4, View.ld_unit_zero (S := S1x128) origin2_r4]

set_option maxHeartbeats 1000000 in
/-- THE LAST ROW TILE. As in the middle, and then each carried buffer is copied to its output buffer (held at
    anything): both end at the updated sums. -/
theorem run_last4 (c : Dev nD) (E : Set ℕ) (i : grid4.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hf : ¬atFirst4 i) (hl : atLast4 i)
    (x : Vec F S5000x128 .f32) (b s0 s1 : Vec F S1x128 .f32) (K : PUnit → sProp 𝕄) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (k4_pay4 x b s0) ∗ owns (c : Thread nD τ) arg4 fullShare (k4_pay5 x b s1)
            ∗ owns (c : Thread nD τ) arg5 fullShare (k4_pay4 x b s0) ∗ owns (c : Thread nD τ) arg6 fullShare (k4_pay5 x b s1)) -∗ K ⟨⟩))
      ⊢ wp frame (wpE (defs₀ (F := F)) Variants.none c none) E (cc4__bn_reduce_kernel i arg1 harg1 arg2 harg2 arg3 harg3 arg4 harg4 arg5 harg5 arg6 harg6) K := by
  simp only [cc4__bn_reduce_kernel_eq_skeleton]; unfold cc4__bn_reduce_kernel_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  obtain rfl := harg1.eq_unread hf1; obtain rfl := harg2.eq_unread hf2
  obtain rfl := harg5.eq_unread hf5; obtain rfl := harg6.eq_unread hf6
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    sl_unfold_words
    rw [read_after_full_store_r4 _ _ origin2_r4]
    simp only [View.readCov_unit_zero (S := S1x128) _ origin2_r4, View.readAt_eq_ld, harg1.read_unread, harg2.read_unread, harg5.read_unread, View.ld_unit_zero (S := S5000x128) origin2_r4, View.ld_unit_zero (S := S1x128) origin2_r4]
  isplitl [H4]
  · iexists _; isplitr
    swap; · iexact H4
    ipureintro
    sl_unfold_words
    rw [read_after_full_store_r4 _ _ origin2_r4]
    simp only [View.readCov_unit_zero (S := S1x128) _ origin2_r4, View.readAt_eq_ld, harg1.read_unread, harg2.read_unread, harg6.read_unread, View.ld_unit_zero (S := S5000x128) origin2_r4, View.ld_unit_zero (S := S1x128) origin2_r4]
  isplitl [H5]
  · iexists _; isplitr
    swap; · iexact H5
    ipureintro
    sl_unfold_words
    rw [read_after_full_store_r4 _ _ origin2_r4]
    simp only [View.readCov_unit_zero (S := S1x128) _ origin2_r4, View.readAt_eq_ld, harg1.read_unread, harg2.read_unread, harg5.read_unread, View.ld_unit_zero (S := S5000x128) origin2_r4, View.ld_unit_zero (S := S1x128) origin2_r4]
  iexists _; isplitr
  swap; · iexact H6
  · ipureintro
    sl_unfold_words
    rw [read_after_full_store_r4 _ _ origin2_r4]
    simp only [View.readCov_unit_zero (S := S1x128) _ origin2_r4, View.readAt_eq_ld, harg1.read_unread, harg2.read_unread, harg6.read_unread, View.ld_unit_zero (S := S5000x128) origin2_r4, View.ld_unit_zero (S := S1x128) origin2_r4]

/-! ## The windows' blocks and the running sums -/

/-- Window `w`'s block at row tile `t`, read off its array as the region finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Row tile `t` of the matrix, at its literal type. -/
abbrev tile4 (c : Dev nD) (t : Fin cfg4.N) : Vec F S5000x128 .f32 := blk4 V c 0 t
/-- The bias row as row tile `t` sees it, at its literal type. -/
abbrev bias4 (c : Dev nD) (t : Fin cfg4.N) : Vec F S1x128 .f32 := blk4 V c 1 t

/-- THE RUNNING SUMS: what the two carried buffers hold after row tile `n` — the column sums of the biased
    tile and of its square, started from the reset value at tile 0 and from the previous tile's sums afterwards. -/
def sums4 (c : Dev nD) : (n : ℕ) → n < cfg4.N → Vec F S1x128 .f32 × Vec F S1x128 .f32
  | 0, h => (k4_pay4 (tile4 V c ⟨0, h⟩) (bias4 V c ⟨0, h⟩) k4_pay1, k4_pay5 (tile4 V c ⟨0, h⟩) (bias4 V c ⟨0, h⟩) k4_pay2)
  | n + 1, h =>
    (k4_pay4 (tile4 V c ⟨n + 1, h⟩) (bias4 V c ⟨n + 1, h⟩) (sums4 c n (Nat.lt_of_succ_lt h)).1,
     k4_pay5 (tile4 V c ⟨n + 1, h⟩) (bias4 V c ⟨n + 1, h⟩) (sums4 c n (Nat.lt_of_succ_lt h)).2)

/-- At the first row tile the sums start from the reset value. -/
theorem sums4_first (c : Dev nD) (t : Fin cfg4.N) (hz : t.val = 0) :
    sums4 V c t.val t.isLt = (k4_pay4 (tile4 V c t) (bias4 V c t) k4_pay1, k4_pay5 (tile4 V c t) (bias4 V c t) k4_pay2) := by
  obtain ⟨n, hn⟩ := t
  cases n with
  | zero => rfl
  | succ n => exact absurd hz (Nat.succ_ne_zero n)

/-- At a later row tile they continue the previous tile's. -/
theorem sums4_later (c : Dev nD) (t : Fin cfg4.N) (hz : t.val ≠ 0) :
    sums4 V c t.val t.isLt
      = (k4_pay4 (tile4 V c t) (bias4 V c t) (sums4 V c (t.val - 1) (Nat.lt_of_le_of_lt (Nat.sub_le _ _) t.isLt)).1,
         k4_pay5 (tile4 V c t) (bias4 V c t) (sums4 V c (t.val - 1) (Nat.lt_of_le_of_lt (Nat.sub_le _ _) t.isLt)).2) := by
  obtain ⟨n, hn⟩ := t
  cases n with
  | zero => exact absurd rfl hz
  | succ n => rfl

/-! ## The invariant -/

/-- The first carried buffer, as the memref the body is called with. -/
abbrev acc4_0 : Memref sig .tc .vmem S1x128 .f32 := Memref.whole cc4_scratch0
/-- The second. -/
abbrev acc4_1 : Memref sig .tc .vmem S1x128 .f32 := Memref.whole cc4_scratch1

/-- Before row tile `n`: at the region's entry the generator register and every scoped buffer that is no staging
    buffer of the region, at any contents (at tile 0 the body overwrites both carried buffers before it uses what they hold);
    afterwards the generator register, the two carried buffers at the running sums over the tiles before `n`, and
    the other scoped buffers unopened. -/
def Inv4 (c : Dev nD) : (n : ℕ) → n ≤ cfg4.N → sProp 𝕄
  | 0, _ => iprop((∃ r, prngReg c r) ∗ Pipeline.scopedRest (Ix := Unit) (Name := ℕ) (U := UR sig nD τ) (Lvl := ℕ) spec4 c)
  | n + 1, h =>
    iprop((∃ r, prngReg c r)
      ∗ iprop(owns (c : Thread nD τ) acc4_0 fullShare (sums4 V c n h).1 ∗ owns (c : Thread nD τ) acc4_1 fullShare (sums4 V c n h).2)
      ∗ Pipeline.scopedRestBut (Ix := Unit) (Name := ℕ) (U := UR sig nD τ) (Lvl := ℕ) (Val := Elt F) spec4 c [cc4_scratch0, cc4_scratch1])

theorem Inv4_entry (c : Dev nD) (n : ℕ) (h : n ≤ cfg4.N) (hz : n = 0) :
    Inv4 V c n h = iprop((∃ r, prngReg c r) ∗ Pipeline.scopedRest (Ix := Unit) (Name := ℕ) (U := UR sig nD τ) (Lvl := ℕ) spec4 c) := by
  subst hz; rfl

theorem Inv4_next (c : Dev nD) (n : ℕ) (h : n < cfg4.N) :
    Inv4 V c (n + 1) h = iprop((∃ r, prngReg c r)
      ∗ iprop(owns (c : Thread nD τ) acc4_0 fullShare (sums4 V c n h).1 ∗ owns (c : Thread nD τ) acc4_1 fullShare (sums4 V c n h).2)
      ∗ Pipeline.scopedRestBut (Ix := Unit) (Name := ℕ) (U := UR sig nD τ) (Lvl := ℕ) (Val := Elt F) spec4 c [cc4_scratch0, cc4_scratch1]) := rfl

theorem Inv4_later (c : Dev nD) (n : ℕ) (h : n ≤ cfg4.N) (hz : n ≠ 0) :
    Inv4 V c n h = iprop((∃ r, prngReg c r)
      ∗ iprop(owns (c : Thread nD τ) acc4_0 fullShare (sums4 V c (n - 1) (by omega)).1 ∗ owns (c : Thread nD τ) acc4_1 fullShare (sums4 V c (n - 1) (by omega)).2)
      ∗ Pipeline.scopedRestBut (Ix := Unit) (Name := ℕ) (U := UR sig nD τ) (Lvl := ℕ) (Val := Elt F) spec4 c [cc4_scratch0, cc4_scratch1]) := by
  cases n with
  | zero => exact absurd rfl hz
  | succ n => rfl

/-- The scoped buffers at the region's entry, with the two carried buffers as memrefs owned at some contents. -/
theorem scoped_entry4 (c : Dev nD) :
    (Pipeline.scopedRest (Ix := Unit) (Name := ℕ) (U := UR sig nD τ) (Lvl := ℕ) spec4 c : sProp 𝕄)
      = iprop(iprop((∃ d, owns (c : Thread nD τ) acc4_0 fullShare d) ∗ (∃ d, owns (c : Thread nD τ) acc4_1 fullShare d))
          ∗ Pipeline.scopedRestBut (Ix := Unit) (Name := ℕ) (U := UR sig nD τ) (Lvl := ℕ) (Val := Elt F) spec4 c [cc4_scratch0, cc4_scratch1]) := by
  rw [scopedRest4_split]; simp only [acc4_0, acc4_1, owns_whole]; try rfl

/-! ## The proof data -/

/-- The proof data of the region on core `c`: the arrays as the region finds them; after the body at row tile `t`
    each input's buffer at its block and the two outputs' at the running sums (written back at the last tile only);
    the invariant `Inv4`; nothing owed; full shares. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => (sums4 V c t.val t.isLt).1
    | ⟨3, _⟩ => (sums4 V c t.val t.isLt).2
  Φ t := Inv4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = blk4 V c 0 t := by dsimp only [dat4]
theorem after4_1 (c : Dev nD) (t : Fin cfg4.N) : (dat4 V c).after 1 t = blk4 V c 1 t := by dsimp only [dat4]
/-- What the write-back of the first output writes: the column sums. -/
theorem after4_2 (c : Dev nD) (t : Fin cfg4.N) : (dat4 V c).after 2 t = (sums4 V c t.val t.isLt).1 := by dsimp only [dat4]
/-- What the write-back of the second output writes: the column sums of squares. -/
theorem after4_3 (c : Dev nD) (t : Fin cfg4.N) : (dat4 V c).after 3 t = (sums4 V c t.val t.isLt).2 := by dsimp only [dat4]

theorem Phi4_at (c : Dev nD) (t : Fin cfg4.N) :
    (dat4 V c).Φ t.castSucc = Inv4 V c t.val (Nat.le_of_lt t.isLt) := by
  dsimp only [dat4]; simp only [Fin.coe_castSucc]

/-- The matrix window's buffer holds the row tile at every point. -/
theorem found4_0 (c : Dev nD) (t : Fin cfg4.N) (d) : (dat4 V c).before 0 t d = blk4 V c 0 t := by
  refine ((dat4 V c).before_in_eq_fetched 0 rfl (fun _ => rfl) (fun _ _ _ => rfl) (fun t => ?_) t d).trans ?_
  · rw [after4_0]; unfold Dat.blockOf blk4; rw [A_eq4]; try rfl
  · unfold Dat.fetched Dat.blockOf blk4; rw [A_eq4]; try rfl

/-- The bias window's buffer holds the bias row at every point, though it is fetched at the first only. -/
theorem found4_1 (c : Dev nD) (t : Fin cfg4.N) (d) : (dat4 V c).before 1 t d = blk4 V c 1 t := by
  refine ((dat4 V c).before_in_eq_fetched 1 rfl (fun _ => rfl) (fun _ _ _ => rfl) (fun t => ?_) t d).trans ?_
  · rw [after4_1]; unfold Dat.blockOf blk4; rw [A_eq4]; try rfl
  · unfold Dat.fetched Dat.blockOf blk4; rw [A_eq4]; try rfl

/-! ## Where the output windows are idle -/

theorem live4_0 : ∀ t : Fin cfg4.N, cfg4.idle 0 (grid4.coords t) = false := by decide +kernel
theorem live4_1 : ∀ t : Fin cfg4.N, cfg4.idle 1 (grid4.coords t) = false := by decide +kernel
theorem idle4_2 : ∀ t : Fin cfg4.N, ¬atLast4 (grid4.coords t) → cfg4.idle 2 (grid4.coords t) = true := by decide +kernel
theorem idle4_3 : ∀ t : Fin cfg4.N, ¬atLast4 (grid4.coords t) → cfg4.idle 3 (grid4.coords t) = true := by decide +kernel
theorem keep4_2 : ∀ t : Fin cfg4.N, ¬atLast4 (grid4.coords t) → (cfg4.win 2).flush t = false := by decide +kernel
theorem keep4_3 : ∀ t : Fin cfg4.N, ¬atLast4 (grid4.coords t) → (cfg4.win 3).flush t = false := by decide +kernel
theorem live4_2 : ∀ t : Fin cfg4.N, atLast4 (grid4.coords t) → cfg4.idle 2 (grid4.coords t) = false := by decide +kernel
theorem live4_3 : ∀ t : Fin cfg4.N, atLast4 (grid4.coords t) → cfg4.idle 3 (grid4.coords t) = false := by decide +kernel

/-! ## The body obligation -/

/-- What the body is called with at row tile `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

theorem leaves4_0 (c : Dev nD) (t : Fin cfg4.N) :
    (dat4 V c).leavesExact 0 t = owns (c : Thread nD τ) (st4_0 t) fullShare (blk4 V c 0 t) := by
  unfold Dat.leavesExact; rw [live4_0 t, after4_0]
theorem leaves4_1 (c : Dev nD) (t : Fin cfg4.N) :
    (dat4 V c).leavesExact 1 t = owns (c : Thread nD τ) (st4_1 t) fullShare (blk4 V c 1 t) := by
  unfold Dat.leavesExact; rw [live4_1 t, after4_1]
theorem leaves4_2_last (c : Dev nD) (t : Fin cfg4.N) (hl : atLast4 (grid4.coords t)) :
    (dat4 V c).leavesExact 2 t = owns (c : Thread nD τ) (st4_2 t) fullShare (sums4 V c t.val t.isLt).1 := by
  unfold Dat.leavesExact; rw [live4_2 t hl, after4_2]
theorem leaves4_3_last (c : Dev nD) (t : Fin cfg4.N) (hl : atLast4 (grid4.coords t)) :
    (dat4 V c).leavesExact 3 t = owns (c : Thread nD τ) (st4_3 t) fullShare (sums4 V c t.val t.isLt).2 := by
  unfold Dat.leavesExact; rw [live4_3 t hl, after4_3]

set_option maxHeartbeats 4000000 in
/-- The body at any row tile: the input windows hold their blocks; the grid coordinate decides which of the three
    runs applies; the invariant hands the body the two carried buffers (at anything at the first tile, at the
    previous sums later) and takes them back at this tile's sums; an output window is handed back as found except
    at the last tile, where it is left at the sums. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [found4_0, found4_1]
  rw [show (dat4 V c).owesAt () t.succ = (dat4 V c).owesAt () t.castSucc from rfl]
  rw [show (dat4 V c).Φ t.succ = Inv4 V c (t.val + 1) t.isLt from rfl, Inv4_next, leaves4_0, leaves4_1, Phi4_at]
  have hN : t.val < 10 := lt_of_lt_of_eq t.isLt (show cfg4.N = 10 from N_4)
  by_cases hz : t.val = 0
  · have hf : atFirst4 (grid4.coords t) := (atFirst4_iff t).mpr hz
    have hl : ¬atLast4 (grid4.coords t) := fun h => by have := (atLast4_iff t).mp h; omega
    rw [Dat.leavesExact_idle (dat4 V c) 2 t (idle4_2 t hl) (keep4_2 t hl),
      Dat.leavesExact_idle (dat4 V c) 3 t (idle4_3 t hl) (keep4_3 t hl),
      sums4_first V c t hz, Inv4_entry V c _ _ hz, scoped_entry4]
    iintro ⟨⟨Hg, ⟨⟨%e0, HS0⟩, ⟨%e1, HS1⟩⟩, Hr⟩, Ho, ⟨%d0, H0⟩, ⟨%d1, H1⟩, ⟨%d2, H2⟩, ⟨%d3, H3⟩⟩
    iapply (run_first4 c Set.univ (grid4.coords t) _ _ _ _ _ _ _ _ _ _ _ _ hf hl (tile4 V c t) (bias4 V c t) _)
    isplitl [H0]; · iexact H0
    isplitl [H1]; · iexact H1
    isplitl [HS0]; · iexists _; iexact HS0
    isplitl [HS1]; · iexists _; iexact HS1
    iintro ⟨H0, H1, HS0, HS1⟩
    isplitl [Hg HS0 HS1 Hr]
    · isplitl [Hg]; · iexact Hg
      isplitl [HS0 HS1]
      · isplitl [HS0]; · iexact HS0
        iexact HS1
      iexact Hr
    isplitl [Ho]; · iexact Ho
    isplitl [H0]; · iexact H0
    isplitl [H1]; · iexact H1
    isplitl [H2]; · iexists _; iexact H2
    iexists _; iexact H3
  · have hf : ¬atFirst4 (grid4.coords t) := fun h => hz ((atFirst4_iff t).mp h)
    rw [sums4_later V c t hz, Inv4_later V c _ _ hz]
    by_cases h9 : t.val = 9
    · have hl : atLast4 (grid4.coords t) := (atLast4_iff t).mpr h9
      rw [leaves4_2_last V c t hl, leaves4_3_last V c t hl, sums4_later V c t hz]
      iintro ⟨⟨Hg, ⟨HS0, HS1⟩, Hr⟩, Ho, ⟨%d0, H0⟩, ⟨%d1, H1⟩, ⟨%d2, H2⟩, ⟨%d3, H3⟩⟩
      iapply (run_last4 c Set.univ (grid4.coords t) _ _ _ _ _ _ _ _ _ _ _ _ hf hl (tile4 V c t) (bias4 V c t) _ _ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      iexact H3
    · have hl : ¬atLast4 (grid4.coords t) := fun h => h9 ((atLast4_iff t).mp h)
      rw [Dat.leavesExact_idle (dat4 V c) 2 t (idle4_2 t hl) (keep4_2 t hl),
        Dat.leavesExact_idle (dat4 V c) 3 t (idle4_3 t hl) (keep4_3 t hl)]
      iintro ⟨⟨Hg, ⟨HS0, HS1⟩, Hr⟩, Ho, ⟨%d0, H0⟩, ⟨%d1, H1⟩, ⟨%d2, H2⟩, ⟨%d3, H3⟩⟩
      iapply (run_mid4 c Set.univ (grid4.coords t) _ _ _ _ _ _ _ _ _ _ _ _ hf hl (tile4 V c t) (bias4 V c t) _ _ _)
      isplitl [H0]; · iexact H0
      isplitl [H1]; · iexact H1
      isplitl [HS0]; · iexact HS0
      isplitl [HS1]; · iexact HS1
      iintro ⟨H0, H1, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexists _; iexact H2
      iexists _; iexact H3

/-- The library's body obligation, at every row tile. -/
theorem body_obligation4 (c : Dev nD) : BodyObligation (dat4 (F := F) V c) (defs₀ (F := F)) Variants.none () Set.univ := fun t => by
  rw [bigSep_W4, bigSep_W4]
  exact sound_body4 V c t

/-! ## Entering and leaving the region -/

/-- What the region is entered with is the invariant before the first row tile. -/
theorem phi_in4 (c : Dev nD) :
    iprop((∃ r, prngReg c r) ∗ Pipeline.scopedRest (Ix := Unit) (Name := ℕ) (U := UR sig nD τ) (Lvl := ℕ) spec4 c)
      ⊢ ((dat4 (F := F) V c).Φ 0 : sProp 𝕄) := by
  rw [show (dat4 V c).Φ 0 = Inv4 V c 0 (Nat.zero_le _) from rfl, Inv4_entry V c 0 _ rfl]

/-- After the last row tile the invariant gives the same back: the sums in the two carried buffers are forgotten. -/
theorem phi_out4 (c : Dev nD) :
    ((dat4 (F := F) V c).Φ (Fin.last cfg4.N) : sProp 𝕄)
      ⊢ iprop((∃ r, prngReg c r) ∗ Pipeline.scopedRest (Ix := Unit) (Name := ℕ) (U := UR sig nD τ) (Lvl := ℕ) spec4 c) := by
  rw [show (dat4 V c).Φ (Fin.last cfg4.N) = Inv4 V c (Fin.last cfg4.N).val (Nat.le_of_lt_succ (Fin.last cfg4.N).isLt) from rfl,
    Inv4_later V c _ _ (by rw [Fin.val_last]; have : cfg4.N = 10 := N_4; omega), scoped_entry4]
  iintro ⟨Hg, ⟨HS0, HS1⟩, Hr⟩
  isplitl [Hg]; · iexact Hg
  isplitl [HS0 HS1]
  · isplitl [HS0]; · iexists _; iexact HS0
    iexists _; iexact HS1
  iexact Hr

end Cert.Kernel.Reg

end
-- ==== Proof.K.R5.lean ====
import proofs.«429275_j68899865363005_1_alg».proof.Proof.Gen.Kernel.Launch
import proofs.«429275_j68899865363005_1_alg».proof.Proof.Gen.Kernel.Skeleton
import proofs.«429275_j68899865363005_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the normalise-and-clamp pass over the row tiles

Region 5 walks the ten row tiles of a 50000 x 128 array. At each tile it reads the tile and three
1 x 128 rows (an offset, a mean, an inverse deviation), and overwrites the matching tile of the
output array with a pointwise function of those four values. Nothing is carried from one tile to the
next, so the region's invariant is only "the rest of the scoped memory and the generator register
are somewhere", the same at every point.

Everything here is stated at the contents V the TensorCore's buffers have when the region is entered,
and at an arbitrary float model.
-/

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tile a window shows at a grid point -/

/-- The part of window w's array (as the region finds it) that lies under the window at point t. -/
def tile5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-! ## What the body writes -/

/-- The whole 5000 x 128 staging buffer as one rectangle, and the whole 1 x 128 one. -/
abbrev big5 : Rect S5000x128 := Rect.unit (s := S5000x128) ![0, 0] S5000x128.size inb_S5000x128_S5000x128_0_0
abbrev row5 : Rect S1x128 := Rect.unit (s := S1x128) ![0, 0] S1x128.size inb_S1x128_S1x128_0_0

/-- The output staging buffer after the body: its single whole-buffer store, of the pointwise payload
    applied to what the four input buffers hold. -/
def res5 (x : Vec F S5000x128 .f32) (b mu sg : Vec F S1x128 .f32) : Vec F S5000x128 .f32 :=
  View.canon [⟨big5, k5_pay1 (View.ld x big5) (View.ld b row5) (View.ld mu row5) (View.ld sg row5)⟩]

/-- One store of the whole rectangle leaves no element of the buffer unwritten. -/
theorem res5_total (p : Vec F S5000x128 .f32) (y : S5000x128.Idx) :
    ∃ pc ∈ ([⟨big5, p⟩] : List (View.Piece (Elt F) S5000x128 .f32)), y ∈ pc.1.set :=
  View.cover_of_tiled [⟨big5, p⟩] S5000x128.size (by rfl) y

/-! ## Running the body once -/

set_option maxHeartbeats 1000000 in
/-- The body, given whole staging buffers with the four inputs at known contents and the output at
    anything, ends with the inputs unchanged and the output at res5 of them. -/
theorem run_kernel5 (c : Dev nD) (E : Set ℕ) (i : grid5.Coords)
    (a1 : Memref sig .tc .vmem S5000x128 .f32) (h1 : a1.IsWhole)
    (a2 : Memref sig .tc .vmem S1x128 .f32) (h2 : a2.IsWhole)
    (a3 : Memref sig .tc .vmem S1x128 .f32) (h3 : a3.IsWhole)
    (a4 : Memref sig .tc .vmem S1x128 .f32) (h4 : a4.IsWhole)
    (a5 : Memref sig .tc .vmem S5000x128 .f32) (h5 : a5.IsWhole)
    (x : Vec F S5000x128 .f32) (b mu sg : Vec F S1x128 .f32) (K : PUnit → sProp 𝕄) :
    iprop(owns (c : Thread nD τ) a1 fullShare x ∗ owns (c : Thread nD τ) a2 fullShare b
        ∗ owns (c : Thread nD τ) a3 fullShare mu ∗ owns (c : Thread nD τ) a4 fullShare sg
        ∗ (∃ d, owns (c : Thread nD τ) a5 fullShare d)
        ∗ (iprop(owns (c : Thread nD τ) a1 fullShare x ∗ owns (c : Thread nD τ) a2 fullShare b
            ∗ owns (c : Thread nD τ) a3 fullShare mu ∗ owns (c : Thread nD τ) a4 fullShare sg
            ∗ owns (c : Thread nD τ) a5 fullShare (res5 x b mu sg)) -∗ K ⟨⟩))
      ⊢ wp frame (wpE (defs₀ (F := F)) Variants.none c none) E
          (cc5__bn_norm_relu_kernel i a1 h1 a2 h2 a3 h3 a4 h4 a5 h5) K := by
  simp only [cc5__bn_norm_relu_kernel_eq_skeleton]; unfold cc5__bn_norm_relu_kernel_skel
  unfold owns
  iintro ⟨⟨%f1, %e1, H1⟩, ⟨%f2, %e2, H2⟩, ⟨%f3, %e3, H3⟩, ⟨%f4, %e4, H4⟩, ⟨%d5, %f5, -, H5⟩, Hk⟩
  subst e1; subst e2; subst e3; subst e4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (res5_total _)

/-! ## An input window keeps showing its tile

The big tile is fetched afresh at every point. The three rows are fetched at the first point only,
but their block index never moves, so what was fetched then is still what a fetch would bring now. In
all four cases the staging buffer the body is handed holds the window's tile of the entry array, for
any proof data whose array is V's and whose body leaves that tile in place. -/

theorem shows5_0 {c : Dev nD} (dat : Dat τ (Elt F) Unit ℕ (UR sig nD τ) ℕ cfg5 c)
    (hA : dat.A 0 = V c (Pipeline.arrRef spec5 0)) (hkeep : ∀ t, dat.after 0 t = tile5 V c 0 t)
    (t : Fin cfg5.N) (d) : dat.before 0 t d = tile5 V c 0 t :=
  (dat.before_in_eq_fetched 0 rfl (fun _ => rfl) (fun _ _ _ => rfl)
      (fun t => by rw [hkeep]; unfold Dat.blockOf tile5; rw [hA]; try rfl) t d).trans
    (by unfold Dat.fetched Dat.blockOf tile5; rw [hA]; try rfl)

theorem shows5_1 {c : Dev nD} (dat : Dat τ (Elt F) Unit ℕ (UR sig nD τ) ℕ cfg5 c)
    (hA : dat.A 1 = V c (Pipeline.arrRef spec5 1)) (hkeep : ∀ t, dat.after 1 t = tile5 V c 1 t)
    (t : Fin cfg5.N) (d) : dat.before 1 t d = tile5 V c 1 t :=
  (dat.before_in_eq_fetched 1 rfl (fun _ => rfl) (fun _ _ _ => rfl)
      (fun t => by rw [hkeep]; unfold Dat.blockOf tile5; rw [hA]; try rfl) t d).trans
    (by unfold Dat.fetched Dat.blockOf tile5; rw [hA]; try rfl)

theorem shows5_2 {c : Dev nD} (dat : Dat τ (Elt F) Unit ℕ (UR sig nD τ) ℕ cfg5 c)
    (hA : dat.A 2 = V c (Pipeline.arrRef spec5 2)) (hkeep : ∀ t, dat.after 2 t = tile5 V c 2 t)
    (t : Fin cfg5.N) (d) : dat.before 2 t d = tile5 V c 2 t :=
  (dat.before_in_eq_fetched 2 rfl (fun _ => rfl) (fun _ _ _ => rfl)
      (fun t => by rw [hkeep]; unfold Dat.blockOf tile5; rw [hA]; try rfl) t d).trans
    (by unfold Dat.fetched Dat.blockOf tile5; rw [hA]; try rfl)

theorem shows5_3 {c : Dev nD} (dat : Dat τ (Elt F) Unit ℕ (UR sig nD τ) ℕ cfg5 c)
    (hA : dat.A 3 = V c (Pipeline.arrRef spec5 3)) (hkeep : ∀ t, dat.after 3 t = tile5 V c 3 t)
    (t : Fin cfg5.N) (d) : dat.before 3 t d = tile5 V c 3 t :=
  (dat.before_in_eq_fetched 3 rfl (fun _ => rfl) (fun _ _ _ => rfl)
      (fun t => by rw [hkeep]; unfold Dat.blockOf tile5; rw [hA]; try rfl) t d).trans
    (by unfold Dat.fetched Dat.blockOf tile5; rw [hA]; try rfl)

/-! ## The region's proof data -/

/-- Region 5 on core c: the arrays as found on entry; after the body at point t each input buffer
    still at its tile and the output buffer at res5 of the four tiles; the invariant is the rest of
    the scoped memory and the generator register, wherever they are; full shares; nothing owed. -/
def dat5 (c : Dev nD) : Dat τ (Elt F) Unit ℕ (UR sig nD τ) ℕ cfg5 c where
  A w := V c (Pipeline.arrRef spec5 w)
  after w t := match w with
    | ⟨0, _⟩ => tile5 V c 0 t
    | ⟨1, _⟩ => tile5 V c 1 t
    | ⟨2, _⟩ => tile5 V c 2 t
    | ⟨3, _⟩ => tile5 V c 3 t
    | ⟨4, _⟩ => res5 (tile5 V c 0 t) (tile5 V c 1 t) (tile5 V c 2 t) (tile5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

/-- What the body leaves in each window's buffer at point t. -/
theorem after5_0 (c : Dev nD) (t : Fin cfg5.N) : (dat5 V c).after 0 t = tile5 V c 0 t := by dsimp only [dat5]
theorem after5_1 (c : Dev nD) (t : Fin cfg5.N) : (dat5 V c).after 1 t = tile5 V c 1 t := by dsimp only [dat5]
theorem after5_2 (c : Dev nD) (t : Fin cfg5.N) : (dat5 V c).after 2 t = tile5 V c 2 t := by dsimp only [dat5]
theorem after5_3 (c : Dev nD) (t : Fin cfg5.N) : (dat5 V c).after 3 t = tile5 V c 3 t := by dsimp only [dat5]
theorem after5_4 (c : Dev nD) (t : Fin cfg5.N) :
    (dat5 V c).after 4 t = res5 (tile5 V c 0 t) (tile5 V c 1 t) (tile5 V c 2 t) (tile5 V c 3 t) := by
  dsimp only [dat5]

/-- What the body finds in each input window's buffer at point t. -/
theorem before5_0 (c : Dev nD) (t : Fin cfg5.N) (d) : (dat5 V c).before 0 t d = tile5 V c 0 t :=
  shows5_0 V (dat5 V c) (A_eq5 V c 0) (after5_0 V c) t d
theorem before5_1 (c : Dev nD) (t : Fin cfg5.N) (d) : (dat5 V c).before 1 t d = tile5 V c 1 t :=
  shows5_1 V (dat5 V c) (A_eq5 V c 1) (after5_1 V c) t d
theorem before5_2 (c : Dev nD) (t : Fin cfg5.N) (d) : (dat5 V c).before 2 t d = tile5 V c 2 t :=
  shows5_2 V (dat5 V c) (A_eq5 V c 2) (after5_2 V c) t d
theorem before5_3 (c : Dev nD) (t : Fin cfg5.N) (d) : (dat5 V c).before 3 t d = tile5 V c 3 t :=
  shows5_3 V (dat5 V c) (A_eq5 V c 3) (after5_3 V c) t d

/-! ## The body at a grid point -/

/-- What the pipeline hands the body at point t, -/
def given5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it must hand back. -/
def left5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- At any point the four input buffers show their tiles, so the body's triple applies; the invariant
    and the tally of what is owed are passed along untouched. -/
theorem run_body5 (c : Dev nD) (t : Fin cfg5.N) :
    given5 V c t ⊢ wp frame (wpE (defs₀ (F := F)) Variants.none c none) Set.univ (bodyAt5 t) (fun _ => left5 V c t) := by
  unfold given5 left5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (run_kernel5 c Set.univ _ _ _ _ _ _ _ _ _ _ _
    (tile5 V c 0 t) (tile5 V c 1 t) (tile5 V c 2 t) (tile5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation5 (c : Dev nD) :
    BodyObligation (dat5 (F := F) V c) (defs₀ (F := F)) Variants.none () Set.univ := fun t => by
  rw [bigSep_W5, bigSep_W5]
  exact run_body5 V c t

/-! ## Entering and leaving the invariant -/

/-- The generator register and the scoped rest, in either order, are the invariant at the first point, -/
theorem phi_in5 (c : Dev nD) :
    iprop((∃ r, prngReg c r) ∗ Pipeline.scopedRest (Ix := Unit) (Name := ℕ) (U := UR sig nD τ) (Lvl := ℕ) spec5 c)
      ⊢ ((dat5 (F := F) V c).Φ 0 : sProp 𝕄) := by
  rw [show (dat5 (F := F) V c).Φ 0 = Pipeline.ΦA spec5 c from rfl]; unfold Pipeline.ΦA
  iintro ⟨Hp, Hr⟩
  isplitl [Hr]; · iexact Hr
  iexact Hp

/-- and the invariant after the last point gives both back. -/
theorem phi_out5 (c : Dev nD) :
    ((dat5 (F := F) V c).Φ (Fin.last cfg5.N) : sProp 𝕄)
      ⊢ iprop((∃ r, prngReg c r) ∗ Pipeline.scopedRest (Ix := Unit) (Name := ℕ) (U := UR sig nD τ) (Lvl := ℕ) spec5 c) := by
  rw [show (dat5 (F := F) V c).Φ (Fin.last cfg5.N) = Pipeline.ΦA spec5 c from rfl]; unfold Pipeline.ΦA
  iintro ⟨Hr, Hp⟩
  isplitl [Hp]; · iexact Hp
  iexact Hr

end Cert.Kernel.Reg

end
-- ==== Proof.K.R6.lean ====
/-
  Region 6 of the program: a dense layer without bias, out = x · Wᵀ, computed one row tile at a time.

  The row dimension (50000) is split into ten tiles of 5000 rows. At grid point t the body reads the t-th
  row tile of x and the whole 128 × 128 weight matrix, and overwrites the t-th row tile of the output with the
  product of the tile by the transposed weights. Nothing is carried from one tile to the next, so the
  region's invariant is only "what the body never touches stays as it is".

  Everything here is stated at arbitrary buffer contents V at the moment the region is entered, and for any
  float instance: the statements concern which cells are read and written, not what the arithmetic gives.
-/
import proofs.«429275_j68899865363005_1_alg».proof.Proof.Gen.Kernel.Launch
import proofs.«429275_j68899865363005_1_alg».proof.Proof.Gen.Kernel.Skeleton
import proofs.«429275_j68899865363005_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles the body is handed -/

/-- The part of window w's array that grid point t looks at, taken from the array as it stands on entry. -/
def tile6 (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-- The x tile is in its buffer whenever the body runs. The body does not change it and every point loads a
    fresh tile, so the buffer holds exactly the t-th row tile of the entry array. -/
theorem finds6_x {c : Dev nD} (dat : Dat τ (Elt F) Unit ℕ (UR sig nD τ) ℕ cfg6 c)
    (hA : dat.A 0 = V c (Pipeline.arrRef spec6 0)) (hkeep : ∀ t, dat.after 0 t = tile6 V c 0 t)
    (t : Fin cfg6.N) (d) : dat.before 0 t d = tile6 V c 0 t :=
  (dat.before_in_eq_fetched 0 rfl (fun _ => rfl) (fun _ _ _ => rfl)
      (fun t => by rw [hkeep]; unfold Dat.blockOf tile6; rw [hA]; try rfl) t d).trans
    (by unfold Dat.fetched Dat.blockOf tile6; rw [hA]; try rfl)

/-- The weight matrix is loaded once, at the first point; its window never moves and the body leaves it alone,
    so at every later point the buffer still holds the same matrix. -/
theorem finds6_w {c : Dev nD} (dat : Dat τ (Elt F) Unit ℕ (UR sig nD τ) ℕ cfg6 c)
    (hA : dat.A 1 = V c (Pipeline.arrRef spec6 1)) (hkeep : ∀ t, dat.after 1 t = tile6 V c 1 t)
    (t : Fin cfg6.N) (d) : dat.before 1 t d = tile6 V c 1 t :=
  (dat.before_in_eq_fetched 1 rfl (fun _ => rfl) (fun _ _ _ => rfl)
      (fun t => by rw [hkeep]; unfold Dat.blockOf tile6; rw [hA]; try rfl) t d).trans
    (by unfold Dat.fetched Dat.blockOf tile6; rw [hA]; try rfl)

/-! ## What one run of the body writes -/

/-- The whole 5000 × 128 tile, as a rectangle of itself. -/
abbrev whole_x6 : Rect S5000x128 := Rect.unit (s := S5000x128) ![0, 0] S5000x128.size inb_S5000x128_S5000x128_0_0
/-- The whole 128 × 128 matrix, as a rectangle of itself. -/
abbrev whole_w6 : Rect S128x128 := Rect.unit (s := S128x128) ![0, 0] S128x128.size inb_S128x128_S128x128_0_0

/-- The output tile after the body: a single store over the whole tile, of the product of the x tile by the
    transposed weights. -/
def prod6 (x : Vec F S5000x128 .f32) (w : Vec F S128x128 .f32) : Vec F S5000x128 .f32 :=
  View.canon [⟨whole_x6, k6_pay1 (View.ld x whole_x6) (View.ld w whole_w6)⟩]

/-- One store over the whole tile reaches every cell of it. -/
theorem prod6_total (p : Vec F S5000x128 .f32) (y : S5000x128.Idx) :
    ∃ pc ∈ ([⟨whole_x6, p⟩] : List (View.Piece (Elt F) S5000x128 .f32)), y ∈ pc.1.set :=
  View.cover_of_tiled [⟨whole_x6, p⟩] S5000x128.size (by rfl) y

/-! ## The body on three buffers -/

set_option maxHeartbeats 1000000 in
/-- Run on a buffer holding x, a buffer holding w and an output buffer holding anything, the body returns the first
    two unchanged and the third holding prod6 x w. (The body also reads the output buffer before overwriting it;
    what it reads there is not used.) -/
theorem linear_triple6 (c : Dev nD) (E : Set ℕ) (i : grid6.Coords)
    (a1 : Memref sig .tc .vmem S5000x128 .f32) (h1 : a1.IsWhole)
    (a2 : Memref sig .tc .vmem S128x128 .f32) (h2 : a2.IsWhole)
    (a3 : Memref sig .tc .vmem S5000x128 .f32) (h3 : a3.IsWhole)
    (x : Vec F S5000x128 .f32) (w : Vec F S128x128 .f32) (K : PUnit → sProp 𝕄) :
    iprop(owns (c : Thread nD τ) a1 fullShare x ∗ owns (c : Thread nD τ) a2 fullShare w
        ∗ (∃ d, owns (c : Thread nD τ) a3 fullShare d)
        ∗ (iprop(owns (c : Thread nD τ) a1 fullShare x ∗ owns (c : Thread nD τ) a2 fullShare w
            ∗ owns (c : Thread nD τ) a3 fullShare (prod6 x w)) -∗ K ⟨⟩))
      ⊢ wp frame (wpE (defs₀ (F := F)) Variants.none c none) E (cc6__linear_kernel i a1 h1 a2 h2 a3 h3) K := by
  simp only [cc6__linear_kernel_eq_skeleton]; unfold cc6__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod6_total _)

/-! ## The region's data -/

/-- The data of region 6 on core c. The arrays start at V. After the body at point t, the two input buffers hold
    what they held (their tiles) and the output buffer holds the product of the two. The invariant says only that
    the rest of the core's scoped memory and its generator register exist; the full share of every array is held
    and nothing is owed to other cores. -/
def dat6 (c : Dev nD) : Dat τ (Elt F) Unit ℕ (UR sig nD τ) ℕ cfg6 c where
  A w := V c (Pipeline.arrRef spec6 w)
  after w t := match w with
    | ⟨0, _⟩ => tile6 V c 0 t
    | ⟨1, _⟩ => tile6 V c 1 t
    | ⟨2, _⟩ => prod6 (tile6 V c 0 t) (tile6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

/-- After the body: the x buffer still holds the x tile, -/
theorem after6_x (c : Dev nD) (t : Fin cfg6.N) : (dat6 V c).after 0 t = tile6 V c 0 t := by dsimp only [dat6]
/-- the w buffer still holds the weights, -/
theorem after6_w (c : Dev nD) (t : Fin cfg6.N) : (dat6 V c).after 1 t = tile6 V c 1 t := by dsimp only [dat6]
/-- and the output buffer holds their product. -/
theorem after6_out (c : Dev nD) (t : Fin cfg6.N) :
    (dat6 V c).after 2 t = prod6 (tile6 V c 0 t) (tile6 V c 1 t) := by dsimp only [dat6]

theorem before6_x (c : Dev nD) (t : Fin cfg6.N) (d) : (dat6 V c).before 0 t d = tile6 V c 0 t :=
  finds6_x V (dat6 V c) (A_eq6 V c 0) (after6_x V c) t d
theorem before6_w (c : Dev nD) (t : Fin cfg6.N) (d) : (dat6 V c).before 1 t d = tile6 V c 1 t :=
  finds6_w V (dat6 V c) (A_eq6 V c 1) (after6_w V c) t d

/-! ## The body at a grid point -/

/-- What the pipeline gives the body at point t: the invariant, the debt ledger, and the three current buffers. -/
def given6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- What the body gives back. -/
def back6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- At every point the input buffers hold their tiles, so the triple above applies; invariant and ledger are not
    looked at. -/
theorem point6 (c : Dev nD) (t : Fin cfg6.N) :
    given6 V c t ⊢ wp frame (wpE (defs₀ (F := F)) Variants.none c none) Set.univ (bodyAt6 t) (fun _ => back6 V c t) := by
  unfold given6 back6 bodyAt6
  simp only [before6_x, before6_w]
  rw [show (dat6 V c).Φ t.succ = (dat6 V c).Φ t.castSucc from rfl,
    show (dat6 V c).owesAt () t.succ = (dat6 V c).owesAt () t.castSucc from rfl,
    after6_x, after6_w, after6_out]
  iintro ⟨HΦ, Ho, ⟨%d0, H0⟩, ⟨%d1, H1⟩, ⟨%d2, H2⟩⟩
  iapply (linear_triple6 c Set.univ _ _ _ _ _ _ _ (tile6 V c 0 t) (tile6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) :
    BodyObligation (dat6 (F := F) V c) (defs₀ (F := F)) Variants.none () Set.univ := fun t => by
  rw [bigSep_W6, bigSep_W6]
  exact point6 V c t

/-! ## The two ends of the invariant -/

/-- Entering: the generator register and the untouched scoped memory are exactly the invariant before point 0. -/
theorem phi_in6 (c : Dev nD) :
    iprop((∃ r, prngReg c r) ∗ Pipeline.scopedRest (Ix := Unit) (Name := ℕ) (U := UR sig nD τ) (Lvl := ℕ) spec6 c)
      ⊢ ((dat6 (F := F) V c).Φ 0 : sProp 𝕄) := by
  show _ ⊢ Pipeline.ΦA spec6 c
  unfold Pipeline.ΦA
  iintro ⟨Hp, Hs⟩
  isplitl [Hs]; · iexact Hs
  iexact Hp

/-- Leaving: the invariant after the last point gives the same two things back. -/
theorem phi_out6 (c : Dev nD) :
    ((dat6 (F := F) V c).Φ (Fin.last cfg6.N) : sProp 𝕄)
      ⊢ iprop((∃ r, prngReg c r) ∗ Pipeline.scopedRest (Ix := Unit) (Name := ℕ) (U := UR sig nD τ) (Lvl := ℕ) spec6 c) := by
  show Pipeline.ΦA spec6 c ⊢ _
  unfold Pipeline.ΦA
  iintro ⟨Hs, Hp⟩
  isplitl [Hp]; · iexact Hp
  iexact Hs

end Cert.Kernel.Reg
-- ==== Proof.K.R7.lean ====
import proofs.«429275_j68899865363005_1_alg».proof.Proof.Gen.Kernel.Launch
import proofs.«429275_j68899865363005_1_alg».proof.Proof.Gen.Kernel.Skeleton
import proofs.«429275_j68899865363005_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7 of the program: segment pooling followed by the classifier

The body at a grid point adds, into a [512x128] scratch carried across the ten points, the one-hot
contraction of the point's row tile; the first point clears the scratch before, the last point divides it by
the count column, contracts with the weights, adds the bias row and stores the [512x10] result.  The output
window is written back at the last point only and is idle at the nine others. -/

section Region7

variable (V : (c : Dev nD) → (b : Ref sig .tc) → Buf (Elt F) ((c : Thread nD τ).loc b))

/-! ## The blocks the windows hold -/

/-- The block of window `w` at grid point `t`, read off the array as the region finds it. -/
def blk7 (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-- An input window holds its block at every point, fetched there or carried over from the point before:
    its index map does not move between two fetches, no block is cut, and the body stores nothing into it. -/
theorem held7_0 {c : Dev nD} (dat : Dat τ (Elt F) Unit ℕ (UR sig nD τ) ℕ cfg7 c) (hA : dat.A 0 = V c (Pipeline.arrRef spec7 0))
    (hafter : ∀ t, dat.after 0 t = blk7 V c 0 t) (t : Fin cfg7.N) (d) : dat.before 0 t d = blk7 V c 0 t :=
  (dat.before_in_eq_fetched 0 rfl (fun _ => rfl) (fun _ _ _ => rfl) (fun t => by rw [hafter]; unfold Dat.blockOf blk7; rw [hA]; try rfl) t d).trans
    (by unfold Dat.fetched Dat.blockOf blk7; rw [hA]; try rfl)
theorem held7_1 {c : Dev nD} (dat : Dat τ (Elt F) Unit ℕ (UR sig nD τ) ℕ cfg7 c) (hA : dat.A 1 = V c (Pipeline.arrRef spec7 1))
    (hafter : ∀ t, dat.after 1 t = blk7 V c 1 t) (t : Fin cfg7.N) (d) : dat.before 1 t d = blk7 V c 1 t :=
  (dat.before_in_eq_fetched 1 rfl (fun _ => rfl) (fun _ _ _ => rfl) (fun t => by rw [hafter]; unfold Dat.blockOf blk7; rw [hA]; try rfl) t d).trans
    (by unfold Dat.fetched Dat.blockOf blk7; rw [hA]; try rfl)
theorem held7_2 {c : Dev nD} (dat : Dat τ (Elt F) Unit ℕ (UR sig nD τ) ℕ cfg7 c) (hA : dat.A 2 = V c (Pipeline.arrRef spec7 2))
    (hafter : ∀ t, dat.after 2 t = blk7 V c 2 t) (t : Fin cfg7.N) (d) : dat.before 2 t d = blk7 V c 2 t :=
  (dat.before_in_eq_fetched 2 rfl (fun _ => rfl) (fun _ _ _ => rfl) (fun t => by rw [hafter]; unfold Dat.blockOf blk7; rw [hA]; try rfl) t d).trans
    (by unfold Dat.fetched Dat.blockOf blk7; rw [hA]; try rfl)
theorem held7_3 {c : Dev nD} (dat : Dat τ (Elt F) Unit ℕ (UR sig nD τ) ℕ cfg7 c) (hA : dat.A 3 = V c (Pipeline.arrRef spec7 3))
    (hafter : ∀ t, dat.after 3 t = blk7 V c 3 t) (t : Fin cfg7.N) (d) : dat.before 3 t d = blk7 V c 3 t :=
  (dat.before_in_eq_fetched 3 rfl (fun _ => rfl) (fun _ _ _ => rfl) (fun t => by rw [hafter]; unfold Dat.blockOf blk7; rw [hA]; try rfl) t d).trans
    (by unfold Dat.fetched Dat.blockOf blk7; rw [hA]; try rfl)
theorem held7_4 {c : Dev nD} (dat : Dat τ (Elt F) Unit ℕ (UR sig nD τ) ℕ cfg7 c) (hA : dat.A 4 = V c (Pipeline.arrRef spec7 4))
    (hafter : ∀ t, dat.after 4 t = blk7 V c 4 t) (t : Fin cfg7.N) (d) : dat.before 4 t d = blk7 V c 4 t :=
  (dat.before_in_eq_fetched 4 rfl (fun _ => rfl) (fun _ _ _ => rfl) (fun t => by rw [hafter]; unfold Dat.blockOf blk7; rw [hA]; try rfl) t d).trans
    (by unfold Dat.fetched Dat.blockOf blk7; rw [hA]; try rfl)

/-! ## The rectangles the body reads and writes: each the whole of its buffer -/

abbrev boxH : Rect S5000x128 := Rect.unit (s := S5000x128) ![0, 0] S5000x128.size inb_S5000x128_S5000x128_0_0
abbrev boxB : Rect S5000x1 := Rect.unit (s := S5000x1) ![0, 0] S5000x1.size inb_S5000x1_S5000x1_0_0
abbrev boxC : Rect S512x1 := Rect.unit (s := S512x1) ![0, 0] S512x1.size inb_S512x1_S512x1_0_0
abbrev boxW : Rect S10x128 := Rect.unit (s := S10x128) ![0, 0] S10x128.size inb_S10x128_S10x128_0_0
abbrev boxL : Rect S1x10 := Rect.unit (s := S1x10) ![0, 0] S1x10.size inb_S1x10_S1x10_0_0
abbrev boxO : Rect S512x10 := Rect.unit (s := S512x10) ![0, 0] S512x10.size inb_S512x10_S512x10_0_0
abbrev boxS : Rect S512x128 := Rect.unit (s := S512x128) ![0, 0] S512x128.size inb_S512x128_S512x128_0_0

/-- A single store through `boxS` fills the scratch. -/
theorem fillS (p : boxS.shape.Idx → Elt F .f32) (y : S512x128.Idx) :
    ∃ pc ∈ ([⟨boxS, p⟩] : List (View.Piece (Elt F) S512x128 .f32)), y ∈ pc.1.set :=
  View.cover_of_tiled [⟨boxS, p⟩] S512x128.size (by rfl) y

/-- A single store through `boxO` fills the output block. -/
theorem fillO (p : boxO.shape.Idx → Elt F .f32) (y : S512x10.Idx) :
    ∃ pc ∈ ([⟨boxO, p⟩] : List (View.Piece (Elt F) S512x10 .f32)), y ∈ pc.1.set :=
  View.cover_of_tiled [⟨boxO, p⟩] S512x10.size (by rfl) y

/-- A store through a rectangle that is the whole shape hides every earlier store. -/
theorem canon_top {s : Shape} {e : EltTy} (r : Rect s) (w : r.shape.Idx → Elt F e) (L : List (View.Piece (Elt F) s e))
    (h : ∀ y, ∃ pc ∈ ([⟨r, w⟩] : List (View.Piece (Elt F) s e)), y ∈ pc.1.set) :
    View.canon (⟨r, w⟩ :: L) = View.canon [⟨r, w⟩] := by
  funext y
  obtain ⟨pc, hpc, hy⟩ := h y
  rw [List.mem_singleton] at hpc; subst hpc
  obtain ⟨x, rfl⟩ : ∃ x, r.emb x = y := r.exists_idx_of_mem hy
  rw [View.canon_cons_emb, View.canon_cons_emb]

/-- If the newest store fills the shape, so does the list of stores. -/
theorem cover_head {s : Shape} {e : EltTy} (p : View.Piece (Elt F) s e) (L : List (View.Piece (Elt F) s e))
    (h : ∀ y, ∃ pc ∈ ([p] : List (View.Piece (Elt F) s e)), y ∈ pc.1.set) : ∀ y, ∃ pc ∈ p :: L, y ∈ pc.1.set := fun y => by
  obtain ⟨pc, hpc, hy⟩ := h y
  rw [List.mem_singleton] at hpc; subst hpc
  exact ⟨_, List.mem_cons_self, hy⟩

/-! ## What one run of the body leaves -/

/-- The scratch after the clearing store of the first point. -/
def cleared7 : Vec F S512x128 .f32 := View.canon [⟨boxS, k7_pay1 (F := F)⟩]

/-- The scratch after the accumulating store: from the row tile `h`, the batch column tile `b` and the
    scratch `s` as it was. -/
def pooled7 (h : Vec F S5000x128 .f32) (b : Vec F S5000x1 .i32) (s : Vec F S512x128 .f32) : Vec F S512x128 .f32 :=
  View.canon [⟨boxS, k7_pay2 (View.ld h boxH) (View.ld b boxB) (View.ld s boxS)⟩]

/-- The output block after the store of the last point: from the scratch `s`, the count column, the weights
    and the bias row. -/
def logits7 (s : Vec F S512x128 .f32) (n : Vec F S512x1 .f32) (w : Vec F S10x128 .f32) (l : Vec F S1x10 .f32) : Vec F S512x10 .f32 :=
  View.canon [⟨boxO, k7_pay3 (View.ld s boxS) (View.ld n boxC) (View.ld w boxW) (View.ld l boxL)⟩]

/-! ## The two conditions of the body, in closed form over the grid -/

/-- The condition under which the body clears the scratch. -/
abbrev atFirst (i : grid7.Coords) : Prop :=
  Scalar.cmpi .ne (Scalar.extui (Scalar.cmpi .eq (BitVec.ofNat 32 (i 0).val) 0#32)) 0#32 = 1#1
/-- The condition under which the body stores the output. -/
abbrev atLast (i : grid7.Coords) : Prop := k7_cond2 i = 1#1

theorem atFirst_iff : ∀ t : Fin cfg7.N, atFirst (grid7.coords t) ↔ t.val % 10 = 0 :=
  (by decide +kernel : ∀ t : Fin grid7.N, atFirst (grid7.coords t) ↔ t.val % 10 = 0)
theorem atLast_iff : ∀ t : Fin cfg7.N, atLast (grid7.coords t) ↔ t.val % 10 = 9 :=
  (by decide +kernel : ∀ t : Fin grid7.N, atLast (grid7.coords t) ↔ t.val % 10 = 9)

/-- Off the last point the output window is idle and not written back; at it, live. -/
theorem idle7_5 : ∀ t : Fin cfg7.N, ¬ atLast (grid7.coords t) → cfg7.idle 5 (grid7.coords t) = true := by decide +kernel
theorem quiet7_5 : ∀ t : Fin cfg7.N, ¬ atLast (grid7.coords t) → (cfg7.win 5).flush t = false := by decide +kernel
theorem live7_5 : ∀ t : Fin cfg7.N, atLast (grid7.coords t) → cfg7.idle 5 (grid7.coords t) = false := by decide +kernel

/-! ## The body's run, one statement per control case

Each on whole memrefs: the buffers the case reads at named contents, the ones it overwrites whole at any
contents; the buffers the case does not touch are not mentioned. -/

set_option maxHeartbeats 2000000 in
/-- First point: the scratch is cleared, then the tile is pooled into it; no output is stored. -/
theorem run_first7 (c : Dev nD) (E : Set ℕ) (i : grid7.Coords) (h0 : atFirst i) (h9 : ¬ atLast i)
    (a1 : Memref sig .tc .vmem S5000x128 .f32) (ha1 : a1.IsWhole) (a2 : Memref sig .tc .vmem S5000x1 .i32) (ha2 : a2.IsWhole)
    (a3 : Memref sig .tc .vmem S512x1 .f32) (ha3 : a3.IsWhole) (a4 : Memref sig .tc .vmem S10x128 .f32) (ha4 : a4.IsWhole)
    (a5 : Memref sig .tc .vmem S1x10 .f32) (ha5 : a5.IsWhole) (a6 : Memref sig .tc .vmem S512x10 .f32) (ha6 : a6.IsWhole)
    (a7 : Memref sig .tc .vmem S512x128 .f32) (ha7 : a7.IsWhole)
    (x1 : Vec F S5000x128 .f32) (x2 : Vec F S5000x1 .i32) (K : PUnit → sProp 𝕄) :
    iprop(owns (c : Thread nD τ) a1 fullShare x1 ∗ owns (c : Thread nD τ) a2 fullShare x2 ∗ (∃ d, owns (c : Thread nD τ) a7 fullShare d)
        ∗ (iprop(owns (c : Thread nD τ) a1 fullShare x1 ∗ owns (c : Thread nD τ) a2 fullShare x2
            ∗ owns (c : Thread nD τ) a7 fullShare (pooled7 x1 x2 cleared7)) -∗ K ⟨⟩))
      ⊢ wp frame (wpE (defs₀ (F := F)) Variants.none c none) E (cc7__pool_linear_kernel i a1 ha1 a2 ha2 a3 ha3 a4 ha4 a5 ha5 a6 ha6 a7 ha7) K := by
  simp only [cc7__pool_linear_kernel_eq_skeleton]; unfold cc7__pool_linear_kernel_skel
  unfold owns
  iintro ⟨⟨%f1, %hf1, H1⟩, ⟨%f2, %hf2, H2⟩, ⟨%d7, %f7, -, H7⟩, Hk⟩
  subst hf1; subst hf2
  sl_exec (disch := first | exact h0 | exact h9)
  sl_step
  iapply Hk
  isplitl [H1]
  · iexists f1; isplitr; · ipureintro; rfl
    iexact H1
  isplitl [H2]
  · iexists f2; isplitr; · ipureintro; rfl
    iexact H2
  iexists _; isplitr
  swap; · iexact H7
  ipureintro
  sl_unfold_words
  rw [View.readCov_eq_canon_ld _ _ _ (fillS _)]
  exact (View.read_writes_eq_canon _ _ _ (cover_head _ _ (fillS _))).trans (canon_top _ _ _ (fillS _))

set_option maxHeartbeats 2000000 in
/-- A point strictly between: the tile is pooled into the scratch as the point before left it. -/
theorem run_mid7 (c : Dev nD) (E : Set ℕ) (i : grid7.Coords) (h0 : ¬ atFirst i) (h9 : ¬ atLast i)
    (a1 : Memref sig .tc .vmem S5000x128 .f32) (ha1 : a1.IsWhole) (a2 : Memref sig .tc .vmem S5000x1 .i32) (ha2 : a2.IsWhole)
    (a3 : Memref sig .tc .vmem S512x1 .f32) (ha3 : a3.IsWhole) (a4 : Memref sig .tc .vmem S10x128 .f32) (ha4 : a4.IsWhole)
    (a5 : Memref sig .tc .vmem S1x10 .f32) (ha5 : a5.IsWhole) (a6 : Memref sig .tc .vmem S512x10 .f32) (ha6 : a6.IsWhole)
    (a7 : Memref sig .tc .vmem S512x128 .f32) (ha7 : a7.IsWhole)
    (x1 : Vec F S5000x128 .f32) (x2 : Vec F S5000x1 .i32) (s : Vec F S512x128 .f32) (K : PUnit → sProp 𝕄) :
    iprop(owns (c : Thread nD τ) a1 fullShare x1 ∗ owns (c : Thread nD τ) a2 fullShare x2 ∗ owns (c : Thread nD τ) a7 fullShare s
        ∗ (iprop(owns (c : Thread nD τ) a1 fullShare x1 ∗ owns (c : Thread nD τ) a2 fullShare x2
            ∗ owns (c : Thread nD τ) a7 fullShare (pooled7 x1 x2 s)) -∗ K ⟨⟩))
      ⊢ wp frame (wpE (defs₀ (F := F)) Variants.none c none) E (cc7__pool_linear_kernel i a1 ha1 a2 ha2 a3 ha3 a4 ha4 a5 ha5 a6 ha6 a7 ha7) K := by
  simp only [cc7__pool_linear_kernel_eq_skeleton]; unfold cc7__pool_linear_kernel_skel
  unfold owns
  iintro ⟨⟨%f1, %hf1, H1⟩, ⟨%f2, %hf2, H2⟩, ⟨%f7, %hf7, H7⟩, Hk⟩
  subst hf1; subst hf2; subst hf7
  sl_exec (disch := first | exact h0 | exact h9)
  sl_step
  iapply Hk
  isplitl [H1]
  · iexists f1; isplitr; · ipureintro; rfl
    iexact H1
  isplitl [H2]
  · iexists f2; isplitr; · ipureintro; rfl
    iexact H2
  iexists _; isplitr
  swap; · iexact H7
  ipureintro
  exact View.read_writes_eq_canon _ _ _ (fillS _)

set_option maxHeartbeats 2000000 in
/-- Last point: the tile is pooled into the scratch, and the output block is computed from the scratch so
    left, the count column, the weights and the bias row. -/
theorem run_last7 (c : Dev nD) (E : Set ℕ) (i : grid7.Coords) (h0 : ¬ atFirst i) (h9 : atLast i)
    (a1 : Memref sig .tc .vmem S5000x128 .f32) (ha1 : a1.IsWhole) (a2 : Memref sig .tc .vmem S5000x1 .i32) (ha2 : a2.IsWhole)
    (a3 : Memref sig .tc .vmem S512x1 .f32) (ha3 : a3.IsWhole) (a4 : Memref sig .tc .vmem S10x128 .f32) (ha4 : a4.IsWhole)
    (a5 : Memref sig .tc .vmem S1x10 .f32) (ha5 : a5.IsWhole) (a6 : Memref sig .tc .vmem S512x10 .f32) (ha6 : a6.IsWhole)
    (a7 : Memref sig .tc .vmem S512x128 .f32) (ha7 : a7.IsWhole)
    (x1 : Vec F S5000x128 .f32) (x2 : Vec F S5000x1 .i32) (x3 : Vec F S512x1 .f32) (x4 : Vec F S10x128 .f32) (x5 : Vec F S1x10 .f32)
    (s : Vec F S512x128 .f32) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ (∃ d, owns (c : Thread nD τ) a6 fullShare d)
        ∗ owns (c : Thread nD τ) a7 fullShare s
        ∗ (iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5
            ∗ owns (c : Thread nD τ) a6 fullShare (logits7 (pooled7 x1 x2 s) x3 x4 x5)
            ∗ owns (c : Thread nD τ) a7 fullShare (pooled7 x1 x2 s)) -∗ K ⟨⟩))
      ⊢ wp frame (wpE (defs₀ (F := F)) Variants.none c none) E (cc7__pool_linear_kernel i a1 ha1 a2 ha2 a3 ha3 a4 ha4 a5 ha5 a6 ha6 a7 ha7) K := by
  simp only [cc7__pool_linear_kernel_eq_skeleton]; unfold cc7__pool_linear_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1; subst hf2; subst hf3; subst hf4; subst hf5; subst hf7
  sl_exec (disch := first | exact h0 | exact h9)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.readCov_eq_canon_ld _ _ _ (fillS _)]
    exact View.read_writes_eq_canon _ _ _ (fillO _)
  iexists _; isplitr
  swap; · iexact H7
  ipureintro
  exact View.read_writes_eq_canon _ _ _ (fillS _)

/-! ## The scratch point by point, the invariant and the proof data -/

/-- The scratch after the body at point `n`: the first point pools its tile into the cleared scratch, each
    later point into what the point before left. -/
def acc7 (c : Dev nD) : (n : ℕ) → n < cfg7.N → Vec F S512x128 .f32
  | 0, h => pooled7 (blk7 V c 0 ⟨0, h⟩) (blk7 V c 1 ⟨0, h⟩) cleared7
  | n + 1, h => pooled7 (blk7 V c 0 ⟨n + 1, h⟩) (blk7 V c 1 ⟨n + 1, h⟩) (acc7 c n (Nat.lt_of_succ_lt h))

theorem acc7_first (c : Dev nD) (t : Fin cfg7.N) (h : t.val = 0) :
    acc7 V c t.val t.isLt = pooled7 (blk7 V c 0 t) (blk7 V c 1 t) cleared7 := by
  obtain ⟨n, hn⟩ := t
  cases n with
  | zero => rfl
  | succ n => exact absurd h (Nat.succ_ne_zero n)

theorem acc7_later (c : Dev nD) (t : Fin cfg7.N) (h : t.val ≠ 0) :
    acc7 V c t.val t.isLt
      = pooled7 (blk7 V c 0 t) (blk7 V c 1 t) (acc7 V c (t.val - 1) (Nat.lt_of_le_of_lt (Nat.sub_le _ _) t.isLt)) := by
  obtain ⟨n, hn⟩ := t
  cases n with
  | zero => exact absurd rfl h
  | succ n => rfl

/-- The scratch as a memref: the whole of its buffer. -/
abbrev scr7 : Memref sig .tc .vmem S512x128 .f32 := Memref.whole cc7_scratch0

/-- The invariant before point `n`: the generator register at some state, the scoped buffers other than the
    scratch unopened, and the scratch — before the first point at any contents (the first point overwrites it
    before reading it), afterwards at what the point before left. -/
def inv7 (c : Dev nD) : (n : ℕ) → n ≤ cfg7.N → sProp 𝕄
  | 0, _ => iprop((∃ r, prngReg c r) ∗ (∃ d, owns (c : Thread nD τ) scr7 fullShare d)
      ∗ Pipeline.scopedRestBut (Ix := Unit) (Name := ℕ) (U := UR sig nD τ) (Lvl := ℕ) (Val := Elt F) spec7 c [cc7_scratch0])
  | n + 1, h => iprop((∃ r, prngReg c r) ∗ owns (c : Thread nD τ) scr7 fullShare (acc7 V c n h)
      ∗ Pipeline.scopedRestBut (Ix := Unit) (Name := ℕ) (U := UR sig nD τ) (Lvl := ℕ) (Val := Elt F) spec7 c [cc7_scratch0])

theorem inv7_zero (c : Dev nD) (n : ℕ) (h : n ≤ cfg7.N) (hz : n = 0) :
    inv7 V c n h = iprop((∃ r, prngReg c r) ∗ (∃ d, owns (c : Thread nD τ) scr7 fullShare d)
      ∗ Pipeline.scopedRestBut (Ix := Unit) (Name := ℕ) (U := UR sig nD τ) (Lvl := ℕ) (Val := Elt F) spec7 c [cc7_scratch0]) := by
  subst hz; rfl

theorem inv7_succ (c : Dev nD) (n : ℕ) (h : n < cfg7.N) :
    inv7 V c (n + 1) h = iprop((∃ r, prngReg c r) ∗ owns (c : Thread nD τ) scr7 fullShare (acc7 V c n h)
      ∗ Pipeline.scopedRestBut (Ix := Unit) (Name := ℕ) (U := UR sig nD τ) (Lvl := ℕ) (Val := Elt F) spec7 c [cc7_scratch0]) := rfl

theorem inv7_pos (c : Dev nD) (n : ℕ) (h : n ≤ cfg7.N) (hz : n ≠ 0) :
    inv7 V c n h = iprop((∃ r, prngReg c r) ∗ owns (c : Thread nD τ) scr7 fullShare (acc7 V c (n - 1) (by omega))
      ∗ Pipeline.scopedRestBut (Ix := Unit) (Name := ℕ) (U := UR sig nD τ) (Lvl := ℕ) (Val := Elt F) spec7 c [cc7_scratch0]) := by
  cases n with
  | zero => exact absurd rfl hz
  | succ n => rfl

/-- The proof data of the region on core `c`: the arrays as the region finds them; after the body each input
    window at its block and the output window at the classifier's result computed from the scratch the point
    leaves (written back at the last point only, so only that point's value is ever read); the invariant
    `inv7`; full shares; nothing owed. -/
def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => blk7 V c 2 t
    | ⟨3, _⟩ => blk7 V c 3 t
    | ⟨4, _⟩ => blk7 V c 4 t
    | ⟨5, _⟩ => logits7 (acc7 V c t.val t.isLt) (blk7 V c 2 t) (blk7 V c 3 t) (blk7 V c 4 t)
  Φ t := inv7 V c t.val (Nat.le_of_lt_succ t.isLt)
  q _ := fullShare
  owed _ := 0

theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = blk7 V c 0 t := by dsimp only [dat7]
theorem after7_1 (c : Dev nD) (t : Fin cfg7.N) : (dat7 V c).after 1 t = blk7 V c 1 t := by dsimp only [dat7]
theorem after7_2 (c : Dev nD) (t : Fin cfg7.N) : (dat7 V c).after 2 t = blk7 V c 2 t := by dsimp only [dat7]
theorem after7_3 (c : Dev nD) (t : Fin cfg7.N) : (dat7 V c).after 3 t = blk7 V c 3 t := by dsimp only [dat7]
theorem after7_4 (c : Dev nD) (t : Fin cfg7.N) : (dat7 V c).after 4 t = blk7 V c 4 t := by dsimp only [dat7]
theorem after7_5 (c : Dev nD) (t : Fin cfg7.N) :
    (dat7 V c).after 5 t = logits7 (acc7 V c t.val t.isLt) (blk7 V c 2 t) (blk7 V c 3 t) (blk7 V c 4 t) := by dsimp only [dat7]

/-- The invariant at a point's start and end, restated at the point's number. -/
theorem inv7_start (c : Dev nD) (t : Fin cfg7.N) :
    (dat7 V c).Φ t.castSucc = inv7 V c t.val (Nat.le_of_lt t.isLt) := by
  dsimp only [dat7]; simp only [Fin.coe_castSucc]
theorem inv7_end (c : Dev nD) (t : Fin cfg7.N) :
    (dat7 V c).Φ t.succ = inv7 V c (t.val + 1) t.isLt := rfl

/-- Each input window holds its block when the body runs. -/
theorem before7_0 (c : Dev nD) (t : Fin cfg7.N) (d) : (dat7 V c).before 0 t d = blk7 V c 0 t :=
  held7_0 V (dat7 V c) (A_eq7 V c 0) (after7_0 V c) t d
theorem before7_1 (c : Dev nD) (t : Fin cfg7.N) (d) : (dat7 V c).before 1 t d = blk7 V c 1 t :=
  held7_1 V (dat7 V c) (A_eq7 V c 1) (after7_1 V c) t d
theorem before7_2 (c : Dev nD) (t : Fin cfg7.N) (d) : (dat7 V c).before 2 t d = blk7 V c 2 t :=
  held7_2 V (dat7 V c) (A_eq7 V c 2) (after7_2 V c) t d
theorem before7_3 (c : Dev nD) (t : Fin cfg7.N) (d) : (dat7 V c).before 3 t d = blk7 V c 3 t :=
  held7_3 V (dat7 V c) (A_eq7 V c 3) (after7_3 V c) t d
theorem before7_4 (c : Dev nD) (t : Fin cfg7.N) (d) : (dat7 V c).before 4 t d = blk7 V c 4 t :=
  held7_4 V (dat7 V c) (A_eq7 V c 4) (after7_4 V c) t d

/-! ## The body obligation -/

/-- What the body is handed at point `t`, the windows one by one, -/
def handed7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it hands back. -/
def returned7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ (dat7 V c).leavesExact 5 t)

set_option maxHeartbeats 4000000 in
/-- The body at any point, by the point's control case. -/
theorem sound_body7 (c : Dev nD) (t : Fin cfg7.N) :
    handed7 V c t ⊢ wp frame (wpE (defs₀ (F := F)) Variants.none c none) Set.univ (bodyAt7 t) (fun _ => returned7 V c t) := by
  unfold handed7 returned7 bodyAt7
  simp only [before7_0, before7_1, before7_2, before7_3, before7_4]
  rw [show (dat7 V c).owesAt () t.succ = (dat7 V c).owesAt () t.castSucc from rfl,
    inv7_end, inv7_succ, inv7_start, after7_0, after7_1, after7_2, after7_3, after7_4]
  have hN : t.val < 10 := lt_of_lt_of_eq t.isLt (show cfg7.N = 10 from N_7)
  by_cases hz : t.val = 0
  · -- the first point
    have h0 : atFirst (grid7.coords t) := (atFirst_iff t).mpr (by omega)
    have h9 : ¬ atLast (grid7.coords t) := fun h => by have := (atLast_iff t).mp h; omega
    rw [Dat.leavesExact_idle (dat7 V c) 5 t (idle7_5 t h9) (quiet7_5 t h9), inv7_zero V c _ _ hz, acc7_first V c t hz]
    iintro ⟨⟨Hg, ⟨%s, HS⟩, HR⟩, Ho, ⟨%d0, H0⟩, ⟨%d1, H1⟩, ⟨%d2, H2⟩, ⟨%d3, H3⟩, ⟨%d4, H4⟩, H5⟩
    iapply (run_first7 c Set.univ (grid7.coords t) h0 h9 _ _ _ _ _ _ _ _ _ _ _ _ _ _ (blk7 V c 0 t) (blk7 V c 1 t) _)
    isplitl [H0]; · iexact H0
    isplitl [H1]; · iexact H1
    isplitl [HS]; · iexists _; iexact HS
    iintro ⟨H0, H1, HS⟩
    isplitl [Hg HS HR]
    · isplitl [Hg]; · iexact Hg
      isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    iexact H5
  · by_cases hl : t.val = 9
    · -- the last point
      have h0 : ¬ atFirst (grid7.coords t) := fun h => by have := (atFirst_iff t).mp h; omega
      have h9 : atLast (grid7.coords t) := (atLast_iff t).mpr (by omega)
      rw [show (dat7 V c).leavesExact 5 t = owns (c : Thread nD τ) (st7_5 t) fullShare ((dat7 V c).after 5 t) from by
        unfold Dat.leavesExact; rw [live7_5 t h9], after7_5, inv7_pos V c _ _ hz, acc7_later V c t hz]
      iintro ⟨⟨Hg, HS, HR⟩, Ho, ⟨%d0, H0⟩, ⟨%d1, H1⟩, ⟨%d2, H2⟩, ⟨%d3, H3⟩, ⟨%d4, H4⟩, ⟨%d5, H5⟩⟩
      iapply (run_last7 c Set.univ (grid7.coords t) h0 h9 _ _ _ _ _ _ _ _ _ _ _ _ _ _ (blk7 V c 0 t) (blk7 V c 1 t)
        (blk7 V c 2 t) (blk7 V c 3 t) (blk7 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      iexact H5
    · -- a point strictly between
      have h0 : ¬ atFirst (grid7.coords t) := fun h => by have := (atFirst_iff t).mp h; omega
      have h9 : ¬ atLast (grid7.coords t) := fun h => by have := (atLast_iff t).mp h; omega
      rw [Dat.leavesExact_idle (dat7 V c) 5 t (idle7_5 t h9) (quiet7_5 t h9), inv7_pos V c _ _ hz, acc7_later V c t hz]
      iintro ⟨⟨Hg, HS, HR⟩, Ho, ⟨%d0, H0⟩, ⟨%d1, H1⟩, ⟨%d2, H2⟩, ⟨%d3, H3⟩, ⟨%d4, H4⟩, H5⟩
      iapply (run_mid7 c Set.univ (grid7.coords t) h0 h9 _ _ _ _ _ _ _ _ _ _ _ _ _ _ (blk7 V c 0 t) (blk7 V c 1 t) _ _)
      isplitl [H0]; · iexact H0
      isplitl [H1]; · iexact H1
      isplitl [HS]; · iexact HS
      iintro ⟨H0, H1, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## Entering and leaving the region -/

/-- What the region is entered with — the generator register and every scoped buffer that is no staging buffer, at
    some contents each — is the invariant before the first point: the scratch is one of those buffers. -/
theorem phi_in7 (c : Dev nD) :
    iprop((∃ r, prngReg c r) ∗ Pipeline.scopedRest (Ix := Unit) (Name := ℕ) (U := UR sig nD τ) (Lvl := ℕ) spec7 c)
      ⊢ ((dat7 (F := F) V c).Φ 0 : sProp 𝕄) := by
  rw [show (dat7 V c).Φ 0 = inv7 V c 0 (Nat.zero_le _) from rfl, inv7_zero V c 0 _ rfl, scopedRest7_split]
  simp only [scr7, owns_whole]
  iintro ⟨Hg, HS, HR⟩
  isplitl [Hg]; · iexact Hg
  isplitl [HS]; · iexact HS
  iexact HR

/-- After the last point the invariant gives the same back: the scratch's contents are forgotten. -/
theorem phi_out7 (c : Dev nD) :
    ((dat7 (F := F) V c).Φ (Fin.last cfg7.N) : sProp 𝕄)
      ⊢ iprop((∃ r, prngReg c r) ∗ Pipeline.scopedRest (Ix := Unit) (Name := ℕ) (U := UR sig nD τ) (Lvl := ℕ) spec7 c) := by
  rw [show (dat7 V c).Φ (Fin.last cfg7.N) = inv7 V c (Fin.last cfg7.N).val (Nat.le_of_lt_succ (Fin.last cfg7.N).isLt) from rfl,
    inv7_pos V c _ _ (by rw [Fin.val_last]; have : cfg7.N = 10 := N_7; omega), scopedRest7_split]
  simp only [scr7, owns_whole]
  iintro ⟨Hg, HS, HR⟩
  isplitl [Hg]; · iexact Hg
  isplitl [HS]; · iexists _; iexact HS
  iexact HR

end Region7

end Cert.Kernel.Reg

end
-- ==== Proof.K.Chain.lean ====
import proofs.«429275_j68899865363005_1_alg».proof.Proof.K.R0
import proofs.«429275_j68899865363005_1_alg».proof.Proof.K.R1
import proofs.«429275_j68899865363005_1_alg».proof.Proof.K.R2
import proofs.«429275_j68899865363005_1_alg».proof.Proof.K.R3
import proofs.«429275_j68899865363005_1_alg».proof.Proof.K.R4
import proofs.«429275_j68899865363005_1_alg».proof.Proof.K.R5
import proofs.«429275_j68899865363005_1_alg».proof.Proof.K.R6
import proofs.«429275_j68899865363005_1_alg».proof.Proof.K.R7
import proofs.«429275_j68899865363005_1_alg».proof.Proof.Gen.Kernel.Regions
import Idealize.ShloMosaic.Lib.Pipeline.FrameSuffix

/-! # The buffers' contents between the items of @main, and the proof data of its eight regions

@main is a list of items: stretches of host operations and eight kernel regions. Between two items every unscoped
buffer of the core holds a definite value. This file names that value at each boundary from region 0's entry on, as a
function of the launch memory `m` alone: a host stretch takes the contents to `StableHlo.after` of its operations; a
region takes them to the same contents with each of its arrays at what its pipeline leaves there after the last grid
point, which for an input window's array is what was there at entry. The generated valuations are written over
unknown contents of the regions' output arrays; choosing for each unknown the value named here makes the two families
equal, boundary by boundary. Each region's proof data are taken at its entry contents. -/

set_option maxRecDepth 1368

noncomputable section

namespace Cert.Kernel.Reg

open Cert.Kernel Cert.Kernel.Gen
open Idealize.ShloMosaic Idealize.ShloMosaic.TcCoe
open Idealize.SL Idealize.SL.RA Idealize.SL.BI
open scoped Idealize.SL.BI
open Idealize.ShloMosaic.Pipeline (Dat Cfg Window)

variable {F : FTy → Type} [FloatOps F]

/-! ## Two facts about overwriting a region's arrays -/

/-- At a device reference that is no array of the region, the contents with the region's arrays overwritten are the
    contents one started from. -/
theorem withArrays_apply_of_forall_ne {gr W : Nat} (win : Fin W → Pipeline.WinSpec sig gr) (c : Dev nD)
    (V : Valuation τ sig (Elt F)) (A : (w : Fin W) → Buf (Elt F) ((win w).arr.view.loc (c.tc : Thread nD τ)))
    (b : DevRef τ sig) (hb : ∀ w, Proc.devRef .tc (Pipeline.arrRef win w) ≠ b) :
    Pipeline.withArrays win c V A b = V b := by
  unfold Pipeline.withArrays
  rw [dif_neg]
  rintro ⟨w, e⟩
  exact hb w e

/-- Let `Z` agree with the entry contents `Y` away from a list `O` of references that holds every output window's
    array, and let `Z` hold at each reference of `O` what the pipeline leaves there. Then `Z` is `Y` with every array of
    the region at what the pipeline leaves: at an input window's array nothing is ever written back, so what is left
    is the entry value, which is `Y`'s. -/
theorem exit_eq_withArrays {cfg : Cfg sig Λ₀} {c : Dev nD} (dat : Dat τ (Elt F) Unit ℕ (UR sig nD τ) ℕ cfg c)
    (hinj : Function.Injective (Pipeline.arrRef cfg.spec)) (Y Y' Z : Valuation τ sig (Elt F)) (hY : Y' = Y)
    (hA : ∀ w, dat.A w = Y (Proc.devRef .tc (Pipeline.arrRef cfg.spec w)))
    (O : List (Ref sig .tc)) (hout : ∀ w, (cfg.win w).isOut = true → Pipeline.arrRef cfg.spec w ∈ O)
    (hZO : ∀ r ∈ O, Z (Proc.devRef .tc r)
      = Pipeline.withArrays cfg.spec c Y (fun w => dat.arrAt w cfg.N) (Proc.devRef .tc r))
    (hZne : ∀ b : DevRef τ sig, (∀ r ∈ O, b ≠ Proc.devRef .tc r) → Z b = Y' b) :
    Z = Pipeline.withArrays cfg.spec c Y (fun w => dat.arrAt w cfg.N) := by
  subst hY
  funext b
  by_cases hb : ∃ r ∈ O, b = Proc.devRef .tc r
  · obtain ⟨r, hr, rfl⟩ := hb
    exact hZO r hr
  · have hb' : ∀ r ∈ O, b ≠ Proc.devRef .tc r := fun r hr e => hb ⟨r, hr, e⟩
    rw [hZne b hb']
    by_cases h : ∃ w, Proc.devRef .tc (Pipeline.arrRef cfg.spec w) = b
    · obtain ⟨w, rfl⟩ := h
      rw [Pipeline.withArrays_arr cfg.spec hinj]
      cases hio : (cfg.win w).isOut
      · rw [dat.arrAt_in w hio, hA]
      · exact absurd rfl (hb' _ (hout w hio))
    · rw [withArrays_apply_of_forall_ne]
      intro w e
      exact h ⟨w, e⟩

variable (m : (ℓ : Loc nD τ sig) → Buf (Elt F) ℓ)

/-! ## The contents at each boundary, from region 0's entry to region 7's exit -/

/-- Region 0's entry: the launch memory after the three opening host stretches. -/
abbrev X3 : Dev nD → Valuation τ sig (Elt F) := Gen.V3 m
/-- Region 0's exit: its arrays at what the pipeline leaves, the rest as entered. -/
def X4 (c : Dev nD) : Valuation τ sig (Elt F) :=
  Pipeline.withArrays spec0 c (X3 m c) fun w => (dat0 (fun c b => X3 m c b) c).arrAt w cfg0.N
/-- Region 1's entry. -/
abbrev X5 : Dev nD → Valuation τ sig (Elt F) := fun c => StableHlo.after hostOps1 (X4 m c)
/-- Region 1's exit. -/
def X6 (c : Dev nD) : Valuation τ sig (Elt F) :=
  Pipeline.withArrays spec1 c (X5 m c) fun w => (dat1 (fun c b => X5 m c b) c).arrAt w cfg1.N
/-- Region 2's entry. -/
abbrev X7 : Dev nD → Valuation τ sig (Elt F) := fun c => StableHlo.after hostOps2 (X6 m c)
/-- Region 2's exit, which is region 3's entry. -/
def X8 (c : Dev nD) : Valuation τ sig (Elt F) :=
  Pipeline.withArrays spec2 c (X7 m c) fun w => (dat2 (fun c b => X7 m c b) c).arrAt w cfg2.N
/-- Region 3's exit. -/
def X9 (c : Dev nD) : Valuation τ sig (Elt F) :=
  Pipeline.withArrays spec3 c (X8 m c) fun w => (dat3 (fun c b => X8 m c b) c).arrAt w cfg3.N
/-- Region 4's entry. -/
abbrev X10 : Dev nD → Valuation τ sig (Elt F) := fun c => StableHlo.after hostOps4 (X9 m c)
/-- Region 4's exit. -/
def X11 (c : Dev nD) : Valuation τ sig (Elt F) :=
  Pipeline.withArrays spec4 c (X10 m c) fun w => (dat4 (fun c b => X10 m c b) c).arrAt w cfg4.N
/-- Region 5's entry. -/
abbrev X12 : Dev nD → Valuation τ sig (Elt F) := fun c => StableHlo.after hostOps5 (X11 m c)
/-- Region 5's exit, which is region 6's entry. -/
def X13 (c : Dev nD) : Valuation τ sig (Elt F) :=
  Pipeline.withArrays spec5 c (X12 m c) fun w => (dat5 (fun c b => X12 m c b) c).arrAt w cfg5.N
/-- Region 6's exit. -/
def X14 (c : Dev nD) : Valuation τ sig (Elt F) :=
  Pipeline.withArrays spec6 c (X13 m c) fun w => (dat6 (fun c b => X13 m c b) c).arrAt w cfg6.N
/-- After the first of the three host stretches between regions 6 and 7. -/
abbrev X15 : Dev nD → Valuation τ sig (Elt F) := fun c => StableHlo.after hostOps7 (X14 m c)
/-- After the second. -/
abbrev X16 : Dev nD → Valuation τ sig (Elt F) := fun c => StableHlo.after hostOps7_1 (X15 m c)
/-- After the third: region 7's entry. -/
abbrev X17 : Dev nD → Valuation τ sig (Elt F) := fun c => StableHlo.after hostOps7_2 (X16 m c)
/-- Region 7's exit: the contents when @main returns. -/
def X18 (c : Dev nD) : Valuation τ sig (Elt F) :=
  Pipeline.withArrays spec7 c (X17 m c) fun w => (dat7 (fun c b => X17 m c b) c).arrAt w cfg7.N

/-! ## The unknowns of the generated valuations, chosen -/

/-- What each region leaves in a reference: the value the boundary after it holds there. Only the boundaries after a
    region are ever read. -/
def outs : Gen.Outs (F := F) := fun J r c =>
  match J with
  | 4 => X4 m c (Proc.devRef .tc r)
  | 6 => X6 m c (Proc.devRef .tc r)
  | 8 => X8 m c (Proc.devRef .tc r)
  | 9 => X9 m c (Proc.devRef .tc r)
  | 11 => X11 m c (Proc.devRef .tc r)
  | 13 => X13 m c (Proc.devRef .tc r)
  | 14 => X14 m c (Proc.devRef .tc r)
  | 18 => X18 m c (Proc.devRef .tc r)
  | _ => X3 m c (Proc.devRef .tc r)

/-- After region 0 (output array `main_v30`). -/
theorem V4_eq (c : Dev nD) : Gen.V4 m (outs m) c = X4 m c :=
  exit_eq_withArrays (dat0 (fun c b => X3 m c b) c) winFacts0.arr_inj (X3 m c) (Gen.V3 m c) (Gen.V4 m (outs m) c) rfl
    (fun w => A_eq0 _ c w) [main_v30] (by decide)
    (fun r hr => by
      obtain rfl : r = main_v30 := List.mem_singleton.mp hr
      exact Function.update_self _ _ _)
    (fun b hb => Function.update_of_ne (hb main_v30 (List.mem_singleton_self _)) _ _)
theorem V5_eq (c : Dev nD) : Gen.V5 m (outs m) c = X5 m c := congrArg (StableHlo.after hostOps1) (V4_eq m c)

/-- After region 1 (output arrays `main_v45_0`, `main_v45_1`). -/
theorem V6_eq (c : Dev nD) : Gen.V6 m (outs m) c = X6 m c :=
  exit_eq_withArrays (dat1 (fun c b => X5 m c b) c) winFacts1.arr_inj (X5 m c) (Gen.V5 m (outs m) c) (Gen.V6 m (outs m) c)
    (V5_eq m c) (fun w => A_eq1 _ c w) [main_v45_0, main_v45_1] (by decide)
    (fun r hr => by
      rcases List.mem_pair.mp hr with rfl | rfl
      · exact (Function.update_of_ne (StableHlo.devRef_ne_of_ne (by decide)) _ _).trans (Function.update_self _ _ _)
      · exact Function.update_self _ _ _)
    (fun b hb => (Function.update_of_ne (hb main_v45_1 (List.mem_pair.mpr (Or.inr rfl))) _ _).trans
      (Function.update_of_ne (hb main_v45_0 (List.mem_pair.mpr (Or.inl rfl))) _ _))
theorem V7_eq (c : Dev nD) : Gen.V7 m (outs m) c = X7 m c := congrArg (StableHlo.after hostOps2) (V6_eq m c)

/-- After region 2 (output array `main_v55`). -/
theorem V8_eq (c : Dev nD) : Gen.V8 m (outs m) c = X8 m c :=
  exit_eq_withArrays (dat2 (fun c b => X7 m c b) c) winFacts2.arr_inj (X7 m c) (Gen.V7 m (outs m) c) (Gen.V8 m (outs m) c)
    (V7_eq m c) (fun w => A_eq2 _ c w) [main_v55] (by decide)
    (fun r hr => by
      obtain rfl : r = main_v55 := List.mem_singleton.mp hr
      exact Function.update_self _ _ _)
    (fun b hb => Function.update_of_ne (hb main_v55 (List.mem_singleton_self _)) _ _)

/-- After region 3 (output array `main_v56`). -/
theorem V9_eq (c : Dev nD) : Gen.V9 m (outs m) c = X9 m c :=
  exit_eq_withArrays (dat3 (fun c b => X8 m c b) c) winFacts3.arr_inj (X8 m c) (Gen.V8 m (outs m) c) (Gen.V9 m (outs m) c)
    (V8_eq m c) (fun w => A_eq3 _ c w) [main_v56] (by decide)
    (fun r hr => by
      obtain rfl : r = main_v56 := List.mem_singleton.mp hr
      exact Function.update_self _ _ _)
    (fun b hb => Function.update_of_ne (hb main_v56 (List.mem_singleton_self _)) _ _)
theorem V10_eq (c : Dev nD) : Gen.V10 m (outs m) c = X10 m c := congrArg (StableHlo.after hostOps4) (V9_eq m c)

/-- After region 4 (output arrays `main_v71_0`, `main_v71_1`). -/
theorem V11_eq (c : Dev nD) : Gen.V11 m (outs m) c = X11 m c :=
  exit_eq_withArrays (dat4 (fun c b => X10 m c b) c) winFacts4.arr_inj (X10 m c) (Gen.V10 m (outs m) c) (Gen.V11 m (outs m) c)
    (V10_eq m c) (fun w => A_eq4 _ c w) [main_v71_0, main_v71_1] (by decide)
    (fun r hr => by
      rcases List.mem_pair.mp hr with rfl | rfl
      · exact (Function.update_of_ne (StableHlo.devRef_ne_of_ne (by decide)) _ _).trans (Function.update_self _ _ _)
      · exact Function.update_self _ _ _)
    (fun b hb => (Function.update_of_ne (hb main_v71_1 (List.mem_pair.mpr (Or.inr rfl))) _ _).trans
      (Function.update_of_ne (hb main_v71_0 (List.mem_pair.mpr (Or.inl rfl))) _ _))
theorem V12_eq (c : Dev nD) : Gen.V12 m (outs m) c = X12 m c := congrArg (StableHlo.after hostOps5) (V11_eq m c)

/-- After region 5 (output array `main_v81`). -/
theorem V13_eq (c : Dev nD) : Gen.V13 m (outs m) c = X13 m c :=
  exit_eq_withArrays (dat5 (fun c b => X12 m c b) c) winFacts5.arr_inj (X12 m c) (Gen.V12 m (outs m) c) (Gen.V13 m (outs m) c)
    (V12_eq m c) (fun w => A_eq5 _ c w) [main_v81] (by decide)
    (fun r hr => by
      obtain rfl : r = main_v81 := List.mem_singleton.mp hr
      exact Function.update_self _ _ _)
    (fun b hb => Function.update_of_ne (hb main_v81 (List.mem_singleton_self _)) _ _)

/-- After region 6 (output array `main_v82`). -/
theorem V14_eq (c : Dev nD) : Gen.V14 m (outs m) c = X14 m c :=
  exit_eq_withArrays (dat6 (fun c b => X13 m c b) c) winFacts6.arr_inj (X13 m c) (Gen.V13 m (outs m) c) (Gen.V14 m (outs m) c)
    (V13_eq m c) (fun w => A_eq6 _ c w) [main_v82] (by decide)
    (fun r hr => by
      obtain rfl : r = main_v82 := List.mem_singleton.mp hr
      exact Function.update_self _ _ _)
    (fun b hb => Function.update_of_ne (hb main_v82 (List.mem_singleton_self _)) _ _)
theorem V15_eq (c : Dev nD) : Gen.V15 m (outs m) c = X15 m c := congrArg (StableHlo.after hostOps7) (V14_eq m c)
theorem V16_eq (c : Dev nD) : Gen.V16 m (outs m) c = X16 m c := congrArg (StableHlo.after hostOps7_1) (V15_eq m c)
theorem V17_eq (c : Dev nD) : Gen.V17 m (outs m) c = X17 m c := congrArg (StableHlo.after hostOps7_2) (V16_eq m c)

/-- After region 7 (output array `main_v115`). -/
theorem V18_eq (c : Dev nD) : Gen.V18 m (outs m) c = X18 m c :=
  exit_eq_withArrays (dat7 (fun c b => X17 m c b) c) winFacts7.arr_inj (X17 m c) (Gen.V17 m (outs m) c) (Gen.V18 m (outs m) c)
    (V17_eq m c) (fun w => A_eq7 _ c w) [main_v115] (by decide)
    (fun r hr => by
      obtain rfl : r = main_v115 := List.mem_singleton.mp hr
      exact Function.update_self _ _ _)
    (fun b hb => Function.update_of_ne (hb main_v115 (List.mem_singleton_self _)) _ _)

/-! ## The proof data of the eight pipelines, each at its region's entry contents -/

/-- A literal case split on the pipeline's index, so that at a numeral the pinned configuration reduces to the
    printed one. -/
def pdats : (p : Fin 8) → (c : Dev nD) → Dat τ (Elt F) Unit ℕ (UR sig nD τ) ℕ (Pipeline.pin (pcfgs (F := F)) Gen.adm p) c
  | ⟨0, _⟩ => fun c => dat0 (fun c b => X3 m c b) c
  | ⟨1, _⟩ => fun c => dat1 (fun c b => X5 m c b) c
  | ⟨2, _⟩ => fun c => dat2 (fun c b => X7 m c b) c
  | ⟨3, _⟩ => fun c => dat3 (fun c b => X8 m c b) c
  | ⟨4, _⟩ => fun c => dat4 (fun c b => X10 m c b) c
  | ⟨5, _⟩ => fun c => dat5 (fun c b => X12 m c b) c
  | ⟨6, _⟩ => fun c => dat6 (fun c b => X13 m c b) c
  | ⟨7, _⟩ => fun c => dat7 (fun c b => X17 m c b) c

/-! ## Per region: the arrays at exit, the other buffers at exit, the arrays at entry -/

theorem hF_0 (c : Dev nD) (w : Fin cfg0.W) : (pdats m 0 c).arrAt w cfg0.N = X4 m c (Pipeline.arrRef spec0 w) :=
  by
  show (dat0 (fun c b => X3 m c b) c).arrAt w cfg0.N = X4 m c (Proc.devRef .tc (Pipeline.arrRef spec0 w))
  unfold X4
  rw [Pipeline.withArrays_arr spec0 winFacts0.arr_inj]
theorem hrest_0 (c : Dev nD) : ∀ b, b ∉ Finset.univ.image (Pipeline.arrRef spec0) → X4 m c b = X3 m c b :=
  fun b hb => Pipeline.withArrays_of_ne spec0 c _ _ b fun w e => hb (Finset.mem_image.mpr ⟨w, Finset.mem_univ _, e⟩)
theorem hA_0 (c : Dev nD) (w : Fin cfg0.W) : (pdats m 0 c).A w = X3 m c (Pipeline.arrRef spec0 w) :=
  A_eq0 (fun c b => X3 m c b) c w

theorem hF_1 (c : Dev nD) (w : Fin cfg1.W) : (pdats m 1 c).arrAt w cfg1.N = X6 m c (Pipeline.arrRef spec1 w) :=
  by
  show (dat1 (fun c b => X5 m c b) c).arrAt w cfg1.N = X6 m c (Proc.devRef .tc (Pipeline.arrRef spec1 w))
  unfold X6
  rw [Pipeline.withArrays_arr spec1 winFacts1.arr_inj]
theorem hrest_1 (c : Dev nD) : ∀ b, b ∉ Finset.univ.image (Pipeline.arrRef spec1) → X6 m c b = X5 m c b :=
  fun b hb => Pipeline.withArrays_of_ne spec1 c _ _ b fun w e => hb (Finset.mem_image.mpr ⟨w, Finset.mem_univ _, e⟩)
theorem hA_1 (c : Dev nD) (w : Fin cfg1.W) : (pdats m 1 c).A w = X5 m c (Pipeline.arrRef spec1 w) :=
  A_eq1 (fun c b => X5 m c b) c w

theorem hF_2 (c : Dev nD) (w : Fin cfg2.W) : (pdats m 2 c).arrAt w cfg2.N = X8 m c (Pipeline.arrRef spec2 w) :=
  by
  show (dat2 (fun c b => X7 m c b) c).arrAt w cfg2.N = X8 m c (Proc.devRef .tc (Pipeline.arrRef spec2 w))
  unfold X8
  rw [Pipeline.withArrays_arr spec2 winFacts2.arr_inj]
theorem hrest_2 (c : Dev nD) : ∀ b, b ∉ Finset.univ.image (Pipeline.arrRef spec2) → X8 m c b = X7 m c b :=
  fun b hb => Pipeline.withArrays_of_ne spec2 c _ _ b fun w e => hb (Finset.mem_image.mpr ⟨w, Finset.mem_univ _, e⟩)
theorem hA_2 (c : Dev nD) (w : Fin cfg2.W) : (pdats m 2 c).A w = X7 m c (Pipeline.arrRef spec2 w) :=
  A_eq2 (fun c b => X7 m c b) c w

theorem hF_3 (c : Dev nD) (w : Fin cfg3.W) : (pdats m 3 c).arrAt w cfg3.N = X9 m c (Pipeline.arrRef spec3 w) :=
  by
  show (dat3 (fun c b => X8 m c b) c).arrAt w cfg3.N = X9 m c (Proc.devRef .tc (Pipeline.arrRef spec3 w))
  unfold X9
  rw [Pipeline.withArrays_arr spec3 winFacts3.arr_inj]
theorem hrest_3 (c : Dev nD) : ∀ b, b ∉ Finset.univ.image (Pipeline.arrRef spec3) → X9 m c b = X8 m c b :=
  fun b hb => Pipeline.withArrays_of_ne spec3 c _ _ b fun w e => hb (Finset.mem_image.mpr ⟨w, Finset.mem_univ _, e⟩)
theorem hA_3 (c : Dev nD) (w : Fin cfg3.W) : (pdats m 3 c).A w = X8 m c (Pipeline.arrRef spec3 w) :=
  A_eq3 (fun c b => X8 m c b) c w

theorem hF_4 (c : Dev nD) (w : Fin cfg4.W) : (pdats m 4 c).arrAt w cfg4.N = X11 m c (Pipeline.arrRef spec4 w) :=
  by
  show (dat4 (fun c b => X10 m c b) c).arrAt w cfg4.N = X11 m c (Proc.devRef .tc (Pipeline.arrRef spec4 w))
  unfold X11
  rw [Pipeline.withArrays_arr spec4 winFacts4.arr_inj]
theorem hrest_4 (c : Dev nD) : ∀ b, b ∉ Finset.univ.image (Pipeline.arrRef spec4) → X11 m c b = X10 m c b :=
  fun b hb => Pipeline.withArrays_of_ne spec4 c _ _ b fun w e => hb (Finset.mem_image.mpr ⟨w, Finset.mem_univ _, e⟩)
theorem hA_4 (c : Dev nD) (w : Fin cfg4.W) : (pdats m 4 c).A w = X10 m c (Pipeline.arrRef spec4 w) :=
  A_eq4 (fun c b => X10 m c b) c w

theorem hF_5 (c : Dev nD) (w : Fin cfg5.W) : (pdats m 5 c).arrAt w cfg5.N = X13 m c (Pipeline.arrRef spec5 w) :=
  by
  show (dat5 (fun c b => X12 m c b) c).arrAt w cfg5.N = X13 m c (Proc.devRef .tc (Pipeline.arrRef spec5 w))
  unfold X13
  rw [Pipeline.withArrays_arr spec5 winFacts5.arr_inj]
theorem hrest_5 (c : Dev nD) : ∀ b, b ∉ Finset.univ.image (Pipeline.arrRef spec5) → X13 m c b = X12 m c b :=
  fun b hb => Pipeline.withArrays_of_ne spec5 c _ _ b fun w e => hb (Finset.mem_image.mpr ⟨w, Finset.mem_univ _, e⟩)
theorem hA_5 (c : Dev nD) (w : Fin cfg5.W) : (pdats m 5 c).A w = X12 m c (Pipeline.arrRef spec5 w) :=
  A_eq5 (fun c b => X12 m c b) c w

theorem hF_6 (c : Dev nD) (w : Fin cfg6.W) : (pdats m 6 c).arrAt w cfg6.N = X14 m c (Pipeline.arrRef spec6 w) :=
  by
  show (dat6 (fun c b => X13 m c b) c).arrAt w cfg6.N = X14 m c (Proc.devRef .tc (Pipeline.arrRef spec6 w))
  unfold X14
  rw [Pipeline.withArrays_arr spec6 winFacts6.arr_inj]
theorem hrest_6 (c : Dev nD) : ∀ b, b ∉ Finset.univ.image (Pipeline.arrRef spec6) → X14 m c b = X13 m c b :=
  fun b hb => Pipeline.withArrays_of_ne spec6 c _ _ b fun w e => hb (Finset.mem_image.mpr ⟨w, Finset.mem_univ _, e⟩)
theorem hA_6 (c : Dev nD) (w : Fin cfg6.W) : (pdats m 6 c).A w = X13 m c (Pipeline.arrRef spec6 w) :=
  A_eq6 (fun c b => X13 m c b) c w

theorem hF_7 (c : Dev nD) (w : Fin cfg7.W) : (pdats m 7 c).arrAt w cfg7.N = X18 m c (Pipeline.arrRef spec7 w) :=
  by
  show (dat7 (fun c b => X17 m c b) c).arrAt w cfg7.N = X18 m c (Proc.devRef .tc (Pipeline.arrRef spec7 w))
  unfold X18
  rw [Pipeline.withArrays_arr spec7 winFacts7.arr_inj]
theorem hrest_7 (c : Dev nD) : ∀ b, b ∉ Finset.univ.image (Pipeline.arrRef spec7) → X18 m c b = X17 m c b :=
  fun b hb => Pipeline.withArrays_of_ne spec7 c _ _ b fun w e => hb (Finset.mem_image.mpr ⟨w, Finset.mem_univ _, e⟩)
theorem hA_7 (c : Dev nD) (w : Fin cfg7.W) : (pdats m 7 c).A w = X17 m c (Pipeline.arrRef spec7 w) :=
  A_eq7 (fun c b => X17 m c b) c w

end Cert.Kernel.Reg

end
-- ==== Proof.K.RegBuilder.lean ====
import proofs.«429275_j68899865363005_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 1368

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What travels beside the unscoped buffers through every item of the run: the core's generator register at some
    state, and the core owing nothing. -/
abbrev Rr (c : Dev nD) : sProp 𝕄 :=
  iprop((∃ r, prngReg c r) ∗ ∃ W, owes (c : Thread nD τ) (0 : CellTallies nD τ sig Unit) W)

/-- The windows' specifications of pipeline p, at its one admissible (empty) table contents. -/
abbrev specOf (p : Fin 8) := (Pipeline.pin (pcfgs (F := F)) Gen.adm p).spec

/-- The number of grid points of pipeline p. -/
abbrev NOf (p : Fin 8) : ℕ := (Pipeline.pin (pcfgs (F := F)) Gen.adm p).N

set_option backward.isDefEq.respectTransparency.types false in
/-- ONE KERNEL REGION AS A SEGMENT, for any of the eight pipelines. The region is entered with every unscoped buffer
    held at Ventry beside Rr and left with them held at Vexit beside Rr. Its arrays are split out of the unscoped
    buffers at entry and put back at exit, at a valuation that differs from the entry one only at the arrays; the
    generator register goes into the body's invariant and comes back out; the body owes nothing and the kernel has
    no semaphore of its own; no table is prefetched. -/
def mkReg (pdats : (p : Fin 8) → (c : Dev nD) → Dat τ (Elt F) Unit ℕ (UR sig nD τ) ℕ (Pipeline.pin (pcfgs (F := F)) Gen.adm p) c)
    (p : Fin 8)
    (launch : Pipeline.LaunchFacts (nD := nD) (τ := τ) cfgs p)
    (Ventry Vexit : Dev nD → Valuation τ sig (Elt F))
    (hbody : ∀ c, BodyObligation (pdats p c) (defs₀ (F := F)) Variants.none () Set.univ)
    (hA : ∀ c w, (pdats p c).A w = Ventry c (Pipeline.arrRef (specOf (F := F) p) w))
    (hq : ∀ c w, (pdats p c).q w = fullShare)
    (howed : ∀ c t, (pdats p c).owed t = 0)
    (hrec : ∀ c, (pdats p c).recorded 0 = Set.univ)
    (hF : ∀ c w, (pdats p c).arrAt w (NOf (F := F) p) = Vexit c (Pipeline.arrRef (specOf (F := F) p) w))
    (hrest : ∀ c b, b ∉ Finset.univ.image (Pipeline.arrRef (specOf (F := F) p)) → Vexit c b = Ventry c b)
    (hin : ∀ c, iprop((∃ r, prngReg c r) ∗ Pipeline.scopedRest (Ix := Unit) (Name := ℕ) (U := UR sig nD τ) (Lvl := ℕ) (specOf (F := F) p) c)
      ⊢ ((pdats p c).Φ 0 : sProp 𝕄))
    (hout : ∀ c, ((pdats p c).Φ (Fin.last (NOf (F := F) p)) : sProp 𝕄)
      ⊢ iprop((∃ r, prngReg c r) ∗ Pipeline.scopedRest (Ix := Unit) (Name := ℕ) (U := UR sig nD τ) (Lvl := ℕ) (specOf (F := F) p) c)) :
    Pipeline.RegionSeg (pcfgs (F := F)) Gen.adm pdats () defs₀ Variants.none (fun _ => ∅) (fun _ _ => 0) p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ (fun _ => ∅) (fun _ _ => 0) p howed
  pre c := iprop(StableHlo.held (c : Thread nD τ) (Pipeline.ucRefs τ sig) (Ventry c) ∗ Rr c)
  post c := iprop(StableHlo.held (c : Thread nD τ) (Pipeline.ucRefs τ sig) (Vexit c) ∗ Rr c)
  X c := iprop(∃ r, prngReg c r)
  Y c := iprop(∃ r, prngReg c r)
  Z c := Pipeline.unscopedRest (Ix := Unit) (Name := ℕ) (U := UR sig nD τ) (Lvl := ℕ) (specOf (F := F) p) c (fun b => Ventry c b)
  hentry c := by
    -- the arrays leave the unscoped buffers; what is left of those is Z; the register is X; no table, no own semaphore
    rw [Pipeline.ownSems0_none]
    have hsplit := Pipeline.arrays_of_unscopedBufs (p := p) (pcfgs (F := F)) Gen.adm pdats launch.win launch.arr_whole c
      ((pdats p c).share_full (hq c)) (fun b => Ventry c b) (hA c)
    rw [Pipeline.unscopedBufs_held] at hsplit
    unfold Pipeline.Dat.owesAt Pipeline.owesWithin
    rw [howed c 0]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr
      · ipureintro; exact fun x _ => Or.inl ((hrec c).symm ▸ Set.mem_univ x)
      iexact HO
    isplitl [Hp]; · iexact Hp
    iexact Hrest
  hin c := by
    iintro ⟨Hp, -, Hr⟩
    iapply hin c
    isplitl [Hp]; · iexact Hp
    iexact Hr
  hout c := by
    rw [Pipeline.ownSems0_none]
    iintro H
    ihave H' := hout c $$ H
    icases H' with ⟨Hp, Hr⟩
    isplitl [Hp]; · iexact Hp
    isplitr; · iempintro
    iexact Hr
  hexit c := by
    -- the arrays at their last contents and Z are the unscoped buffers at Vexit
    have hjoin := Pipeline.unscopedBufs_of_arrays (p := p) (pcfgs (F := F)) Gen.adm (Ix := Unit) (Name := ℕ) (U := UR sig nD τ) (Lvl := ℕ)
      launch.win launch.arr_whole c pdats ((pdats p c).share_full (hq c))
      (fun b => Ventry c b) (fun b => Vexit c b) ((pdats p c).arrAt · (NOf (F := F) p)) (hF c) (hrest c)
    rw [Pipeline.unscopedBufs_held] at hjoin
    unfold Pipeline.Dat.owesAt Pipeline.owesWithin
    rw [howed c (Fin.last _)]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

section Projections

variable (pdats : (p : Fin 8) → (c : Dev nD) → Dat τ (Elt F) Unit ℕ (UR sig nD τ) ℕ (Pipeline.pin (pcfgs (F := F)) Gen.adm p) c)
    (p : Fin 8)
    (launch : Pipeline.LaunchFacts (nD := nD) (τ := τ) cfgs p)
    (Ventry Vexit : Dev nD → Valuation τ sig (Elt F))
    (hbody : ∀ c, BodyObligation (pdats p c) (defs₀ (F := F)) Variants.none () Set.univ)
    (hA : ∀ c w, (pdats p c).A w = Ventry c (Pipeline.arrRef (specOf (F := F) p) w))
    (hq : ∀ c w, (pdats p c).q w = fullShare)
    (howed : ∀ c t, (pdats p c).owed t = 0)
    (hrec : ∀ c, (pdats p c).recorded 0 = Set.univ)
    (hF : ∀ c w, (pdats p c).arrAt w (NOf (F := F) p) = Vexit c (Pipeline.arrRef (specOf (F := F) p) w))
    (hrest : ∀ c b, b ∉ Finset.univ.image (Pipeline.arrRef (specOf (F := F) p)) → Vexit c b = Ventry c b)
    (hin : ∀ c, iprop((∃ r, prngReg c r) ∗ Pipeline.scopedRest (Ix := Unit) (Name := ℕ) (U := UR sig nD τ) (Lvl := ℕ) (specOf (F := F) p) c)
      ⊢ ((pdats p c).Φ 0 : sProp 𝕄))
    (hout : ∀ c, ((pdats p c).Φ (Fin.last (NOf (F := F) p)) : sProp 𝕄)
      ⊢ iprop((∃ r, prngReg c r) ∗ Pipeline.scopedRest (Ix := Unit) (Name := ℕ) (U := UR sig nD τ) (Lvl := ℕ) (specOf (F := F) p) c))

/-- The thread state the built record is entered from. -/
theorem mkReg_pre (c : Dev nD) :
    (mkReg pdats p launch Ventry Vexit hbody hA hq howed hrec hF hrest hin hout).pre c
      = iprop(StableHlo.held (c : Thread nD τ) (Pipeline.ucRefs τ sig) (Ventry c) ∗ Rr c) := rfl

/-- The thread state the built record is left at. -/
theorem mkReg_post (c : Dev nD) :
    (mkReg pdats p launch Ventry Vexit hbody hA hq howed hrec hF hrest hin hout).post c
      = iprop(StableHlo.held (c : Thread nD τ) (Pipeline.ucRefs τ sig) (Vexit c) ∗ Rr c) := rfl

end Projections

/-- Everything mkReg asks of region p between the valuations Ventry and Vexit, as one record. -/
structure RegHyps (pdats : (p : Fin 8) → (c : Dev nD) → Dat τ (Elt F) Unit ℕ (UR sig nD τ) ℕ (Pipeline.pin (pcfgs (F := F)) Gen.adm p) c)
    (p : Fin 8) (Ventry Vexit : Dev nD → Valuation τ sig (Elt F)) : Prop where
  launch : Pipeline.LaunchFacts (nD := nD) (τ := τ) cfgs p
  hbody : ∀ c, BodyObligation (pdats p c) (defs₀ (F := F)) Variants.none () Set.univ
  hA : ∀ c w, (pdats p c).A w = Ventry c (Pipeline.arrRef (specOf (F := F) p) w)
  hq : ∀ c w, (pdats p c).q w = fullShare
  howed : ∀ c t, (pdats p c).owed t = 0
  hrec : ∀ c, (pdats p c).recorded 0 = Set.univ
  hF : ∀ c w, (pdats p c).arrAt w (NOf (F := F) p) = Vexit c (Pipeline.arrRef (specOf (F := F) p) w)
  hrest : ∀ c b, b ∉ Finset.univ.image (Pipeline.arrRef (specOf (F := F) p)) → Vexit c b = Ventry c b
  hin : ∀ c, iprop((∃ r, prngReg c r) ∗ Pipeline.scopedRest (Ix := Unit) (Name := ℕ) (U := UR sig nD τ) (Lvl := ℕ) (specOf (F := F) p) c)
      ⊢ ((pdats p c).Φ 0 : sProp 𝕄)
  hout : ∀ c, ((pdats p c).Φ (Fin.last (NOf (F := F) p)) : sProp 𝕄)
      ⊢ iprop((∃ r, prngReg c r) ∗ Pipeline.scopedRest (Ix := Unit) (Name := ℕ) (U := UR sig nD τ) (Lvl := ℕ) (specOf (F := F) p) c)

/-- The region's record from the bundled hypotheses. -/
def mkRegOf {pdats : (p : Fin 8) → (c : Dev nD) → Dat τ (Elt F) Unit ℕ (UR sig nD τ) ℕ (Pipeline.pin (pcfgs (F := F)) Gen.adm p) c}
    {p : Fin 8} {Ventry Vexit : Dev nD → Valuation τ sig (Elt F)} (h : RegHyps pdats p Ventry Vexit) :
    Pipeline.RegionSeg (pcfgs (F := F)) Gen.adm pdats () defs₀ Variants.none (fun _ => ∅) (fun _ _ => 0) p :=
  mkReg pdats p h.launch Ventry Vexit h.hbody h.hA h.hq h.howed h.hrec h.hF h.hrest h.hin h.hout

/-! ## The run: the eight records under the conditional frame -/

section Run

variable (m : (ℓ : Loc nD τ sig) → Buf (Elt F) ℓ) (ρ : Dev nD → PrngReg) (outs : Gen.Outs (F := F))
  (pdats : (p : Fin 8) → (c : Dev nD) → Dat τ (Elt F) Unit ℕ (UR sig nD τ) ℕ (Pipeline.pin (pcfgs (F := F)) Gen.adm p) c)
  (h0 : RegHyps pdats 0 (Gen.V3 m) (Gen.V4 m outs))
  (h1 : RegHyps pdats 1 (Gen.V5 m outs) (Gen.V6 m outs))
  (h2 : RegHyps pdats 2 (Gen.V7 m outs) (Gen.V8 m outs))
  (h3 : RegHyps pdats 3 (Gen.V8 m outs) (Gen.V9 m outs))
  (h4 : RegHyps pdats 4 (Gen.V10 m outs) (Gen.V11 m outs))
  (h5 : RegHyps pdats 5 (Gen.V12 m outs) (Gen.V13 m outs))
  (h6 : RegHyps pdats 6 (Gen.V13 m outs) (Gen.V14 m outs))
  (h7 : RegHyps pdats 7 (Gen.V17 m outs) (Gen.V18 m outs))

include h0 h1 h2 h3 h4 h5 h6 h7 in
set_option backward.isDefEq.respectTransparency.types false in
/-- THE FRAME OF THE RUN, from the eight regions' hypotheses: the conditional frame at the eight built records, the
    rest between items being Rr throughout (made at the launch from the generator register and the core owing nothing;
    at the end only the owing part is kept). -/
theorem frame_of :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Gen.frame_cond m (Ix := Unit) (U := UR sig nD τ) (Lvl := ℕ) emb₁ () Variants.none (fun _ => ∅) (fun _ _ => 0) (fun _ _ => rfl)
    ρ outs pdats
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach (fun _ => ∅) (fun _ _ => 0) fun c => ?_
      iintro ⟨⟨-, HO, -, Hp, -⟩, -⟩
      imodintro
      isplitl [Hp]; · iexists _; iexact Hp
      iexists ∅; iexact HO)
    (hE8 := fun c => by iintro ⟨-, HO⟩; iexact HO)
    (mkRegOf h0) (fun _ => .rfl) (fun _ => .rfl)
    (mkRegOf h1) (fun _ => .rfl) (fun _ => .rfl)
    (mkRegOf h2) (fun _ => .rfl) (fun _ => .rfl)
    (mkRegOf h3) (fun _ => .rfl) (fun _ => .rfl)
    (mkRegOf h4) (fun _ => .rfl) (fun _ => .rfl)
    (mkRegOf h5) (fun _ => .rfl) (fun _ => .rfl)
    (mkRegOf h6) (fun _ => .rfl) (fun _ => .rfl)
    (mkRegOf h7) (fun _ => .rfl) (fun _ => .rfl)

end Run

end Cert.Kernel.Reg

end
-- ==== Proof.K.RunValue.lean ====
/-
  The run of the whole program from one record per kernel region, with the result array's final contents in the post:
  every weakly fair execution terminates, the eleven argument arrays end as launched, and the result array ends at the
  last boundary's contents: each host stretch takes the unscoped buffers from one boundary's contents to the next, each
  region's record is entered from the contents before it and left at those after it, and at the end the final
  valuation is read at the arguments' buffers and at the result's.
-/
import proofs.«429275_j68899865363005_1_alg».proof.Proof.Gen.Kernel.Regions

set_option maxRecDepth 1368

noncomputable section

namespace Cert.Kernel.Reg

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- The conditional run WITH THE RESULT: as the conditional frame, and in every final memory the result array holds what
    the last region left in it (the last valuation read at the result's buffer). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V10 m outs c) ∗ E 4 c) ⊢ R4.pre c)
    (hpost4 : ∀ c : Dev nD, R4.post c ⊢ iprop(StableHlo.held (c : Thread nD τ) (Pipeline.ucRefs τ sig) (V11 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V12 m outs c) ∗ E 5 c) ⊢ R5.pre c)
    (hpost5 : ∀ c : Dev nD, R5.post c ⊢ iprop(StableHlo.held (c : Thread nD τ) (Pipeline.ucRefs τ sig) (V13 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V17 m outs c) ∗ E 7 c) ⊢ R7.pre c)
    (hpost7 : ∀ c : Dev nD, R7.post c ⊢ iprop(StableHlo.held (c : Thread nD τ) (Pipeline.ucRefs τ sig) (V18 m outs c) ∗ E 8 c)) :
    θ_run defs (onTc (τ := τ) (main (F := F))) ⟨m, fun _ => 0, ρ⟩ (fun r => ∀ c : Dev nD,
      r.2.mem ((c.tc : Thread nD τ).loc main_v115) = V18 m outs c main_v115
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          Prog.lift (.customCall (Pipeline.entry 6) ()),
          StableHlo.seq hostOps7,
          StableHlo.seq hostOps7_1,
          StableHlo.seq hostOps7_2,
          Prog.lift (.customCall (Pipeline.entry 7) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V18 m outs c))
    (hch := fun c => ⟨.rfl, .rfl, .rfl, hpre0 c, hpost0 c, hpre1 c, hpost1 c, hpre2 c, (hpost2 c).trans (hpre3 c), hpost3 c, hpre4 c, hpost4 c, hpre5 c, (hpost5 c).trans (hpre6 c), hpost6 c, .rfl, .rfl, hpre7 c, (hpost7 c).trans (sep_mono .rfl (hE8 c))⟩)
    (hinit := ?_) (QY := fun c s => s.mem ((c.tc : Thread nD τ).loc main_v115) = V18 m outs c main_v115 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V18 m outs c) s') $$ [Hh HSI]
    · isplitl [Hh] <;> iassumption
    icases Hr with ⟨%h, HSI⟩
    imodintro
    isplitr
    · ipureintro
      exact ⟨h (Proc.devRef .tc main_v115) (Finset.mem_filter.mpr ⟨StableHlo.devRef_mem_tcRefs main_v115, by decide⟩),
        (h (Proc.devRef .tc main_arg0) (Finset.mem_filter.mpr ⟨StableHlo.devRef_mem_tcRefs main_arg0, by decide⟩)).trans (V18_main_arg0 m outs c),
        (h (Proc.devRef .tc main_arg1) (Finset.mem_filter.mpr ⟨StableHlo.devRef_mem_tcRefs main_arg1, by decide⟩)).trans (V18_main_arg1 m outs c),
        (h (Proc.devRef .tc main_arg2) (Finset.mem_filter.mpr ⟨StableHlo.devRef_mem_tcRefs main_arg2, by decide⟩)).trans (V18_main_arg2 m outs c),
        (h (Proc.devRef .tc main_arg3) (Finset.mem_filter.mpr ⟨StableHlo.devRef_mem_tcRefs main_arg3, by decide⟩)).trans (V18_main_arg3 m outs c),
        (h (Proc.devRef .tc main_arg4) (Finset.mem_filter.mpr ⟨StableHlo.devRef_mem_tcRefs main_arg4, by decide⟩)).trans (V18_main_arg4 m outs c),
        (h (Proc.devRef .tc main_arg5) (Finset.mem_filter.mpr ⟨StableHlo.devRef_mem_tcRefs main_arg5, by decide⟩)).trans (V18_main_arg5 m outs c),
        (h (Proc.devRef .tc main_arg6) (Finset.mem_filter.mpr ⟨StableHlo.devRef_mem_tcRefs main_arg6, by decide⟩)).trans (V18_main_arg6 m outs c),
        (h (Proc.devRef .tc main_arg7) (Finset.mem_filter.mpr ⟨StableHlo.devRef_mem_tcRefs main_arg7, by decide⟩)).trans (V18_main_arg7 m outs c),
        (h (Proc.devRef .tc main_arg8) (Finset.mem_filter.mpr ⟨StableHlo.devRef_mem_tcRefs main_arg8, by decide⟩)).trans (V18_main_arg8 m outs c),
        (h (Proc.devRef .tc main_arg9) (Finset.mem_filter.mpr ⟨StableHlo.devRef_mem_tcRefs main_arg9, by decide⟩)).trans (V18_main_arg9 m outs c),
        (h (Proc.devRef .tc main_arg10) (Finset.mem_filter.mpr ⟨StableHlo.devRef_mem_tcRefs main_arg10, by decide⟩)).trans (V18_main_arg10 m outs c)⟩
    · iexact HSI

end Cert.Kernel.Reg

end
-- ==== Proof.K.RunOf.lean ====
import proofs.«429275_j68899865363005_1_alg».proof.Proof.K.RegBuilder
import proofs.«429275_j68899865363005_1_alg».proof.Proof.K.RunValue

set_option maxRecDepth 1368

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (ρ : Dev nD → PrngReg) (outs : Gen.Outs (F := F))
  (pdats : (p : Fin 8) → (c : Dev nD) → Dat τ (Elt F) Unit ℕ (UR sig nD τ) ℕ (Pipeline.pin (pcfgs (F := F)) Gen.adm p) c)
  (h0 : RegHyps pdats 0 (Gen.V3 m) (Gen.V4 m outs))
  (h1 : RegHyps pdats 1 (Gen.V5 m outs) (Gen.V6 m outs))
  (h2 : RegHyps pdats 2 (Gen.V7 m outs) (Gen.V8 m outs))
  (h3 : RegHyps pdats 3 (Gen.V8 m outs) (Gen.V9 m outs))
  (h4 : RegHyps pdats 4 (Gen.V10 m outs) (Gen.V11 m outs))
  (h5 : RegHyps pdats 5 (Gen.V12 m outs) (Gen.V13 m outs))
  (h6 : RegHyps pdats 6 (Gen.V13 m outs) (Gen.V14 m outs))
  (h7 : RegHyps pdats 7 (Gen.V17 m outs) (Gen.V18 m outs))

include h0 h1 h2 h3 h4 h5 h6 h7 in
set_option backward.isDefEq.respectTransparency.types false in
/-- THE RUN WITH THE RESULT, from the eight regions' hypotheses: every weakly fair execution terminates, the result
    array ends at the last valuation's contents and the eleven arguments end as launched. The conditional run at the
    eight built records, the rest between items being Rr throughout (made at the launch from the generator register
    and the core owing nothing; at the end only the owing part is kept). -/
theorem run_of :
    θ_run defs (onTc (τ := τ) (main (F := F))) ⟨m, fun _ => 0, ρ⟩ (fun r => ∀ c : Dev nD,
      r.2.mem ((c.tc : Thread nD τ).loc main_v115) = V18 m outs c main_v115
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Reg.run_cond m (Ix := Unit) (U := UR sig nD τ) (Lvl := ℕ) emb₁ () Variants.none (fun _ => ∅) (fun _ _ => 0) (fun _ _ => rfl)
    ρ outs pdats
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach (fun _ => ∅) (fun _ _ => 0) fun c => ?_
      iintro ⟨⟨-, HO, -, Hp, -⟩, -⟩
      imodintro
      isplitl [Hp]; · iexists _; iexact Hp
      iexists ∅; iexact HO)
    (hE8 := fun c => by iintro ⟨-, HO⟩; iexact HO)
    (mkRegOf h0) (fun _ => .rfl) (fun _ => .rfl)
    (mkRegOf h1) (fun _ => .rfl) (fun _ => .rfl)
    (mkRegOf h2) (fun _ => .rfl) (fun _ => .rfl)
    (mkRegOf h3) (fun _ => .rfl) (fun _ => .rfl)
    (mkRegOf h4) (fun _ => .rfl) (fun _ => .rfl)
    (mkRegOf h5) (fun _ => .rfl) (fun _ => .rfl)
    (mkRegOf h6) (fun _ => .rfl) (fun _ => .rfl)
    (mkRegOf h7) (fun _ => .rfl) (fun _ => .rfl)

end Run

end Cert.Kernel.Reg

end
-- ==== Proof.K.Run.lean ====
import proofs.«429275_j68899865363005_1_alg».proof.Proof.K.Chain
import proofs.«429275_j68899865363005_1_alg».proof.Proof.K.RegBuilder
import proofs.«429275_j68899865363005_1_alg».proof.Proof.K.RunOf

/-! # The run of @main at the named contents

Each of the eight regions is given, between the generated valuation before it and the one after it (the unknown
contents chosen as in the chain of boundaries), everything its segment record asks: the launch facts, the body's
obligation at the proof data taken at the region's entry, the arrays at entry and at exit, the buffers the region
leaves alone, the full share on every window, nothing owed, no bound on the recorded pairs, and the two ends of the
body's invariant. The named contents and the generated valuations are equal boundary by boundary, so each fact about
the former is one about the latter. The frame of the run and the run with its result follow. -/

set_option maxRecDepth 1368

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The eight regions' hypotheses -/

/-- Region 0, entered at the contents after the opening host stretches. -/
theorem hyps0 : RegHyps (pdats m) 0 (Gen.V3 m) (Gen.V4 m (outs m)) where
  launch := launch0
  hbody c := body_obligation0 (fun c b => X3 m c b) c
  hA c w := hA_0 m c w
  hq c w := rfl
  howed c t := rfl
  hrec c := rfl
  hF c w := (hF_0 m c w).trans (congrFun (V4_eq m c) _).symm
  hrest c b hb := (congrFun (V4_eq m c) _).trans (hrest_0 m c b hb)
  hin c := phi_in0 (fun c b => X3 m c b) c
  hout c := phi_out0 (fun c b => X3 m c b) c

/-- Region 1. -/
theorem hyps1 : RegHyps (pdats m) 1 (Gen.V5 m (outs m)) (Gen.V6 m (outs m)) where
  launch := launch1
  hbody c := body_obligation1 (fun c b => X5 m c b) c
  hA c w := (hA_1 m c w).trans (congrFun (V5_eq m c) _).symm
  hq c w := rfl
  howed c t := rfl
  hrec c := rfl
  hF c w := (hF_1 m c w).trans (congrFun (V6_eq m c) _).symm
  hrest c b hb := (congrFun (V6_eq m c) _).trans ((hrest_1 m c b hb).trans (congrFun (V5_eq m c) _).symm)
  hin c := phi_in1 (fun c b => X5 m c b) c
  hout c := phi_out1 (fun c b => X5 m c b) c

/-- Region 2. -/
theorem hyps2 : RegHyps (pdats m) 2 (Gen.V7 m (outs m)) (Gen.V8 m (outs m)) where
  launch := launch2
  hbody c := body_obligation2 (fun c b => X7 m c b) c
  hA c w := (hA_2 m c w).trans (congrFun (V7_eq m c) _).symm
  hq c w := rfl
  howed c t := rfl
  hrec c := rfl
  hF c w := (hF_2 m c w).trans (congrFun (V8_eq m c) _).symm
  hrest c b hb := (congrFun (V8_eq m c) _).trans ((hrest_2 m c b hb).trans (congrFun (V7_eq m c) _).symm)
  hin c := phi_in2 (fun c b => X7 m c b) c
  hout c := phi_out2 (fun c b => X7 m c b) c

/-- Region 3, entered where region 2 is left. -/
theorem hyps3 : RegHyps (pdats m) 3 (Gen.V8 m (outs m)) (Gen.V9 m (outs m)) where
  launch := launch3
  hbody c := body_obligation3 (fun c b => X8 m c b) c
  hA c w := (hA_3 m c w).trans (congrFun (V8_eq m c) _).symm
  hq c w := rfl
  howed c t := rfl
  hrec c := rfl
  hF c w := (hF_3 m c w).trans (congrFun (V9_eq m c) _).symm
  hrest c b hb := (congrFun (V9_eq m c) _).trans ((hrest_3 m c b hb).trans (congrFun (V8_eq m c) _).symm)
  hin c := phi_in3 (fun c b => X8 m c b) c
  hout c := phi_out3 (fun c b => X8 m c b) c

/-- Region 4. -/
theorem hyps4 : RegHyps (pdats m) 4 (Gen.V10 m (outs m)) (Gen.V11 m (outs m)) where
  launch := launch4
  hbody c := body_obligation4 (fun c b => X10 m c b) c
  hA c w := (hA_4 m c w).trans (congrFun (V10_eq m c) _).symm
  hq c w := rfl
  howed c t := rfl
  hrec c := rfl
  hF c w := (hF_4 m c w).trans (congrFun (V11_eq m c) _).symm
  hrest c b hb := (congrFun (V11_eq m c) _).trans ((hrest_4 m c b hb).trans (congrFun (V10_eq m c) _).symm)
  hin c := phi_in4 (fun c b => X10 m c b) c
  hout c := phi_out4 (fun c b => X10 m c b) c

/-- Region 5. -/
theorem hyps5 : RegHyps (pdats m) 5 (Gen.V12 m (outs m)) (Gen.V13 m (outs m)) where
  launch := launch5
  hbody c := body_obligation5 (fun c b => X12 m c b) c
  hA c w := (hA_5 m c w).trans (congrFun (V12_eq m c) _).symm
  hq c w := rfl
  howed c t := rfl
  hrec c := rfl
  hF c w := (hF_5 m c w).trans (congrFun (V13_eq m c) _).symm
  hrest c b hb := (congrFun (V13_eq m c) _).trans ((hrest_5 m c b hb).trans (congrFun (V12_eq m c) _).symm)
  hin c := phi_in5 (fun c b => X12 m c b) c
  hout c := phi_out5 (fun c b => X12 m c b) c

/-- Region 6, entered where region 5 is left. -/
theorem hyps6 : RegHyps (pdats m) 6 (Gen.V13 m (outs m)) (Gen.V14 m (outs m)) where
  launch := launch6
  hbody c := body_obligation6 (fun c b => X13 m c b) c
  hA c w := (hA_6 m c w).trans (congrFun (V13_eq m c) _).symm
  hq c w := rfl
  howed c t := rfl
  hrec c := rfl
  hF c w := (hF_6 m c w).trans (congrFun (V14_eq m c) _).symm
  hrest c b hb := (congrFun (V14_eq m c) _).trans ((hrest_6 m c b hb).trans (congrFun (V13_eq m c) _).symm)
  hin c := phi_in6 (fun c b => X13 m c b) c
  hout c := phi_out6 (fun c b => X13 m c b) c

/-- Region 7, entered after the three closing host stretches. -/
theorem hyps7 : RegHyps (pdats m) 7 (Gen.V17 m (outs m)) (Gen.V18 m (outs m)) where
  launch := launch7
  hbody c := body_obligation7 (fun c b => X17 m c b) c
  hA c w := (hA_7 m c w).trans (congrFun (V17_eq m c) _).symm
  hq c w := rfl
  howed c t := rfl
  hrec c := rfl
  hF c w := (hF_7 m c w).trans (congrFun (V18_eq m c) _).symm
  hrest c b hb := (congrFun (V18_eq m c) _).trans ((hrest_7 m c b hb).trans (congrFun (V17_eq m c) _).symm)
  hin c := phi_in7 (fun c b => X17 m c b) c
  hout c := phi_out7 (fun c b => X17 m c b) c

/-! ## The frame and the run -/

/-- Every weakly fair execution of @main from memory `m` terminates, and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (outs m) (pdats m) (hyps0 m) (hyps1 m) (hyps2 m) (hyps3 m) (hyps4 m) (hyps5 m) (hyps6 m) (hyps7 m)

/-- Every weakly fair execution of @main from memory `m` terminates; the result array ends at region 7's exit
    contents and every argument array ends as launched. -/
theorem run (ρ : Dev nD → PrngReg) :
    θ_run defs (onTc (τ := τ) (main (F := F))) ⟨m, fun _ => 0, ρ⟩ (fun r => ∀ c : Dev nD,
      r.2.mem ((c.tc : Thread nD τ).loc main_v115) = X18 m c main_v115
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (congrFun (V18_eq m c) _), (h c).2⟩)
    (run_of m ρ (outs m) (pdats m) (hyps0 m) (hyps1 m) (hyps2 m) (hyps3 m) (hyps4 m) (hyps5 m) (hyps6 m) (hyps7 m))

end Cert.Kernel.Reg

end
-- ==== Proof.KI.R0.lean ====
/-
  Region 0 of the program: a dense layer without bias, out = x · Wᵀ, computed one row tile at a time.

  The row dimension (50000) is split into ten tiles of 5000 rows. At grid point t the body reads the t-th
  row tile of x and the whole 128 × 128 weight matrix, and overwrites the t-th row tile of the output with the
  product of the tile by the transposed weights. Nothing is carried from one tile to the next, so the
  region's invariant is only "what the body never touches stays as it is".

  Everything here is stated at arbitrary buffer contents V at the moment the region is entered, and for any
  float instance: the statements concern which cells are read and written, not what the arithmetic gives.
-/
import proofs.«429275_j68899865363005_1_alg».proof.Proof.Gen.KernelIdeal.Launch
import proofs.«429275_j68899865363005_1_alg».proof.Proof.Gen.KernelIdeal.Skeleton
import proofs.«429275_j68899865363005_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles the body is handed -/

/-- The part of window w's array that grid point t looks at, taken from the array as it stands on entry. -/
def tile0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The x tile is in its buffer whenever the body runs. The body does not change it and every point loads a
    fresh tile, so the buffer holds exactly the t-th row tile of the entry array. -/
theorem finds0_x {c : Dev nD} (dat : Dat τ (Elt F) Unit ℕ (UR sig nD τ) ℕ cfg0 c)
    (hA : dat.A 0 = V c (Pipeline.arrRef spec0 0)) (hkeep : ∀ t, dat.after 0 t = tile0 V c 0 t)
    (t : Fin cfg0.N) (d) : dat.before 0 t d = tile0 V c 0 t :=
  (dat.before_in_eq_fetched 0 rfl (fun _ => rfl) (fun _ _ _ => rfl)
      (fun t => by rw [hkeep]; unfold Dat.blockOf tile0; rw [hA]; try rfl) t d).trans
    (by unfold Dat.fetched Dat.blockOf tile0; rw [hA]; try rfl)

/-- The weight matrix is loaded once, at the first point; its window never moves and the body leaves it alone,
    so at every later point the buffer still holds the same matrix. -/
theorem finds0_w {c : Dev nD} (dat : Dat τ (Elt F) Unit ℕ (UR sig nD τ) ℕ cfg0 c)
    (hA : dat.A 1 = V c (Pipeline.arrRef spec0 1)) (hkeep : ∀ t, dat.after 1 t = tile0 V c 1 t)
    (t : Fin cfg0.N) (d) : dat.before 1 t d = tile0 V c 1 t :=
  (dat.before_in_eq_fetched 1 rfl (fun _ => rfl) (fun _ _ _ => rfl)
      (fun t => by rw [hkeep]; unfold Dat.blockOf tile0; rw [hA]; try rfl) t d).trans
    (by unfold Dat.fetched Dat.blockOf tile0; rw [hA]; try rfl)

/-! ## What one run of the body writes -/

/-- The whole 5000 × 128 tile, as a rectangle of itself. -/
abbrev whole_x : Rect S5000x128 := Rect.unit (s := S5000x128) ![0, 0] S5000x128.size inb_S5000x128_S5000x128_0_0
/-- The whole 128 × 128 matrix, as a rectangle of itself. -/
abbrev whole_w : Rect S128x128 := Rect.unit (s := S128x128) ![0, 0] S128x128.size inb_S128x128_S128x128_0_0

/-- The output tile after the body: a single store over the whole tile, of the product of the x tile by the
    transposed weights. -/
def prod0 (x : Vec F S5000x128 .f32) (w : Vec F S128x128 .f32) : Vec F S5000x128 .f32 :=
  View.canon [⟨whole_x, k0_pay1 (View.ld x whole_x) (View.ld w whole_w)⟩]

/-- One store over the whole tile reaches every cell of it. -/
theorem prod0_total (p : Vec F S5000x128 .f32) (y : S5000x128.Idx) :
    ∃ pc ∈ ([⟨whole_x, p⟩] : List (View.Piece (Elt F) S5000x128 .f32)), y ∈ pc.1.set :=
  View.cover_of_tiled [⟨whole_x, p⟩] S5000x128.size (by rfl) y

/-! ## The body on three buffers -/

set_option maxHeartbeats 1000000 in
/-- Run on a buffer holding x, a buffer holding w and an output buffer holding anything, the body returns the first
    two unchanged and the third holding prod0 x w. (The body also reads the output buffer before overwriting it;
    what it reads there is not used.) -/
theorem linear_triple0 (c : Dev nD) (E : Set ℕ) (i : grid0.Coords)
    (a1 : Memref sig .tc .vmem S5000x128 .f32) (h1 : a1.IsWhole)
    (a2 : Memref sig .tc .vmem S128x128 .f32) (h2 : a2.IsWhole)
    (a3 : Memref sig .tc .vmem S5000x128 .f32) (h3 : a3.IsWhole)
    (x : Vec F S5000x128 .f32) (w : Vec F S128x128 .f32) (K : PUnit → sProp 𝕄) :
    iprop(owns (c : Thread nD τ) a1 fullShare x ∗ owns (c : Thread nD τ) a2 fullShare w
        ∗ (∃ d, owns (c : Thread nD τ) a3 fullShare d)
        ∗ (iprop(owns (c : Thread nD τ) a1 fullShare x ∗ owns (c : Thread nD τ) a2 fullShare w
            ∗ owns (c : Thread nD τ) a3 fullShare (prod0 x w)) -∗ K ⟨⟩))
      ⊢ wp frame (wpE (defs₀ (F := F)) Variants.none c none) E (cc0__linear_kernel i a1 h1 a2 h2 a3 h3) K := by
  simp only [cc0__linear_kernel_eq_skeleton]; unfold cc0__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod0_total _)

/-! ## The region's data -/

/-- The data of region 0 on core c. The arrays start at V. After the body at point t, the two input buffers hold
    what they held (their tiles) and the output buffer holds the product of the two. The invariant says only that
    the rest of the core's scoped memory and its generator register exist; the full share of every array is held
    and nothing is owed to other cores. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => prod0 (tile0 V c 0 t) (tile0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- After the body: the x buffer still holds the x tile, -/
theorem after0_x (c : Dev nD) (t : Fin cfg0.N) : (dat0 V c).after 0 t = tile0 V c 0 t := by dsimp only [dat0]
/-- the w buffer still holds the weights, -/
theorem after0_w (c : Dev nD) (t : Fin cfg0.N) : (dat0 V c).after 1 t = tile0 V c 1 t := by dsimp only [dat0]
/-- and the output buffer holds their product. -/
theorem after0_out (c : Dev nD) (t : Fin cfg0.N) :
    (dat0 V c).after 2 t = prod0 (tile0 V c 0 t) (tile0 V c 1 t) := by dsimp only [dat0]

theorem before0_x (c : Dev nD) (t : Fin cfg0.N) (d) : (dat0 V c).before 0 t d = tile0 V c 0 t :=
  finds0_x V (dat0 V c) (A_eq0 V c 0) (after0_x V c) t d
theorem before0_w (c : Dev nD) (t : Fin cfg0.N) (d) : (dat0 V c).before 1 t d = tile0 V c 1 t :=
  finds0_w V (dat0 V c) (A_eq0 V c 1) (after0_w V c) t d

/-! ## The body at a grid point -/

/-- What the pipeline gives the body at point t: the invariant, the debt ledger, and the three current buffers. -/
def given0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body gives back. -/
def back0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At every point the input buffers hold their tiles, so the triple above applies; invariant and ledger are not
    looked at. -/
theorem point0 (c : Dev nD) (t : Fin cfg0.N) :
    given0 V c t ⊢ wp frame (wpE (defs₀ (F := F)) Variants.none c none) Set.univ (bodyAt0 t) (fun _ => back0 V c t) := by
  unfold given0 back0 bodyAt0
  simp only [before0_x, before0_w]
  rw [show (dat0 V c).Φ t.succ = (dat0 V c).Φ t.castSucc from rfl,
    show (dat0 V c).owesAt () t.succ = (dat0 V c).owesAt () t.castSucc from rfl,
    after0_x, after0_w, after0_out]
  iintro ⟨HΦ, Ho, ⟨%d0, H0⟩, ⟨%d1, H1⟩, ⟨%d2, H2⟩⟩
  iapply (linear_triple0 c Set.univ _ _ _ _ _ _ _ (tile0 V c 0 t) (tile0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) :
    BodyObligation (dat0 (F := F) V c) (defs₀ (F := F)) Variants.none () Set.univ := fun t => by
  rw [bigSep_W0, bigSep_W0]
  exact point0 V c t

/-! ## The two ends of the invariant -/

/-- Entering: the generator register and the untouched scoped memory are exactly the invariant before point 0. -/
theorem phi_in0 (c : Dev nD) :
    iprop((∃ r, prngReg c r) ∗ Pipeline.scopedRest (Ix := Unit) (Name := ℕ) (U := UR sig nD τ) (Lvl := ℕ) spec0 c)
      ⊢ ((dat0 (F := F) V c).Φ 0 : sProp 𝕄) := by
  show _ ⊢ Pipeline.ΦA spec0 c
  unfold Pipeline.ΦA
  iintro ⟨Hp, Hs⟩
  isplitl [Hs]; · iexact Hs
  iexact Hp

/-- Leaving: the invariant after the last point gives the same two things back. -/
theorem phi_out0 (c : Dev nD) :
    ((dat0 (F := F) V c).Φ (Fin.last cfg0.N) : sProp 𝕄)
      ⊢ iprop((∃ r, prngReg c r) ∗ Pipeline.scopedRest (Ix := Unit) (Name := ℕ) (U := UR sig nD τ) (Lvl := ℕ) spec0 c) := by
  show Pipeline.ΦA spec0 c ⊢ _
  unfold Pipeline.ΦA
  iintro ⟨Hs, Hp⟩
  isplitl [Hp]; · iexact Hp
  iexact Hs

end Cert.KernelIdeal.Reg
-- ==== Proof.KI.R1.lean ====
/-
  Region 1 of @main (the column sums of the biased matrix and of its square, row tile by row tile): the proof
  data of its pipeline at any entry contents `V`, the body obligation, and how the region's invariant is entered
  and left. The kernel keeps two running sums in buffers of its own across the ten row tiles — reset at the first,
  added to at each, copied to the two outputs at the last — so the invariant carries those two buffers at the
  running sums, and an output window is handed back as found at the tiles where nothing is stored into it.
  Generic in the float instance.
-/
import proofs.«429275_j68899865363005_1_alg».proof.Proof.Gen.KernelIdeal.Launch
import proofs.«429275_j68899865363005_1_alg».proof.Proof.Gen.KernelIdeal.Skeleton
import proofs.«429275_j68899865363005_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the body branches

The body has two conditionals on the grid coordinate: the first resets the two running sums and is taken
at the first row tile only; the second copies them to the outputs and is taken at the last row tile only. -/

/-- The condition of the reset, as the kernel computes it from the grid coordinate. -/
abbrev atFirst1 (i : grid1.Coords) : Prop :=
  (Scalar.cmpi .ne (Scalar.extui (Scalar.cmpi .eq (BitVec.ofNat 32 (i 0).val) 0#32)) 0#32) = 1#1
/-- It holds at row tile 0 only. -/
theorem atFirst1_iff : ∀ t : Fin cfg1.N, atFirst1 (grid1.coords t) ↔ t.val = 0 :=
  (by decide +kernel : ∀ t : Fin grid1.N, atFirst1 (grid1.coords t) ↔ t.val = 0)
/-- The condition of the copy to the outputs. -/
abbrev atLast1 (i : grid1.Coords) : Prop := k1_cond2 i = 1#1
/-- It holds at row tile 9 only. -/
theorem atLast1_iff : ∀ t : Fin cfg1.N, atLast1 (grid1.coords t) ↔ t.val = 9 :=
  (by decide +kernel : ∀ t : Fin grid1.N, atLast1 (grid1.coords t) ↔ t.val = 9)

/-! ## Whole-buffer stores -/

/-- The offsets of every access of the body: the origin. -/
theorem origin2 : (![0, 0] : Fin 2 → Nat) = fun _ => 0 := funext fun a => by fin_cases a <;> rfl

/-- A rectangle at the origin with the shape's own extents holds every index. -/
theorem mem_full_rect {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- After a last store through such a rectangle the buffer reads as that store's payload, whatever was stored before. -/
theorem read_after_full_store {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, mem_full_rect h inb y⟩), View.canon_cons_unit_zero h]

/-! ## The body's three runs

Each on whole memrefs: the input windows' buffers at the tile `x` and the bias row `b`. -/

set_option maxHeartbeats 1000000 in
/-- THE FIRST ROW TILE. The body resets the two carried buffers (held at anything), then adds the tile's column sums:
    they end at the sums started from the reset value; the output buffers are not touched. -/
theorem run_first1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hf : atFirst1 i) (hl : ¬atLast1 i)
    (x : Vec F S5000x128 .f32) (b : Vec F S1x128 .f32) (K : PUnit → sProp 𝕄) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (k1_pay4 x b k1_pay1) ∗ owns (c : Thread nD τ) arg6 fullShare (k1_pay5 x b k1_pay2)) -∗ K ⟨⟩))
      ⊢ wp frame (wpE (defs₀ (F := F)) Variants.none c none) E (cc1__bn_reduce_kernel i arg1 harg1 arg2 harg2 arg3 harg3 arg4 harg4 arg5 harg5 arg6 harg6) K := by
  simp only [cc1__bn_reduce_kernel_eq_skeleton]; unfold cc1__bn_reduce_kernel_skel
  unfold owns
  iintro ⟨⟨%f1, %hf1, H1⟩, ⟨%f2, %hf2, H2⟩, ⟨%d5, %f5, -, H5⟩, ⟨%d6, %f6, -, H6⟩, Hk⟩
  obtain rfl := harg1.eq_unread hf1; obtain rfl := harg2.eq_unread hf2
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H5]
  · iexists _; isplitr
    swap; · iexact H5
    ipureintro
    sl_unfold_words
    rw [read_after_full_store _ _ origin2]
    simp only [View.readCov_unit_zero (S := S1x128) _ origin2, View.readAt_eq_ld, harg1.read_unread, harg2.read_unread, View.ld_unit_zero (S := S5000x128) origin2, View.ld_unit_zero (S := S1x128) origin2]
  iexists _; isplitr
  swap; · iexact H6
  · ipureintro
    sl_unfold_words
    rw [read_after_full_store _ _ origin2]
    simp only [View.readCov_unit_zero (S := S1x128) _ origin2, View.readAt_eq_ld, harg1.read_unread, harg2.read_unread, View.ld_unit_zero (S := S5000x128) origin2, View.ld_unit_zero (S := S1x128) origin2]

set_option maxHeartbeats 1000000 in
/-- A MIDDLE ROW TILE. The body adds the tile's column sums to the two carried buffers, held at `s0`, `s1`; the
    output buffers are not touched. -/
theorem run_mid1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hf : ¬atFirst1 i) (hl : ¬atLast1 i)
    (x : Vec F S5000x128 .f32) (b s0 s1 : Vec F S1x128 .f32) (K : PUnit → sProp 𝕄) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (k1_pay4 x b s0) ∗ owns (c : Thread nD τ) arg6 fullShare (k1_pay5 x b s1)) -∗ K ⟨⟩))
      ⊢ wp frame (wpE (defs₀ (F := F)) Variants.none c none) E (cc1__bn_reduce_kernel i arg1 harg1 arg2 harg2 arg3 harg3 arg4 harg4 arg5 harg5 arg6 harg6) K := by
  simp only [cc1__bn_reduce_kernel_eq_skeleton]; unfold cc1__bn_reduce_kernel_skel
  unfold owns
  iintro ⟨⟨%f1, %hf1, H1⟩, ⟨%f2, %hf2, H2⟩, ⟨%f5, %hf5, H5⟩, ⟨%f6, %hf6, H6⟩, Hk⟩
  obtain rfl := harg1.eq_unread hf1; obtain rfl := harg2.eq_unread hf2
  obtain rfl := harg5.eq_unread hf5; obtain rfl := harg6.eq_unread hf6
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H5]
  · iexists _; isplitr
    swap; · iexact H5
    ipureintro
    rw [read_after_full_store _ _ origin2]
    simp only [View.readAt_eq_ld, harg1.read_unread, harg2.read_unread, harg5.read_unread, View.ld_unit_zero (S := S5000x128) origin2, View.ld_unit_zero (S := S1x128) origin2]
  iexists _; isplitr
  swap; · iexact H6
  ipureintro
  rw [read_after_full_store _ _ origin2]
  simp only [View.readAt_eq_ld, harg1.read_unread, harg2.read_unread, harg6.read_unread, View.ld_unit_zero (S := S5000x128) origin2, View.ld_unit_zero (S := S1x128) origin2]

set_option maxHeartbeats 1000000 in
/-- THE LAST ROW TILE. As in the middle, and then each carried buffer is copied to its output buffer (held at
    anything): both end at the updated sums. -/
theorem run_last1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hf : ¬atFirst1 i) (hl : atLast1 i)
    (x : Vec F S5000x128 .f32) (b s0 s1 : Vec F S1x128 .f32) (K : PUnit → sProp 𝕄) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (k1_pay4 x b s0) ∗ owns (c : Thread nD τ) arg4 fullShare (k1_pay5 x b s1)
            ∗ owns (c : Thread nD τ) arg5 fullShare (k1_pay4 x b s0) ∗ owns (c : Thread nD τ) arg6 fullShare (k1_pay5 x b s1)) -∗ K ⟨⟩))
      ⊢ wp frame (wpE (defs₀ (F := F)) Variants.none c none) E (cc1__bn_reduce_kernel i arg1 harg1 arg2 harg2 arg3 harg3 arg4 harg4 arg5 harg5 arg6 harg6) K := by
  simp only [cc1__bn_reduce_kernel_eq_skeleton]; unfold cc1__bn_reduce_kernel_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  obtain rfl := harg1.eq_unread hf1; obtain rfl := harg2.eq_unread hf2
  obtain rfl := harg5.eq_unread hf5; obtain rfl := harg6.eq_unread hf6
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    sl_unfold_words
    rw [read_after_full_store _ _ origin2]
    simp only [View.readCov_unit_zero (S := S1x128) _ origin2, View.readAt_eq_ld, harg1.read_unread, harg2.read_unread, harg5.read_unread, View.ld_unit_zero (S := S5000x128) origin2, View.ld_unit_zero (S := S1x128) origin2]
  isplitl [H4]
  · iexists _; isplitr
    swap; · iexact H4
    ipureintro
    sl_unfold_words
    rw [read_after_full_store _ _ origin2]
    simp only [View.readCov_unit_zero (S := S1x128) _ origin2, View.readAt_eq_ld, harg1.read_unread, harg2.read_unread, harg6.read_unread, View.ld_unit_zero (S := S5000x128) origin2, View.ld_unit_zero (S := S1x128) origin2]
  isplitl [H5]
  · iexists _; isplitr
    swap; · iexact H5
    ipureintro
    sl_unfold_words
    rw [read_after_full_store _ _ origin2]
    simp only [View.readCov_unit_zero (S := S1x128) _ origin2, View.readAt_eq_ld, harg1.read_unread, harg2.read_unread, harg5.read_unread, View.ld_unit_zero (S := S5000x128) origin2, View.ld_unit_zero (S := S1x128) origin2]
  iexists _; isplitr
  swap; · iexact H6
  · ipureintro
    sl_unfold_words
    rw [read_after_full_store _ _ origin2]
    simp only [View.readCov_unit_zero (S := S1x128) _ origin2, View.readAt_eq_ld, harg1.read_unread, harg2.read_unread, harg6.read_unread, View.ld_unit_zero (S := S5000x128) origin2, View.ld_unit_zero (S := S1x128) origin2]

/-! ## The windows' blocks and the running sums -/

/-- Window `w`'s block at row tile `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Row tile `t` of the matrix, at its literal type. -/
abbrev tile1 (c : Dev nD) (t : Fin cfg1.N) : Vec F S5000x128 .f32 := blk1 V c 0 t
/-- The bias row as row tile `t` sees it, at its literal type. -/
abbrev bias1 (c : Dev nD) (t : Fin cfg1.N) : Vec F S1x128 .f32 := blk1 V c 1 t

/-- THE RUNNING SUMS: what the two carried buffers hold after row tile `n` — the column sums of the biased
    tile and of its square, started from the reset value at tile 0 and from the previous tile's sums afterwards. -/
def sums1 (c : Dev nD) : (n : ℕ) → n < cfg1.N → Vec F S1x128 .f32 × Vec F S1x128 .f32
  | 0, h => (k1_pay4 (tile1 V c ⟨0, h⟩) (bias1 V c ⟨0, h⟩) k1_pay1, k1_pay5 (tile1 V c ⟨0, h⟩) (bias1 V c ⟨0, h⟩) k1_pay2)
  | n + 1, h =>
    (k1_pay4 (tile1 V c ⟨n + 1, h⟩) (bias1 V c ⟨n + 1, h⟩) (sums1 c n (Nat.lt_of_succ_lt h)).1,
     k1_pay5 (tile1 V c ⟨n + 1, h⟩) (bias1 V c ⟨n + 1, h⟩) (sums1 c n (Nat.lt_of_succ_lt h)).2)

/-- At the first row tile the sums start from the reset value. -/
theorem sums1_first (c : Dev nD) (t : Fin cfg1.N) (hz : t.val = 0) :
    sums1 V c t.val t.isLt = (k1_pay4 (tile1 V c t) (bias1 V c t) k1_pay1, k1_pay5 (tile1 V c t) (bias1 V c t) k1_pay2) := by
  obtain ⟨n, hn⟩ := t
  cases n with
  | zero => rfl
  | succ n => exact absurd hz (Nat.succ_ne_zero n)

/-- At a later row tile they continue the previous tile's. -/
theorem sums1_later (c : Dev nD) (t : Fin cfg1.N) (hz : t.val ≠ 0) :
    sums1 V c t.val t.isLt
      = (k1_pay4 (tile1 V c t) (bias1 V c t) (sums1 V c (t.val - 1) (Nat.lt_of_le_of_lt (Nat.sub_le _ _) t.isLt)).1,
         k1_pay5 (tile1 V c t) (bias1 V c t) (sums1 V c (t.val - 1) (Nat.lt_of_le_of_lt (Nat.sub_le _ _) t.isLt)).2) := by
  obtain ⟨n, hn⟩ := t
  cases n with
  | zero => exact absurd rfl hz
  | succ n => rfl

/-! ## The invariant -/

/-- The first carried buffer, as the memref the body is called with. -/
abbrev acc1_0 : Memref sig .tc .vmem S1x128 .f32 := Memref.whole cc1_scratch0
/-- The second. -/
abbrev acc1_1 : Memref sig .tc .vmem S1x128 .f32 := Memref.whole cc1_scratch1

/-- Before row tile `n`: at the region's entry the generator register and every scoped buffer that is no staging
    buffer of the region, at any contents (at tile 0 the body overwrites both carried buffers before it uses what they hold);
    afterwards the generator register, the two carried buffers at the running sums over the tiles before `n`, and
    the other scoped buffers unopened. -/
def Inv1 (c : Dev nD) : (n : ℕ) → n ≤ cfg1.N → sProp 𝕄
  | 0, _ => iprop((∃ r, prngReg c r) ∗ Pipeline.scopedRest (Ix := Unit) (Name := ℕ) (U := UR sig nD τ) (Lvl := ℕ) spec1 c)
  | n + 1, h =>
    iprop((∃ r, prngReg c r)
      ∗ iprop(owns (c : Thread nD τ) acc1_0 fullShare (sums1 V c n h).1 ∗ owns (c : Thread nD τ) acc1_1 fullShare (sums1 V c n h).2)
      ∗ Pipeline.scopedRestBut (Ix := Unit) (Name := ℕ) (U := UR sig nD τ) (Lvl := ℕ) (Val := Elt F) spec1 c [cc1_scratch0, cc1_scratch1])

theorem Inv1_entry (c : Dev nD) (n : ℕ) (h : n ≤ cfg1.N) (hz : n = 0) :
    Inv1 V c n h = iprop((∃ r, prngReg c r) ∗ Pipeline.scopedRest (Ix := Unit) (Name := ℕ) (U := UR sig nD τ) (Lvl := ℕ) spec1 c) := by
  subst hz; rfl

theorem Inv1_next (c : Dev nD) (n : ℕ) (h : n < cfg1.N) :
    Inv1 V c (n + 1) h = iprop((∃ r, prngReg c r)
      ∗ iprop(owns (c : Thread nD τ) acc1_0 fullShare (sums1 V c n h).1 ∗ owns (c : Thread nD τ) acc1_1 fullShare (sums1 V c n h).2)
      ∗ Pipeline.scopedRestBut (Ix := Unit) (Name := ℕ) (U := UR sig nD τ) (Lvl := ℕ) (Val := Elt F) spec1 c [cc1_scratch0, cc1_scratch1]) := rfl

theorem Inv1_later (c : Dev nD) (n : ℕ) (h : n ≤ cfg1.N) (hz : n ≠ 0) :
    Inv1 V c n h = iprop((∃ r, prngReg c r)
      ∗ iprop(owns (c : Thread nD τ) acc1_0 fullShare (sums1 V c (n - 1) (by omega)).1 ∗ owns (c : Thread nD τ) acc1_1 fullShare (sums1 V c (n - 1) (by omega)).2)
      ∗ Pipeline.scopedRestBut (Ix := Unit) (Name := ℕ) (U := UR sig nD τ) (Lvl := ℕ) (Val := Elt F) spec1 c [cc1_scratch0, cc1_scratch1]) := by
  cases n with
  | zero => exact absurd rfl hz
  | succ n => rfl

/-- The scoped buffers at the region's entry, with the two carried buffers as memrefs owned at some contents. -/
theorem scoped_entry1 (c : Dev nD) :
    (Pipeline.scopedRest (Ix := Unit) (Name := ℕ) (U := UR sig nD τ) (Lvl := ℕ) spec1 c : sProp 𝕄)
      = iprop(iprop((∃ d, owns (c : Thread nD τ) acc1_0 fullShare d) ∗ (∃ d, owns (c : Thread nD τ) acc1_1 fullShare d))
          ∗ Pipeline.scopedRestBut (Ix := Unit) (Name := ℕ) (U := UR sig nD τ) (Lvl := ℕ) (Val := Elt F) spec1 c [cc1_scratch0, cc1_scratch1]) := by
  rw [scopedRest1_split]; simp only [acc1_0, acc1_1, owns_whole]; try rfl

/-! ## The proof data -/

/-- The proof data of the region on core `c`: the arrays as the region finds them; after the body at row tile `t`
    each input's buffer at its block and the two outputs' at the running sums (written back at the last tile only);
    the invariant `Inv1`; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => (sums1 V c t.val t.isLt).1
    | ⟨3, _⟩ => (sums1 V c t.val t.isLt).2
  Φ t := Inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
/-- What the write-back of the first output writes: the column sums. -/
theorem after1_2 (c : Dev nD) (t : Fin cfg1.N) : (dat1 V c).after 2 t = (sums1 V c t.val t.isLt).1 := by dsimp only [dat1]
/-- What the write-back of the second output writes: the column sums of squares. -/
theorem after1_3 (c : Dev nD) (t : Fin cfg1.N) : (dat1 V c).after 3 t = (sums1 V c t.val t.isLt).2 := by dsimp only [dat1]

theorem Phi1_at (c : Dev nD) (t : Fin cfg1.N) :
    (dat1 V c).Φ t.castSucc = Inv1 V c t.val (Nat.le_of_lt t.isLt) := by
  dsimp only [dat1]; simp only [Fin.coe_castSucc]

/-- The matrix window's buffer holds the row tile at every point. -/
theorem found1_0 (c : Dev nD) (t : Fin cfg1.N) (d) : (dat1 V c).before 0 t d = blk1 V c 0 t := by
  refine ((dat1 V c).before_in_eq_fetched 0 rfl (fun _ => rfl) (fun _ _ _ => rfl) (fun t => ?_) t d).trans ?_
  · rw [after1_0]; unfold Dat.blockOf blk1; rw [A_eq1]; try rfl
  · unfold Dat.fetched Dat.blockOf blk1; rw [A_eq1]; try rfl

/-- The bias window's buffer holds the bias row at every point, though it is fetched at the first only. -/
theorem found1_1 (c : Dev nD) (t : Fin cfg1.N) (d) : (dat1 V c).before 1 t d = blk1 V c 1 t := by
  refine ((dat1 V c).before_in_eq_fetched 1 rfl (fun _ => rfl) (fun _ _ _ => rfl) (fun t => ?_) t d).trans ?_
  · rw [after1_1]; unfold Dat.blockOf blk1; rw [A_eq1]; try rfl
  · unfold Dat.fetched Dat.blockOf blk1; rw [A_eq1]; try rfl

/-! ## Where the output windows are idle -/

theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬atLast1 (grid1.coords t) → cfg1.idle 2 (grid1.coords t) = true := by decide +kernel
theorem idle1_3 : ∀ t : Fin cfg1.N, ¬atLast1 (grid1.coords t) → cfg1.idle 3 (grid1.coords t) = true := by decide +kernel
theorem keep1_2 : ∀ t : Fin cfg1.N, ¬atLast1 (grid1.coords t) → (cfg1.win 2).flush t = false := by decide +kernel
theorem keep1_3 : ∀ t : Fin cfg1.N, ¬atLast1 (grid1.coords t) → (cfg1.win 3).flush t = false := by decide +kernel
theorem live1_2 : ∀ t : Fin cfg1.N, atLast1 (grid1.coords t) → cfg1.idle 2 (grid1.coords t) = false := by decide +kernel
theorem live1_3 : ∀ t : Fin cfg1.N, atLast1 (grid1.coords t) → cfg1.idle 3 (grid1.coords t) = false := by decide +kernel

/-! ## The body obligation -/

/-- What the body is called with at row tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (st1_0 t) fullShare (blk1 V c 0 t) := by
  unfold Dat.leavesExact; rw [live1_0 t, after1_0]
theorem leaves1_1 (c : Dev nD) (t : Fin cfg1.N) :
    (dat1 V c).leavesExact 1 t = owns (c : Thread nD τ) (st1_1 t) fullShare (blk1 V c 1 t) := by
  unfold Dat.leavesExact; rw [live1_1 t, after1_1]
theorem leaves1_2_last (c : Dev nD) (t : Fin cfg1.N) (hl : atLast1 (grid1.coords t)) :
    (dat1 V c).leavesExact 2 t = owns (c : Thread nD τ) (st1_2 t) fullShare (sums1 V c t.val t.isLt).1 := by
  unfold Dat.leavesExact; rw [live1_2 t hl, after1_2]
theorem leaves1_3_last (c : Dev nD) (t : Fin cfg1.N) (hl : atLast1 (grid1.coords t)) :
    (dat1 V c).leavesExact 3 t = owns (c : Thread nD τ) (st1_3 t) fullShare (sums1 V c t.val t.isLt).2 := by
  unfold Dat.leavesExact; rw [live1_3 t hl, after1_3]

set_option maxHeartbeats 4000000 in
/-- The body at any row tile: the input windows hold their blocks; the grid coordinate decides which of the three
    runs applies; the invariant hands the body the two carried buffers (at anything at the first tile, at the
    previous sums later) and takes them back at this tile's sums; an output window is handed back as found except
    at the last tile, where it is left at the sums. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1]
  rw [show (dat1 V c).owesAt () t.succ = (dat1 V c).owesAt () t.castSucc from rfl]
  rw [show (dat1 V c).Φ t.succ = Inv1 V c (t.val + 1) t.isLt from rfl, Inv1_next, leaves1_0, leaves1_1, Phi1_at]
  have hN : t.val < 10 := lt_of_lt_of_eq t.isLt (show cfg1.N = 10 from N_1)
  by_cases hz : t.val = 0
  · have hf : atFirst1 (grid1.coords t) := (atFirst1_iff t).mpr hz
    have hl : ¬atLast1 (grid1.coords t) := fun h => by have := (atLast1_iff t).mp h; omega
    rw [Dat.leavesExact_idle (dat1 V c) 2 t (idle1_2 t hl) (keep1_2 t hl),
      Dat.leavesExact_idle (dat1 V c) 3 t (idle1_3 t hl) (keep1_3 t hl),
      sums1_first V c t hz, Inv1_entry V c _ _ hz, scoped_entry1]
    iintro ⟨⟨Hg, ⟨⟨%e0, HS0⟩, ⟨%e1, HS1⟩⟩, Hr⟩, Ho, ⟨%d0, H0⟩, ⟨%d1, H1⟩, ⟨%d2, H2⟩, ⟨%d3, H3⟩⟩
    iapply (run_first1 c Set.univ (grid1.coords t) _ _ _ _ _ _ _ _ _ _ _ _ hf hl (tile1 V c t) (bias1 V c t) _)
    isplitl [H0]; · iexact H0
    isplitl [H1]; · iexact H1
    isplitl [HS0]; · iexists _; iexact HS0
    isplitl [HS1]; · iexists _; iexact HS1
    iintro ⟨H0, H1, HS0, HS1⟩
    isplitl [Hg HS0 HS1 Hr]
    · isplitl [Hg]; · iexact Hg
      isplitl [HS0 HS1]
      · isplitl [HS0]; · iexact HS0
        iexact HS1
      iexact Hr
    isplitl [Ho]; · iexact Ho
    isplitl [H0]; · iexact H0
    isplitl [H1]; · iexact H1
    isplitl [H2]; · iexists _; iexact H2
    iexists _; iexact H3
  · have hf : ¬atFirst1 (grid1.coords t) := fun h => hz ((atFirst1_iff t).mp h)
    rw [sums1_later V c t hz, Inv1_later V c _ _ hz]
    by_cases h9 : t.val = 9
    · have hl : atLast1 (grid1.coords t) := (atLast1_iff t).mpr h9
      rw [leaves1_2_last V c t hl, leaves1_3_last V c t hl, sums1_later V c t hz]
      iintro ⟨⟨Hg, ⟨HS0, HS1⟩, Hr⟩, Ho, ⟨%d0, H0⟩, ⟨%d1, H1⟩, ⟨%d2, H2⟩, ⟨%d3, H3⟩⟩
      iapply (run_last1 c Set.univ (grid1.coords t) _ _ _ _ _ _ _ _ _ _ _ _ hf hl (tile1 V c t) (bias1 V c t) _ _ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      iexact H3
    · have hl : ¬atLast1 (grid1.coords t) := fun h => h9 ((atLast1_iff t).mp h)
      rw [Dat.leavesExact_idle (dat1 V c) 2 t (idle1_2 t hl) (keep1_2 t hl),
        Dat.leavesExact_idle (dat1 V c) 3 t (idle1_3 t hl) (keep1_3 t hl)]
      iintro ⟨⟨Hg, ⟨HS0, HS1⟩, Hr⟩, Ho, ⟨%d0, H0⟩, ⟨%d1, H1⟩, ⟨%d2, H2⟩, ⟨%d3, H3⟩⟩
      iapply (run_mid1 c Set.univ (grid1.coords t) _ _ _ _ _ _ _ _ _ _ _ _ hf hl (tile1 V c t) (bias1 V c t) _ _ _)
      isplitl [H0]; · iexact H0
      isplitl [H1]; · iexact H1
      isplitl [HS0]; · iexact HS0
      isplitl [HS1]; · iexact HS1
      iintro ⟨H0, H1, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexists _; iexact H2
      iexists _; iexact H3

/-- The library's body obligation, at every row tile. -/
theorem body_obligation1 (c : Dev nD) : BodyObligation (dat1 (F := F) V c) (defs₀ (F := F)) Variants.none () Set.univ := fun t => by
  rw [bigSep_W1, bigSep_W1]
  exact sound_body1 V c t

/-! ## Entering and leaving the region -/

/-- What the region is entered with is the invariant before the first row tile. -/
theorem phi_in1 (c : Dev nD) :
    iprop((∃ r, prngReg c r) ∗ Pipeline.scopedRest (Ix := Unit) (Name := ℕ) (U := UR sig nD τ) (Lvl := ℕ) spec1 c)
      ⊢ ((dat1 (F := F) V c).Φ 0 : sProp 𝕄) := by
  rw [show (dat1 V c).Φ 0 = Inv1 V c 0 (Nat.zero_le _) from rfl, Inv1_entry V c 0 _ rfl]

/-- After the last row tile the invariant gives the same back: the sums in the two carried buffers are forgotten. -/
theorem phi_out1 (c : Dev nD) :
    ((dat1 (F := F) V c).Φ (Fin.last cfg1.N) : sProp 𝕄)
      ⊢ iprop((∃ r, prngReg c r) ∗ Pipeline.scopedRest (Ix := Unit) (Name := ℕ) (U := UR sig nD τ) (Lvl := ℕ) spec1 c) := by
  rw [show (dat1 V c).Φ (Fin.last cfg1.N) = Inv1 V c (Fin.last cfg1.N).val (Nat.le_of_lt_succ (Fin.last cfg1.N).isLt) from rfl,
    Inv1_later V c _ _ (by rw [Fin.val_last]; have : cfg1.N = 10 := N_1; omega), scoped_entry1]
  iintro ⟨Hg, ⟨HS0, HS1⟩, Hr⟩
  isplitl [Hg]; · iexact Hg
  isplitl [HS0 HS1]
  · isplitl [HS0]; · iexists _; iexact HS0
    iexists _; iexact HS1
  iexact Hr

end Cert.KernelIdeal.Reg

end
-- ==== Proof.KI.R2.lean ====
import proofs.«429275_j68899865363005_1_alg».proof.Proof.Gen.KernelIdeal.Launch
import proofs.«429275_j68899865363005_1_alg».proof.Proof.Gen.KernelIdeal.Skeleton
import proofs.«429275_j68899865363005_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the normalise-and-clamp pass over the row tiles

Region 2 walks the ten row tiles of a 50000 x 128 array. At each tile it reads the tile and three
1 x 128 rows (an offset, a mean, an inverse deviation), and overwrites the matching tile of the
output array with a pointwise function of those four values. Nothing is carried from one tile to the
next, so the region's invariant is only "the rest of the scoped memory and the generator register
are somewhere", the same at every point.

Everything here is stated at the contents V the TensorCore's buffers have when the region is entered,
and at an arbitrary float model.
-/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tile a window shows at a grid point -/

/-- The part of window w's array (as the region finds it) that lies under the window at point t. -/
def tile2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-! ## What the body writes -/

/-- The whole 5000 x 128 staging buffer as one rectangle, and the whole 1 x 128 one. -/
abbrev big2 : Rect S5000x128 := Rect.unit (s := S5000x128) ![0, 0] S5000x128.size inb_S5000x128_S5000x128_0_0
abbrev row2 : Rect S1x128 := Rect.unit (s := S1x128) ![0, 0] S1x128.size inb_S1x128_S1x128_0_0

/-- The output staging buffer after the body: its single whole-buffer store, of the pointwise payload
    applied to what the four input buffers hold. -/
def res2 (x : Vec F S5000x128 .f32) (b mu sg : Vec F S1x128 .f32) : Vec F S5000x128 .f32 :=
  View.canon [⟨big2, k2_pay1 (View.ld x big2) (View.ld b row2) (View.ld mu row2) (View.ld sg row2)⟩]

/-- One store of the whole rectangle leaves no element of the buffer unwritten. -/
theorem res2_total (p : Vec F S5000x128 .f32) (y : S5000x128.Idx) :
    ∃ pc ∈ ([⟨big2, p⟩] : List (View.Piece (Elt F) S5000x128 .f32)), y ∈ pc.1.set :=
  View.cover_of_tiled [⟨big2, p⟩] S5000x128.size (by rfl) y

/-! ## Running the body once -/

set_option maxHeartbeats 1000000 in
/-- The body, given whole staging buffers with the four inputs at known contents and the output at
    anything, ends with the inputs unchanged and the output at res2 of them. -/
theorem run_kernel2 (c : Dev nD) (E : Set ℕ) (i : grid2.Coords)
    (a1 : Memref sig .tc .vmem S5000x128 .f32) (h1 : a1.IsWhole)
    (a2 : Memref sig .tc .vmem S1x128 .f32) (h2 : a2.IsWhole)
    (a3 : Memref sig .tc .vmem S1x128 .f32) (h3 : a3.IsWhole)
    (a4 : Memref sig .tc .vmem S1x128 .f32) (h4 : a4.IsWhole)
    (a5 : Memref sig .tc .vmem S5000x128 .f32) (h5 : a5.IsWhole)
    (x : Vec F S5000x128 .f32) (b mu sg : Vec F S1x128 .f32) (K : PUnit → sProp 𝕄) :
    iprop(owns (c : Thread nD τ) a1 fullShare x ∗ owns (c : Thread nD τ) a2 fullShare b
        ∗ owns (c : Thread nD τ) a3 fullShare mu ∗ owns (c : Thread nD τ) a4 fullShare sg
        ∗ (∃ d, owns (c : Thread nD τ) a5 fullShare d)
        ∗ (iprop(owns (c : Thread nD τ) a1 fullShare x ∗ owns (c : Thread nD τ) a2 fullShare b
            ∗ owns (c : Thread nD τ) a3 fullShare mu ∗ owns (c : Thread nD τ) a4 fullShare sg
            ∗ owns (c : Thread nD τ) a5 fullShare (res2 x b mu sg)) -∗ K ⟨⟩))
      ⊢ wp frame (wpE (defs₀ (F := F)) Variants.none c none) E
          (cc2__bn_norm_relu_kernel i a1 h1 a2 h2 a3 h3 a4 h4 a5 h5) K := by
  simp only [cc2__bn_norm_relu_kernel_eq_skeleton]; unfold cc2__bn_norm_relu_kernel_skel
  unfold owns
  iintro ⟨⟨%f1, %e1, H1⟩, ⟨%f2, %e2, H2⟩, ⟨%f3, %e3, H3⟩, ⟨%f4, %e4, H4⟩, ⟨%d5, %f5, -, H5⟩, Hk⟩
  subst e1; subst e2; subst e3; subst e4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (res2_total _)

/-! ## An input window keeps showing its tile

The big tile is fetched afresh at every point. The three rows are fetched at the first point only,
but their block index never moves, so what was fetched then is still what a fetch would bring now. In
all four cases the staging buffer the body is handed holds the window's tile of the entry array, for
any proof data whose array is V's and whose body leaves that tile in place. -/

theorem shows2_0 {c : Dev nD} (dat : Dat τ (Elt F) Unit ℕ (UR sig nD τ) ℕ cfg2 c)
    (hA : dat.A 0 = V c (Pipeline.arrRef spec2 0)) (hkeep : ∀ t, dat.after 0 t = tile2 V c 0 t)
    (t : Fin cfg2.N) (d) : dat.before 0 t d = tile2 V c 0 t :=
  (dat.before_in_eq_fetched 0 rfl (fun _ => rfl) (fun _ _ _ => rfl)
      (fun t => by rw [hkeep]; unfold Dat.blockOf tile2; rw [hA]; try rfl) t d).trans
    (by unfold Dat.fetched Dat.blockOf tile2; rw [hA]; try rfl)

theorem shows2_1 {c : Dev nD} (dat : Dat τ (Elt F) Unit ℕ (UR sig nD τ) ℕ cfg2 c)
    (hA : dat.A 1 = V c (Pipeline.arrRef spec2 1)) (hkeep : ∀ t, dat.after 1 t = tile2 V c 1 t)
    (t : Fin cfg2.N) (d) : dat.before 1 t d = tile2 V c 1 t :=
  (dat.before_in_eq_fetched 1 rfl (fun _ => rfl) (fun _ _ _ => rfl)
      (fun t => by rw [hkeep]; unfold Dat.blockOf tile2; rw [hA]; try rfl) t d).trans
    (by unfold Dat.fetched Dat.blockOf tile2; rw [hA]; try rfl)

theorem shows2_2 {c : Dev nD} (dat : Dat τ (Elt F) Unit ℕ (UR sig nD τ) ℕ cfg2 c)
    (hA : dat.A 2 = V c (Pipeline.arrRef spec2 2)) (hkeep : ∀ t, dat.after 2 t = tile2 V c 2 t)
    (t : Fin cfg2.N) (d) : dat.before 2 t d = tile2 V c 2 t :=
  (dat.before_in_eq_fetched 2 rfl (fun _ => rfl) (fun _ _ _ => rfl)
      (fun t => by rw [hkeep]; unfold Dat.blockOf tile2; rw [hA]; try rfl) t d).trans
    (by unfold Dat.fetched Dat.blockOf tile2; rw [hA]; try rfl)

theorem shows2_3 {c : Dev nD} (dat : Dat τ (Elt F) Unit ℕ (UR sig nD τ) ℕ cfg2 c)
    (hA : dat.A 3 = V c (Pipeline.arrRef spec2 3)) (hkeep : ∀ t, dat.after 3 t = tile2 V c 3 t)
    (t : Fin cfg2.N) (d) : dat.before 3 t d = tile2 V c 3 t :=
  (dat.before_in_eq_fetched 3 rfl (fun _ => rfl) (fun _ _ _ => rfl)
      (fun t => by rw [hkeep]; unfold Dat.blockOf tile2; rw [hA]; try rfl) t d).trans
    (by unfold Dat.fetched Dat.blockOf tile2; rw [hA]; try rfl)

/-! ## The region's proof data -/

/-- Region 2 on core c: the arrays as found on entry; after the body at point t each input buffer
    still at its tile and the output buffer at res2 of the four tiles; the invariant is the rest of
    the scoped memory and the generator register, wherever they are; full shares; nothing owed. -/
def dat2 (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => tile2 V c 2 t
    | ⟨3, _⟩ => tile2 V c 3 t
    | ⟨4, _⟩ => res2 (tile2 V c 0 t) (tile2 V c 1 t) (tile2 V c 2 t) (tile2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves in each window's buffer at point t. -/
theorem after2_0 (c : Dev nD) (t : Fin cfg2.N) : (dat2 V c).after 0 t = tile2 V c 0 t := by dsimp only [dat2]
theorem after2_1 (c : Dev nD) (t : Fin cfg2.N) : (dat2 V c).after 1 t = tile2 V c 1 t := by dsimp only [dat2]
theorem after2_2 (c : Dev nD) (t : Fin cfg2.N) : (dat2 V c).after 2 t = tile2 V c 2 t := by dsimp only [dat2]
theorem after2_3 (c : Dev nD) (t : Fin cfg2.N) : (dat2 V c).after 3 t = tile2 V c 3 t := by dsimp only [dat2]
theorem after2_4 (c : Dev nD) (t : Fin cfg2.N) :
    (dat2 V c).after 4 t = res2 (tile2 V c 0 t) (tile2 V c 1 t) (tile2 V c 2 t) (tile2 V c 3 t) := by
  dsimp only [dat2]

/-- What the body finds in each input window's buffer at point t. -/
theorem before2_0 (c : Dev nD) (t : Fin cfg2.N) (d) : (dat2 V c).before 0 t d = tile2 V c 0 t :=
  shows2_0 V (dat2 V c) (A_eq2 V c 0) (after2_0 V c) t d
theorem before2_1 (c : Dev nD) (t : Fin cfg2.N) (d) : (dat2 V c).before 1 t d = tile2 V c 1 t :=
  shows2_1 V (dat2 V c) (A_eq2 V c 1) (after2_1 V c) t d
theorem before2_2 (c : Dev nD) (t : Fin cfg2.N) (d) : (dat2 V c).before 2 t d = tile2 V c 2 t :=
  shows2_2 V (dat2 V c) (A_eq2 V c 2) (after2_2 V c) t d
theorem before2_3 (c : Dev nD) (t : Fin cfg2.N) (d) : (dat2 V c).before 3 t d = tile2 V c 3 t :=
  shows2_3 V (dat2 V c) (A_eq2 V c 3) (after2_3 V c) t d

/-! ## The body at a grid point -/

/-- What the pipeline hands the body at point t, -/
def given2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it must hand back. -/
def left2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- At any point the four input buffers show their tiles, so the body's triple applies; the invariant
    and the tally of what is owed are passed along untouched. -/
theorem run_body2 (c : Dev nD) (t : Fin cfg2.N) :
    given2 V c t ⊢ wp frame (wpE (defs₀ (F := F)) Variants.none c none) Set.univ (bodyAt2 t) (fun _ => left2 V c t) := by
  unfold given2 left2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (run_kernel2 c Set.univ _ _ _ _ _ _ _ _ _ _ _
    (tile2 V c 0 t) (tile2 V c 1 t) (tile2 V c 2 t) (tile2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) :
    BodyObligation (dat2 (F := F) V c) (defs₀ (F := F)) Variants.none () Set.univ := fun t => by
  rw [bigSep_W2, bigSep_W2]
  exact run_body2 V c t

/-! ## Entering and leaving the invariant -/

/-- The generator register and the scoped rest, in either order, are the invariant at the first point, -/
theorem phi_in2 (c : Dev nD) :
    iprop((∃ r, prngReg c r) ∗ Pipeline.scopedRest (Ix := Unit) (Name := ℕ) (U := UR sig nD τ) (Lvl := ℕ) spec2 c)
      ⊢ ((dat2 (F := F) V c).Φ 0 : sProp 𝕄) := by
  rw [show (dat2 (F := F) V c).Φ 0 = Pipeline.ΦA spec2 c from rfl]; unfold Pipeline.ΦA
  iintro ⟨Hp, Hr⟩
  isplitl [Hr]; · iexact Hr
  iexact Hp

/-- and the invariant after the last point gives both back. -/
theorem phi_out2 (c : Dev nD) :
    ((dat2 (F := F) V c).Φ (Fin.last cfg2.N) : sProp 𝕄)
      ⊢ iprop((∃ r, prngReg c r) ∗ Pipeline.scopedRest (Ix := Unit) (Name := ℕ) (U := UR sig nD τ) (Lvl := ℕ) spec2 c) := by
  rw [show (dat2 (F := F) V c).Φ (Fin.last cfg2.N) = Pipeline.ΦA spec2 c from rfl]; unfold Pipeline.ΦA
  iintro ⟨Hr, Hp⟩
  isplitl [Hp]; · iexact Hp
  iexact Hr

end Cert.KernelIdeal.Reg

end
-- ==== Proof.KI.R3.lean ====
/-
  Region 3 of the program: a dense layer without bias, out = x · Wᵀ, computed one row tile at a time.

  The row dimension (50000) is split into ten tiles of 5000 rows. At grid point t the body reads the t-th
  row tile of x and the whole 128 × 128 weight matrix, and overwrites the t-th row tile of the output with the
  product of the tile by the transposed weights. Nothing is carried from one tile to the next, so the
  region's invariant is only "what the body never touches stays as it is".

  Everything here is stated at arbitrary buffer contents V at the moment the region is entered, and for any
  float instance: the statements concern which cells are read and written, not what the arithmetic gives.
-/
import proofs.«429275_j68899865363005_1_alg».proof.Proof.Gen.KernelIdeal.Launch
import proofs.«429275_j68899865363005_1_alg».proof.Proof.Gen.KernelIdeal.Skeleton
import proofs.«429275_j68899865363005_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles the body is handed -/

/-- The part of window w's array that grid point t looks at, taken from the array as it stands on entry. -/
def tile3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The x tile is in its buffer whenever the body runs. The body does not change it and every point loads a
    fresh tile, so the buffer holds exactly the t-th row tile of the entry array. -/
theorem finds3_x {c : Dev nD} (dat : Dat τ (Elt F) Unit ℕ (UR sig nD τ) ℕ cfg3 c)
    (hA : dat.A 0 = V c (Pipeline.arrRef spec3 0)) (hkeep : ∀ t, dat.after 0 t = tile3 V c 0 t)
    (t : Fin cfg3.N) (d) : dat.before 0 t d = tile3 V c 0 t :=
  (dat.before_in_eq_fetched 0 rfl (fun _ => rfl) (fun _ _ _ => rfl)
      (fun t => by rw [hkeep]; unfold Dat.blockOf tile3; rw [hA]; try rfl) t d).trans
    (by unfold Dat.fetched Dat.blockOf tile3; rw [hA]; try rfl)

/-- The weight matrix is loaded once, at the first point; its window never moves and the body leaves it alone,
    so at every later point the buffer still holds the same matrix. -/
theorem finds3_w {c : Dev nD} (dat : Dat τ (Elt F) Unit ℕ (UR sig nD τ) ℕ cfg3 c)
    (hA : dat.A 1 = V c (Pipeline.arrRef spec3 1)) (hkeep : ∀ t, dat.after 1 t = tile3 V c 1 t)
    (t : Fin cfg3.N) (d) : dat.before 1 t d = tile3 V c 1 t :=
  (dat.before_in_eq_fetched 1 rfl (fun _ => rfl) (fun _ _ _ => rfl)
      (fun t => by rw [hkeep]; unfold Dat.blockOf tile3; rw [hA]; try rfl) t d).trans
    (by unfold Dat.fetched Dat.blockOf tile3; rw [hA]; try rfl)

/-! ## What one run of the body writes -/

/-- The whole 5000 × 128 tile, as a rectangle of itself. -/
abbrev whole_x3 : Rect S5000x128 := Rect.unit (s := S5000x128) ![0, 0] S5000x128.size inb_S5000x128_S5000x128_0_0
/-- The whole 128 × 128 matrix, as a rectangle of itself. -/
abbrev whole_w3 : Rect S128x128 := Rect.unit (s := S128x128) ![0, 0] S128x128.size inb_S128x128_S128x128_0_0

/-- The output tile after the body: a single store over the whole tile, of the product of the x tile by the
    transposed weights. -/
def prod3 (x : Vec F S5000x128 .f32) (w : Vec F S128x128 .f32) : Vec F S5000x128 .f32 :=
  View.canon [⟨whole_x3, k3_pay1 (View.ld x whole_x3) (View.ld w whole_w3)⟩]

/-- One store over the whole tile reaches every cell of it. -/
theorem prod3_total (p : Vec F S5000x128 .f32) (y : S5000x128.Idx) :
    ∃ pc ∈ ([⟨whole_x3, p⟩] : List (View.Piece (Elt F) S5000x128 .f32)), y ∈ pc.1.set :=
  View.cover_of_tiled [⟨whole_x3, p⟩] S5000x128.size (by rfl) y

/-! ## The body on three buffers -/

set_option maxHeartbeats 1000000 in
/-- Run on a buffer holding x, a buffer holding w and an output buffer holding anything, the body returns the first
    two unchanged and the third holding prod3 x w. (The body also reads the output buffer before overwriting it;
    what it reads there is not used.) -/
theorem linear_triple3 (c : Dev nD) (E : Set ℕ) (i : grid3.Coords)
    (a1 : Memref sig .tc .vmem S5000x128 .f32) (h1 : a1.IsWhole)
    (a2 : Memref sig .tc .vmem S128x128 .f32) (h2 : a2.IsWhole)
    (a3 : Memref sig .tc .vmem S5000x128 .f32) (h3 : a3.IsWhole)
    (x : Vec F S5000x128 .f32) (w : Vec F S128x128 .f32) (K : PUnit → sProp 𝕄) :
    iprop(owns (c : Thread nD τ) a1 fullShare x ∗ owns (c : Thread nD τ) a2 fullShare w
        ∗ (∃ d, owns (c : Thread nD τ) a3 fullShare d)
        ∗ (iprop(owns (c : Thread nD τ) a1 fullShare x ∗ owns (c : Thread nD τ) a2 fullShare w
            ∗ owns (c : Thread nD τ) a3 fullShare (prod3 x w)) -∗ K ⟨⟩))
      ⊢ wp frame (wpE (defs₀ (F := F)) Variants.none c none) E (cc3__linear_kernel i a1 h1 a2 h2 a3 h3) K := by
  simp only [cc3__linear_kernel_eq_skeleton]; unfold cc3__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod3_total _)

/-! ## The region's data -/

/-- The data of region 3 on core c. The arrays start at V. After the body at point t, the two input buffers hold
    what they held (their tiles) and the output buffer holds the product of the two. The invariant says only that
    the rest of the core's scoped memory and its generator register exist; the full share of every array is held
    and nothing is owed to other cores. -/
def dat3 (c : Dev nD) : Dat τ (Elt F) Unit ℕ (UR sig nD τ) ℕ cfg3 c where
  A w := V c (Pipeline.arrRef spec3 w)
  after w t := match w with
    | ⟨0, _⟩ => tile3 V c 0 t
    | ⟨1, _⟩ => tile3 V c 1 t
    | ⟨2, _⟩ => prod3 (tile3 V c 0 t) (tile3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

/-- After the body: the x buffer still holds the x tile, -/
theorem after3_x (c : Dev nD) (t : Fin cfg3.N) : (dat3 V c).after 0 t = tile3 V c 0 t := by dsimp only [dat3]
/-- the w buffer still holds the weights, -/
theorem after3_w (c : Dev nD) (t : Fin cfg3.N) : (dat3 V c).after 1 t = tile3 V c 1 t := by dsimp only [dat3]
/-- and the output buffer holds their product. -/
theorem after3_out (c : Dev nD) (t : Fin cfg3.N) :
    (dat3 V c).after 2 t = prod3 (tile3 V c 0 t) (tile3 V c 1 t) := by dsimp only [dat3]

theorem before3_x (c : Dev nD) (t : Fin cfg3.N) (d) : (dat3 V c).before 0 t d = tile3 V c 0 t :=
  finds3_x V (dat3 V c) (A_eq3 V c 0) (after3_x V c) t d
theorem before3_w (c : Dev nD) (t : Fin cfg3.N) (d) : (dat3 V c).before 1 t d = tile3 V c 1 t :=
  finds3_w V (dat3 V c) (A_eq3 V c 1) (after3_w V c) t d

/-! ## The body at a grid point -/

/-- What the pipeline gives the body at point t: the invariant, the debt ledger, and the three current buffers. -/
def given3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- What the body gives back. -/
def back3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- At every point the input buffers hold their tiles, so the triple above applies; invariant and ledger are not
    looked at. -/
theorem point3 (c : Dev nD) (t : Fin cfg3.N) :
    given3 V c t ⊢ wp frame (wpE (defs₀ (F := F)) Variants.none c none) Set.univ (bodyAt3 t) (fun _ => back3 V c t) := by
  unfold given3 back3 bodyAt3
  simp only [before3_x, before3_w]
  rw [show (dat3 V c).Φ t.succ = (dat3 V c).Φ t.castSucc from rfl,
    show (dat3 V c).owesAt () t.succ = (dat3 V c).owesAt () t.castSucc from rfl,
    after3_x, after3_w, after3_out]
  iintro ⟨HΦ, Ho, ⟨%d0, H0⟩, ⟨%d1, H1⟩, ⟨%d2, H2⟩⟩
  iapply (linear_triple3 c Set.univ _ _ _ _ _ _ _ (tile3 V c 0 t) (tile3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) :
    BodyObligation (dat3 (F := F) V c) (defs₀ (F := F)) Variants.none () Set.univ := fun t => by
  rw [bigSep_W3, bigSep_W3]
  exact point3 V c t

/-! ## The two ends of the invariant -/

/-- Entering: the generator register and the untouched scoped memory are exactly the invariant before point 0. -/
theorem phi_in3 (c : Dev nD) :
    iprop((∃ r, prngReg c r) ∗ Pipeline.scopedRest (Ix := Unit) (Name := ℕ) (U := UR sig nD τ) (Lvl := ℕ) spec3 c)
      ⊢ ((dat3 (F := F) V c).Φ 0 : sProp 𝕄) := by
  show _ ⊢ Pipeline.ΦA spec3 c
  unfold Pipeline.ΦA
  iintro ⟨Hp, Hs⟩
  isplitl [Hs]; · iexact Hs
  iexact Hp

/-- Leaving: the invariant after the last point gives the same two things back. -/
theorem phi_out3 (c : Dev nD) :
    ((dat3 (F := F) V c).Φ (Fin.last cfg3.N) : sProp 𝕄)
      ⊢ iprop((∃ r, prngReg c r) ∗ Pipeline.scopedRest (Ix := Unit) (Name := ℕ) (U := UR sig nD τ) (Lvl := ℕ) spec3 c) := by
  show Pipeline.ΦA spec3 c ⊢ _
  unfold Pipeline.ΦA
  iintro ⟨Hs, Hp⟩
  isplitl [Hp]; · iexact Hp
  iexact Hs

end Cert.KernelIdeal.Reg
-- ==== Proof.KI.R4.lean ====
/-
  Region 4 of @main (the column sums of the biased matrix and of its square, row tile by row tile): the proof
  data of its pipeline at any entry contents `V`, the body obligation, and how the region's invariant is entered
  and left. The kernel keeps two running sums in buffers of its own across the ten row tiles — reset at the first,
  added to at each, copied to the two outputs at the last — so the invariant carries those two buffers at the
  running sums, and an output window is handed back as found at the tiles where nothing is stored into it.
  Generic in the float instance.
-/
import proofs.«429275_j68899865363005_1_alg».proof.Proof.Gen.KernelIdeal.Launch
import proofs.«429275_j68899865363005_1_alg».proof.Proof.Gen.KernelIdeal.Skeleton
import proofs.«429275_j68899865363005_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the body branches

The body has two conditionals on the grid coordinate: the first resets the two running sums and is taken
at the first row tile only; the second copies them to the outputs and is taken at the last row tile only. -/

/-- The condition of the reset, as the kernel computes it from the grid coordinate. -/
abbrev atFirst4 (i : grid4.Coords) : Prop :=
  (Scalar.cmpi .ne (Scalar.extui (Scalar.cmpi .eq (BitVec.ofNat 32 (i 0).val) 0#32)) 0#32) = 1#1
/-- It holds at row tile 0 only. -/
theorem atFirst4_iff : ∀ t : Fin cfg4.N, atFirst4 (grid4.coords t) ↔ t.val = 0 :=
  (by decide +kernel : ∀ t : Fin grid4.N, atFirst4 (grid4.coords t) ↔ t.val = 0)
/-- The condition of the copy to the outputs. -/
abbrev atLast4 (i : grid4.Coords) : Prop := k4_cond2 i = 1#1
/-- It holds at row tile 9 only. -/
theorem atLast4_iff : ∀ t : Fin cfg4.N, atLast4 (grid4.coords t) ↔ t.val = 9 :=
  (by decide +kernel : ∀ t : Fin grid4.N, atLast4 (grid4.coords t) ↔ t.val = 9)

/-! ## Whole-buffer stores -/

/-- The offsets of every access of the body: the origin. -/
theorem origin2_r4 : (![0, 0] : Fin 2 → Nat) = fun _ => 0 := funext fun a => by fin_cases a <;> rfl

/-- A rectangle at the origin with the shape's own extents holds every index. -/
theorem mem_full_rect_r4 {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- After a last store through such a rectangle the buffer reads as that store's payload, whatever was stored before. -/
theorem read_after_full_store_r4 {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, mem_full_rect_r4 h inb y⟩), View.canon_cons_unit_zero h]

/-! ## The body's three runs

Each on whole memrefs: the input windows' buffers at the tile `x` and the bias row `b`. -/

set_option maxHeartbeats 1000000 in
/-- THE FIRST ROW TILE. The body resets the two carried buffers (held at anything), then adds the tile's column sums:
    they end at the sums started from the reset value; the output buffers are not touched. -/
theorem run_first4 (c : Dev nD) (E : Set ℕ) (i : grid4.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hf : atFirst4 i) (hl : ¬atLast4 i)
    (x : Vec F S5000x128 .f32) (b : Vec F S1x128 .f32) (K : PUnit → sProp 𝕄) :
    iprop(owns (c : Thread nD τ) arg1 fullShare x ∗ owns (c : Thread nD τ) arg2 fullShare b
        ∗ (∃ d, owns (c : Thread nD τ) arg5 fullShare d) ∗ (∃ d, owns (c : Thread nD τ) arg6 fullShare d)
        ∗ (iprop(owns (c : Thread nD τ) arg1 fullShare x ∗ owns (c : Thread nD τ) arg2 fullShare b
            ∗ owns (c : Thread nD τ) arg5 fullShare (k4_pay4 x b k4_pay1) ∗ owns (c : Thread nD τ) arg6 fullShare (k4_pay5 x b k4_pay2)) -∗ K ⟨⟩))
      ⊢ wp frame (wpE (defs₀ (F := F)) Variants.none c none) E (cc4__bn_reduce_kernel i arg1 harg1 arg2 harg2 arg3 harg3 arg4 harg4 arg5 harg5 arg6 harg6) K := by
  simp only [cc4__bn_reduce_kernel_eq_skeleton]; unfold cc4__bn_reduce_kernel_skel
  unfold owns
  iintro ⟨⟨%f1, %hf1, H1⟩, ⟨%f2, %hf2, H2⟩, ⟨%d5, %f5, -, H5⟩, ⟨%d6, %f6, -, H6⟩, Hk⟩
  obtain rfl := harg1.eq_unread hf1; obtain rfl := harg2.eq_unread hf2
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H5]
  · iexists _; isplitr
    swap; · iexact H5
    ipureintro
    sl_unfold_words
    rw [read_after_full_store_r4 _ _ origin2_r4]
    simp only [View.readCov_unit_zero (S := S1x128) _ origin2_r4, View.readAt_eq_ld, harg1.read_unread, harg2.read_unread, View.ld_unit_zero (S := S5000x128) origin2_r4, View.ld_unit_zero (S := S1x128) origin2_r4]
  iexists _; isplitr
  swap; · iexact H6
  · ipureintro
    sl_unfold_words
    rw [read_after_full_store_r4 _ _ origin2_r4]
    simp only [View.readCov_unit_zero (S := S1x128) _ origin2_r4, View.readAt_eq_ld, harg1.read_unread, harg2.read_unread, View.ld_unit_zero (S := S5000x128) origin2_r4, View.ld_unit_zero (S := S1x128) origin2_r4]

set_option maxHeartbeats 1000000 in
/-- A MIDDLE ROW TILE. The body adds the tile's column sums to the two carried buffers, held at `s0`, `s1`; the
    output buffers are not touched. -/
theorem run_mid4 (c : Dev nD) (E : Set ℕ) (i : grid4.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hf : ¬atFirst4 i) (hl : ¬atLast4 i)
    (x : Vec F S5000x128 .f32) (b s0 s1 : Vec F S1x128 .f32) (K : PUnit → sProp 𝕄) :
    iprop(owns (c : Thread nD τ) arg1 fullShare x ∗ owns (c : Thread nD τ) arg2 fullShare b
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg5 fullShare (k4_pay4 x b s0) ∗ owns (c : Thread nD τ) arg6 fullShare (k4_pay5 x b s1)) -∗ K ⟨⟩))
      ⊢ wp frame (wpE (defs₀ (F := F)) Variants.none c none) E (cc4__bn_reduce_kernel i arg1 harg1 arg2 harg2 arg3 harg3 arg4 harg4 arg5 harg5 arg6 harg6) K := by
  simp only [cc4__bn_reduce_kernel_eq_skeleton]; unfold cc4__bn_reduce_kernel_skel
  unfold owns
  iintro ⟨⟨%f1, %hf1, H1⟩, ⟨%f2, %hf2, H2⟩, ⟨%f5, %hf5, H5⟩, ⟨%f6, %hf6, H6⟩, Hk⟩
  obtain rfl := harg1.eq_unread hf1; obtain rfl := harg2.eq_unread hf2
  obtain rfl := harg5.eq_unread hf5; obtain rfl := harg6.eq_unread hf6
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H5]
  · iexists _; isplitr
    swap; · iexact H5
    ipureintro
    rw [read_after_full_store_r4 _ _ origin2_r4]
    simp only [View.readAt_eq_ld, harg1.read_unread, harg2.read_unread, harg5.read_unread, View.ld_unit_zero (S := S5000x128) origin2_r4, View.ld_unit_zero (S := S1x128) origin2_r4]
  iexists _; isplitr
  swap; · iexact H6
  ipureintro
  rw [read_after_full_store_r4 _ _ origin2_r4]
  simp only [View.readAt_eq_ld, harg1.read_unread, harg2.read_unread, harg6.read_unread, View.ld_unit_zero (S := S5000x128) origin2_r4, View.ld_unit_zero (S := S1x128) origin2_r4]

set_option maxHeartbeats 1000000 in
/-- THE LAST ROW TILE. As in the middle, and then each carried buffer is copied to its output buffer (held at
    anything): both end at the updated sums. -/
theorem run_last4 (c : Dev nD) (E : Set ℕ) (i : grid4.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hf : ¬atFirst4 i) (hl : atLast4 i)
    (x : Vec F S5000x128 .f32) (b s0 s1 : Vec F S1x128 .f32) (K : PUnit → sProp 𝕄) :
    iprop(owns (c : Thread nD τ) arg1 fullShare x ∗ owns (c : Thread nD τ) arg2 fullShare b
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1
        ∗ (iprop(owns (c : Thread nD τ) arg1 fullShare x ∗ owns (c : Thread nD τ) arg2 fullShare b
            ∗ owns (c : Thread nD τ) arg3 fullShare (k4_pay4 x b s0) ∗ owns (c : Thread nD τ) arg4 fullShare (k4_pay5 x b s1)
            ∗ owns (c : Thread nD τ) arg5 fullShare (k4_pay4 x b s0) ∗ owns (c : Thread nD τ) arg6 fullShare (k4_pay5 x b s1)) -∗ K ⟨⟩))
      ⊢ wp frame (wpE (defs₀ (F := F)) Variants.none c none) E (cc4__bn_reduce_kernel i arg1 harg1 arg2 harg2 arg3 harg3 arg4 harg4 arg5 harg5 arg6 harg6) K := by
  simp only [cc4__bn_reduce_kernel_eq_skeleton]; unfold cc4__bn_reduce_kernel_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  obtain rfl := harg1.eq_unread hf1; obtain rfl := harg2.eq_unread hf2
  obtain rfl := harg5.eq_unread hf5; obtain rfl := harg6.eq_unread hf6
  sl_exec (disch := first | exact hf | exact hl)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    sl_unfold_words
    rw [read_after_full_store_r4 _ _ origin2_r4]
    simp only [View.readCov_unit_zero (S := S1x128) _ origin2_r4, View.readAt_eq_ld, harg1.read_unread, harg2.read_unread, harg5.read_unread, View.ld_unit_zero (S := S5000x128) origin2_r4, View.ld_unit_zero (S := S1x128) origin2_r4]
  isplitl [H4]
  · iexists _; isplitr
    swap; · iexact H4
    ipureintro
    sl_unfold_words
    rw [read_after_full_store_r4 _ _ origin2_r4]
    simp only [View.readCov_unit_zero (S := S1x128) _ origin2_r4, View.readAt_eq_ld, harg1.read_unread, harg2.read_unread, harg6.read_unread, View.ld_unit_zero (S := S5000x128) origin2_r4, View.ld_unit_zero (S := S1x128) origin2_r4]
  isplitl [H5]
  · iexists _; isplitr
    swap; · iexact H5
    ipureintro
    sl_unfold_words
    rw [read_after_full_store_r4 _ _ origin2_r4]
    simp only [View.readCov_unit_zero (S := S1x128) _ origin2_r4, View.readAt_eq_ld, harg1.read_unread, harg2.read_unread, harg5.read_unread, View.ld_unit_zero (S := S5000x128) origin2_r4, View.ld_unit_zero (S := S1x128) origin2_r4]
  iexists _; isplitr
  swap; · iexact H6
  · ipureintro
    sl_unfold_words
    rw [read_after_full_store_r4 _ _ origin2_r4]
    simp only [View.readCov_unit_zero (S := S1x128) _ origin2_r4, View.readAt_eq_ld, harg1.read_unread, harg2.read_unread, harg6.read_unread, View.ld_unit_zero (S := S5000x128) origin2_r4, View.ld_unit_zero (S := S1x128) origin2_r4]

/-! ## The windows' blocks and the running sums -/

/-- Window `w`'s block at row tile `t`, read off its array as the region finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Row tile `t` of the matrix, at its literal type. -/
abbrev tile4 (c : Dev nD) (t : Fin cfg4.N) : Vec F S5000x128 .f32 := blk4 V c 0 t
/-- The bias row as row tile `t` sees it, at its literal type. -/
abbrev bias4 (c : Dev nD) (t : Fin cfg4.N) : Vec F S1x128 .f32 := blk4 V c 1 t

/-- THE RUNNING SUMS: what the two carried buffers hold after row tile `n` — the column sums of the biased
    tile and of its square, started from the reset value at tile 0 and from the previous tile's sums afterwards. -/
def sums4 (c : Dev nD) : (n : ℕ) → n < cfg4.N → Vec F S1x128 .f32 × Vec F S1x128 .f32
  | 0, h => (k4_pay4 (tile4 V c ⟨0, h⟩) (bias4 V c ⟨0, h⟩) k4_pay1, k4_pay5 (tile4 V c ⟨0, h⟩) (bias4 V c ⟨0, h⟩) k4_pay2)
  | n + 1, h =>
    (k4_pay4 (tile4 V c ⟨n + 1, h⟩) (bias4 V c ⟨n + 1, h⟩) (sums4 c n (Nat.lt_of_succ_lt h)).1,
     k4_pay5 (tile4 V c ⟨n + 1, h⟩) (bias4 V c ⟨n + 1, h⟩) (sums4 c n (Nat.lt_of_succ_lt h)).2)

/-- At the first row tile the sums start from the reset value. -/
theorem sums4_first (c : Dev nD) (t : Fin cfg4.N) (hz : t.val = 0) :
    sums4 V c t.val t.isLt = (k4_pay4 (tile4 V c t) (bias4 V c t) k4_pay1, k4_pay5 (tile4 V c t) (bias4 V c t) k4_pay2) := by
  obtain ⟨n, hn⟩ := t
  cases n with
  | zero => rfl
  | succ n => exact absurd hz (Nat.succ_ne_zero n)

/-- At a later row tile they continue the previous tile's. -/
theorem sums4_later (c : Dev nD) (t : Fin cfg4.N) (hz : t.val ≠ 0) :
    sums4 V c t.val t.isLt
      = (k4_pay4 (tile4 V c t) (bias4 V c t) (sums4 V c (t.val - 1) (Nat.lt_of_le_of_lt (Nat.sub_le _ _) t.isLt)).1,
         k4_pay5 (tile4 V c t) (bias4 V c t) (sums4 V c (t.val - 1) (Nat.lt_of_le_of_lt (Nat.sub_le _ _) t.isLt)).2) := by
  obtain ⟨n, hn⟩ := t
  cases n with
  | zero => exact absurd rfl hz
  | succ n => rfl

/-! ## The invariant -/

/-- The first carried buffer, as the memref the body is called with. -/
abbrev acc4_0 : Memref sig .tc .vmem S1x128 .f32 := Memref.whole cc4_scratch0
/-- The second. -/
abbrev acc4_1 : Memref sig .tc .vmem S1x128 .f32 := Memref.whole cc4_scratch1

/-- Before row tile `n`: at the region's entry the generator register and every scoped buffer that is no staging
    buffer of the region, at any contents (at tile 0 the body overwrites both carried buffers before it uses what they hold);
    afterwards the generator register, the two carried buffers at the running sums over the tiles before `n`, and
    the other scoped buffers unopened. -/
def Inv4 (c : Dev nD) : (n : ℕ) → n ≤ cfg4.N → sProp 𝕄
  | 0, _ => iprop((∃ r, prngReg c r) ∗ Pipeline.scopedRest (Ix := Unit) (Name := ℕ) (U := UR sig nD τ) (Lvl := ℕ) spec4 c)
  | n + 1, h =>
    iprop((∃ r, prngReg c r)
      ∗ iprop(owns (c : Thread nD τ) acc4_0 fullShare (sums4 V c n h).1 ∗ owns (c : Thread nD τ) acc4_1 fullShare (sums4 V c n h).2)
      ∗ Pipeline.scopedRestBut (Ix := Unit) (Name := ℕ) (U := UR sig nD τ) (Lvl := ℕ) (Val := Elt F) spec4 c [cc4_scratch0, cc4_scratch1])

theorem Inv4_entry (c : Dev nD) (n : ℕ) (h : n ≤ cfg4.N) (hz : n = 0) :
    Inv4 V c n h = iprop((∃ r, prngReg c r) ∗ Pipeline.scopedRest (Ix := Unit) (Name := ℕ) (U := UR sig nD τ) (Lvl := ℕ) spec4 c) := by
  subst hz; rfl

theorem Inv4_next (c : Dev nD) (n : ℕ) (h : n < cfg4.N) :
    Inv4 V c (n + 1) h = iprop((∃ r, prngReg c r)
      ∗ iprop(owns (c : Thread nD τ) acc4_0 fullShare (sums4 V c n h).1 ∗ owns (c : Thread nD τ) acc4_1 fullShare (sums4 V c n h).2)
      ∗ Pipeline.scopedRestBut (Ix := Unit) (Name := ℕ) (U := UR sig nD τ) (Lvl := ℕ) (Val := Elt F) spec4 c [cc4_scratch0, cc4_scratch1]) := rfl

theorem Inv4_later (c : Dev nD) (n : ℕ) (h : n ≤ cfg4.N) (hz : n ≠ 0) :
    Inv4 V c n h = iprop((∃ r, prngReg c r)
      ∗ iprop(owns (c : Thread nD τ) acc4_0 fullShare (sums4 V c (n - 1) (by omega)).1 ∗ owns (c : Thread nD τ) acc4_1 fullShare (sums4 V c (n - 1) (by omega)).2)
      ∗ Pipeline.scopedRestBut (Ix := Unit) (Name := ℕ) (U := UR sig nD τ) (Lvl := ℕ) (Val := Elt F) spec4 c [cc4_scratch0, cc4_scratch1]) := by
  cases n with
  | zero => exact absurd rfl hz
  | succ n => rfl

/-- The scoped buffers at the region's entry, with the two carried buffers as memrefs owned at some contents. -/
theorem scoped_entry4 (c : Dev nD) :
    (Pipeline.scopedRest (Ix := Unit) (Name := ℕ) (U := UR sig nD τ) (Lvl := ℕ) spec4 c : sProp 𝕄)
      = iprop(iprop((∃ d, owns (c : Thread nD τ) acc4_0 fullShare d) ∗ (∃ d, owns (c : Thread nD τ) acc4_1 fullShare d))
          ∗ Pipeline.scopedRestBut (Ix := Unit) (Name := ℕ) (U := UR sig nD τ) (Lvl := ℕ) (Val := Elt F) spec4 c [cc4_scratch0, cc4_scratch1]) := by
  rw [scopedRest4_split]; simp only [acc4_0, acc4_1, owns_whole]; try rfl

/-! ## The proof data -/

/-- The proof data of the region on core `c`: the arrays as the region finds them; after the body at row tile `t`
    each input's buffer at its block and the two outputs' at the running sums (written back at the last tile only);
    the invariant `Inv4`; nothing owed; full shares. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => (sums4 V c t.val t.isLt).1
    | ⟨3, _⟩ => (sums4 V c t.val t.isLt).2
  Φ t := Inv4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = blk4 V c 0 t := by dsimp only [dat4]
theorem after4_1 (c : Dev nD) (t : Fin cfg4.N) : (dat4 V c).after 1 t = blk4 V c 1 t := by dsimp only [dat4]
/-- What the write-back of the first output writes: the column sums. -/
theorem after4_2 (c : Dev nD) (t : Fin cfg4.N) : (dat4 V c).after 2 t = (sums4 V c t.val t.isLt).1 := by dsimp only [dat4]
/-- What the write-back of the second output writes: the column sums of squares. -/
theorem after4_3 (c : Dev nD) (t : Fin cfg4.N) : (dat4 V c).after 3 t = (sums4 V c t.val t.isLt).2 := by dsimp only [dat4]

theorem Phi4_at (c : Dev nD) (t : Fin cfg4.N) :
    (dat4 V c).Φ t.castSucc = Inv4 V c t.val (Nat.le_of_lt t.isLt) := by
  dsimp only [dat4]; simp only [Fin.coe_castSucc]

/-- The matrix window's buffer holds the row tile at every point. -/
theorem found4_0 (c : Dev nD) (t : Fin cfg4.N) (d) : (dat4 V c).before 0 t d = blk4 V c 0 t := by
  refine ((dat4 V c).before_in_eq_fetched 0 rfl (fun _ => rfl) (fun _ _ _ => rfl) (fun t => ?_) t d).trans ?_
  · rw [after4_0]; unfold Dat.blockOf blk4; rw [A_eq4]; try rfl
  · unfold Dat.fetched Dat.blockOf blk4; rw [A_eq4]; try rfl

/-- The bias window's buffer holds the bias row at every point, though it is fetched at the first only. -/
theorem found4_1 (c : Dev nD) (t : Fin cfg4.N) (d) : (dat4 V c).before 1 t d = blk4 V c 1 t := by
  refine ((dat4 V c).before_in_eq_fetched 1 rfl (fun _ => rfl) (fun _ _ _ => rfl) (fun t => ?_) t d).trans ?_
  · rw [after4_1]; unfold Dat.blockOf blk4; rw [A_eq4]; try rfl
  · unfold Dat.fetched Dat.blockOf blk4; rw [A_eq4]; try rfl

/-! ## Where the output windows are idle -/

theorem live4_0 : ∀ t : Fin cfg4.N, cfg4.idle 0 (grid4.coords t) = false := by decide +kernel
theorem live4_1 : ∀ t : Fin cfg4.N, cfg4.idle 1 (grid4.coords t) = false := by decide +kernel
theorem idle4_2 : ∀ t : Fin cfg4.N, ¬atLast4 (grid4.coords t) → cfg4.idle 2 (grid4.coords t) = true := by decide +kernel
theorem idle4_3 : ∀ t : Fin cfg4.N, ¬atLast4 (grid4.coords t) → cfg4.idle 3 (grid4.coords t) = true := by decide +kernel
theorem keep4_2 : ∀ t : Fin cfg4.N, ¬atLast4 (grid4.coords t) → (cfg4.win 2).flush t = false := by decide +kernel
theorem keep4_3 : ∀ t : Fin cfg4.N, ¬atLast4 (grid4.coords t) → (cfg4.win 3).flush t = false := by decide +kernel
theorem live4_2 : ∀ t : Fin cfg4.N, atLast4 (grid4.coords t) → cfg4.idle 2 (grid4.coords t) = false := by decide +kernel
theorem live4_3 : ∀ t : Fin cfg4.N, atLast4 (grid4.coords t) → cfg4.idle 3 (grid4.coords t) = false := by decide +kernel

/-! ## The body obligation -/

/-- What the body is called with at row tile `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

theorem leaves4_0 (c : Dev nD) (t : Fin cfg4.N) :
    (dat4 V c).leavesExact 0 t = owns (c : Thread nD τ) (st4_0 t) fullShare (blk4 V c 0 t) := by
  unfold Dat.leavesExact; rw [live4_0 t, after4_0]
theorem leaves4_1 (c : Dev nD) (t : Fin cfg4.N) :
    (dat4 V c).leavesExact 1 t = owns (c : Thread nD τ) (st4_1 t) fullShare (blk4 V c 1 t) := by
  unfold Dat.leavesExact; rw [live4_1 t, after4_1]
theorem leaves4_2_last (c : Dev nD) (t : Fin cfg4.N) (hl : atLast4 (grid4.coords t)) :
    (dat4 V c).leavesExact 2 t = owns (c : Thread nD τ) (st4_2 t) fullShare (sums4 V c t.val t.isLt).1 := by
  unfold Dat.leavesExact; rw [live4_2 t hl, after4_2]
theorem leaves4_3_last (c : Dev nD) (t : Fin cfg4.N) (hl : atLast4 (grid4.coords t)) :
    (dat4 V c).leavesExact 3 t = owns (c : Thread nD τ) (st4_3 t) fullShare (sums4 V c t.val t.isLt).2 := by
  unfold Dat.leavesExact; rw [live4_3 t hl, after4_3]

set_option maxHeartbeats 4000000 in
/-- The body at any row tile: the input windows hold their blocks; the grid coordinate decides which of the three
    runs applies; the invariant hands the body the two carried buffers (at anything at the first tile, at the
    previous sums later) and takes them back at this tile's sums; an output window is handed back as found except
    at the last tile, where it is left at the sums. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [found4_0, found4_1]
  rw [show (dat4 V c).owesAt () t.succ = (dat4 V c).owesAt () t.castSucc from rfl]
  rw [show (dat4 V c).Φ t.succ = Inv4 V c (t.val + 1) t.isLt from rfl, Inv4_next, leaves4_0, leaves4_1, Phi4_at]
  have hN : t.val < 10 := lt_of_lt_of_eq t.isLt (show cfg4.N = 10 from N_4)
  by_cases hz : t.val = 0
  · have hf : atFirst4 (grid4.coords t) := (atFirst4_iff t).mpr hz
    have hl : ¬atLast4 (grid4.coords t) := fun h => by have := (atLast4_iff t).mp h; omega
    rw [Dat.leavesExact_idle (dat4 V c) 2 t (idle4_2 t hl) (keep4_2 t hl),
      Dat.leavesExact_idle (dat4 V c) 3 t (idle4_3 t hl) (keep4_3 t hl),
      sums4_first V c t hz, Inv4_entry V c _ _ hz, scoped_entry4]
    iintro ⟨⟨Hg, ⟨⟨%e0, HS0⟩, ⟨%e1, HS1⟩⟩, Hr⟩, Ho, ⟨%d0, H0⟩, ⟨%d1, H1⟩, ⟨%d2, H2⟩, ⟨%d3, H3⟩⟩
    iapply (run_first4 c Set.univ (grid4.coords t) _ _ _ _ _ _ _ _ _ _ _ _ hf hl (tile4 V c t) (bias4 V c t) _)
    isplitl [H0]; · iexact H0
    isplitl [H1]; · iexact H1
    isplitl [HS0]; · iexists _; iexact HS0
    isplitl [HS1]; · iexists _; iexact HS1
    iintro ⟨H0, H1, HS0, HS1⟩
    isplitl [Hg HS0 HS1 Hr]
    · isplitl [Hg]; · iexact Hg
      isplitl [HS0 HS1]
      · isplitl [HS0]; · iexact HS0
        iexact HS1
      iexact Hr
    isplitl [Ho]; · iexact Ho
    isplitl [H0]; · iexact H0
    isplitl [H1]; · iexact H1
    isplitl [H2]; · iexists _; iexact H2
    iexists _; iexact H3
  · have hf : ¬atFirst4 (grid4.coords t) := fun h => hz ((atFirst4_iff t).mp h)
    rw [sums4_later V c t hz, Inv4_later V c _ _ hz]
    by_cases h9 : t.val = 9
    · have hl : atLast4 (grid4.coords t) := (atLast4_iff t).mpr h9
      rw [leaves4_2_last V c t hl, leaves4_3_last V c t hl, sums4_later V c t hz]
      iintro ⟨⟨Hg, ⟨HS0, HS1⟩, Hr⟩, Ho, ⟨%d0, H0⟩, ⟨%d1, H1⟩, ⟨%d2, H2⟩, ⟨%d3, H3⟩⟩
      iapply (run_last4 c Set.univ (grid4.coords t) _ _ _ _ _ _ _ _ _ _ _ _ hf hl (tile4 V c t) (bias4 V c t) _ _ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexact H2
      iexact H3
    · have hl : ¬atLast4 (grid4.coords t) := fun h => h9 ((atLast4_iff t).mp h)
      rw [Dat.leavesExact_idle (dat4 V c) 2 t (idle4_2 t hl) (keep4_2 t hl),
        Dat.leavesExact_idle (dat4 V c) 3 t (idle4_3 t hl) (keep4_3 t hl)]
      iintro ⟨⟨Hg, ⟨HS0, HS1⟩, Hr⟩, Ho, ⟨%d0, H0⟩, ⟨%d1, H1⟩, ⟨%d2, H2⟩, ⟨%d3, H3⟩⟩
      iapply (run_mid4 c Set.univ (grid4.coords t) _ _ _ _ _ _ _ _ _ _ _ _ hf hl (tile4 V c t) (bias4 V c t) _ _ _)
      isplitl [H0]; · iexact H0
      isplitl [H1]; · iexact H1
      isplitl [HS0]; · iexact HS0
      isplitl [HS1]; · iexact HS1
      iintro ⟨H0, H1, HS0, HS1⟩
      isplitl [Hg HS0 HS1 Hr]
      · isplitl [Hg]; · iexact Hg
        isplitl [HS0 HS1]
        · isplitl [HS0]; · iexact HS0
          iexact HS1
        iexact Hr
      isplitl [Ho]; · iexact Ho
      isplitl [H0]; · iexact H0
      isplitl [H1]; · iexact H1
      isplitl [H2]; · iexists _; iexact H2
      iexists _; iexact H3

/-- The library's body obligation, at every row tile. -/
theorem body_obligation4 (c : Dev nD) : BodyObligation (dat4 (F := F) V c) (defs₀ (F := F)) Variants.none () Set.univ := fun t => by
  rw [bigSep_W4, bigSep_W4]
  exact sound_body4 V c t

/-! ## Entering and leaving the region -/

/-- What the region is entered with is the invariant before the first row tile. -/
theorem phi_in4 (c : Dev nD) :
    iprop((∃ r, prngReg c r) ∗ Pipeline.scopedRest (Ix := Unit) (Name := ℕ) (U := UR sig nD τ) (Lvl := ℕ) spec4 c)
      ⊢ ((dat4 (F := F) V c).Φ 0 : sProp 𝕄) := by
  rw [show (dat4 V c).Φ 0 = Inv4 V c 0 (Nat.zero_le _) from rfl, Inv4_entry V c 0 _ rfl]

/-- After the last row tile the invariant gives the same back: the sums in the two carried buffers are forgotten. -/
theorem phi_out4 (c : Dev nD) :
    ((dat4 (F := F) V c).Φ (Fin.last cfg4.N) : sProp 𝕄)
      ⊢ iprop((∃ r, prngReg c r) ∗ Pipeline.scopedRest (Ix := Unit) (Name := ℕ) (U := UR sig nD τ) (Lvl := ℕ) spec4 c) := by
  rw [show (dat4 V c).Φ (Fin.last cfg4.N) = Inv4 V c (Fin.last cfg4.N).val (Nat.le_of_lt_succ (Fin.last cfg4.N).isLt) from rfl,
    Inv4_later V c _ _ (by rw [Fin.val_last]; have : cfg4.N = 10 := N_4; omega), scoped_entry4]
  iintro ⟨Hg, ⟨HS0, HS1⟩, Hr⟩
  isplitl [Hg]; · iexact Hg
  isplitl [HS0 HS1]
  · isplitl [HS0]; · iexists _; iexact HS0
    iexists _; iexact HS1
  iexact Hr

end Cert.KernelIdeal.Reg

end
-- ==== Proof.KI.R5.lean ====
import proofs.«429275_j68899865363005_1_alg».proof.Proof.Gen.KernelIdeal.Launch
import proofs.«429275_j68899865363005_1_alg».proof.Proof.Gen.KernelIdeal.Skeleton
import proofs.«429275_j68899865363005_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the normalise-and-clamp pass over the row tiles

Region 5 walks the ten row tiles of a 50000 x 128 array. At each tile it reads the tile and three
1 x 128 rows (an offset, a mean, an inverse deviation), and overwrites the matching tile of the
output array with a pointwise function of those four values. Nothing is carried from one tile to the
next, so the region's invariant is only "the rest of the scoped memory and the generator register
are somewhere", the same at every point.

Everything here is stated at the contents V the TensorCore's buffers have when the region is entered,
and at an arbitrary float model.
-/

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tile a window shows at a grid point -/

/-- The part of window w's array (as the region finds it) that lies under the window at point t. -/
def tile5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-! ## What the body writes -/

/-- The whole 5000 x 128 staging buffer as one rectangle, and the whole 1 x 128 one. -/
abbrev big5 : Rect S5000x128 := Rect.unit (s := S5000x128) ![0, 0] S5000x128.size inb_S5000x128_S5000x128_0_0
abbrev row5 : Rect S1x128 := Rect.unit (s := S1x128) ![0, 0] S1x128.size inb_S1x128_S1x128_0_0

/-- The output staging buffer after the body: its single whole-buffer store, of the pointwise payload
    applied to what the four input buffers hold. -/
def res5 (x : Vec F S5000x128 .f32) (b mu sg : Vec F S1x128 .f32) : Vec F S5000x128 .f32 :=
  View.canon [⟨big5, k5_pay1 (View.ld x big5) (View.ld b row5) (View.ld mu row5) (View.ld sg row5)⟩]

/-- One store of the whole rectangle leaves no element of the buffer unwritten. -/
theorem res5_total (p : Vec F S5000x128 .f32) (y : S5000x128.Idx) :
    ∃ pc ∈ ([⟨big5, p⟩] : List (View.Piece (Elt F) S5000x128 .f32)), y ∈ pc.1.set :=
  View.cover_of_tiled [⟨big5, p⟩] S5000x128.size (by rfl) y

/-! ## Running the body once -/

set_option maxHeartbeats 1000000 in
/-- The body, given whole staging buffers with the four inputs at known contents and the output at
    anything, ends with the inputs unchanged and the output at res5 of them. -/
theorem run_kernel5 (c : Dev nD) (E : Set ℕ) (i : grid5.Coords)
    (a1 : Memref sig .tc .vmem S5000x128 .f32) (h1 : a1.IsWhole)
    (a2 : Memref sig .tc .vmem S1x128 .f32) (h2 : a2.IsWhole)
    (a3 : Memref sig .tc .vmem S1x128 .f32) (h3 : a3.IsWhole)
    (a4 : Memref sig .tc .vmem S1x128 .f32) (h4 : a4.IsWhole)
    (a5 : Memref sig .tc .vmem S5000x128 .f32) (h5 : a5.IsWhole)
    (x : Vec F S5000x128 .f32) (b mu sg : Vec F S1x128 .f32) (K : PUnit → sProp 𝕄) :
    iprop(owns (c : Thread nD τ) a1 fullShare x ∗ owns (c : Thread nD τ) a2 fullShare b
        ∗ owns (c : Thread nD τ) a3 fullShare mu ∗ owns (c : Thread nD τ) a4 fullShare sg
        ∗ (∃ d, owns (c : Thread nD τ) a5 fullShare d)
        ∗ (iprop(owns (c : Thread nD τ) a1 fullShare x ∗ owns (c : Thread nD τ) a2 fullShare b
            ∗ owns (c : Thread nD τ) a3 fullShare mu ∗ owns (c : Thread nD τ) a4 fullShare sg
            ∗ owns (c : Thread nD τ) a5 fullShare (res5 x b mu sg)) -∗ K ⟨⟩))
      ⊢ wp frame (wpE (defs₀ (F := F)) Variants.none c none) E
          (cc5__bn_norm_relu_kernel i a1 h1 a2 h2 a3 h3 a4 h4 a5 h5) K := by
  simp only [cc5__bn_norm_relu_kernel_eq_skeleton]; unfold cc5__bn_norm_relu_kernel_skel
  unfold owns
  iintro ⟨⟨%f1, %e1, H1⟩, ⟨%f2, %e2, H2⟩, ⟨%f3, %e3, H3⟩, ⟨%f4, %e4, H4⟩, ⟨%d5, %f5, -, H5⟩, Hk⟩
  subst e1; subst e2; subst e3; subst e4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (res5_total _)

/-! ## An input window keeps showing its tile

The big tile is fetched afresh at every point. The three rows are fetched at the first point only,
but their block index never moves, so what was fetched then is still what a fetch would bring now. In
all four cases the staging buffer the body is handed holds the window's tile of the entry array, for
any proof data whose array is V's and whose body leaves that tile in place. -/

theorem shows5_0 {c : Dev nD} (dat : Dat τ (Elt F) Unit ℕ (UR sig nD τ) ℕ cfg5 c)
    (hA : dat.A 0 = V c (Pipeline.arrRef spec5 0)) (hkeep : ∀ t, dat.after 0 t = tile5 V c 0 t)
    (t : Fin cfg5.N) (d) : dat.before 0 t d = tile5 V c 0 t :=
  (dat.before_in_eq_fetched 0 rfl (fun _ => rfl) (fun _ _ _ => rfl)
      (fun t => by rw [hkeep]; unfold Dat.blockOf tile5; rw [hA]; try rfl) t d).trans
    (by unfold Dat.fetched Dat.blockOf tile5; rw [hA]; try rfl)

theorem shows5_1 {c : Dev nD} (dat : Dat τ (Elt F) Unit ℕ (UR sig nD τ) ℕ cfg5 c)
    (hA : dat.A 1 = V c (Pipeline.arrRef spec5 1)) (hkeep : ∀ t, dat.after 1 t = tile5 V c 1 t)
    (t : Fin cfg5.N) (d) : dat.before 1 t d = tile5 V c 1 t :=
  (dat.before_in_eq_fetched 1 rfl (fun _ => rfl) (fun _ _ _ => rfl)
      (fun t => by rw [hkeep]; unfold Dat.blockOf tile5; rw [hA]; try rfl) t d).trans
    (by unfold Dat.fetched Dat.blockOf tile5; rw [hA]; try rfl)

theorem shows5_2 {c : Dev nD} (dat : Dat τ (Elt F) Unit ℕ (UR sig nD τ) ℕ cfg5 c)
    (hA : dat.A 2 = V c (Pipeline.arrRef spec5 2)) (hkeep : ∀ t, dat.after 2 t = tile5 V c 2 t)
    (t : Fin cfg5.N) (d) : dat.before 2 t d = tile5 V c 2 t :=
  (dat.before_in_eq_fetched 2 rfl (fun _ => rfl) (fun _ _ _ => rfl)
      (fun t => by rw [hkeep]; unfold Dat.blockOf tile5; rw [hA]; try rfl) t d).trans
    (by unfold Dat.fetched Dat.blockOf tile5; rw [hA]; try rfl)

theorem shows5_3 {c : Dev nD} (dat : Dat τ (Elt F) Unit ℕ (UR sig nD τ) ℕ cfg5 c)
    (hA : dat.A 3 = V c (Pipeline.arrRef spec5 3)) (hkeep : ∀ t, dat.after 3 t = tile5 V c 3 t)
    (t : Fin cfg5.N) (d) : dat.before 3 t d = tile5 V c 3 t :=
  (dat.before_in_eq_fetched 3 rfl (fun _ => rfl) (fun _ _ _ => rfl)
      (fun t => by rw [hkeep]; unfold Dat.blockOf tile5; rw [hA]; try rfl) t d).trans
    (by unfold Dat.fetched Dat.blockOf tile5; rw [hA]; try rfl)

/-! ## The region's proof data -/

/-- Region 5 on core c: the arrays as found on entry; after the body at point t each input buffer
    still at its tile and the output buffer at res5 of the four tiles; the invariant is the rest of
    the scoped memory and the generator register, wherever they are; full shares; nothing owed. -/
def dat5 (c : Dev nD) : Dat τ (Elt F) Unit ℕ (UR sig nD τ) ℕ cfg5 c where
  A w := V c (Pipeline.arrRef spec5 w)
  after w t := match w with
    | ⟨0, _⟩ => tile5 V c 0 t
    | ⟨1, _⟩ => tile5 V c 1 t
    | ⟨2, _⟩ => tile5 V c 2 t
    | ⟨3, _⟩ => tile5 V c 3 t
    | ⟨4, _⟩ => res5 (tile5 V c 0 t) (tile5 V c 1 t) (tile5 V c 2 t) (tile5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

/-- What the body leaves in each window's buffer at point t. -/
theorem after5_0 (c : Dev nD) (t : Fin cfg5.N) : (dat5 V c).after 0 t = tile5 V c 0 t := by dsimp only [dat5]
theorem after5_1 (c : Dev nD) (t : Fin cfg5.N) : (dat5 V c).after 1 t = tile5 V c 1 t := by dsimp only [dat5]
theorem after5_2 (c : Dev nD) (t : Fin cfg5.N) : (dat5 V c).after 2 t = tile5 V c 2 t := by dsimp only [dat5]
theorem after5_3 (c : Dev nD) (t : Fin cfg5.N) : (dat5 V c).after 3 t = tile5 V c 3 t := by dsimp only [dat5]
theorem after5_4 (c : Dev nD) (t : Fin cfg5.N) :
    (dat5 V c).after 4 t = res5 (tile5 V c 0 t) (tile5 V c 1 t) (tile5 V c 2 t) (tile5 V c 3 t) := by
  dsimp only [dat5]

/-- What the body finds in each input window's buffer at point t. -/
theorem before5_0 (c : Dev nD) (t : Fin cfg5.N) (d) : (dat5 V c).before 0 t d = tile5 V c 0 t :=
  shows5_0 V (dat5 V c) (A_eq5 V c 0) (after5_0 V c) t d
theorem before5_1 (c : Dev nD) (t : Fin cfg5.N) (d) : (dat5 V c).before 1 t d = tile5 V c 1 t :=
  shows5_1 V (dat5 V c) (A_eq5 V c 1) (after5_1 V c) t d
theorem before5_2 (c : Dev nD) (t : Fin cfg5.N) (d) : (dat5 V c).before 2 t d = tile5 V c 2 t :=
  shows5_2 V (dat5 V c) (A_eq5 V c 2) (after5_2 V c) t d
theorem before5_3 (c : Dev nD) (t : Fin cfg5.N) (d) : (dat5 V c).before 3 t d = tile5 V c 3 t :=
  shows5_3 V (dat5 V c) (A_eq5 V c 3) (after5_3 V c) t d

/-! ## The body at a grid point -/

/-- What the pipeline hands the body at point t, -/
def given5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it must hand back. -/
def left5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- At any point the four input buffers show their tiles, so the body's triple applies; the invariant
    and the tally of what is owed are passed along untouched. -/
theorem run_body5 (c : Dev nD) (t : Fin cfg5.N) :
    given5 V c t ⊢ wp frame (wpE (defs₀ (F := F)) Variants.none c none) Set.univ (bodyAt5 t) (fun _ => left5 V c t) := by
  unfold given5 left5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (run_kernel5 c Set.univ _ _ _ _ _ _ _ _ _ _ _
    (tile5 V c 0 t) (tile5 V c 1 t) (tile5 V c 2 t) (tile5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation5 (c : Dev nD) :
    BodyObligation (dat5 (F := F) V c) (defs₀ (F := F)) Variants.none () Set.univ := fun t => by
  rw [bigSep_W5, bigSep_W5]
  exact run_body5 V c t

/-! ## Entering and leaving the invariant -/

/-- The generator register and the scoped rest, in either order, are the invariant at the first point, -/
theorem phi_in5 (c : Dev nD) :
    iprop((∃ r, prngReg c r) ∗ Pipeline.scopedRest (Ix := Unit) (Name := ℕ) (U := UR sig nD τ) (Lvl := ℕ) spec5 c)
      ⊢ ((dat5 (F := F) V c).Φ 0 : sProp 𝕄) := by
  rw [show (dat5 (F := F) V c).Φ 0 = Pipeline.ΦA spec5 c from rfl]; unfold Pipeline.ΦA
  iintro ⟨Hp, Hr⟩
  isplitl [Hr]; · iexact Hr
  iexact Hp

/-- and the invariant after the last point gives both back. -/
theorem phi_out5 (c : Dev nD) :
    ((dat5 (F := F) V c).Φ (Fin.last cfg5.N) : sProp 𝕄)
      ⊢ iprop((∃ r, prngReg c r) ∗ Pipeline.scopedRest (Ix := Unit) (Name := ℕ) (U := UR sig nD τ) (Lvl := ℕ) spec5 c) := by
  rw [show (dat5 (F := F) V c).Φ (Fin.last cfg5.N) = Pipeline.ΦA spec5 c from rfl]; unfold Pipeline.ΦA
  iintro ⟨Hr, Hp⟩
  isplitl [Hp]; · iexact Hp
  iexact Hr

end Cert.KernelIdeal.Reg

end
-- ==== Proof.KI.R6.lean ====
/-
  Region 6 of the program: a dense layer without bias, out = x · Wᵀ, computed one row tile at a time.

  The row dimension (50000) is split into ten tiles of 5000 rows. At grid point t the body reads the t-th
  row tile of x and the whole 128 × 128 weight matrix, and overwrites the t-th row tile of the output with the
  product of the tile by the transposed weights. Nothing is carried from one tile to the next, so the
  region's invariant is only "what the body never touches stays as it is".

  Everything here is stated at arbitrary buffer contents V at the moment the region is entered, and for any
  float instance: the statements concern which cells are read and written, not what the arithmetic gives.
-/
import proofs.«429275_j68899865363005_1_alg».proof.Proof.Gen.KernelIdeal.Launch
import proofs.«429275_j68899865363005_1_alg».proof.Proof.Gen.KernelIdeal.Skeleton
import proofs.«429275_j68899865363005_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles the body is handed -/

/-- The part of window w's array that grid point t looks at, taken from the array as it stands on entry. -/
def tile6 (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-- The x tile is in its buffer whenever the body runs. The body does not change it and every point loads a
    fresh tile, so the buffer holds exactly the t-th row tile of the entry array. -/
theorem finds6_x {c : Dev nD} (dat : Dat τ (Elt F) Unit ℕ (UR sig nD τ) ℕ cfg6 c)
    (hA : dat.A 0 = V c (Pipeline.arrRef spec6 0)) (hkeep : ∀ t, dat.after 0 t = tile6 V c 0 t)
    (t : Fin cfg6.N) (d) : dat.before 0 t d = tile6 V c 0 t :=
  (dat.before_in_eq_fetched 0 rfl (fun _ => rfl) (fun _ _ _ => rfl)
      (fun t => by rw [hkeep]; unfold Dat.blockOf tile6; rw [hA]; try rfl) t d).trans
    (by unfold Dat.fetched Dat.blockOf tile6; rw [hA]; try rfl)

/-- The weight matrix is loaded once, at the first point; its window never moves and the body leaves it alone,
    so at every later point the buffer still holds the same matrix. -/
theorem finds6_w {c : Dev nD} (dat : Dat τ (Elt F) Unit ℕ (UR sig nD τ) ℕ cfg6 c)
    (hA : dat.A 1 = V c (Pipeline.arrRef spec6 1)) (hkeep : ∀ t, dat.after 1 t = tile6 V c 1 t)
    (t : Fin cfg6.N) (d) : dat.before 1 t d = tile6 V c 1 t :=
  (dat.before_in_eq_fetched 1 rfl (fun _ => rfl) (fun _ _ _ => rfl)
      (fun t => by rw [hkeep]; unfold Dat.blockOf tile6; rw [hA]; try rfl) t d).trans
    (by unfold Dat.fetched Dat.blockOf tile6; rw [hA]; try rfl)

/-! ## What one run of the body writes -/

/-- The whole 5000 × 128 tile, as a rectangle of itself. -/
abbrev whole_x6 : Rect S5000x128 := Rect.unit (s := S5000x128) ![0, 0] S5000x128.size inb_S5000x128_S5000x128_0_0
/-- The whole 128 × 128 matrix, as a rectangle of itself. -/
abbrev whole_w6 : Rect S128x128 := Rect.unit (s := S128x128) ![0, 0] S128x128.size inb_S128x128_S128x128_0_0

/-- The output tile after the body: a single store over the whole tile, of the product of the x tile by the
    transposed weights. -/
def prod6 (x : Vec F S5000x128 .f32) (w : Vec F S128x128 .f32) : Vec F S5000x128 .f32 :=
  View.canon [⟨whole_x6, k6_pay1 (View.ld x whole_x6) (View.ld w whole_w6)⟩]

/-- One store over the whole tile reaches every cell of it. -/
theorem prod6_total (p : Vec F S5000x128 .f32) (y : S5000x128.Idx) :
    ∃ pc ∈ ([⟨whole_x6, p⟩] : List (View.Piece (Elt F) S5000x128 .f32)), y ∈ pc.1.set :=
  View.cover_of_tiled [⟨whole_x6, p⟩] S5000x128.size (by rfl) y

/-! ## The body on three buffers -/

set_option maxHeartbeats 1000000 in
/-- Run on a buffer holding x, a buffer holding w and an output buffer holding anything, the body returns the first
    two unchanged and the third holding prod6 x w. (The body also reads the output buffer before overwriting it;
    what it reads there is not used.) -/
theorem linear_triple6 (c : Dev nD) (E : Set ℕ) (i : grid6.Coords)
    (a1 : Memref sig .tc .vmem S5000x128 .f32) (h1 : a1.IsWhole)
    (a2 : Memref sig .tc .vmem S128x128 .f32) (h2 : a2.IsWhole)
    (a3 : Memref sig .tc .vmem S5000x128 .f32) (h3 : a3.IsWhole)
    (x : Vec F S5000x128 .f32) (w : Vec F S128x128 .f32) (K : PUnit → sProp 𝕄) :
    iprop(owns (c : Thread nD τ) a1 fullShare x ∗ owns (c : Thread nD τ) a2 fullShare w
        ∗ (∃ d, owns (c : Thread nD τ) a3 fullShare d)
        ∗ (iprop(owns (c : Thread nD τ) a1 fullShare x ∗ owns (c : Thread nD τ) a2 fullShare w
            ∗ owns (c : Thread nD τ) a3 fullShare (prod6 x w)) -∗ K ⟨⟩))
      ⊢ wp frame (wpE (defs₀ (F := F)) Variants.none c none) E (cc6__linear_kernel i a1 h1 a2 h2 a3 h3) K := by
  simp only [cc6__linear_kernel_eq_skeleton]; unfold cc6__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod6_total _)

/-! ## The region's data -/

/-- The data of region 6 on core c. The arrays start at V. After the body at point t, the two input buffers hold
    what they held (their tiles) and the output buffer holds the product of the two. The invariant says only that
    the rest of the core's scoped memory and its generator register exist; the full share of every array is held
    and nothing is owed to other cores. -/
def dat6 (c : Dev nD) : Dat τ (Elt F) Unit ℕ (UR sig nD τ) ℕ cfg6 c where
  A w := V c (Pipeline.arrRef spec6 w)
  after w t := match w with
    | ⟨0, _⟩ => tile6 V c 0 t
    | ⟨1, _⟩ => tile6 V c 1 t
    | ⟨2, _⟩ => prod6 (tile6 V c 0 t) (tile6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

/-- After the body: the x buffer still holds the x tile, -/
theorem after6_x (c : Dev nD) (t : Fin cfg6.N) : (dat6 V c).after 0 t = tile6 V c 0 t := by dsimp only [dat6]
/-- the w buffer still holds the weights, -/
theorem after6_w (c : Dev nD) (t : Fin cfg6.N) : (dat6 V c).after 1 t = tile6 V c 1 t := by dsimp only [dat6]
/-- and the output buffer holds their product. -/
theorem after6_out (c : Dev nD) (t : Fin cfg6.N) :
    (dat6 V c).after 2 t = prod6 (tile6 V c 0 t) (tile6 V c 1 t) := by dsimp only [dat6]

theorem before6_x (c : Dev nD) (t : Fin cfg6.N) (d) : (dat6 V c).before 0 t d = tile6 V c 0 t :=
  finds6_x V (dat6 V c) (A_eq6 V c 0) (after6_x V c) t d
theorem before6_w (c : Dev nD) (t : Fin cfg6.N) (d) : (dat6 V c).before 1 t d = tile6 V c 1 t :=
  finds6_w V (dat6 V c) (A_eq6 V c 1) (after6_w V c) t d

/-! ## The body at a grid point -/

/-- What the pipeline gives the body at point t: the invariant, the debt ledger, and the three current buffers. -/
def given6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- What the body gives back. -/
def back6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- At every point the input buffers hold their tiles, so the triple above applies; invariant and ledger are not
    looked at. -/
theorem point6 (c : Dev nD) (t : Fin cfg6.N) :
    given6 V c t ⊢ wp frame (wpE (defs₀ (F := F)) Variants.none c none) Set.univ (bodyAt6 t) (fun _ => back6 V c t) := by
  unfold given6 back6 bodyAt6
  simp only [before6_x, before6_w]
  rw [show (dat6 V c).Φ t.succ = (dat6 V c).Φ t.castSucc from rfl,
    show (dat6 V c).owesAt () t.succ = (dat6 V c).owesAt () t.castSucc from rfl,
    after6_x, after6_w, after6_out]
  iintro ⟨HΦ, Ho, ⟨%d0, H0⟩, ⟨%d1, H1⟩, ⟨%d2, H2⟩⟩
  iapply (linear_triple6 c Set.univ _ _ _ _ _ _ _ (tile6 V c 0 t) (tile6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) :
    BodyObligation (dat6 (F := F) V c) (defs₀ (F := F)) Variants.none () Set.univ := fun t => by
  rw [bigSep_W6, bigSep_W6]
  exact point6 V c t

/-! ## The two ends of the invariant -/

/-- Entering: the generator register and the untouched scoped memory are exactly the invariant before point 0. -/
theorem phi_in6 (c : Dev nD) :
    iprop((∃ r, prngReg c r) ∗ Pipeline.scopedRest (Ix := Unit) (Name := ℕ) (U := UR sig nD τ) (Lvl := ℕ) spec6 c)
      ⊢ ((dat6 (F := F) V c).Φ 0 : sProp 𝕄) := by
  show _ ⊢ Pipeline.ΦA spec6 c
  unfold Pipeline.ΦA
  iintro ⟨Hp, Hs⟩
  isplitl [Hs]; · iexact Hs
  iexact Hp

/-- Leaving: the invariant after the last point gives the same two things back. -/
theorem phi_out6 (c : Dev nD) :
    ((dat6 (F := F) V c).Φ (Fin.last cfg6.N) : sProp 𝕄)
      ⊢ iprop((∃ r, prngReg c r) ∗ Pipeline.scopedRest (Ix := Unit) (Name := ℕ) (U := UR sig nD τ) (Lvl := ℕ) spec6 c) := by
  show Pipeline.ΦA spec6 c ⊢ _
  unfold Pipeline.ΦA
  iintro ⟨Hs, Hp⟩
  isplitl [Hp]; · iexact Hp
  iexact Hs

end Cert.KernelIdeal.Reg
-- ==== Proof.KI.R7.lean ====
import proofs.«429275_j68899865363005_1_alg».proof.Proof.Gen.KernelIdeal.Launch
import proofs.«429275_j68899865363005_1_alg».proof.Proof.Gen.KernelIdeal.Skeleton
import proofs.«429275_j68899865363005_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7 of the program: segment pooling followed by the classifier

The body at a grid point adds, into a [512x128] scratch carried across the ten points, the one-hot
contraction of the point's row tile; the first point clears the scratch before, the last point divides it by
the count column, contracts with the weights, adds the bias row and stores the [512x10] result.  The output
window is written back at the last point only and is idle at the nine others. -/

section Region7

variable (V : (c : Dev nD) → (b : Ref sig .tc) → Buf (Elt F) ((c : Thread nD τ).loc b))

/-! ## The blocks the windows hold -/

/-- The block of window `w` at grid point `t`, read off the array as the region finds it. -/
def blk7 (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-- An input window holds its block at every point, fetched there or carried over from the point before:
    its index map does not move between two fetches, no block is cut, and the body stores nothing into it. -/
theorem held7_0 {c : Dev nD} (dat : Dat τ (Elt F) Unit ℕ (UR sig nD τ) ℕ cfg7 c) (hA : dat.A 0 = V c (Pipeline.arrRef spec7 0))
    (hafter : ∀ t, dat.after 0 t = blk7 V c 0 t) (t : Fin cfg7.N) (d) : dat.before 0 t d = blk7 V c 0 t :=
  (dat.before_in_eq_fetched 0 rfl (fun _ => rfl) (fun _ _ _ => rfl) (fun t => by rw [hafter]; unfold Dat.blockOf blk7; rw [hA]; try rfl) t d).trans
    (by unfold Dat.fetched Dat.blockOf blk7; rw [hA]; try rfl)
theorem held7_1 {c : Dev nD} (dat : Dat τ (Elt F) Unit ℕ (UR sig nD τ) ℕ cfg7 c) (hA : dat.A 1 = V c (Pipeline.arrRef spec7 1))
    (hafter : ∀ t, dat.after 1 t = blk7 V c 1 t) (t : Fin cfg7.N) (d) : dat.before 1 t d = blk7 V c 1 t :=
  (dat.before_in_eq_fetched 1 rfl (fun _ => rfl) (fun _ _ _ => rfl) (fun t => by rw [hafter]; unfold Dat.blockOf blk7; rw [hA]; try rfl) t d).trans
    (by unfold Dat.fetched Dat.blockOf blk7; rw [hA]; try rfl)
theorem held7_2 {c : Dev nD} (dat : Dat τ (Elt F) Unit ℕ (UR sig nD τ) ℕ cfg7 c) (hA : dat.A 2 = V c (Pipeline.arrRef spec7 2))
    (hafter : ∀ t, dat.after 2 t = blk7 V c 2 t) (t : Fin cfg7.N) (d) : dat.before 2 t d = blk7 V c 2 t :=
  (dat.before_in_eq_fetched 2 rfl (fun _ => rfl) (fun _ _ _ => rfl) (fun t => by rw [hafter]; unfold Dat.blockOf blk7; rw [hA]; try rfl) t d).trans
    (by unfold Dat.fetched Dat.blockOf blk7; rw [hA]; try rfl)
theorem held7_3 {c : Dev nD} (dat : Dat τ (Elt F) Unit ℕ (UR sig nD τ) ℕ cfg7 c) (hA : dat.A 3 = V c (Pipeline.arrRef spec7 3))
    (hafter : ∀ t, dat.after 3 t = blk7 V c 3 t) (t : Fin cfg7.N) (d) : dat.before 3 t d = blk7 V c 3 t :=
  (dat.before_in_eq_fetched 3 rfl (fun _ => rfl) (fun _ _ _ => rfl) (fun t => by rw [hafter]; unfold Dat.blockOf blk7; rw [hA]; try rfl) t d).trans
    (by unfold Dat.fetched Dat.blockOf blk7; rw [hA]; try rfl)
theorem held7_4 {c : Dev nD} (dat : Dat τ (Elt F) Unit ℕ (UR sig nD τ) ℕ cfg7 c) (hA : dat.A 4 = V c (Pipeline.arrRef spec7 4))
    (hafter : ∀ t, dat.after 4 t = blk7 V c 4 t) (t : Fin cfg7.N) (d) : dat.before 4 t d = blk7 V c 4 t :=
  (dat.before_in_eq_fetched 4 rfl (fun _ => rfl) (fun _ _ _ => rfl) (fun t => by rw [hafter]; unfold Dat.blockOf blk7; rw [hA]; try rfl) t d).trans
    (by unfold Dat.fetched Dat.blockOf blk7; rw [hA]; try rfl)

/-! ## The rectangles the body reads and writes: each the whole of its buffer -/

abbrev boxH : Rect S5000x128 := Rect.unit (s := S5000x128) ![0, 0] S5000x128.size inb_S5000x128_S5000x128_0_0
abbrev boxB : Rect S5000x1 := Rect.unit (s := S5000x1) ![0, 0] S5000x1.size inb_S5000x1_S5000x1_0_0
abbrev boxC : Rect S512x1 := Rect.unit (s := S512x1) ![0, 0] S512x1.size inb_S512x1_S512x1_0_0
abbrev boxW : Rect S10x128 := Rect.unit (s := S10x128) ![0, 0] S10x128.size inb_S10x128_S10x128_0_0
abbrev boxL : Rect S1x10 := Rect.unit (s := S1x10) ![0, 0] S1x10.size inb_S1x10_S1x10_0_0
abbrev boxO : Rect S512x10 := Rect.unit (s := S512x10) ![0, 0] S512x10.size inb_S512x10_S512x10_0_0
abbrev boxS : Rect S512x128 := Rect.unit (s := S512x128) ![0, 0] S512x128.size inb_S512x128_S512x128_0_0

/-- A single store through `boxS` fills the scratch. -/
theorem fillS (p : boxS.shape.Idx → Elt F .f32) (y : S512x128.Idx) :
    ∃ pc ∈ ([⟨boxS, p⟩] : List (View.Piece (Elt F) S512x128 .f32)), y ∈ pc.1.set :=
  View.cover_of_tiled [⟨boxS, p⟩] S512x128.size (by rfl) y

/-- A single store through `boxO` fills the output block. -/
theorem fillO (p : boxO.shape.Idx → Elt F .f32) (y : S512x10.Idx) :
    ∃ pc ∈ ([⟨boxO, p⟩] : List (View.Piece (Elt F) S512x10 .f32)), y ∈ pc.1.set :=
  View.cover_of_tiled [⟨boxO, p⟩] S512x10.size (by rfl) y

/-- A store through a rectangle that is the whole shape hides every earlier store. -/
theorem canon_top {s : Shape} {e : EltTy} (r : Rect s) (w : r.shape.Idx → Elt F e) (L : List (View.Piece (Elt F) s e))
    (h : ∀ y, ∃ pc ∈ ([⟨r, w⟩] : List (View.Piece (Elt F) s e)), y ∈ pc.1.set) :
    View.canon (⟨r, w⟩ :: L) = View.canon [⟨r, w⟩] := by
  funext y
  obtain ⟨pc, hpc, hy⟩ := h y
  rw [List.mem_singleton] at hpc; subst hpc
  obtain ⟨x, rfl⟩ : ∃ x, r.emb x = y := r.exists_idx_of_mem hy
  rw [View.canon_cons_emb, View.canon_cons_emb]

/-- If the newest store fills the shape, so does the list of stores. -/
theorem cover_head {s : Shape} {e : EltTy} (p : View.Piece (Elt F) s e) (L : List (View.Piece (Elt F) s e))
    (h : ∀ y, ∃ pc ∈ ([p] : List (View.Piece (Elt F) s e)), y ∈ pc.1.set) : ∀ y, ∃ pc ∈ p :: L, y ∈ pc.1.set := fun y => by
  obtain ⟨pc, hpc, hy⟩ := h y
  rw [List.mem_singleton] at hpc; subst hpc
  exact ⟨_, List.mem_cons_self, hy⟩

/-! ## What one run of the body leaves -/

/-- The scratch after the clearing store of the first point. -/
def cleared7 : Vec F S512x128 .f32 := View.canon [⟨boxS, k7_pay1 (F := F)⟩]

/-- The scratch after the accumulating store: from the row tile `h`, the batch column tile `b` and the
    scratch `s` as it was. -/
def pooled7 (h : Vec F S5000x128 .f32) (b : Vec F S5000x1 .i32) (s : Vec F S512x128 .f32) : Vec F S512x128 .f32 :=
  View.canon [⟨boxS, k7_pay2 (View.ld h boxH) (View.ld b boxB) (View.ld s boxS)⟩]

/-- The output block after the store of the last point: from the scratch `s`, the count column, the weights
    and the bias row. -/
def logits7 (s : Vec F S512x128 .f32) (n : Vec F S512x1 .f32) (w : Vec F S10x128 .f32) (l : Vec F S1x10 .f32) : Vec F S512x10 .f32 :=
  View.canon [⟨boxO, k7_pay3 (View.ld s boxS) (View.ld n boxC) (View.ld w boxW) (View.ld l boxL)⟩]

/-! ## The two conditions of the body, in closed form over the grid -/

/-- The condition under which the body clears the scratch. -/
abbrev atFirst (i : grid7.Coords) : Prop :=
  Scalar.cmpi .ne (Scalar.extui (Scalar.cmpi .eq (BitVec.ofNat 32 (i 0).val) 0#32)) 0#32 = 1#1
/-- The condition under which the body stores the output. -/
abbrev atLast (i : grid7.Coords) : Prop := k7_cond2 i = 1#1

theorem atFirst_iff : ∀ t : Fin cfg7.N, atFirst (grid7.coords t) ↔ t.val % 10 = 0 :=
  (by decide +kernel : ∀ t : Fin grid7.N, atFirst (grid7.coords t) ↔ t.val % 10 = 0)
theorem atLast_iff : ∀ t : Fin cfg7.N, atLast (grid7.coords t) ↔ t.val % 10 = 9 :=
  (by decide +kernel : ∀ t : Fin grid7.N, atLast (grid7.coords t) ↔ t.val % 10 = 9)

/-- Off the last point the output window is idle and not written back; at it, live. -/
theorem idle7_5 : ∀ t : Fin cfg7.N, ¬ atLast (grid7.coords t) → cfg7.idle 5 (grid7.coords t) = true := by decide +kernel
theorem quiet7_5 : ∀ t : Fin cfg7.N, ¬ atLast (grid7.coords t) → (cfg7.win 5).flush t = false := by decide +kernel
theorem live7_5 : ∀ t : Fin cfg7.N, atLast (grid7.coords t) → cfg7.idle 5 (grid7.coords t) = false := by decide +kernel

/-! ## The body's run, one statement per control case

Each on whole memrefs: the buffers the case reads at named contents, the ones it overwrites whole at any
contents; the buffers the case does not touch are not mentioned. -/

set_option maxHeartbeats 2000000 in
/-- First point: the scratch is cleared, then the tile is pooled into it; no output is stored. -/
theorem run_first7 (c : Dev nD) (E : Set ℕ) (i : grid7.Coords) (h0 : atFirst i) (h9 : ¬ atLast i)
    (a1 : Memref sig .tc .vmem S5000x128 .f32) (ha1 : a1.IsWhole) (a2 : Memref sig .tc .vmem S5000x1 .i32) (ha2 : a2.IsWhole)
    (a3 : Memref sig .tc .vmem S512x1 .f32) (ha3 : a3.IsWhole) (a4 : Memref sig .tc .vmem S10x128 .f32) (ha4 : a4.IsWhole)
    (a5 : Memref sig .tc .vmem S1x10 .f32) (ha5 : a5.IsWhole) (a6 : Memref sig .tc .vmem S512x10 .f32) (ha6 : a6.IsWhole)
    (a7 : Memref sig .tc .vmem S512x128 .f32) (ha7 : a7.IsWhole)
    (x1 : Vec F S5000x128 .f32) (x2 : Vec F S5000x1 .i32) (K : PUnit → sProp 𝕄) :
    iprop(owns (c : Thread nD τ) a1 fullShare x1 ∗ owns (c : Thread nD τ) a2 fullShare x2 ∗ (∃ d, owns (c : Thread nD τ) a7 fullShare d)
        ∗ (iprop(owns (c : Thread nD τ) a1 fullShare x1 ∗ owns (c : Thread nD τ) a2 fullShare x2
            ∗ owns (c : Thread nD τ) a7 fullShare (pooled7 x1 x2 cleared7)) -∗ K ⟨⟩))
      ⊢ wp frame (wpE (defs₀ (F := F)) Variants.none c none) E (cc7__pool_linear_kernel i a1 ha1 a2 ha2 a3 ha3 a4 ha4 a5 ha5 a6 ha6 a7 ha7) K := by
  simp only [cc7__pool_linear_kernel_eq_skeleton]; unfold cc7__pool_linear_kernel_skel
  unfold owns
  iintro ⟨⟨%f1, %hf1, H1⟩, ⟨%f2, %hf2, H2⟩, ⟨%d7, %f7, -, H7⟩, Hk⟩
  subst hf1; subst hf2
  sl_exec (disch := first | exact h0 | exact h9)
  sl_step
  iapply Hk
  isplitl [H1]
  · iexists f1; isplitr; · ipureintro; rfl
    iexact H1
  isplitl [H2]
  · iexists f2; isplitr; · ipureintro; rfl
    iexact H2
  iexists _; isplitr
  swap; · iexact H7
  ipureintro
  sl_unfold_words
  rw [View.readCov_eq_canon_ld _ _ _ (fillS _)]
  exact (View.read_writes_eq_canon _ _ _ (cover_head _ _ (fillS _))).trans (canon_top _ _ _ (fillS _))

set_option maxHeartbeats 2000000 in
/-- A point strictly between: the tile is pooled into the scratch as the point before left it. -/
theorem run_mid7 (c : Dev nD) (E : Set ℕ) (i : grid7.Coords) (h0 : ¬ atFirst i) (h9 : ¬ atLast i)
    (a1 : Memref sig .tc .vmem S5000x128 .f32) (ha1 : a1.IsWhole) (a2 : Memref sig .tc .vmem S5000x1 .i32) (ha2 : a2.IsWhole)
    (a3 : Memref sig .tc .vmem S512x1 .f32) (ha3 : a3.IsWhole) (a4 : Memref sig .tc .vmem S10x128 .f32) (ha4 : a4.IsWhole)
    (a5 : Memref sig .tc .vmem S1x10 .f32) (ha5 : a5.IsWhole) (a6 : Memref sig .tc .vmem S512x10 .f32) (ha6 : a6.IsWhole)
    (a7 : Memref sig .tc .vmem S512x128 .f32) (ha7 : a7.IsWhole)
    (x1 : Vec F S5000x128 .f32) (x2 : Vec F S5000x1 .i32) (s : Vec F S512x128 .f32) (K : PUnit → sProp 𝕄) :
    iprop(owns (c : Thread nD τ) a1 fullShare x1 ∗ owns (c : Thread nD τ) a2 fullShare x2 ∗ owns (c : Thread nD τ) a7 fullShare s
        ∗ (iprop(owns (c : Thread nD τ) a1 fullShare x1 ∗ owns (c : Thread nD τ) a2 fullShare x2
            ∗ owns (c : Thread nD τ) a7 fullShare (pooled7 x1 x2 s)) -∗ K ⟨⟩))
      ⊢ wp frame (wpE (defs₀ (F := F)) Variants.none c none) E (cc7__pool_linear_kernel i a1 ha1 a2 ha2 a3 ha3 a4 ha4 a5 ha5 a6 ha6 a7 ha7) K := by
  simp only [cc7__pool_linear_kernel_eq_skeleton]; unfold cc7__pool_linear_kernel_skel
  unfold owns
  iintro ⟨⟨%f1, %hf1, H1⟩, ⟨%f2, %hf2, H2⟩, ⟨%f7, %hf7, H7⟩, Hk⟩
  subst hf1; subst hf2; subst hf7
  sl_exec (disch := first | exact h0 | exact h9)
  sl_step
  iapply Hk
  isplitl [H1]
  · iexists f1; isplitr; · ipureintro; rfl
    iexact H1
  isplitl [H2]
  · iexists f2; isplitr; · ipureintro; rfl
    iexact H2
  iexists _; isplitr
  swap; · iexact H7
  ipureintro
  exact View.read_writes_eq_canon _ _ _ (fillS _)

set_option maxHeartbeats 2000000 in
/-- Last point: the tile is pooled into the scratch, and the output block is computed from the scratch so
    left, the count column, the weights and the bias row. -/
theorem run_last7 (c : Dev nD) (E : Set ℕ) (i : grid7.Coords) (h0 : ¬ atFirst i) (h9 : atLast i)
    (a1 : Memref sig .tc .vmem S5000x128 .f32) (ha1 : a1.IsWhole) (a2 : Memref sig .tc .vmem S5000x1 .i32) (ha2 : a2.IsWhole)
    (a3 : Memref sig .tc .vmem S512x1 .f32) (ha3 : a3.IsWhole) (a4 : Memref sig .tc .vmem S10x128 .f32) (ha4 : a4.IsWhole)
    (a5 : Memref sig .tc .vmem S1x10 .f32) (ha5 : a5.IsWhole) (a6 : Memref sig .tc .vmem S512x10 .f32) (ha6 : a6.IsWhole)
    (a7 : Memref sig .tc .vmem S512x128 .f32) (ha7 : a7.IsWhole)
    (x1 : Vec F S5000x128 .f32) (x2 : Vec F S5000x1 .i32) (x3 : Vec F S512x1 .f32) (x4 : Vec F S10x128 .f32) (x5 : Vec F S1x10 .f32)
    (s : Vec F S512x128 .f32) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ (∃ d, owns (c : Thread nD τ) a6 fullShare d)
        ∗ owns (c : Thread nD τ) a7 fullShare s
        ∗ (iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5
            ∗ owns (c : Thread nD τ) a6 fullShare (logits7 (pooled7 x1 x2 s) x3 x4 x5)
            ∗ owns (c : Thread nD τ) a7 fullShare (pooled7 x1 x2 s)) -∗ K ⟨⟩))
      ⊢ wp frame (wpE (defs₀ (F := F)) Variants.none c none) E (cc7__pool_linear_kernel i a1 ha1 a2 ha2 a3 ha3 a4 ha4 a5 ha5 a6 ha6 a7 ha7) K := by
  simp only [cc7__pool_linear_kernel_eq_skeleton]; unfold cc7__pool_linear_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1; subst hf2; subst hf3; subst hf4; subst hf5; subst hf7
  sl_exec (disch := first | exact h0 | exact h9)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.readCov_eq_canon_ld _ _ _ (fillS _)]
    exact View.read_writes_eq_canon _ _ _ (fillO _)
  iexists _; isplitr
  swap; · iexact H7
  ipureintro
  exact View.read_writes_eq_canon _ _ _ (fillS _)

/-! ## The scratch point by point, the invariant and the proof data -/

/-- The scratch after the body at point `n`: the first point pools its tile into the cleared scratch, each
    later point into what the point before left. -/
def acc7 (c : Dev nD) : (n : ℕ) → n < cfg7.N → Vec F S512x128 .f32
  | 0, h => pooled7 (blk7 V c 0 ⟨0, h⟩) (blk7 V c 1 ⟨0, h⟩) cleared7
  | n + 1, h => pooled7 (blk7 V c 0 ⟨n + 1, h⟩) (blk7 V c 1 ⟨n + 1, h⟩) (acc7 c n (Nat.lt_of_succ_lt h))

theorem acc7_first (c : Dev nD) (t : Fin cfg7.N) (h : t.val = 0) :
    acc7 V c t.val t.isLt = pooled7 (blk7 V c 0 t) (blk7 V c 1 t) cleared7 := by
  obtain ⟨n, hn⟩ := t
  cases n with
  | zero => rfl
  | succ n => exact absurd h (Nat.succ_ne_zero n)

theorem acc7_later (c : Dev nD) (t : Fin cfg7.N) (h : t.val ≠ 0) :
    acc7 V c t.val t.isLt
      = pooled7 (blk7 V c 0 t) (blk7 V c 1 t) (acc7 V c (t.val - 1) (Nat.lt_of_le_of_lt (Nat.sub_le _ _) t.isLt)) := by
  obtain ⟨n, hn⟩ := t
  cases n with
  | zero => exact absurd rfl h
  | succ n => rfl

/-- The scratch as a memref: the whole of its buffer. -/
abbrev scr7 : Memref sig .tc .vmem S512x128 .f32 := Memref.whole cc7_scratch0

/-- The invariant before point `n`: the generator register at some state, the scoped buffers other than the
    scratch unopened, and the scratch — before the first point at any contents (the first point overwrites it
    before reading it), afterwards at what the point before left. -/
def inv7 (c : Dev nD) : (n : ℕ) → n ≤ cfg7.N → sProp 𝕄
  | 0, _ => iprop((∃ r, prngReg c r) ∗ (∃ d, owns (c : Thread nD τ) scr7 fullShare d)
      ∗ Pipeline.scopedRestBut (Ix := Unit) (Name := ℕ) (U := UR sig nD τ) (Lvl := ℕ) (Val := Elt F) spec7 c [cc7_scratch0])
  | n + 1, h => iprop((∃ r, prngReg c r) ∗ owns (c : Thread nD τ) scr7 fullShare (acc7 V c n h)
      ∗ Pipeline.scopedRestBut (Ix := Unit) (Name := ℕ) (U := UR sig nD τ) (Lvl := ℕ) (Val := Elt F) spec7 c [cc7_scratch0])

theorem inv7_zero (c : Dev nD) (n : ℕ) (h : n ≤ cfg7.N) (hz : n = 0) :
    inv7 V c n h = iprop((∃ r, prngReg c r) ∗ (∃ d, owns (c : Thread nD τ) scr7 fullShare d)
      ∗ Pipeline.scopedRestBut (Ix := Unit) (Name := ℕ) (U := UR sig nD τ) (Lvl := ℕ) (Val := Elt F) spec7 c [cc7_scratch0]) := by
  subst hz; rfl

theorem inv7_succ (c : Dev nD) (n : ℕ) (h : n < cfg7.N) :
    inv7 V c (n + 1) h = iprop((∃ r, prngReg c r) ∗ owns (c : Thread nD τ) scr7 fullShare (acc7 V c n h)
      ∗ Pipeline.scopedRestBut (Ix := Unit) (Name := ℕ) (U := UR sig nD τ) (Lvl := ℕ) (Val := Elt F) spec7 c [cc7_scratch0]) := rfl

theorem inv7_pos (c : Dev nD) (n : ℕ) (h : n ≤ cfg7.N) (hz : n ≠ 0) :
    inv7 V c n h = iprop((∃ r, prngReg c r) ∗ owns (c : Thread nD τ) scr7 fullShare (acc7 V c (n - 1) (by omega))
      ∗ Pipeline.scopedRestBut (Ix := Unit) (Name := ℕ) (U := UR sig nD τ) (Lvl := ℕ) (Val := Elt F) spec7 c [cc7_scratch0]) := by
  cases n with
  | zero => exact absurd rfl hz
  | succ n => rfl

/-- The proof data of the region on core `c`: the arrays as the region finds them; after the body each input
    window at its block and the output window at the classifier's result computed from the scratch the point
    leaves (written back at the last point only, so only that point's value is ever read); the invariant
    `inv7`; full shares; nothing owed. -/
def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => blk7 V c 2 t
    | ⟨3, _⟩ => blk7 V c 3 t
    | ⟨4, _⟩ => blk7 V c 4 t
    | ⟨5, _⟩ => logits7 (acc7 V c t.val t.isLt) (blk7 V c 2 t) (blk7 V c 3 t) (blk7 V c 4 t)
  Φ t := inv7 V c t.val (Nat.le_of_lt_succ t.isLt)
  q _ := fullShare
  owed _ := 0

theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = blk7 V c 0 t := by dsimp only [dat7]
theorem after7_1 (c : Dev nD) (t : Fin cfg7.N) : (dat7 V c).after 1 t = blk7 V c 1 t := by dsimp only [dat7]
theorem after7_2 (c : Dev nD) (t : Fin cfg7.N) : (dat7 V c).after 2 t = blk7 V c 2 t := by dsimp only [dat7]
theorem after7_3 (c : Dev nD) (t : Fin cfg7.N) : (dat7 V c).after 3 t = blk7 V c 3 t := by dsimp only [dat7]
theorem after7_4 (c : Dev nD) (t : Fin cfg7.N) : (dat7 V c).after 4 t = blk7 V c 4 t := by dsimp only [dat7]
theorem after7_5 (c : Dev nD) (t : Fin cfg7.N) :
    (dat7 V c).after 5 t = logits7 (acc7 V c t.val t.isLt) (blk7 V c 2 t) (blk7 V c 3 t) (blk7 V c 4 t) := by dsimp only [dat7]

/-- The invariant at a point's start and end, restated at the point's number. -/
theorem inv7_start (c : Dev nD) (t : Fin cfg7.N) :
    (dat7 V c).Φ t.castSucc = inv7 V c t.val (Nat.le_of_lt t.isLt) := by
  dsimp only [dat7]; simp only [Fin.coe_castSucc]
theorem inv7_end (c : Dev nD) (t : Fin cfg7.N) :
    (dat7 V c).Φ t.succ = inv7 V c (t.val + 1) t.isLt := rfl

/-- Each input window holds its block when the body runs. -/
theorem before7_0 (c : Dev nD) (t : Fin cfg7.N) (d) : (dat7 V c).before 0 t d = blk7 V c 0 t :=
  held7_0 V (dat7 V c) (A_eq7 V c 0) (after7_0 V c) t d
theorem before7_1 (c : Dev nD) (t : Fin cfg7.N) (d) : (dat7 V c).before 1 t d = blk7 V c 1 t :=
  held7_1 V (dat7 V c) (A_eq7 V c 1) (after7_1 V c) t d
theorem before7_2 (c : Dev nD) (t : Fin cfg7.N) (d) : (dat7 V c).before 2 t d = blk7 V c 2 t :=
  held7_2 V (dat7 V c) (A_eq7 V c 2) (after7_2 V c) t d
theorem before7_3 (c : Dev nD) (t : Fin cfg7.N) (d) : (dat7 V c).before 3 t d = blk7 V c 3 t :=
  held7_3 V (dat7 V c) (A_eq7 V c 3) (after7_3 V c) t d
theorem before7_4 (c : Dev nD) (t : Fin cfg7.N) (d) : (dat7 V c).before 4 t d = blk7 V c 4 t :=
  held7_4 V (dat7 V c) (A_eq7 V c 4) (after7_4 V c) t d

/-! ## The body obligation -/

/-- What the body is handed at point `t`, the windows one by one, -/
def handed7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it hands back. -/
def returned7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ (dat7 V c).leavesExact 5 t)

set_option maxHeartbeats 4000000 in
/-- The body at any point, by the point's control case. -/
theorem sound_body7 (c : Dev nD) (t : Fin cfg7.N) :
    handed7 V c t ⊢ wp frame (wpE (defs₀ (F := F)) Variants.none c none) Set.univ (bodyAt7 t) (fun _ => returned7 V c t) := by
  unfold handed7 returned7 bodyAt7
  simp only [before7_0, before7_1, before7_2, before7_3, before7_4]
  rw [show (dat7 V c).owesAt () t.succ = (dat7 V c).owesAt () t.castSucc from rfl,
    inv7_end, inv7_succ, inv7_start, after7_0, after7_1, after7_2, after7_3, after7_4]
  have hN : t.val < 10 := lt_of_lt_of_eq t.isLt (show cfg7.N = 10 from N_7)
  by_cases hz : t.val = 0
  · -- the first point
    have h0 : atFirst (grid7.coords t) := (atFirst_iff t).mpr (by omega)
    have h9 : ¬ atLast (grid7.coords t) := fun h => by have := (atLast_iff t).mp h; omega
    rw [Dat.leavesExact_idle (dat7 V c) 5 t (idle7_5 t h9) (quiet7_5 t h9), inv7_zero V c _ _ hz, acc7_first V c t hz]
    iintro ⟨⟨Hg, ⟨%s, HS⟩, HR⟩, Ho, ⟨%d0, H0⟩, ⟨%d1, H1⟩, ⟨%d2, H2⟩, ⟨%d3, H3⟩, ⟨%d4, H4⟩, H5⟩
    iapply (run_first7 c Set.univ (grid7.coords t) h0 h9 _ _ _ _ _ _ _ _ _ _ _ _ _ _ (blk7 V c 0 t) (blk7 V c 1 t) _)
    isplitl [H0]; · iexact H0
    isplitl [H1]; · iexact H1
    isplitl [HS]; · iexists _; iexact HS
    iintro ⟨H0, H1, HS⟩
    isplitl [Hg HS HR]
    · isplitl [Hg]; · iexact Hg
      isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    iexact H5
  · by_cases hl : t.val = 9
    · -- the last point
      have h0 : ¬ atFirst (grid7.coords t) := fun h => by have := (atFirst_iff t).mp h; omega
      have h9 : atLast (grid7.coords t) := (atLast_iff t).mpr (by omega)
      rw [show (dat7 V c).leavesExact 5 t = owns (c : Thread nD τ) (st7_5 t) fullShare ((dat7 V c).after 5 t) from by
        unfold Dat.leavesExact; rw [live7_5 t h9], after7_5, inv7_pos V c _ _ hz, acc7_later V c t hz]
      iintro ⟨⟨Hg, HS, HR⟩, Ho, ⟨%d0, H0⟩, ⟨%d1, H1⟩, ⟨%d2, H2⟩, ⟨%d3, H3⟩, ⟨%d4, H4⟩, ⟨%d5, H5⟩⟩
      iapply (run_last7 c Set.univ (grid7.coords t) h0 h9 _ _ _ _ _ _ _ _ _ _ _ _ _ _ (blk7 V c 0 t) (blk7 V c 1 t)
        (blk7 V c 2 t) (blk7 V c 3 t) (blk7 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      iexact H5
    · -- a point strictly between
      have h0 : ¬ atFirst (grid7.coords t) := fun h => by have := (atFirst_iff t).mp h; omega
      have h9 : ¬ atLast (grid7.coords t) := fun h => by have := (atLast_iff t).mp h; omega
      rw [Dat.leavesExact_idle (dat7 V c) 5 t (idle7_5 t h9) (quiet7_5 t h9), inv7_pos V c _ _ hz, acc7_later V c t hz]
      iintro ⟨⟨Hg, HS, HR⟩, Ho, ⟨%d0, H0⟩, ⟨%d1, H1⟩, ⟨%d2, H2⟩, ⟨%d3, H3⟩, ⟨%d4, H4⟩, H5⟩
      iapply (run_mid7 c Set.univ (grid7.coords t) h0 h9 _ _ _ _ _ _ _ _ _ _ _ _ _ _ (blk7 V c 0 t) (blk7 V c 1 t) _ _)
      isplitl [H0]; · iexact H0
      isplitl [H1]; · iexact H1
      isplitl [HS]; · iexact HS
      iintro ⟨H0, H1, HS⟩
      isplitl [Hg HS HR]
      · isplitl [Hg]; · iexact Hg
        isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## Entering and leaving the region -/

/-- What the region is entered with — the generator register and every scoped buffer that is no staging buffer, at
    some contents each — is the invariant before the first point: the scratch is one of those buffers. -/
theorem phi_in7 (c : Dev nD) :
    iprop((∃ r, prngReg c r) ∗ Pipeline.scopedRest (Ix := Unit) (Name := ℕ) (U := UR sig nD τ) (Lvl := ℕ) spec7 c)
      ⊢ ((dat7 (F := F) V c).Φ 0 : sProp 𝕄) := by
  rw [show (dat7 V c).Φ 0 = inv7 V c 0 (Nat.zero_le _) from rfl, inv7_zero V c 0 _ rfl, scopedRest7_split]
  simp only [scr7, owns_whole]
  iintro ⟨Hg, HS, HR⟩
  isplitl [Hg]; · iexact Hg
  isplitl [HS]; · iexact HS
  iexact HR

/-- After the last point the invariant gives the same back: the scratch's contents are forgotten. -/
theorem phi_out7 (c : Dev nD) :
    ((dat7 (F := F) V c).Φ (Fin.last cfg7.N) : sProp 𝕄)
      ⊢ iprop((∃ r, prngReg c r) ∗ Pipeline.scopedRest (Ix := Unit) (Name := ℕ) (U := UR sig nD τ) (Lvl := ℕ) spec7 c) := by
  rw [show (dat7 V c).Φ (Fin.last cfg7.N) = inv7 V c (Fin.last cfg7.N).val (Nat.le_of_lt_succ (Fin.last cfg7.N).isLt) from rfl,
    inv7_pos V c _ _ (by rw [Fin.val_last]; have : cfg7.N = 10 := N_7; omega), scopedRest7_split]
  simp only [scr7, owns_whole]
  iintro ⟨Hg, HS, HR⟩
  isplitl [Hg]; · iexact Hg
  isplitl [HS]; · iexists _; iexact HS
  iexact HR

end Region7

end Cert.KernelIdeal.Reg

end
-- ==== Proof.KI.Chain.lean ====
import proofs.«429275_j68899865363005_1_alg».proof.Proof.KI.R0
import proofs.«429275_j68899865363005_1_alg».proof.Proof.KI.R1
import proofs.«429275_j68899865363005_1_alg».proof.Proof.KI.R2
import proofs.«429275_j68899865363005_1_alg».proof.Proof.KI.R3
import proofs.«429275_j68899865363005_1_alg».proof.Proof.KI.R4
import proofs.«429275_j68899865363005_1_alg».proof.Proof.KI.R5
import proofs.«429275_j68899865363005_1_alg».proof.Proof.KI.R6
import proofs.«429275_j68899865363005_1_alg».proof.Proof.KI.R7
import proofs.«429275_j68899865363005_1_alg».proof.Proof.Gen.KernelIdeal.Regions
import Idealize.ShloMosaic.Lib.Pipeline.FrameSuffix

/-! # The buffers' contents between the items of @main, and the proof data of its eight regions

@main is a list of items: stretches of host operations and eight kernel regions. Between two items every unscoped
buffer of the core holds a definite value. This file names that value at each boundary from region 0's entry on, as a
function of the launch memory `m` alone: a host stretch takes the contents to `StableHlo.after` of its operations; a
region takes them to the same contents with each of its arrays at what its pipeline leaves there after the last grid
point, which for an input window's array is what was there at entry. The generated valuations are written over
unknown contents of the regions' output arrays; choosing for each unknown the value named here makes the two families
equal, boundary by boundary. Each region's proof data are taken at its entry contents. -/

set_option maxRecDepth 1368

noncomputable section

namespace Cert.KernelIdeal.Reg

open Cert.KernelIdeal Cert.KernelIdeal.Gen
open Idealize.ShloMosaic Idealize.ShloMosaic.TcCoe
open Idealize.SL Idealize.SL.RA Idealize.SL.BI
open scoped Idealize.SL.BI
open Idealize.ShloMosaic.Pipeline (Dat Cfg Window)

variable {F : FTy → Type} [FloatOps F]

/-! ## Two facts about overwriting a region's arrays -/

/-- At a device reference that is no array of the region, the contents with the region's arrays overwritten are the
    contents one started from. -/
theorem withArrays_apply_of_forall_ne {gr W : Nat} (win : Fin W → Pipeline.WinSpec sig gr) (c : Dev nD)
    (V : Valuation τ sig (Elt F)) (A : (w : Fin W) → Buf (Elt F) ((win w).arr.view.loc (c.tc : Thread nD τ)))
    (b : DevRef τ sig) (hb : ∀ w, Proc.devRef .tc (Pipeline.arrRef win w) ≠ b) :
    Pipeline.withArrays win c V A b = V b := by
  unfold Pipeline.withArrays
  rw [dif_neg]
  rintro ⟨w, e⟩
  exact hb w e

/-- Let `Z` agree with the entry contents `Y` away from a list `O` of references that holds every output window's
    array, and let `Z` hold at each reference of `O` what the pipeline leaves there. Then `Z` is `Y` with every array of
    the region at what the pipeline leaves: at an input window's array nothing is ever written back, so what is left
    is the entry value, which is `Y`'s. -/
theorem exit_eq_withArrays {cfg : Cfg sig Λ₀} {c : Dev nD} (dat : Dat τ (Elt F) Unit ℕ (UR sig nD τ) ℕ cfg c)
    (hinj : Function.Injective (Pipeline.arrRef cfg.spec)) (Y Y' Z : Valuation τ sig (Elt F)) (hY : Y' = Y)
    (hA : ∀ w, dat.A w = Y (Proc.devRef .tc (Pipeline.arrRef cfg.spec w)))
    (O : List (Ref sig .tc)) (hout : ∀ w, (cfg.win w).isOut = true → Pipeline.arrRef cfg.spec w ∈ O)
    (hZO : ∀ r ∈ O, Z (Proc.devRef .tc r)
      = Pipeline.withArrays cfg.spec c Y (fun w => dat.arrAt w cfg.N) (Proc.devRef .tc r))
    (hZne : ∀ b : DevRef τ sig, (∀ r ∈ O, b ≠ Proc.devRef .tc r) → Z b = Y' b) :
    Z = Pipeline.withArrays cfg.spec c Y (fun w => dat.arrAt w cfg.N) := by
  subst hY
  funext b
  by_cases hb : ∃ r ∈ O, b = Proc.devRef .tc r
  · obtain ⟨r, hr, rfl⟩ := hb
    exact hZO r hr
  · have hb' : ∀ r ∈ O, b ≠ Proc.devRef .tc r := fun r hr e => hb ⟨r, hr, e⟩
    rw [hZne b hb']
    by_cases h : ∃ w, Proc.devRef .tc (Pipeline.arrRef cfg.spec w) = b
    · obtain ⟨w, rfl⟩ := h
      rw [Pipeline.withArrays_arr cfg.spec hinj]
      cases hio : (cfg.win w).isOut
      · rw [dat.arrAt_in w hio, hA]
      · exact absurd rfl (hb' _ (hout w hio))
    · rw [withArrays_apply_of_forall_ne]
      intro w e
      exact h ⟨w, e⟩

variable (m : (ℓ : Loc nD τ sig) → Buf (Elt F) ℓ)

/-! ## The contents at each boundary, from region 0's entry to region 7's exit -/

/-- Region 0's entry: the launch memory after the three opening host stretches. -/
abbrev X3 : Dev nD → Valuation τ sig (Elt F) := Gen.V3 m
/-- Region 0's exit: its arrays at what the pipeline leaves, the rest as entered. -/
def X4 (c : Dev nD) : Valuation τ sig (Elt F) :=
  Pipeline.withArrays spec0 c (X3 m c) fun w => (dat0 (fun c b => X3 m c b) c).arrAt w cfg0.N
/-- Region 1's entry. -/
abbrev X5 : Dev nD → Valuation τ sig (Elt F) := fun c => StableHlo.after hostOps1 (X4 m c)
/-- Region 1's exit. -/
def X6 (c : Dev nD) : Valuation τ sig (Elt F) :=
  Pipeline.withArrays spec1 c (X5 m c) fun w => (dat1 (fun c b => X5 m c b) c).arrAt w cfg1.N
/-- Region 2's entry. -/
abbrev X7 : Dev nD → Valuation τ sig (Elt F) := fun c => StableHlo.after hostOps2 (X6 m c)
/-- Region 2's exit, which is region 3's entry. -/
def X8 (c : Dev nD) : Valuation τ sig (Elt F) :=
  Pipeline.withArrays spec2 c (X7 m c) fun w => (dat2 (fun c b => X7 m c b) c).arrAt w cfg2.N
/-- Region 3's exit. -/
def X9 (c : Dev nD) : Valuation τ sig (Elt F) :=
  Pipeline.withArrays spec3 c (X8 m c) fun w => (dat3 (fun c b => X8 m c b) c).arrAt w cfg3.N
/-- Region 4's entry. -/
abbrev X10 : Dev nD → Valuation τ sig (Elt F) := fun c => StableHlo.after hostOps4 (X9 m c)
/-- Region 4's exit. -/
def X11 (c : Dev nD) : Valuation τ sig (Elt F) :=
  Pipeline.withArrays spec4 c (X10 m c) fun w => (dat4 (fun c b => X10 m c b) c).arrAt w cfg4.N
/-- Region 5's entry. -/
abbrev X12 : Dev nD → Valuation τ sig (Elt F) := fun c => StableHlo.after hostOps5 (X11 m c)
/-- Region 5's exit, which is region 6's entry. -/
def X13 (c : Dev nD) : Valuation τ sig (Elt F) :=
  Pipeline.withArrays spec5 c (X12 m c) fun w => (dat5 (fun c b => X12 m c b) c).arrAt w cfg5.N
/-- Region 6's exit. -/
def X14 (c : Dev nD) : Valuation τ sig (Elt F) :=
  Pipeline.withArrays spec6 c (X13 m c) fun w => (dat6 (fun c b => X13 m c b) c).arrAt w cfg6.N
/-- After the first of the three host stretches between regions 6 and 7. -/
abbrev X15 : Dev nD → Valuation τ sig (Elt F) := fun c => StableHlo.after hostOps7 (X14 m c)
/-- After the second. -/
abbrev X16 : Dev nD → Valuation τ sig (Elt F) := fun c => StableHlo.after hostOps7_1 (X15 m c)
/-- After the third: region 7's entry. -/
abbrev X17 : Dev nD → Valuation τ sig (Elt F) := fun c => StableHlo.after hostOps7_2 (X16 m c)
/-- Region 7's exit: the contents when @main returns. -/
def X18 (c : Dev nD) : Valuation τ sig (Elt F) :=
  Pipeline.withArrays spec7 c (X17 m c) fun w => (dat7 (fun c b => X17 m c b) c).arrAt w cfg7.N

/-! ## The unknowns of the generated valuations, chosen -/

/-- What each region leaves in a reference: the value the boundary after it holds there. Only the boundaries after a
    region are ever read. -/
def outs : Gen.Outs (F := F) := fun J r c =>
  match J with
  | 4 => X4 m c (Proc.devRef .tc r)
  | 6 => X6 m c (Proc.devRef .tc r)
  | 8 => X8 m c (Proc.devRef .tc r)
  | 9 => X9 m c (Proc.devRef .tc r)
  | 11 => X11 m c (Proc.devRef .tc r)
  | 13 => X13 m c (Proc.devRef .tc r)
  | 14 => X14 m c (Proc.devRef .tc r)
  | 18 => X18 m c (Proc.devRef .tc r)
  | _ => X3 m c (Proc.devRef .tc r)

/-- After region 0 (output array `main_v30`). -/
theorem V4_eq (c : Dev nD) : Gen.V4 m (outs m) c = X4 m c :=
  exit_eq_withArrays (dat0 (fun c b => X3 m c b) c) winFacts0.arr_inj (X3 m c) (Gen.V3 m c) (Gen.V4 m (outs m) c) rfl
    (fun w => A_eq0 _ c w) [main_v30] (by decide)
    (fun r hr => by
      obtain rfl : r = main_v30 := List.mem_singleton.mp hr
      exact Function.update_self _ _ _)
    (fun b hb => Function.update_of_ne (hb main_v30 (List.mem_singleton_self _)) _ _)
theorem V5_eq (c : Dev nD) : Gen.V5 m (outs m) c = X5 m c := congrArg (StableHlo.after hostOps1) (V4_eq m c)

/-- After region 1 (output arrays `main_v45_0`, `main_v45_1`). -/
theorem V6_eq (c : Dev nD) : Gen.V6 m (outs m) c = X6 m c :=
  exit_eq_withArrays (dat1 (fun c b => X5 m c b) c) winFacts1.arr_inj (X5 m c) (Gen.V5 m (outs m) c) (Gen.V6 m (outs m) c)
    (V5_eq m c) (fun w => A_eq1 _ c w) [main_v45_0, main_v45_1] (by decide)
    (fun r hr => by
      rcases List.mem_pair.mp hr with rfl | rfl
      · exact (Function.update_of_ne (StableHlo.devRef_ne_of_ne (by decide)) _ _).trans (Function.update_self _ _ _)
      · exact Function.update_self _ _ _)
    (fun b hb => (Function.update_of_ne (hb main_v45_1 (List.mem_pair.mpr (Or.inr rfl))) _ _).trans
      (Function.update_of_ne (hb main_v45_0 (List.mem_pair.mpr (Or.inl rfl))) _ _))
theorem V7_eq (c : Dev nD) : Gen.V7 m (outs m) c = X7 m c := congrArg (StableHlo.after hostOps2) (V6_eq m c)

/-- After region 2 (output array `main_v55`). -/
theorem V8_eq (c : Dev nD) : Gen.V8 m (outs m) c = X8 m c :=
  exit_eq_withArrays (dat2 (fun c b => X7 m c b) c) winFacts2.arr_inj (X7 m c) (Gen.V7 m (outs m) c) (Gen.V8 m (outs m) c)
    (V7_eq m c) (fun w => A_eq2 _ c w) [main_v55] (by decide)
    (fun r hr => by
      obtain rfl : r = main_v55 := List.mem_singleton.mp hr
      exact Function.update_self _ _ _)
    (fun b hb => Function.update_of_ne (hb main_v55 (List.mem_singleton_self _)) _ _)

/-- After region 3 (output array `main_v56`). -/
theorem V9_eq (c : Dev nD) : Gen.V9 m (outs m) c = X9 m c :=
  exit_eq_withArrays (dat3 (fun c b => X8 m c b) c) winFacts3.arr_inj (X8 m c) (Gen.V8 m (outs m) c) (Gen.V9 m (outs m) c)
    (V8_eq m c) (fun w => A_eq3 _ c w) [main_v56] (by decide)
    (fun r hr => by
      obtain rfl : r = main_v56 := List.mem_singleton.mp hr
      exact Function.update_self _ _ _)
    (fun b hb => Function.update_of_ne (hb main_v56 (List.mem_singleton_self _)) _ _)
theorem V10_eq (c : Dev nD) : Gen.V10 m (outs m) c = X10 m c := congrArg (StableHlo.after hostOps4) (V9_eq m c)

/-- After region 4 (output arrays `main_v71_0`, `main_v71_1`). -/
theorem V11_eq (c : Dev nD) : Gen.V11 m (outs m) c = X11 m c :=
  exit_eq_withArrays (dat4 (fun c b => X10 m c b) c) winFacts4.arr_inj (X10 m c) (Gen.V10 m (outs m) c) (Gen.V11 m (outs m) c)
    (V10_eq m c) (fun w => A_eq4 _ c w) [main_v71_0, main_v71_1] (by decide)
    (fun r hr => by
      rcases List.mem_pair.mp hr with rfl | rfl
      · exact (Function.update_of_ne (StableHlo.devRef_ne_of_ne (by decide)) _ _).trans (Function.update_self _ _ _)
      · exact Function.update_self _ _ _)
    (fun b hb => (Function.update_of_ne (hb main_v71_1 (List.mem_pair.mpr (Or.inr rfl))) _ _).trans
      (Function.update_of_ne (hb main_v71_0 (List.mem_pair.mpr (Or.inl rfl))) _ _))
theorem V12_eq (c : Dev nD) : Gen.V12 m (outs m) c = X12 m c := congrArg (StableHlo.after hostOps5) (V11_eq m c)

/-- After region 5 (output array `main_v81`). -/
theorem V13_eq (c : Dev nD) : Gen.V13 m (outs m) c = X13 m c :=
  exit_eq_withArrays (dat5 (fun c b => X12 m c b) c) winFacts5.arr_inj (X12 m c) (Gen.V12 m (outs m) c) (Gen.V13 m (outs m) c)
    (V12_eq m c) (fun w => A_eq5 _ c w) [main_v81] (by decide)
    (fun r hr => by
      obtain rfl : r = main_v81 := List.mem_singleton.mp hr
      exact Function.update_self _ _ _)
    (fun b hb => Function.update_of_ne (hb main_v81 (List.mem_singleton_self _)) _ _)

/-- After region 6 (output array `main_v82`). -/
theorem V14_eq (c : Dev nD) : Gen.V14 m (outs m) c = X14 m c :=
  exit_eq_withArrays (dat6 (fun c b => X13 m c b) c) winFacts6.arr_inj (X13 m c) (Gen.V13 m (outs m) c) (Gen.V14 m (outs m) c)
    (V13_eq m c) (fun w => A_eq6 _ c w) [main_v82] (by decide)
    (fun r hr => by
      obtain rfl : r = main_v82 := List.mem_singleton.mp hr
      exact Function.update_self _ _ _)
    (fun b hb => Function.update_of_ne (hb main_v82 (List.mem_singleton_self _)) _ _)
theorem V15_eq (c : Dev nD) : Gen.V15 m (outs m) c = X15 m c := congrArg (StableHlo.after hostOps7) (V14_eq m c)
theorem V16_eq (c : Dev nD) : Gen.V16 m (outs m) c = X16 m c := congrArg (StableHlo.after hostOps7_1) (V15_eq m c)
theorem V17_eq (c : Dev nD) : Gen.V17 m (outs m) c = X17 m c := congrArg (StableHlo.after hostOps7_2) (V16_eq m c)

/-- After region 7 (output array `main_v115`). -/
theorem V18_eq (c : Dev nD) : Gen.V18 m (outs m) c = X18 m c :=
  exit_eq_withArrays (dat7 (fun c b => X17 m c b) c) winFacts7.arr_inj (X17 m c) (Gen.V17 m (outs m) c) (Gen.V18 m (outs m) c)
    (V17_eq m c) (fun w => A_eq7 _ c w) [main_v115] (by decide)
    (fun r hr => by
      obtain rfl : r = main_v115 := List.mem_singleton.mp hr
      exact Function.update_self _ _ _)
    (fun b hb => Function.update_of_ne (hb main_v115 (List.mem_singleton_self _)) _ _)

/-! ## The proof data of the eight pipelines, each at its region's entry contents -/

/-- A literal case split on the pipeline's index, so that at a numeral the pinned configuration reduces to the
    printed one. -/
def pdats : (p : Fin 8) → (c : Dev nD) → Dat τ (Elt F) Unit ℕ (UR sig nD τ) ℕ (Pipeline.pin (pcfgs (F := F)) Gen.adm p) c
  | ⟨0, _⟩ => fun c => dat0 (fun c b => X3 m c b) c
  | ⟨1, _⟩ => fun c => dat1 (fun c b => X5 m c b) c
  | ⟨2, _⟩ => fun c => dat2 (fun c b => X7 m c b) c
  | ⟨3, _⟩ => fun c => dat3 (fun c b => X8 m c b) c
  | ⟨4, _⟩ => fun c => dat4 (fun c b => X10 m c b) c
  | ⟨5, _⟩ => fun c => dat5 (fun c b => X12 m c b) c
  | ⟨6, _⟩ => fun c => dat6 (fun c b => X13 m c b) c
  | ⟨7, _⟩ => fun c => dat7 (fun c b => X17 m c b) c

/-! ## Per region: the arrays at exit, the other buffers at exit, the arrays at entry -/

theorem hF_0 (c : Dev nD) (w : Fin cfg0.W) : (pdats m 0 c).arrAt w cfg0.N = X4 m c (Pipeline.arrRef spec0 w) :=
  by
  show (dat0 (fun c b => X3 m c b) c).arrAt w cfg0.N = X4 m c (Proc.devRef .tc (Pipeline.arrRef spec0 w))
  unfold X4
  rw [Pipeline.withArrays_arr spec0 winFacts0.arr_inj]
theorem hrest_0 (c : Dev nD) : ∀ b, b ∉ Finset.univ.image (Pipeline.arrRef spec0) → X4 m c b = X3 m c b :=
  fun b hb => Pipeline.withArrays_of_ne spec0 c _ _ b fun w e => hb (Finset.mem_image.mpr ⟨w, Finset.mem_univ _, e⟩)
theorem hA_0 (c : Dev nD) (w : Fin cfg0.W) : (pdats m 0 c).A w = X3 m c (Pipeline.arrRef spec0 w) :=
  A_eq0 (fun c b => X3 m c b) c w

theorem hF_1 (c : Dev nD) (w : Fin cfg1.W) : (pdats m 1 c).arrAt w cfg1.N = X6 m c (Pipeline.arrRef spec1 w) :=
  by
  show (dat1 (fun c b => X5 m c b) c).arrAt w cfg1.N = X6 m c (Proc.devRef .tc (Pipeline.arrRef spec1 w))
  unfold X6
  rw [Pipeline.withArrays_arr spec1 winFacts1.arr_inj]
theorem hrest_1 (c : Dev nD) : ∀ b, b ∉ Finset.univ.image (Pipeline.arrRef spec1) → X6 m c b = X5 m c b :=
  fun b hb => Pipeline.withArrays_of_ne spec1 c _ _ b fun w e => hb (Finset.mem_image.mpr ⟨w, Finset.mem_univ _, e⟩)
theorem hA_1 (c : Dev nD) (w : Fin cfg1.W) : (pdats m 1 c).A w = X5 m c (Pipeline.arrRef spec1 w) :=
  A_eq1 (fun c b => X5 m c b) c w

theorem hF_2 (c : Dev nD) (w : Fin cfg2.W) : (pdats m 2 c).arrAt w cfg2.N = X8 m c (Pipeline.arrRef spec2 w) :=
  by
  show (dat2 (fun c b => X7 m c b) c).arrAt w cfg2.N = X8 m c (Proc.devRef .tc (Pipeline.arrRef spec2 w))
  unfold X8
  rw [Pipeline.withArrays_arr spec2 winFacts2.arr_inj]
theorem hrest_2 (c : Dev nD) : ∀ b, b ∉ Finset.univ.image (Pipeline.arrRef spec2) → X8 m c b = X7 m c b :=
  fun b hb => Pipeline.withArrays_of_ne spec2 c _ _ b fun w e => hb (Finset.mem_image.mpr ⟨w, Finset.mem_univ _, e⟩)
theorem hA_2 (c : Dev nD) (w : Fin cfg2.W) : (pdats m 2 c).A w = X7 m c (Pipeline.arrRef spec2 w) :=
  A_eq2 (fun c b => X7 m c b) c w

theorem hF_3 (c : Dev nD) (w : Fin cfg3.W) : (pdats m 3 c).arrAt w cfg3.N = X9 m c (Pipeline.arrRef spec3 w) :=
  by
  show (dat3 (fun c b => X8 m c b) c).arrAt w cfg3.N = X9 m c (Proc.devRef .tc (Pipeline.arrRef spec3 w))
  unfold X9
  rw [Pipeline.withArrays_arr spec3 winFacts3.arr_inj]
theorem hrest_3 (c : Dev nD) : ∀ b, b ∉ Finset.univ.image (Pipeline.arrRef spec3) → X9 m c b = X8 m c b :=
  fun b hb => Pipeline.withArrays_of_ne spec3 c _ _ b fun w e => hb (Finset.mem_image.mpr ⟨w, Finset.mem_univ _, e⟩)
theorem hA_3 (c : Dev nD) (w : Fin cfg3.W) : (pdats m 3 c).A w = X8 m c (Pipeline.arrRef spec3 w) :=
  A_eq3 (fun c b => X8 m c b) c w

theorem hF_4 (c : Dev nD) (w : Fin cfg4.W) : (pdats m 4 c).arrAt w cfg4.N = X11 m c (Pipeline.arrRef spec4 w) :=
  by
  show (dat4 (fun c b => X10 m c b) c).arrAt w cfg4.N = X11 m c (Proc.devRef .tc (Pipeline.arrRef spec4 w))
  unfold X11
  rw [Pipeline.withArrays_arr spec4 winFacts4.arr_inj]
theorem hrest_4 (c : Dev nD) : ∀ b, b ∉ Finset.univ.image (Pipeline.arrRef spec4) → X11 m c b = X10 m c b :=
  fun b hb => Pipeline.withArrays_of_ne spec4 c _ _ b fun w e => hb (Finset.mem_image.mpr ⟨w, Finset.mem_univ _, e⟩)
theorem hA_4 (c : Dev nD) (w : Fin cfg4.W) : (pdats m 4 c).A w = X10 m c (Pipeline.arrRef spec4 w) :=
  A_eq4 (fun c b => X10 m c b) c w

theorem hF_5 (c : Dev nD) (w : Fin cfg5.W) : (pdats m 5 c).arrAt w cfg5.N = X13 m c (Pipeline.arrRef spec5 w) :=
  by
  show (dat5 (fun c b => X12 m c b) c).arrAt w cfg5.N = X13 m c (Proc.devRef .tc (Pipeline.arrRef spec5 w))
  unfold X13
  rw [Pipeline.withArrays_arr spec5 winFacts5.arr_inj]
theorem hrest_5 (c : Dev nD) : ∀ b, b ∉ Finset.univ.image (Pipeline.arrRef spec5) → X13 m c b = X12 m c b :=
  fun b hb => Pipeline.withArrays_of_ne spec5 c _ _ b fun w e => hb (Finset.mem_image.mpr ⟨w, Finset.mem_univ _, e⟩)
theorem hA_5 (c : Dev nD) (w : Fin cfg5.W) : (pdats m 5 c).A w = X12 m c (Pipeline.arrRef spec5 w) :=
  A_eq5 (fun c b => X12 m c b) c w

theorem hF_6 (c : Dev nD) (w : Fin cfg6.W) : (pdats m 6 c).arrAt w cfg6.N = X14 m c (Pipeline.arrRef spec6 w) :=
  by
  show (dat6 (fun c b => X13 m c b) c).arrAt w cfg6.N = X14 m c (Proc.devRef .tc (Pipeline.arrRef spec6 w))
  unfold X14
  rw [Pipeline.withArrays_arr spec6 winFacts6.arr_inj]
theorem hrest_6 (c : Dev nD) : ∀ b, b ∉ Finset.univ.image (Pipeline.arrRef spec6) → X14 m c b = X13 m c b :=
  fun b hb => Pipeline.withArrays_of_ne spec6 c _ _ b fun w e => hb (Finset.mem_image.mpr ⟨w, Finset.mem_univ _, e⟩)
theorem hA_6 (c : Dev nD) (w : Fin cfg6.W) : (pdats m 6 c).A w = X13 m c (Pipeline.arrRef spec6 w) :=
  A_eq6 (fun c b => X13 m c b) c w

theorem hF_7 (c : Dev nD) (w : Fin cfg7.W) : (pdats m 7 c).arrAt w cfg7.N = X18 m c (Pipeline.arrRef spec7 w) :=
  by
  show (dat7 (fun c b => X17 m c b) c).arrAt w cfg7.N = X18 m c (Proc.devRef .tc (Pipeline.arrRef spec7 w))
  unfold X18
  rw [Pipeline.withArrays_arr spec7 winFacts7.arr_inj]
theorem hrest_7 (c : Dev nD) : ∀ b, b ∉ Finset.univ.image (Pipeline.arrRef spec7) → X18 m c b = X17 m c b :=
  fun b hb => Pipeline.withArrays_of_ne spec7 c _ _ b fun w e => hb (Finset.mem_image.mpr ⟨w, Finset.mem_univ _, e⟩)
theorem hA_7 (c : Dev nD) (w : Fin cfg7.W) : (pdats m 7 c).A w = X17 m c (Pipeline.arrRef spec7 w) :=
  A_eq7 (fun c b => X17 m c b) c w

end Cert.KernelIdeal.Reg

end
-- ==== Proof.KI.RegBuilder.lean ====
import proofs.«429275_j68899865363005_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 1368

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What travels beside the unscoped buffers through every item of the run: the core's generator register at some
    state, and the core owing nothing. -/
abbrev Rr (c : Dev nD) : sProp 𝕄 :=
  iprop((∃ r, prngReg c r) ∗ ∃ W, owes (c : Thread nD τ) (0 : CellTallies nD τ sig Unit) W)

/-- The windows' specifications of pipeline p, at its one admissible (empty) table contents. -/
abbrev specOf (p : Fin 8) := (Pipeline.pin (pcfgs (F := F)) Gen.adm p).spec

/-- The number of grid points of pipeline p. -/
abbrev NOf (p : Fin 8) : ℕ := (Pipeline.pin (pcfgs (F := F)) Gen.adm p).N

set_option backward.isDefEq.respectTransparency.types false in
/-- ONE KERNEL REGION AS A SEGMENT, for any of the eight pipelines. The region is entered with every unscoped buffer
    held at Ventry beside Rr and left with them held at Vexit beside Rr. Its arrays are split out of the unscoped
    buffers at entry and put back at exit, at a valuation that differs from the entry one only at the arrays; the
    generator register goes into the body's invariant and comes back out; the body owes nothing and the kernel has
    no semaphore of its own; no table is prefetched. -/
def mkReg (pdats : (p : Fin 8) → (c : Dev nD) → Dat τ (Elt F) Unit ℕ (UR sig nD τ) ℕ (Pipeline.pin (pcfgs (F := F)) Gen.adm p) c)
    (p : Fin 8)
    (launch : Pipeline.LaunchFacts (nD := nD) (τ := τ) cfgs p)
    (Ventry Vexit : Dev nD → Valuation τ sig (Elt F))
    (hbody : ∀ c, BodyObligation (pdats p c) (defs₀ (F := F)) Variants.none () Set.univ)
    (hA : ∀ c w, (pdats p c).A w = Ventry c (Pipeline.arrRef (specOf (F := F) p) w))
    (hq : ∀ c w, (pdats p c).q w = fullShare)
    (howed : ∀ c t, (pdats p c).owed t = 0)
    (hrec : ∀ c, (pdats p c).recorded 0 = Set.univ)
    (hF : ∀ c w, (pdats p c).arrAt w (NOf (F := F) p) = Vexit c (Pipeline.arrRef (specOf (F := F) p) w))
    (hrest : ∀ c b, b ∉ Finset.univ.image (Pipeline.arrRef (specOf (F := F) p)) → Vexit c b = Ventry c b)
    (hin : ∀ c, iprop((∃ r, prngReg c r) ∗ Pipeline.scopedRest (Ix := Unit) (Name := ℕ) (U := UR sig nD τ) (Lvl := ℕ) (specOf (F := F) p) c)
      ⊢ ((pdats p c).Φ 0 : sProp 𝕄))
    (hout : ∀ c, ((pdats p c).Φ (Fin.last (NOf (F := F) p)) : sProp 𝕄)
      ⊢ iprop((∃ r, prngReg c r) ∗ Pipeline.scopedRest (Ix := Unit) (Name := ℕ) (U := UR sig nD τ) (Lvl := ℕ) (specOf (F := F) p) c)) :
    Pipeline.RegionSeg (pcfgs (F := F)) Gen.adm pdats () defs₀ Variants.none (fun _ => ∅) (fun _ _ => 0) p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ (fun _ => ∅) (fun _ _ => 0) p howed
  pre c := iprop(StableHlo.held (c : Thread nD τ) (Pipeline.ucRefs τ sig) (Ventry c) ∗ Rr c)
  post c := iprop(StableHlo.held (c : Thread nD τ) (Pipeline.ucRefs τ sig) (Vexit c) ∗ Rr c)
  X c := iprop(∃ r, prngReg c r)
  Y c := iprop(∃ r, prngReg c r)
  Z c := Pipeline.unscopedRest (Ix := Unit) (Name := ℕ) (U := UR sig nD τ) (Lvl := ℕ) (specOf (F := F) p) c (fun b => Ventry c b)
  hentry c := by
    -- the arrays leave the unscoped buffers; what is left of those is Z; the register is X; no table, no own semaphore
    rw [Pipeline.ownSems0_none]
    have hsplit := Pipeline.arrays_of_unscopedBufs (p := p) (pcfgs (F := F)) Gen.adm pdats launch.win launch.arr_whole c
      ((pdats p c).share_full (hq c)) (fun b => Ventry c b) (hA c)
    rw [Pipeline.unscopedBufs_held] at hsplit
    unfold Pipeline.Dat.owesAt Pipeline.owesWithin
    rw [howed c 0]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr
      · ipureintro; exact fun x _ => Or.inl ((hrec c).symm ▸ Set.mem_univ x)
      iexact HO
    isplitl [Hp]; · iexact Hp
    iexact Hrest
  hin c := by
    iintro ⟨Hp, -, Hr⟩
    iapply hin c
    isplitl [Hp]; · iexact Hp
    iexact Hr
  hout c := by
    rw [Pipeline.ownSems0_none]
    iintro H
    ihave H' := hout c $$ H
    icases H' with ⟨Hp, Hr⟩
    isplitl [Hp]; · iexact Hp
    isplitr; · iempintro
    iexact Hr
  hexit c := by
    -- the arrays at their last contents and Z are the unscoped buffers at Vexit
    have hjoin := Pipeline.unscopedBufs_of_arrays (p := p) (pcfgs (F := F)) Gen.adm (Ix := Unit) (Name := ℕ) (U := UR sig nD τ) (Lvl := ℕ)
      launch.win launch.arr_whole c pdats ((pdats p c).share_full (hq c))
      (fun b => Ventry c b) (fun b => Vexit c b) ((pdats p c).arrAt · (NOf (F := F) p)) (hF c) (hrest c)
    rw [Pipeline.unscopedBufs_held] at hjoin
    unfold Pipeline.Dat.owesAt Pipeline.owesWithin
    rw [howed c (Fin.last _)]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

section Projections

variable (pdats : (p : Fin 8) → (c : Dev nD) → Dat τ (Elt F) Unit ℕ (UR sig nD τ) ℕ (Pipeline.pin (pcfgs (F := F)) Gen.adm p) c)
    (p : Fin 8)
    (launch : Pipeline.LaunchFacts (nD := nD) (τ := τ) cfgs p)
    (Ventry Vexit : Dev nD → Valuation τ sig (Elt F))
    (hbody : ∀ c, BodyObligation (pdats p c) (defs₀ (F := F)) Variants.none () Set.univ)
    (hA : ∀ c w, (pdats p c).A w = Ventry c (Pipeline.arrRef (specOf (F := F) p) w))
    (hq : ∀ c w, (pdats p c).q w = fullShare)
    (howed : ∀ c t, (pdats p c).owed t = 0)
    (hrec : ∀ c, (pdats p c).recorded 0 = Set.univ)
    (hF : ∀ c w, (pdats p c).arrAt w (NOf (F := F) p) = Vexit c (Pipeline.arrRef (specOf (F := F) p) w))
    (hrest : ∀ c b, b ∉ Finset.univ.image (Pipeline.arrRef (specOf (F := F) p)) → Vexit c b = Ventry c b)
    (hin : ∀ c, iprop((∃ r, prngReg c r) ∗ Pipeline.scopedRest (Ix := Unit) (Name := ℕ) (U := UR sig nD τ) (Lvl := ℕ) (specOf (F := F) p) c)
      ⊢ ((pdats p c).Φ 0 : sProp 𝕄))
    (hout : ∀ c, ((pdats p c).Φ (Fin.last (NOf (F := F) p)) : sProp 𝕄)
      ⊢ iprop((∃ r, prngReg c r) ∗ Pipeline.scopedRest (Ix := Unit) (Name := ℕ) (U := UR sig nD τ) (Lvl := ℕ) (specOf (F := F) p) c))

/-- The thread state the built record is entered from. -/
theorem mkReg_pre (c : Dev nD) :
    (mkReg pdats p launch Ventry Vexit hbody hA hq howed hrec hF hrest hin hout).pre c
      = iprop(StableHlo.held (c : Thread nD τ) (Pipeline.ucRefs τ sig) (Ventry c) ∗ Rr c) := rfl

/-- The thread state the built record is left at. -/
theorem mkReg_post (c : Dev nD) :
    (mkReg pdats p launch Ventry Vexit hbody hA hq howed hrec hF hrest hin hout).post c
      = iprop(StableHlo.held (c : Thread nD τ) (Pipeline.ucRefs τ sig) (Vexit c) ∗ Rr c) := rfl

end Projections

/-- Everything mkReg asks of region p between the valuations Ventry and Vexit, as one record. -/
structure RegHyps (pdats : (p : Fin 8) → (c : Dev nD) → Dat τ (Elt F) Unit ℕ (UR sig nD τ) ℕ (Pipeline.pin (pcfgs (F := F)) Gen.adm p) c)
    (p : Fin 8) (Ventry Vexit : Dev nD → Valuation τ sig (Elt F)) : Prop where
  launch : Pipeline.LaunchFacts (nD := nD) (τ := τ) cfgs p
  hbody : ∀ c, BodyObligation (pdats p c) (defs₀ (F := F)) Variants.none () Set.univ
  hA : ∀ c w, (pdats p c).A w = Ventry c (Pipeline.arrRef (specOf (F := F) p) w)
  hq : ∀ c w, (pdats p c).q w = fullShare
  howed : ∀ c t, (pdats p c).owed t = 0
  hrec : ∀ c, (pdats p c).recorded 0 = Set.univ
  hF : ∀ c w, (pdats p c).arrAt w (NOf (F := F) p) = Vexit c (Pipeline.arrRef (specOf (F := F) p) w)
  hrest : ∀ c b, b ∉ Finset.univ.image (Pipeline.arrRef (specOf (F := F) p)) → Vexit c b = Ventry c b
  hin : ∀ c, iprop((∃ r, prngReg c r) ∗ Pipeline.scopedRest (Ix := Unit) (Name := ℕ) (U := UR sig nD τ) (Lvl := ℕ) (specOf (F := F) p) c)
      ⊢ ((pdats p c).Φ 0 : sProp 𝕄)
  hout : ∀ c, ((pdats p c).Φ (Fin.last (NOf (F := F) p)) : sProp 𝕄)
      ⊢ iprop((∃ r, prngReg c r) ∗ Pipeline.scopedRest (Ix := Unit) (Name := ℕ) (U := UR sig nD τ) (Lvl := ℕ) (specOf (F := F) p) c)

/-- The region's record from the bundled hypotheses. -/
def mkRegOf {pdats : (p : Fin 8) → (c : Dev nD) → Dat τ (Elt F) Unit ℕ (UR sig nD τ) ℕ (Pipeline.pin (pcfgs (F := F)) Gen.adm p) c}
    {p : Fin 8} {Ventry Vexit : Dev nD → Valuation τ sig (Elt F)} (h : RegHyps pdats p Ventry Vexit) :
    Pipeline.RegionSeg (pcfgs (F := F)) Gen.adm pdats () defs₀ Variants.none (fun _ => ∅) (fun _ _ => 0) p :=
  mkReg pdats p h.launch Ventry Vexit h.hbody h.hA h.hq h.howed h.hrec h.hF h.hrest h.hin h.hout

/-! ## The run: the eight records under the conditional frame -/

section Run

variable (m : (ℓ : Loc nD τ sig) → Buf (Elt F) ℓ) (ρ : Dev nD → PrngReg) (outs : Gen.Outs (F := F))
  (pdats : (p : Fin 8) → (c : Dev nD) → Dat τ (Elt F) Unit ℕ (UR sig nD τ) ℕ (Pipeline.pin (pcfgs (F := F)) Gen.adm p) c)
  (h0 : RegHyps pdats 0 (Gen.V3 m) (Gen.V4 m outs))
  (h1 : RegHyps pdats 1 (Gen.V5 m outs) (Gen.V6 m outs))
  (h2 : RegHyps pdats 2 (Gen.V7 m outs) (Gen.V8 m outs))
  (h3 : RegHyps pdats 3 (Gen.V8 m outs) (Gen.V9 m outs))
  (h4 : RegHyps pdats 4 (Gen.V10 m outs) (Gen.V11 m outs))
  (h5 : RegHyps pdats 5 (Gen.V12 m outs) (Gen.V13 m outs))
  (h6 : RegHyps pdats 6 (Gen.V13 m outs) (Gen.V14 m outs))
  (h7 : RegHyps pdats 7 (Gen.V17 m outs) (Gen.V18 m outs))

include h0 h1 h2 h3 h4 h5 h6 h7 in
set_option backward.isDefEq.respectTransparency.types false in
/-- THE FRAME OF THE RUN, from the eight regions' hypotheses: the conditional frame at the eight built records, the
    rest between items being Rr throughout (made at the launch from the generator register and the core owing nothing;
    at the end only the owing part is kept). -/
theorem frame_of :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Gen.frame_cond m (Ix := Unit) (U := UR sig nD τ) (Lvl := ℕ) emb₁ () Variants.none (fun _ => ∅) (fun _ _ => 0) (fun _ _ => rfl)
    ρ outs pdats
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach (fun _ => ∅) (fun _ _ => 0) fun c => ?_
      iintro ⟨⟨-, HO, -, Hp, -⟩, -⟩
      imodintro
      isplitl [Hp]; · iexists _; iexact Hp
      iexists ∅; iexact HO)
    (hE8 := fun c => by iintro ⟨-, HO⟩; iexact HO)
    (mkRegOf h0) (fun _ => .rfl) (fun _ => .rfl)
    (mkRegOf h1) (fun _ => .rfl) (fun _ => .rfl)
    (mkRegOf h2) (fun _ => .rfl) (fun _ => .rfl)
    (mkRegOf h3) (fun _ => .rfl) (fun _ => .rfl)
    (mkRegOf h4) (fun _ => .rfl) (fun _ => .rfl)
    (mkRegOf h5) (fun _ => .rfl) (fun _ => .rfl)
    (mkRegOf h6) (fun _ => .rfl) (fun _ => .rfl)
    (mkRegOf h7) (fun _ => .rfl) (fun _ => .rfl)

end Run

end Cert.KernelIdeal.Reg

end
-- ==== Proof.KI.RunValue.lean ====
/-
  The run of the whole program from one record per kernel region, with the result array's final contents in the post:
  every weakly fair execution terminates, the eleven argument arrays end as launched, and the result array ends at the
  last boundary's contents: each host stretch takes the unscoped buffers from one boundary's contents to the next, each
  region's record is entered from the contents before it and left at those after it, and at the end the final
  valuation is read at the arguments' buffers and at the result's.
-/
import proofs.«429275_j68899865363005_1_alg».proof.Proof.Gen.KernelIdeal.Regions

set_option maxRecDepth 1368

noncomputable section

namespace Cert.KernelIdeal.Reg

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- The conditional run WITH THE RESULT: as the conditional frame, and in every final memory the result array holds what
    the last region left in it (the last valuation read at the result's buffer). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V10 m outs c) ∗ E 4 c) ⊢ R4.pre c)
    (hpost4 : ∀ c : Dev nD, R4.post c ⊢ iprop(StableHlo.held (c : Thread nD τ) (Pipeline.ucRefs τ sig) (V11 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V12 m outs c) ∗ E 5 c) ⊢ R5.pre c)
    (hpost5 : ∀ c : Dev nD, R5.post c ⊢ iprop(StableHlo.held (c : Thread nD τ) (Pipeline.ucRefs τ sig) (V13 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V17 m outs c) ∗ E 7 c) ⊢ R7.pre c)
    (hpost7 : ∀ c : Dev nD, R7.post c ⊢ iprop(StableHlo.held (c : Thread nD τ) (Pipeline.ucRefs τ sig) (V18 m outs c) ∗ E 8 c)) :
    θ_run defs (onTc (τ := τ) (main (F := F))) ⟨m, fun _ => 0, ρ⟩ (fun r => ∀ c : Dev nD,
      r.2.mem ((c.tc : Thread nD τ).loc main_v115) = V18 m outs c main_v115
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          Prog.lift (.customCall (Pipeline.entry 6) ()),
          StableHlo.seq hostOps7,
          StableHlo.seq hostOps7_1,
          StableHlo.seq hostOps7_2,
          Prog.lift (.customCall (Pipeline.entry 7) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V18 m outs c))
    (hch := fun c => ⟨.rfl, .rfl, .rfl, hpre0 c, hpost0 c, hpre1 c, hpost1 c, hpre2 c, (hpost2 c).trans (hpre3 c), hpost3 c, hpre4 c, hpost4 c, hpre5 c, (hpost5 c).trans (hpre6 c), hpost6 c, .rfl, .rfl, hpre7 c, (hpost7 c).trans (sep_mono .rfl (hE8 c))⟩)
    (hinit := ?_) (QY := fun c s => s.mem ((c.tc : Thread nD τ).loc main_v115) = V18 m outs c main_v115 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V18 m outs c) s') $$ [Hh HSI]
    · isplitl [Hh] <;> iassumption
    icases Hr with ⟨%h, HSI⟩
    imodintro
    isplitr
    · ipureintro
      exact ⟨h (Proc.devRef .tc main_v115) (Finset.mem_filter.mpr ⟨StableHlo.devRef_mem_tcRefs main_v115, by decide⟩),
        (h (Proc.devRef .tc main_arg0) (Finset.mem_filter.mpr ⟨StableHlo.devRef_mem_tcRefs main_arg0, by decide⟩)).trans (V18_main_arg0 m outs c),
        (h (Proc.devRef .tc main_arg1) (Finset.mem_filter.mpr ⟨StableHlo.devRef_mem_tcRefs main_arg1, by decide⟩)).trans (V18_main_arg1 m outs c),
        (h (Proc.devRef .tc main_arg2) (Finset.mem_filter.mpr ⟨StableHlo.devRef_mem_tcRefs main_arg2, by decide⟩)).trans (V18_main_arg2 m outs c),
        (h (Proc.devRef .tc main_arg3) (Finset.mem_filter.mpr ⟨StableHlo.devRef_mem_tcRefs main_arg3, by decide⟩)).trans (V18_main_arg3 m outs c),
        (h (Proc.devRef .tc main_arg4) (Finset.mem_filter.mpr ⟨StableHlo.devRef_mem_tcRefs main_arg4, by decide⟩)).trans (V18_main_arg4 m outs c),
        (h (Proc.devRef .tc main_arg5) (Finset.mem_filter.mpr ⟨StableHlo.devRef_mem_tcRefs main_arg5, by decide⟩)).trans (V18_main_arg5 m outs c),
        (h (Proc.devRef .tc main_arg6) (Finset.mem_filter.mpr ⟨StableHlo.devRef_mem_tcRefs main_arg6, by decide⟩)).trans (V18_main_arg6 m outs c),
        (h (Proc.devRef .tc main_arg7) (Finset.mem_filter.mpr ⟨StableHlo.devRef_mem_tcRefs main_arg7, by decide⟩)).trans (V18_main_arg7 m outs c),
        (h (Proc.devRef .tc main_arg8) (Finset.mem_filter.mpr ⟨StableHlo.devRef_mem_tcRefs main_arg8, by decide⟩)).trans (V18_main_arg8 m outs c),
        (h (Proc.devRef .tc main_arg9) (Finset.mem_filter.mpr ⟨StableHlo.devRef_mem_tcRefs main_arg9, by decide⟩)).trans (V18_main_arg9 m outs c),
        (h (Proc.devRef .tc main_arg10) (Finset.mem_filter.mpr ⟨StableHlo.devRef_mem_tcRefs main_arg10, by decide⟩)).trans (V18_main_arg10 m outs c)⟩
    · iexact HSI

end Cert.KernelIdeal.Reg

end
-- ==== Proof.KI.RunOf.lean ====
import proofs.«429275_j68899865363005_1_alg».proof.Proof.KI.RegBuilder
import proofs.«429275_j68899865363005_1_alg».proof.Proof.KI.RunValue

set_option maxRecDepth 1368

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (ρ : Dev nD → PrngReg) (outs : Gen.Outs (F := F))
  (pdats : (p : Fin 8) → (c : Dev nD) → Dat τ (Elt F) Unit ℕ (UR sig nD τ) ℕ (Pipeline.pin (pcfgs (F := F)) Gen.adm p) c)
  (h0 : RegHyps pdats 0 (Gen.V3 m) (Gen.V4 m outs))
  (h1 : RegHyps pdats 1 (Gen.V5 m outs) (Gen.V6 m outs))
  (h2 : RegHyps pdats 2 (Gen.V7 m outs) (Gen.V8 m outs))
  (h3 : RegHyps pdats 3 (Gen.V8 m outs) (Gen.V9 m outs))
  (h4 : RegHyps pdats 4 (Gen.V10 m outs) (Gen.V11 m outs))
  (h5 : RegHyps pdats 5 (Gen.V12 m outs) (Gen.V13 m outs))
  (h6 : RegHyps pdats 6 (Gen.V13 m outs) (Gen.V14 m outs))
  (h7 : RegHyps pdats 7 (Gen.V17 m outs) (Gen.V18 m outs))

include h0 h1 h2 h3 h4 h5 h6 h7 in
set_option backward.isDefEq.respectTransparency.types false in
/-- THE RUN WITH THE RESULT, from the eight regions' hypotheses: every weakly fair execution terminates, the result
    array ends at the last valuation's contents and the eleven arguments end as launched. The conditional run at the
    eight built records, the rest between items being Rr throughout (made at the launch from the generator register
    and the core owing nothing; at the end only the owing part is kept). -/
theorem run_of :
    θ_run defs (onTc (τ := τ) (main (F := F))) ⟨m, fun _ => 0, ρ⟩ (fun r => ∀ c : Dev nD,
      r.2.mem ((c.tc : Thread nD τ).loc main_v115) = V18 m outs c main_v115
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Reg.run_cond m (Ix := Unit) (U := UR sig nD τ) (Lvl := ℕ) emb₁ () Variants.none (fun _ => ∅) (fun _ _ => 0) (fun _ _ => rfl)
    ρ outs pdats
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach (fun _ => ∅) (fun _ _ => 0) fun c => ?_
      iintro ⟨⟨-, HO, -, Hp, -⟩, -⟩
      imodintro
      isplitl [Hp]; · iexists _; iexact Hp
      iexists ∅; iexact HO)
    (hE8 := fun c => by iintro ⟨-, HO⟩; iexact HO)
    (mkRegOf h0) (fun _ => .rfl) (fun _ => .rfl)
    (mkRegOf h1) (fun _ => .rfl) (fun _ => .rfl)
    (mkRegOf h2) (fun _ => .rfl) (fun _ => .rfl)
    (mkRegOf h3) (fun _ => .rfl) (fun _ => .rfl)
    (mkRegOf h4) (fun _ => .rfl) (fun _ => .rfl)
    (mkRegOf h5) (fun _ => .rfl) (fun _ => .rfl)
    (mkRegOf h6) (fun _ => .rfl) (fun _ => .rfl)
    (mkRegOf h7) (fun _ => .rfl) (fun _ => .rfl)

end Run

end Cert.KernelIdeal.Reg

end
-- ==== Proof.KI.Run.lean ====
import proofs.«429275_j68899865363005_1_alg».proof.Proof.KI.Chain
import proofs.«429275_j68899865363005_1_alg».proof.Proof.KI.RegBuilder
import proofs.«429275_j68899865363005_1_alg».proof.Proof.KI.RunOf

/-! # The run of @main at the named contents

Each of the eight regions is given, between the generated valuation before it and the one after it (the unknown
contents chosen as in the chain of boundaries), everything its segment record asks: the launch facts, the body's
obligation at the proof data taken at the region's entry, the arrays at entry and at exit, the buffers the region
leaves alone, the full share on every window, nothing owed, no bound on the recorded pairs, and the two ends of the
body's invariant. The named contents and the generated valuations are equal boundary by boundary, so each fact about
the former is one about the latter. The frame of the run and the run with its result follow. -/

set_option maxRecDepth 1368

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The eight regions' hypotheses -/

/-- Region 0, entered at the contents after the opening host stretches. -/
theorem hyps0 : RegHyps (pdats m) 0 (Gen.V3 m) (Gen.V4 m (outs m)) where
  launch := launch0
  hbody c := body_obligation0 (fun c b => X3 m c b) c
  hA c w := hA_0 m c w
  hq c w := rfl
  howed c t := rfl
  hrec c := rfl
  hF c w := (hF_0 m c w).trans (congrFun (V4_eq m c) _).symm
  hrest c b hb := (congrFun (V4_eq m c) _).trans (hrest_0 m c b hb)
  hin c := phi_in0 (fun c b => X3 m c b) c
  hout c := phi_out0 (fun c b => X3 m c b) c

/-- Region 1. -/
theorem hyps1 : RegHyps (pdats m) 1 (Gen.V5 m (outs m)) (Gen.V6 m (outs m)) where
  launch := launch1
  hbody c := body_obligation1 (fun c b => X5 m c b) c
  hA c w := (hA_1 m c w).trans (congrFun (V5_eq m c) _).symm
  hq c w := rfl
  howed c t := rfl
  hrec c := rfl
  hF c w := (hF_1 m c w).trans (congrFun (V6_eq m c) _).symm
  hrest c b hb := (congrFun (V6_eq m c) _).trans ((hrest_1 m c b hb).trans (congrFun (V5_eq m c) _).symm)
  hin c := phi_in1 (fun c b => X5 m c b) c
  hout c := phi_out1 (fun c b => X5 m c b) c

/-- Region 2. -/
theorem hyps2 : RegHyps (pdats m) 2 (Gen.V7 m (outs m)) (Gen.V8 m (outs m)) where
  launch := launch2
  hbody c := body_obligation2 (fun c b => X7 m c b) c
  hA c w := (hA_2 m c w).trans (congrFun (V7_eq m c) _).symm
  hq c w := rfl
  howed c t := rfl
  hrec c := rfl
  hF c w := (hF_2 m c w).trans (congrFun (V8_eq m c) _).symm
  hrest c b hb := (congrFun (V8_eq m c) _).trans ((hrest_2 m c b hb).trans (congrFun (V7_eq m c) _).symm)
  hin c := phi_in2 (fun c b => X7 m c b) c
  hout c := phi_out2 (fun c b => X7 m c b) c

/-- Region 3, entered where region 2 is left. -/
theorem hyps3 : RegHyps (pdats m) 3 (Gen.V8 m (outs m)) (Gen.V9 m (outs m)) where
  launch := launch3
  hbody c := body_obligation3 (fun c b => X8 m c b) c
  hA c w := (hA_3 m c w).trans (congrFun (V8_eq m c) _).symm
  hq c w := rfl
  howed c t := rfl
  hrec c := rfl
  hF c w := (hF_3 m c w).trans (congrFun (V9_eq m c) _).symm
  hrest c b hb := (congrFun (V9_eq m c) _).trans ((hrest_3 m c b hb).trans (congrFun (V8_eq m c) _).symm)
  hin c := phi_in3 (fun c b => X8 m c b) c
  hout c := phi_out3 (fun c b => X8 m c b) c

/-- Region 4. -/
theorem hyps4 : RegHyps (pdats m) 4 (Gen.V10 m (outs m)) (Gen.V11 m (outs m)) where
  launch := launch4
  hbody c := body_obligation4 (fun c b => X10 m c b) c
  hA c w := (hA_4 m c w).trans (congrFun (V10_eq m c) _).symm
  hq c w := rfl
  howed c t := rfl
  hrec c := rfl
  hF c w := (hF_4 m c w).trans (congrFun (V11_eq m c) _).symm
  hrest c b hb := (congrFun (V11_eq m c) _).trans ((hrest_4 m c b hb).trans (congrFun (V10_eq m c) _).symm)
  hin c := phi_in4 (fun c b => X10 m c b) c
  hout c := phi_out4 (fun c b => X10 m c b) c

/-- Region 5. -/
theorem hyps5 : RegHyps (pdats m) 5 (Gen.V12 m (outs m)) (Gen.V13 m (outs m)) where
  launch := launch5
  hbody c := body_obligation5 (fun c b => X12 m c b) c
  hA c w := (hA_5 m c w).trans (congrFun (V12_eq m c) _).symm
  hq c w := rfl
  howed c t := rfl
  hrec c := rfl
  hF c w := (hF_5 m c w).trans (congrFun (V13_eq m c) _).symm
  hrest c b hb := (congrFun (V13_eq m c) _).trans ((hrest_5 m c b hb).trans (congrFun (V12_eq m c) _).symm)
  hin c := phi_in5 (fun c b => X12 m c b) c
  hout c := phi_out5 (fun c b => X12 m c b) c

/-- Region 6, entered where region 5 is left. -/
theorem hyps6 : RegHyps (pdats m) 6 (Gen.V13 m (outs m)) (Gen.V14 m (outs m)) where
  launch := launch6
  hbody c := body_obligation6 (fun c b => X13 m c b) c
  hA c w := (hA_6 m c w).trans (congrFun (V13_eq m c) _).symm
  hq c w := rfl
  howed c t := rfl
  hrec c := rfl
  hF c w := (hF_6 m c w).trans (congrFun (V14_eq m c) _).symm
  hrest c b hb := (congrFun (V14_eq m c) _).trans ((hrest_6 m c b hb).trans (congrFun (V13_eq m c) _).symm)
  hin c := phi_in6 (fun c b => X13 m c b) c
  hout c := phi_out6 (fun c b => X13 m c b) c

/-- Region 7, entered after the three closing host stretches. -/
theorem hyps7 : RegHyps (pdats m) 7 (Gen.V17 m (outs m)) (Gen.V18 m (outs m)) where
  launch := launch7
  hbody c := body_obligation7 (fun c b => X17 m c b) c
  hA c w := (hA_7 m c w).trans (congrFun (V17_eq m c) _).symm
  hq c w := rfl
  howed c t := rfl
  hrec c := rfl
  hF c w := (hF_7 m c w).trans (congrFun (V18_eq m c) _).symm
  hrest c b hb := (congrFun (V18_eq m c) _).trans ((hrest_7 m c b hb).trans (congrFun (V17_eq m c) _).symm)
  hin c := phi_in7 (fun c b => X17 m c b) c
  hout c := phi_out7 (fun c b => X17 m c b) c

/-! ## The frame and the run -/

/-- Every weakly fair execution of @main from memory `m` terminates, and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (outs m) (pdats m) (hyps0 m) (hyps1 m) (hyps2 m) (hyps3 m) (hyps4 m) (hyps5 m) (hyps6 m) (hyps7 m)

/-- Every weakly fair execution of @main from memory `m` terminates; the result array ends at region 7's exit
    contents and every argument array ends as launched. -/
theorem run (ρ : Dev nD → PrngReg) :
    θ_run defs (onTc (τ := τ) (main (F := F))) ⟨m, fun _ => 0, ρ⟩ (fun r => ∀ c : Dev nD,
      r.2.mem ((c.tc : Thread nD τ).loc main_v115) = X18 m c main_v115
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (congrFun (V18_eq m c) _), (h c).2⟩)
    (run_of m ρ (outs m) (pdats m) (hyps0 m) (hyps1 m) (hyps2 m) (hyps3 m) (hyps4 m) (hyps5 m) (hyps6 m) (hyps7 m))

end Cert.KernelIdeal.Reg

end
-- ==== Proof.Val.Spec.lean ====
/-
  The mathematics both programs compute, over the extended reals, as functions of plain index pairs.
  A three-layer graph convolution classifier: each layer multiplies the node features by a weight matrix,
  aggregates over the edges (an operator `A` both programs share, carried here as a parameter), adds a bias and —
  in the first two layers — normalises every feature column over the 50000 nodes to mean 0 and variance 1 and
  clips at 0; the last layer's rows are then averaged per graph and mapped to class scores.
  The two programs differ in how a column's variance is taken: from the moments `E[y²] − E[y]²` in ONE pass
  (`bnK`) or as the mean of squared deviations in TWO passes (`bnR`).
-/
import Idealize.ShloMosaic.PureOps.Ideal

noncomputable section

open scoped BigOperators

namespace Cert.Spec

open Idealize.ShloMosaic

/-- The variance floor, the f32 nearest 1e-5. -/
def epsE : EReal := Ideal.ofBits .f32 0x3727C5AC#32
/-- The number of nodes as a float, 50000. -/
def nE : EReal := Ideal.ofBits .f32 0x47435000#32

/-- A dense layer without bias: row `i` of `x` against row `j` of `w`. -/
def lin (x : Fin 50000 → Fin 128 → EReal) (w : Fin 128 → Fin 128 → EReal) : Fin 50000 → Fin 128 → EReal :=
  fun i j => ∑ k : Fin 128, x i k * w j k

/-- Column sums of `a + b` and of its square. -/
def sum1 (a : Fin 50000 → Fin 128 → EReal) (b : Fin 128 → EReal) : Fin 128 → EReal :=
  fun j => ∑ i : Fin 50000, (a i j + b j)
def sum2 (a : Fin 50000 → Fin 128 → EReal) (b : Fin 128 → EReal) : Fin 128 → EReal :=
  fun j => ∑ i : Fin 50000, (a i j + b j) * (a i j + b j)

/-- One-pass moments of the columns of `a + b`. -/
def meanK (a : Fin 50000 → Fin 128 → EReal) (b : Fin 128 → EReal) : Fin 128 → EReal :=
  fun j => Ideal.div (sum1 a b j) nE
def varK (a : Fin 50000 → Fin 128 → EReal) (b : Fin 128 → EReal) : Fin 128 → EReal :=
  fun j => Ideal.div (sum2 a b j) nE - meanK a b j * meanK a b j
def invK (a : Fin 50000 → Fin 128 → EReal) (b : Fin 128 → EReal) : Fin 128 → EReal :=
  fun j => Ideal.rsqrt (varK a b j + epsE)
/-- The normalised, clipped columns of `a + b`, variance in one pass. -/
def bnK (a : Fin 50000 → Fin 128 → EReal) (b : Fin 128 → EReal) : Fin 50000 → Fin 128 → EReal :=
  fun i j => max (((a i j + b j) - meanK a b j) * invK a b j) 0

/-- Two-pass moments of the columns of `y`. -/
def meanR (y : Fin 50000 → Fin 128 → EReal) : Fin 128 → EReal :=
  fun j => Ideal.div (0 + ∑ i : Fin 50000, y i j) nE
def varR (y : Fin 50000 → Fin 128 → EReal) : Fin 128 → EReal :=
  fun j => Ideal.div (0 + ∑ i : Fin 50000, (y i j - meanR y j) * (y i j - meanR y j)) nE
/-- The normalised, clipped columns of `y`, variance in two passes. -/
def bnR (y : Fin 50000 → Fin 128 → EReal) : Fin 50000 → Fin 128 → EReal :=
  fun i j => max ((y i j - meanR y j) * Ideal.rsqrt (varR y j + epsE)) 0

/-- Adding a bias row. -/
def bias (a : Fin 50000 → Fin 128 → EReal) (b : Fin 128 → EReal) : Fin 50000 → Fin 128 → EReal :=
  fun i j => a i j + b j

/-- The sum of the rows of `h` whose graph id, read signed, is `g`. -/
def seg (h : Fin 50000 → Fin 128 → EReal) (bt : Fin 50000 → BitVec 32) : Fin 512 → Fin 128 → EReal :=
  fun g j => ∑ n ∈ Finset.univ.filter (fun n : Fin 50000 => (bt n).toInt = (g.val : ℤ)), h n j

/-- Mean pooling per graph (by the given counts) and the classifier. -/
def pool (h : Fin 50000 → Fin 128 → EReal) (bt : Fin 50000 → BitVec 32) (cnt : Fin 512 → EReal)
    (wl : Fin 10 → Fin 128 → EReal) (bl : Fin 10 → EReal) : Fin 512 → Fin 10 → EReal :=
  fun g k => (∑ j : Fin 128, Ideal.div (seg h bt g j) (cnt g) * wl k j) + bl k

section
variable (A : (Fin 50000 → Fin 128 → EReal) → Fin 50000 → Fin 128 → EReal)

/-- The whole network with one-pass normalisation. -/
def netK (x : Fin 50000 → Fin 128 → EReal) (w1 : Fin 128 → Fin 128 → EReal) (b1 : Fin 128 → EReal)
    (w2 : Fin 128 → Fin 128 → EReal) (b2 : Fin 128 → EReal) (w3 : Fin 128 → Fin 128 → EReal) (b3 : Fin 128 → EReal)
    (bt : Fin 50000 → BitVec 32) (cnt : Fin 512 → EReal) (wl : Fin 10 → Fin 128 → EReal) (bl : Fin 10 → EReal) :
    Fin 512 → Fin 10 → EReal :=
  pool (bias (A (lin (bnK (A (lin (bnK (A (lin x w1)) b1) w2)) b2) w3)) b3) bt cnt wl bl

/-- The whole network with two-pass normalisation. -/
def netR (x : Fin 50000 → Fin 128 → EReal) (w1 : Fin 128 → Fin 128 → EReal) (b1 : Fin 128 → EReal)
    (w2 : Fin 128 → Fin 128 → EReal) (b2 : Fin 128 → EReal) (w3 : Fin 128 → Fin 128 → EReal) (b3 : Fin 128 → EReal)
    (bt : Fin 50000 → BitVec 32) (cnt : Fin 512 → EReal) (wl : Fin 10 → Fin 128 → EReal) (bl : Fin 10 → EReal) :
    Fin 512 → Fin 10 → EReal :=
  pool (bias (A (lin (bnR (bias (A (lin (bnR (bias (A (lin x w1)) b1)) w2)) b2)) w3)) b3) bt cnt wl bl
end

end Cert.Spec

end
-- ==== Proof.Val.Algebra.lean ====
/- The real-number algebra behind a column-wise batch normalisation over the extended reals.
   A column of n entries is normalised with its mean and its (biased) variance. The variance can be
   taken in ONE pass, as the mean of the squares minus the square of the mean, or in TWO passes, as the
   mean of the squared deviations from the mean. When every entry is a real number the two agree, both
   are nonnegative reals, the reciprocal square root of (variance + ε) is a real for ε > 0, and so the
   normalised, rectified value is a real as well. Division by the count n is division by a nonzero
   real, which is the product with the real 1/n. -/
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Group.Finset
import Mathlib.Algebra.Order.BigOperators.Ring.Finset
import Mathlib.Data.Fintype.Card
import Mathlib.Data.Fintype.BigOperators
import Mathlib.Analysis.SpecialFunctions.Pow.Real
import Mathlib.Tactic.Ring
import Mathlib.Tactic.FieldSimp
import Mathlib.Tactic.Positivity
import Mathlib.Tactic.NormNum
import Idealize.ShloMosaic.PureOps.Ideal
import Idealize.ShloMosaic.PureOps.Ideal.Laws
import Idealize.ShloMosaic.Lib.ValueIdx

noncomputable section

namespace Cert.Alg

open Idealize.ShloMosaic
open scoped BigOperators

/-! ## Being a real number -/

/-- An extended real that is neither infinity. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem isReal_natCast (k : ℕ) : IsReal (k : EReal) := ⟨(k : ℝ), rfl⟩

theorem isReal_natCast_real (k : ℕ) : IsReal ((k : ℝ) : EReal) := ⟨(k : ℝ), rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

/-- The larger of two reals is one of them. -/
theorem isReal_max {x y : EReal} (hx : IsReal x) (hy : IsReal y) : IsReal (max x y) := by
  rcases le_total x y with h | h
  · rw [max_eq_right h]; exact hy
  · rw [max_eq_left h]; exact hx

theorem isReal_max_zero {x : EReal} (hx : IsReal x) : IsReal (max x 0) := isReal_max hx isReal_zero

/-- The cast of a finite sum of reals is the sum of the casts. -/
theorem coe_sum {ι : Type*} (s : Finset ι) (f : ι → ℝ) :
    ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A finite sum of reals is a real. -/
theorem isReal_sum {ι : Type*} (s : Finset ι) (y : ι → EReal) (hy : ∀ i ∈ s, IsReal (y i)) :
    IsReal (∑ i ∈ s, y i) := by
  classical
  revert hy
  refine Finset.induction_on s (fun _ => by simpa using isReal_zero) ?_
  intro a t ha ih hy
  rw [Finset.sum_insert ha]
  exact (hy a (Finset.mem_insert_self a t)).add (ih fun i hi => hy i (Finset.mem_insert_of_mem hi))

/-- The quotient of two reals with a nonzero divisor is the real quotient. -/
theorem div_real (a : ℝ) {b : ℝ} (hb : b ≠ 0) : Ideal.div (a : EReal) (b : EReal) = ((a / b : ℝ) : EReal) := by
  rw [Ideal.div_coe hb, ← EReal.coe_mul, mul_one_div]

/-- A real divided by a nonzero real is a real. -/
theorem IsReal.div_coe {x : EReal} (hx : IsReal x) {b : ℝ} (hb : b ≠ 0) : IsReal (Ideal.div x (b : EReal)) := by
  obtain ⟨a, rfl⟩ := hx
  exact ⟨a / b, div_real a hb⟩

/-! ## Two constants -/

/-- The word of +0.0 denotes zero. -/
theorem ofBits_zero : Ideal.ofBits .f32 0x00000000#32 = (0 : EReal) := Ideal.ofBits_zero_f32

/-- The word 0x3727C5AC (9.99999974e-6) denotes the positive real 10995116 · 2⁻⁴⁰. -/
theorem ofBits_eps : Ideal.ofBits .f32 0x3727C5AC#32 = (((10995116 : ℝ) * (2 : ℝ) ^ (-40 : ℤ) : ℝ) : EReal) := by
  simp [Ideal.ofBits, Ideal.ieee, -EReal.coe_mul]

theorem eps_real : ∃ ε : ℝ, 0 < ε ∧ Ideal.ofBits .f32 0x3727C5AC#32 = (ε : EReal) :=
  ⟨_, by positivity, ofBits_eps⟩

/-- The word 0x47435000 denotes the count 50000. -/
theorem ofBits_50000 : Ideal.ofBits .f32 0x47435000#32 = (((50000 : ℕ) : ℝ) : EReal) := by
  simp [Ideal.ofBits, Ideal.ieee, -EReal.coe_mul]; norm_num

/-! ## One-pass and two-pass variance over the reals -/

/-- Over the reals: the mean of the squares minus the square of the mean is the mean of the squared
    deviations. Expand each square, sum, and use that the sum is the count times the mean. -/
theorem real_var_eq {ι : Type*} [Fintype ι] (f : ι → ℝ) {N : ℝ} (hN : N ≠ 0)
    (hcard : (Fintype.card ι : ℝ) = N) :
    (∑ i, f i * f i) / N - (∑ i, f i) / N * ((∑ i, f i) / N)
      = (∑ i, (f i - (∑ i, f i) / N) * (f i - (∑ i, f i) / N)) / N := by
  have hS : ∑ i, f i = (∑ i, f i) / N * N := by field_simp
  generalize (∑ i, f i) / N = m at hS ⊢
  have h : ∀ i, (f i - m) * (f i - m) = f i * f i - 2 * m * f i + m * m := fun i => by ring
  simp_rw [h]
  rw [Finset.sum_add_distrib, Finset.sum_sub_distrib, ← Finset.mul_sum, Finset.sum_const,
    Finset.card_univ, nsmul_eq_mul, hcard, hS]
  field_simp
  ring

/-- Over the reals the two-pass variance is nonnegative when the count is positive. -/
theorem real_var_nonneg {ι : Type*} [Fintype ι] (f : ι → ℝ) (m : ℝ) {N : ℝ} (hN : 0 < N) :
    0 ≤ (∑ i, (f i - m) * (f i - m)) / N :=
  div_nonneg (Finset.sum_nonneg fun i _ => mul_self_nonneg _) hN.le

/-! ## The same over the extended reals, for a column of reals -/

section Column

variable {ι : Type*} [Fintype ι] {n : ℕ}

/-- A column whose entries are all reals is the cast of a real column. -/
theorem exists_real_col (y : ι → EReal) (hy : ∀ i, ∃ r : ℝ, y i = (r : EReal)) :
    ∃ f : ι → ℝ, y = fun i => (f i : EReal) := by
  choose f hf using hy
  exact ⟨f, funext hf⟩

/-- One-pass variance = two-pass variance, for a column of reals of length n > 0. -/
theorem var_eq (hn : 0 < n) (hcard : Fintype.card ι = n) (y : ι → EReal)
    (hy : ∀ i, ∃ r : ℝ, y i = (r : EReal)) :
    Ideal.div (∑ i, y i * y i) ((n : ℝ) : EReal)
        - Ideal.div (∑ i, y i) ((n : ℝ) : EReal) * Ideal.div (∑ i, y i) ((n : ℝ) : EReal)
      = Ideal.div (∑ i, (y i - Ideal.div (∑ i, y i) ((n : ℝ) : EReal))
            * (y i - Ideal.div (∑ i, y i) ((n : ℝ) : EReal))) ((n : ℝ) : EReal) := by
  obtain ⟨f, rfl⟩ := exists_real_col y hy
  have hN : (n : ℝ) ≠ 0 := Nat.cast_ne_zero.2 hn.ne'
  simp only [← EReal.coe_mul, ← coe_sum, div_real _ hN, ← EReal.coe_sub]
  exact congrArg _ (real_var_eq f hN (by rw [hcard]))

/-- The same with every sum read as a reduction from the initial value zero. -/
theorem var_eq_zero_add (hn : 0 < n) (hcard : Fintype.card ι = n) (y : ι → EReal)
    (hy : ∀ i, ∃ r : ℝ, y i = (r : EReal)) :
    Ideal.div (0 + ∑ i, y i * y i) ((n : ℝ) : EReal)
        - Ideal.div (0 + ∑ i, y i) ((n : ℝ) : EReal) * Ideal.div (0 + ∑ i, y i) ((n : ℝ) : EReal)
      = Ideal.div (0 + ∑ i, (y i - Ideal.div (0 + ∑ i, y i) ((n : ℝ) : EReal))
            * (y i - Ideal.div (0 + ∑ i, y i) ((n : ℝ) : EReal))) ((n : ℝ) : EReal) := by
  simp only [zero_add]
  exact var_eq hn hcard y hy

/-- Plain sums in the one-pass moments, reductions from zero in the two-pass ones. -/
theorem var_eq_mixed (hn : 0 < n) (hcard : Fintype.card ι = n) (y : ι → EReal)
    (hy : ∀ i, ∃ r : ℝ, y i = (r : EReal)) :
    Ideal.div (∑ i, y i * y i) ((n : ℝ) : EReal)
        - Ideal.div (∑ i, y i) ((n : ℝ) : EReal) * Ideal.div (∑ i, y i) ((n : ℝ) : EReal)
      = Ideal.div (0 + ∑ i, (y i - Ideal.div (0 + ∑ i, y i) ((n : ℝ) : EReal))
            * (y i - Ideal.div (0 + ∑ i, y i) ((n : ℝ) : EReal))) ((n : ℝ) : EReal) := by
  simp only [zero_add]
  exact var_eq hn hcard y hy

/-- The same with the initial value spelt as the word of +0.0. -/
theorem var_eq_ofBits (hn : 0 < n) (hcard : Fintype.card ι = n) (y : ι → EReal)
    (hy : ∀ i, ∃ r : ℝ, y i = (r : EReal)) :
    Ideal.div (Ideal.ofBits .f32 0x00000000#32 + ∑ i, y i * y i) ((n : ℝ) : EReal)
        - Ideal.div (Ideal.ofBits .f32 0x00000000#32 + ∑ i, y i) ((n : ℝ) : EReal)
          * Ideal.div (Ideal.ofBits .f32 0x00000000#32 + ∑ i, y i) ((n : ℝ) : EReal)
      = Ideal.div (Ideal.ofBits .f32 0x00000000#32
            + ∑ i, (y i - Ideal.div (Ideal.ofBits .f32 0x00000000#32 + ∑ i, y i) ((n : ℝ) : EReal))
              * (y i - Ideal.div (Ideal.ofBits .f32 0x00000000#32 + ∑ i, y i) ((n : ℝ) : EReal)))
          ((n : ℝ) : EReal) := by
  simp only [ofBits_zero, zero_add]
  exact var_eq hn hcard y hy

/-- The mean of a column of reals is a real. -/
theorem mean_real (hn : 0 < n) (y : ι → EReal) (hy : ∀ i, ∃ r : ℝ, y i = (r : EReal)) :
    IsReal (Ideal.div (∑ i, y i) ((n : ℝ) : EReal)) :=
  (isReal_sum _ y fun i _ => hy i).div_coe (Nat.cast_ne_zero.2 hn.ne')

/-- The two-pass variance of a column of reals is a nonnegative real. -/
theorem var_two_pass_real (hn : 0 < n) (y : ι → EReal) (hy : ∀ i, ∃ r : ℝ, y i = (r : EReal)) :
    ∃ v : ℝ, 0 ≤ v ∧
      Ideal.div (∑ i, (y i - Ideal.div (∑ i, y i) ((n : ℝ) : EReal))
          * (y i - Ideal.div (∑ i, y i) ((n : ℝ) : EReal))) ((n : ℝ) : EReal) = (v : EReal) := by
  obtain ⟨f, rfl⟩ := exists_real_col y hy
  have hN : (n : ℝ) ≠ 0 := Nat.cast_ne_zero.2 hn.ne'
  refine ⟨(∑ i, (f i - (∑ i, f i) / n) * (f i - (∑ i, f i) / n)) / n,
    real_var_nonneg f _ (Nat.cast_pos.2 hn), ?_⟩
  simp only [← EReal.coe_mul, ← coe_sum, div_real _ hN, ← EReal.coe_sub]

/-- The one-pass variance of a column of reals is a nonnegative real. -/
theorem var_one_pass_real (hn : 0 < n) (hcard : Fintype.card ι = n) (y : ι → EReal)
    (hy : ∀ i, ∃ r : ℝ, y i = (r : EReal)) :
    ∃ v : ℝ, 0 ≤ v ∧
      Ideal.div (∑ i, y i * y i) ((n : ℝ) : EReal)
        - Ideal.div (∑ i, y i) ((n : ℝ) : EReal) * Ideal.div (∑ i, y i) ((n : ℝ) : EReal) = (v : EReal) := by
  rw [var_eq hn hcard y hy]
  exact var_two_pass_real hn y hy

end Column

/-! ## The reciprocal square root off the corner -/

/-- At a positive real the reciprocal square root is the positive real 1/√x. -/
theorem rsqrt_real {v ε : ℝ} (hv : 0 ≤ v) (hε : 0 < ε) :
    ∃ s : ℝ, 0 < s ∧ Ideal.rsqrt ((v : EReal) + (ε : EReal)) = (s : EReal) := by
  have hpos : 0 < v + ε := add_pos_of_nonneg_of_pos hv hε
  refine ⟨(Real.sqrt (v + ε))⁻¹, inv_pos.2 (Real.sqrt_pos.2 hpos), ?_⟩
  rw [← EReal.coe_add, Ideal.rsqrt_coe, if_neg (not_lt.2 hpos.le), if_neg hpos.ne']

theorem isReal_rsqrt {V e : EReal} (hV : ∃ v : ℝ, 0 ≤ v ∧ V = (v : EReal))
    (he : ∃ ε : ℝ, 0 < ε ∧ e = (ε : EReal)) : IsReal (Ideal.rsqrt (V + e)) := by
  obtain ⟨v, hv, rfl⟩ := hV
  obtain ⟨ε, hε, rfl⟩ := he
  obtain ⟨s, -, hs⟩ := rsqrt_real hv hε
  exact ⟨s, hs⟩

/-! ## The normalised, rectified value -/

/-- (x − m) · rsqrt (V + e), clipped at zero, is a real when x and m are reals, V a nonnegative real
    and e a positive real. -/
theorem norm_real_of {x m V e : EReal} (hx : IsReal x) (hm : IsReal m)
    (hV : ∃ v : ℝ, 0 ≤ v ∧ V = (v : EReal)) (he : ∃ ε : ℝ, 0 < ε ∧ e = (ε : EReal)) :
    IsReal (max ((x - m) * Ideal.rsqrt (V + e)) 0) :=
  isReal_max_zero ((hx.sub hm).mul (isReal_rsqrt hV he))

section Column

variable {ι : Type*} [Fintype ι] {n : ℕ}

/-- The normalised value with the two-pass variance is a real. -/
theorem norm_two_pass_real (hn : 0 < n) (y : ι → EReal) (hy : ∀ i, ∃ r : ℝ, y i = (r : EReal))
    {e : EReal} (he : ∃ ε : ℝ, 0 < ε ∧ e = (ε : EReal)) (i : ι) :
    IsReal (max ((y i - Ideal.div (∑ i, y i) ((n : ℝ) : EReal))
      * Ideal.rsqrt (Ideal.div (∑ i, (y i - Ideal.div (∑ i, y i) ((n : ℝ) : EReal))
          * (y i - Ideal.div (∑ i, y i) ((n : ℝ) : EReal))) ((n : ℝ) : EReal) + e)) 0) :=
  norm_real_of (hy i) (mean_real hn y hy) (var_two_pass_real hn y hy) he

/-- The normalised value with the one-pass variance is a real. -/
theorem norm_one_pass_real (hn : 0 < n) (hcard : Fintype.card ι = n) (y : ι → EReal)
    (hy : ∀ i, ∃ r : ℝ, y i = (r : EReal)) {e : EReal} (he : ∃ ε : ℝ, 0 < ε ∧ e = (ε : EReal)) (i : ι) :
    IsReal (max ((y i - Ideal.div (∑ i, y i) ((n : ℝ) : EReal))
      * Ideal.rsqrt (Ideal.div (∑ i, y i * y i) ((n : ℝ) : EReal)
          - Ideal.div (∑ i, y i) ((n : ℝ) : EReal) * Ideal.div (∑ i, y i) ((n : ℝ) : EReal) + e)) 0) :=
  norm_real_of (hy i) (mean_real hn y hy) (var_one_pass_real hn hcard y hy) he

end Column

end Cert.Alg

end
-- ==== Proof.Val.SpecEq.lean ====
/- The network with one-pass column moments and the network with two-pass column moments are the same
   function of real inputs. Layer by layer: a dense layer of reals is real; the edge aggregation keeps
   reals real (a hypothesis on the operator, which both networks share); a bias row keeps reals real; on a
   real column the mean read either way is the same quotient, the variance E[y²] − (E y)² is the mean of
   the squared deviations, so the two normalisations agree entry by entry; and a normalised, clipped
   column of reals is real again, which feeds the next layer. -/
import proofs.«429275_j68899865363005_1_alg».proof.Proof.Val.Spec
import proofs.«429275_j68899865363005_1_alg».proof.Proof.Val.Algebra

noncomputable section

open scoped BigOperators

namespace Cert.SpecEq

open Idealize.ShloMosaic Cert.Spec Cert.Alg

/-- The node count as a float is the real 50000. -/
theorem nE_eq : nE = (((50000 : ℕ) : ℝ) : EReal) := ofBits_50000

theorem nE_eq' : nE = ((50000 : ℝ) : EReal) := by
  rw [nE_eq]; norm_num

/-- The variance floor is a positive real. -/
theorem epsE_real : ∃ ε : ℝ, 0 < ε ∧ epsE = (ε : EReal) := eps_real

/-- A dense layer of reals is real. -/
theorem lin_real {x : Fin 50000 → Fin 128 → EReal} {w : Fin 128 → Fin 128 → EReal}
    (hx : ∀ i k, IsReal (x i k)) (hw : ∀ j k, IsReal (w j k)) : ∀ i j, IsReal (lin x w i j) :=
  fun i j => isReal_sum _ _ fun k _ => (hx i k).mul (hw j k)

/-- Adding a real bias row to reals gives reals. -/
theorem bias_real {a : Fin 50000 → Fin 128 → EReal} {b : Fin 128 → EReal}
    (ha : ∀ i j, IsReal (a i j)) (hb : ∀ j, IsReal (b j)) : ∀ i j, IsReal (bias a b i j) :=
  fun i j => (ha i j).add (hb j)

/-- The two means are the same quotient: a reduction from zero is the plain sum. -/
theorem meanK_eq (a : Fin 50000 → Fin 128 → EReal) (b : Fin 128 → EReal) (j : Fin 128) :
    meanK a b j = meanR (bias a b) j := by
  simp only [meanK, meanR, sum1, bias, zero_add]

/-- On real columns the one-pass variance is the two-pass variance. -/
theorem varK_eq {a : Fin 50000 → Fin 128 → EReal} {b : Fin 128 → EReal}
    (ha : ∀ i j, IsReal (a i j)) (hb : ∀ j, IsReal (b j)) (j : Fin 128) :
    varK a b j = varR (bias a b) j := by
  have h := var_eq_mixed (ι := Fin 50000) (n := 50000) (by norm_num) (Fintype.card_fin _)
    (fun i => a i j + b j) (fun i => (ha i j).add (hb j))
  simp only [varK, varR, meanK, meanR, sum1, sum2, bias, nE_eq]
  exact h

/-- On real columns the two normalisations agree. -/
theorem bnK_eq {a : Fin 50000 → Fin 128 → EReal} {b : Fin 128 → EReal}
    (ha : ∀ i j, IsReal (a i j)) (hb : ∀ j, IsReal (b j)) : bnK a b = bnR (bias a b) := by
  funext i j
  show max (((a i j + b j) - meanK a b j) * Ideal.rsqrt (varK a b j + epsE)) 0
    = max (((a i j + b j) - meanR (bias a b) j) * Ideal.rsqrt (varR (bias a b) j + epsE)) 0
  rw [meanK_eq, varK_eq ha hb]

/-- The two-pass normalisation of real columns is real. -/
theorem bnR_real {y : Fin 50000 → Fin 128 → EReal} (hy : ∀ i j, IsReal (y i j)) :
    ∀ i j, IsReal (bnR y i j) := by
  intro i j
  have h := norm_two_pass_real (ι := Fin 50000) (n := 50000) (by norm_num) (fun i => y i j)
    (fun i => hy i j) epsE_real i
  simp only [bnR, meanR, varR, zero_add, nE_eq]
  exact h

/-- The one-pass normalisation of real columns (after a real bias) is real. -/
theorem bnK_real {a : Fin 50000 → Fin 128 → EReal} {b : Fin 128 → EReal}
    (ha : ∀ i j, IsReal (a i j)) (hb : ∀ j, IsReal (b j)) : ∀ i j, IsReal (bnK a b i j) := by
  rw [bnK_eq ha hb]
  exact bnR_real (bias_real ha hb)

/-- The two networks agree on real inputs, for any edge aggregation that keeps reals real. -/
theorem net_eq (A : (Fin 50000 → Fin 128 → EReal) → Fin 50000 → Fin 128 → EReal)
    (hA : ∀ h, (∀ i j, IsReal (h i j)) → ∀ i j, IsReal (A h i j))
    (x : Fin 50000 → Fin 128 → EReal) (w1 : Fin 128 → Fin 128 → EReal) (b1 : Fin 128 → EReal)
    (w2 : Fin 128 → Fin 128 → EReal) (b2 : Fin 128 → EReal) (w3 : Fin 128 → Fin 128 → EReal) (b3 : Fin 128 → EReal)
    (hx : ∀ i k, IsReal (x i k)) (hw1 : ∀ j k, IsReal (w1 j k)) (hb1 : ∀ j, IsReal (b1 j))
    (hw2 : ∀ j k, IsReal (w2 j k)) (hb2 : ∀ j, IsReal (b2 j))
    (bt : Fin 50000 → BitVec 32) (cnt : Fin 512 → EReal) (wl : Fin 10 → Fin 128 → EReal) (bl : Fin 10 → EReal) :
    netK A x w1 b1 w2 b2 w3 b3 bt cnt wl bl = netR A x w1 b1 w2 b2 w3 b3 bt cnt wl bl := by
  have h1 : ∀ i j, IsReal (A (lin x w1) i j) := hA _ (lin_real hx hw1)
  have e1 : bnK (A (lin x w1)) b1 = bnR (bias (A (lin x w1)) b1) := bnK_eq h1 hb1
  have r1 : ∀ i j, IsReal (bnR (bias (A (lin x w1)) b1) i j) := bnR_real (bias_real h1 hb1)
  have h2 : ∀ i j, IsReal (A (lin (bnR (bias (A (lin x w1)) b1)) w2) i j) := hA _ (lin_real r1 hw2)
  have e2 : bnK (A (lin (bnR (bias (A (lin x w1)) b1)) w2)) b2
      = bnR (bias (A (lin (bnR (bias (A (lin x w1)) b1)) w2)) b2) := bnK_eq h2 hb2
  unfold netK netR
  rw [e1, e2]

end Cert.SpecEq

end
-- ==== Proof.Val.AggOp.lean ====
/-
  The edge aggregation both programs share, as ONE operator on node features: gather the source rows, scale each by
  its edge's normalisation coefficient, and add into the destination rows. The edge list, the coefficients and the
  index columns are functions of the edge-index argument alone; they are spelt here with the reference program's own
  stages of them, and never opened: both programs apply this same operator, so only its arguments are compared.
-/
import proofs.«429275_j68899865363005_1_alg».proof.Proof.Ref.Read
import Idealize.ShloMosaic.Lib.ValueIdx

noncomputable section

namespace Cert.Agg

open Cert.ReferenceIdeal Cert.ReferenceIdeal.Read Idealize.ShloMosaic Idealize.ShloMosaic.TcCoe Idealize.ShloMosaic.ValueIdx

/-- A [50000 x 128] array from its entries. -/
def toArr (h : Fin 50000 → Fin 128 → EReal) : (⟨S50000x128, .f32⟩ : BufTy).Contents (Elt Ideal) :=
  fun idx => h ⟨(idx 0).val, (idx 0).isLt⟩ ⟨(idx 1).val, (idx 1).isLt⟩

/-- The aggregation of an array of node features over the edges `x1` (self-loops added), as an array. -/
def aggArr (x1 : (⟨S2x600000, .i32⟩ : BufTy).Contents (Elt Ideal)) (h : (⟨S50000x128, .f32⟩ : BufTy).Contents (Elt Ideal)) :
    (⟨S50000x128, .f32⟩ : BufTy).Contents (Elt Ideal) :=
  Host.scatterAdd (F := Ideal) (φ := .f32) scatter_S50000x128_S650000x1_S650000x128_1_0_0_1 (val_main_v42 (F := Ideal)) (val_main_v43 (F := Ideal) x1)
    (mulf (F := Ideal) (φ := .f32) (val_main_v40 (F := Ideal) x1)
      (Host.gather gather_S50000x128_S650000x1_S650000x128_1_0_n_n_0_1_1128 h (val_main_v38 (F := Ideal) x1)))

/-- The same on entries. -/
def aggOp (x1 : (⟨S2x600000, .i32⟩ : BufTy).Contents (Elt Ideal)) (h : Fin 50000 → Fin 128 → EReal) : Fin 50000 → Fin 128 → EReal :=
  fun i j => aggArr x1 (toArr h) (ix2 i j)

end Cert.Agg

end
-- ==== Proof.Val.AggReal.lean ====
/- The edge aggregation keeps real node features real, for every edge-index array.
   The operator gathers source rows, scales each by its edge's coefficient and adds into destination rows.
   A gather reads every element from its operand; an accumulating scatter adds a finite sum of updates to an
   operand element; neither looks at what the indices are. The coefficients are products of two gathers of
   the table "deg > 0 ? 1/√deg : 0", where deg is a scatter of ones onto zeros, hence a nonnegative real; the
   guard keeps the reciprocal square root away from zero, so the table is real, and so is everything after. -/
import proofs.«429275_j68899865363005_1_alg».proof.Proof.Val.AggOp
import proofs.«429275_j68899865363005_1_alg».proof.Proof.Val.Algebra

noncomputable section

namespace Cert.AggReal

open Idealize.ShloMosaic Cert.Alg
open scoped BigOperators

/-! ## Arrays of reals -/

/-- Every entry of the array is a real. -/
def AllReal {s : Shape} (v : s.Idx → EReal) : Prop := ∀ i, IsReal (v i)

/-- Every entry of the array is a nonnegative real. -/
def AllNN {s : Shape} (v : s.Idx → EReal) : Prop := ∀ i, ∃ r : ℝ, 0 ≤ r ∧ v i = (r : EReal)

theorem AllNN.real {s : Shape} {v : s.Idx → EReal} (h : AllNN v) : AllReal v := fun i => by
  obtain ⟨r, -, hr⟩ := h i
  exact ⟨r, hr⟩

/-- A finite sum of nonnegative reals is a nonnegative real. -/
theorem nn_sum {ι : Type*} (t : Finset ι) (y : ι → EReal) (hy : ∀ i ∈ t, ∃ r : ℝ, 0 ≤ r ∧ y i = (r : EReal)) :
    ∃ r : ℝ, 0 ≤ r ∧ ∑ i ∈ t, y i = (r : EReal) := by
  classical
  revert hy
  refine Finset.induction_on t (fun _ => ⟨0, le_refl _, by simp⟩) ?_
  intro a u ha ih hy
  obtain ⟨p, hp, hpa⟩ := hy a (Finset.mem_insert_self a u)
  obtain ⟨q, hq, hqu⟩ := ih fun i hi => hy i (Finset.mem_insert_of_mem hi)
  exact ⟨p + q, add_nonneg hp hq, by rw [Finset.sum_insert ha, hpa, hqu, EReal.coe_add]⟩

/-- A gather reads each of its elements from the operand: of reals it is an array of reals, whatever
    the start indices are. -/
theorem gather_real {s si t : Shape} {w : Nat} (d : GatherDims s si t) {x : s.Idx → EReal} (hx : AllReal x)
    (idx : IVec si w) : AllReal (Host.gather d x idx) :=
  fun _ => hx _

/-- An accumulating scatter gives, at each element, the operand's element plus a finite sum of update
    elements: of reals it is an array of reals, whatever the scatter indices are. -/
theorem scatterAdd_real {s si u : Shape} {w : Nat} (d : ScatterDims s si u) {x : s.Idx → EReal} (hx : AllReal x)
    (idx : IVec si w) {upd : u.Idx → EReal} (hu : AllReal upd) :
    AllReal (Host.scatterAdd (F := Ideal) (φ := .f32) d x idx upd : s.Idx → EReal) := fun n => by
  change IsReal (x n + Finset.sum _ fun j => upd j)
  exact (hx n).add (isReal_sum _ _ fun j _ => hu j)

/-- The same for nonnegative reals. -/
theorem scatterAdd_nn {s si u : Shape} {w : Nat} (d : ScatterDims s si u) {x : s.Idx → EReal} (hx : AllNN x)
    (idx : IVec si w) {upd : u.Idx → EReal} (hu : AllNN upd) :
    AllNN (Host.scatterAdd (F := Ideal) (φ := .f32) d x idx upd : s.Idx → EReal) := fun n => by
  change ∃ r : ℝ, 0 ≤ r ∧ x n + Finset.sum _ (fun j => upd j) = (r : EReal)
  obtain ⟨p, hp, hpn⟩ := hx n
  obtain ⟨q, hq, hqs⟩ := nn_sum _ _ fun j _ => hu j
  exact ⟨p + q, add_nonneg hp hq, by rw [hpn, hqs, EReal.coe_add]⟩

/-- A broadcast reads each of its elements from the operand. -/
theorem broadcast_real {s t : Shape} (dims : Fin s.rank → Fin t.rank) (h : s.BroadcastsInDim t dims)
    {x : s.Idx → EReal} (hx : AllReal x) : AllReal (broadcastInDim t dims h x) :=
  fun _ => hx _

/-- An elementwise product of reals. -/
theorem mulf_real {s : Shape} {x y : s.Idx → EReal} (hx : AllReal x) (hy : AllReal y) :
    AllReal (mulf (F := Ideal) (φ := .f32) x y : s.Idx → EReal) :=
  fun i => (hx i).mul (hy i)

/-- The word of 1.0 denotes one. -/
theorem ofBits_one : Ideal.ofBits .f32 0x3F800000#32 = (1 : EReal) := by
  simp [Ideal.ofBits, Ideal.ieee, -EReal.coe_mul]; norm_num

/-- A true "greater than" at the extended reals is the strict order. -/
theorem lt_of_cmp_ogt {x y : EReal} (h : Ideal.cmp .ogt x y = 1#1) : y < x := by
  by_contra hn
  have h0 : Ideal.cmp .ogt x y = 0#1 := by
    unfold Ideal.cmp
    simp [hn]
  rw [h0] at h
  exact absurd h (by decide)

/-- At a positive real the reciprocal square root is a real. -/
theorem rsqrt_pos_real {r : ℝ} (h : 0 < r) : IsReal (Ideal.rsqrt (r : EReal)) :=
  ⟨(Real.sqrt r)⁻¹, by rw [Ideal.rsqrt_coe, if_neg (not_lt.2 h.le), if_neg h.ne']⟩

/-- The guarded reciprocal square root "x > 0 ? rsqrt x : 0" of a nonnegative real is a real. -/
theorem guarded_rsqrt_real {x : EReal} (hx : ∃ r : ℝ, 0 ≤ r ∧ x = (r : EReal)) :
    IsReal (Scalar.select (Ideal.cmp .ogt x 0) (Ideal.rsqrt x) 0) := by
  obtain ⟨r, -, rfl⟩ := hx
  unfold Scalar.select
  split
  · rename_i hc
    have hpos : (0 : EReal) < (r : EReal) := lt_of_cmp_ogt hc
    exact rsqrt_pos_real (EReal.coe_pos.1 hpos)
  · exact isReal_zero

end Cert.AggReal

namespace Cert.AggReal

open Idealize.ShloMosaic Cert.Alg Cert.ReferenceIdeal Cert.ReferenceIdeal.Read Cert.Agg Idealize.ShloMosaic.TcCoe Idealize.ShloMosaic.ValueIdx

/-! ## The stages of the edge coefficients -/

/-- The scattered ones. -/
theorem ones_nn : AllNN (val_main_v7 (F := Ideal) : S650000.Idx → EReal) := fun i => by
  rw [val_main_v7_apply, val_main_cst_apply]
  exact ⟨1, zero_le_one, ofBits_one⟩

/-- The zeros they are scattered onto. -/
theorem zeros_nn : AllNN (val_main_v8 (F := Ideal) : S50000.Idx → EReal) := fun i => by
  rw [val_main_v8_apply, val_main_cst_0_apply]
  exact ⟨0, le_refl _, ofBits_zero⟩

/-- The degree of every node is a nonnegative real. -/
theorem deg_nn (x1 : (⟨S2x600000, .i32⟩ : BufTy).Contents (Elt Ideal)) :
    AllNN (val_main_v10 (F := Ideal) x1 : S50000.Idx → EReal) :=
  scatterAdd_nn _ zeros_nn _ ones_nn

/-- The table "deg > 0 ? 1/√deg : 0" is real. -/
theorem dinv_real (x1 : (⟨S2x600000, .i32⟩ : BufTy).Contents (Elt Ideal)) :
    AllReal (val_main_v14 (F := Ideal) x1 : S50000.Idx → EReal) := fun i => by
  rw [val_main_v14_apply, val_main_v12_apply, val_main_v13_apply]
  have h11 : (val_main_v11 (F := Ideal) i : EReal) = 0 := by
    rw [val_main_v11_apply, val_main_cst_1_apply]; exact ofBits_zero
  have hz : (val_main_call0_v1 (F := Ideal) i : EReal) = 0 := by
    rw [val_main_call0_v1_apply, val_main_call0_v0_apply, val_main_cst_2_apply]; exact ofBits_zero
  rw [h11, hz, Ideal.cmpf_def, Ideal.hostUnary_rsqrt_def]
  exact guarded_rsqrt_real (deg_nn x1 i)

/-- The coefficient of every edge, a product of two entries of the table, is real. -/
theorem coef_real (x1 : (⟨S2x600000, .i32⟩ : BufTy).Contents (Elt Ideal)) :
    AllReal (val_main_v29 (F := Ideal) x1 : S650000.Idx → EReal) :=
  mulf_real (gather_real _ (dinv_real x1) _) (gather_real _ (dinv_real x1) _)

/-- The coefficients broadcast along the feature axis are real. -/
theorem coefRows_real (x1 : (⟨S2x600000, .i32⟩ : BufTy).Contents (Elt Ideal)) :
    AllReal (val_main_v40 (F := Ideal) x1 : S650000x128.Idx → EReal) :=
  broadcast_real _ _ (broadcast_real _ _ (coef_real x1))

/-- The zero array the rows are added into. -/
theorem zeroRows_real : AllReal (val_main_v42 (F := Ideal) : S50000x128.Idx → EReal) := fun i => by
  rw [val_main_v42_apply, val_main_cst_8_apply]
  exact ⟨0, ofBits_zero⟩

/-! ## The operator -/

/-- The aggregation of real node features is real, for every edge-index array. -/
theorem aggOp_real (x1 : (⟨S2x600000, .i32⟩ : BufTy).Contents (Elt Ideal)) (h : Fin 50000 → Fin 128 → EReal)
    (hh : ∀ i j, Cert.Alg.IsReal (h i j)) : ∀ i j, Cert.Alg.IsReal (Cert.Agg.aggOp x1 h i j) := by
  intro i j
  have hArr : AllReal (toArr h : S50000x128.Idx → EReal) := fun idx => hh _ _
  exact scatterAdd_real _ zeroRows_real _ (mulf_real (coefRows_real x1) (gather_real _ hArr _)) (ix2 i j)

end Cert.AggReal

end
-- ==== Proof.Val.PreFacts.lean ====
/-
  The printed precondition, decoded. The precondition of the claim is a conjunction of ten "all" tests, each
  a reduction by `and` of an array of comparison bits down to one bit, and the claim's hypothesis says the
  resulting bit is 1. Nine tests compare |x| with the f32 pattern of +∞ entrywise, one per float argument; the
  tenth compares each word of the i32 argument with the zero word, signed. Read at the ideal instance, where
  a float entry is an extended real and |x| is max x (-x), the first nine say that no entry is ±∞ (nor the
  junk value ⊥), i.e. every entry is a real number; the tenth says every word is nonnegative as an integer.
-/
import proofs.«429275_j68899865363005_1_alg».proof.Pre_finite_inputs
import Idealize.ShloMosaic.Lib.ReduceAll
import Idealize.ShloMosaic.Lib.ValueIdx
import Idealize.ShloMosaic.PureOps.Ideal

noncomputable section

namespace Cert.PreFacts

open Idealize.ShloMosaic Idealize.ShloMosaic.TcCoe Cert.Pre_finite_inputs

/-- The rank-0 shape has exactly one index. -/
instance : Subsingleton S_.Idx := ⟨fun a b => funext fun d => d.elim0⟩

/-- A bit made from a Boolean is 1 exactly when the Boolean is true. -/
theorem bit_eq_one (b : Bool) : BitVec.ofBool b = 1#1 ↔ b = true := by cases b <;> decide

/-- The f32 pattern 0x7F800000 (exponent all ones, significand zero, sign clear) denotes +∞. -/
theorem pattern_top : Ideal.ofBits .f32 0x7F800000#32 = (⊤ : EReal) := by simp [Ideal.ofBits, Ideal.ieee]

/-- An extended real x with max x (-x) < ⊤ is a real: at x = ⊤ the maximum is ⊤, and at x = ⊥ it is -⊥ = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One float test, at any shape: if the `and` of all bits |x i| < +∞ is 1, every x i is a real number. -/
theorem real_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant S_ .f32 0x7F800000#32)))
          (constantI S_ 1 1#1) hr h0 ValueIdx.ix0 = 1#1) (i : s.Idx) : ∃ r : ℝ, x i = (r : EReal) := by
  have hi := Host.reduce_andi_all _ _ hr h0 _ e i
  -- the bit at i compares max (x i) (-(x i)) with the value of the +∞ pattern
  have hc : Ideal.cmp .olt (max (x i) (-(x i))) (Ideal.ofBits .f32 0x7F800000#32) = 1#1 := hi
  rw [pattern_top] at hc
  simp only [Ideal.cmp, bit_eq_one, decide_eq_true_eq] at hc
  exact real_of_abs_lt_top _ hc

/-- The integer test: if the `and` of all bits (x i ≥ 0, signed) is 1, every word reads as a nonnegative integer. -/
theorem nonneg_of_all {s : Shape} {axes : List (Fin s.rank)} (x : IVec s 32)
    (hb : S_.BroadcastsInDim s (![] : Fin 0 → Fin s.rank)) (hr : s.ReducesTo axes S_) (h0 : 0 < S_.numel)
    (e : Host.reduce IntOp.andi (cmpi .sge x (broadcastInDim s ![] hb (constantI S_ 32 0#32)))
          (constantI S_ 1 1#1) hr h0 ValueIdx.ix0 = 1#1) (i : s.Idx) : 0 ≤ (x i).toInt := by
  have hi := Host.reduce_andi_all _ _ hr h0 _ e i
  have hc : IntOp.cmpi .sge (x i) 0#32 = 1#1 := hi
  have := IntOp.cmpi_sge.1 hc
  rwa [show (0#32 : BitVec 32).toInt = 0 from by decide] at this

variable [Cert.Pre_finite_inputs.Facts]

variable (x0 : FVec Ideal S50000x128 .f32) (x1 : IVec S2x600000 32) (x2 : IVec S50000 32)
  (x3 : FVec Ideal S128x128 .f32) (x4 : FVec Ideal S128 .f32) (x5 : FVec Ideal S128x128 .f32) (x6 : FVec Ideal S128 .f32)
  (x7 : FVec Ideal S128x128 .f32) (x8 : FVec Ideal S128 .f32) (x9 : FVec Ideal S10x128 .f32) (x10 : FVec Ideal S10 .f32)

/-- The precondition's one bit is the `and` of the ten tests' bits; all ten are therefore 1, and each test reads
    back as its entrywise fact. -/
theorem decoded (h : Cert.Pre_finite_inputs.fn (F := Ideal) x0 x1 x2 x3 x4 x5 x6 x7 x8 x9 x10 = fun _ => 1#1) :
    (∀ i, ∃ r : ℝ, x0 i = (r : EReal)) ∧ (∀ i, ∃ r : ℝ, x3 i = (r : EReal)) ∧ (∀ i, ∃ r : ℝ, x4 i = (r : EReal))
    ∧ (∀ i, ∃ r : ℝ, x5 i = (r : EReal)) ∧ (∀ i, ∃ r : ℝ, x6 i = (r : EReal)) ∧ (∀ i, ∃ r : ℝ, x7 i = (r : EReal))
    ∧ (∀ i, ∃ r : ℝ, x8 i = (r : EReal)) ∧ (∀ i, ∃ r : ℝ, x9 i = (r : EReal)) ∧ (∀ i, ∃ r : ℝ, x10 i = (r : EReal))
    ∧ (∀ i, 0 ≤ (x2 i).toInt) := by
  have e := congrFun h ValueIdx.ix0
  dsimp only [Cert.Pre_finite_inputs.fn, Cert.Pre_finite_inputs.fn_part1, Cert.Pre_finite_inputs.fn_part2, andi] at e
  simp only [IntOp.andi_eq_one] at e
  obtain ⟨⟨⟨⟨⟨⟨⟨⟨⟨e0, e3⟩, e4⟩, e5⟩, e6⟩, e7⟩, e8⟩, e9⟩, e10⟩, e2⟩ := e
  exact ⟨real_of_all x0 _ _ _ e0, real_of_all x3 _ _ _ e3, real_of_all x4 _ _ _ e4, real_of_all x5 _ _ _ e5,
    real_of_all x6 _ _ _ e6, real_of_all x7 _ _ _ e7, real_of_all x8 _ _ _ e8, real_of_all x9 _ _ _ e9,
    real_of_all x10 _ _ _ e10, nonneg_of_all x2 _ _ _ e2⟩

section
variable {x0 x1 x2 x3 x4 x5 x6 x7 x8 x9 x10}
variable (h : Cert.Pre_finite_inputs.fn (F := Ideal) x0 x1 x2 x3 x4 x5 x6 x7 x8 x9 x10 = fun _ => 1#1)
include h

/-- Every entry of the [50000, 128] feature array is a real number. -/
theorem real_x0 : ∀ i, ∃ r : ℝ, x0 i = (r : EReal) := (decoded x0 x1 x2 x3 x4 x5 x6 x7 x8 x9 x10 h).1
/-- Every entry of the first layer's [128, 128] weight is a real number. -/
theorem real_x3 : ∀ i, ∃ r : ℝ, x3 i = (r : EReal) := (decoded x0 x1 x2 x3 x4 x5 x6 x7 x8 x9 x10 h).2.1
/-- Every entry of the first layer's [128] bias is a real number. -/
theorem real_x4 : ∀ i, ∃ r : ℝ, x4 i = (r : EReal) := (decoded x0 x1 x2 x3 x4 x5 x6 x7 x8 x9 x10 h).2.2.1
/-- Every entry of the second layer's [128, 128] weight is a real number. -/
theorem real_x5 : ∀ i, ∃ r : ℝ, x5 i = (r : EReal) := (decoded x0 x1 x2 x3 x4 x5 x6 x7 x8 x9 x10 h).2.2.2.1
/-- Every entry of the second layer's [128] bias is a real number. -/
theorem real_x6 : ∀ i, ∃ r : ℝ, x6 i = (r : EReal) := (decoded x0 x1 x2 x3 x4 x5 x6 x7 x8 x9 x10 h).2.2.2.2.1
/-- Every entry of the third layer's [128, 128] weight is a real number. -/
theorem real_x7 : ∀ i, ∃ r : ℝ, x7 i = (r : EReal) := (decoded x0 x1 x2 x3 x4 x5 x6 x7 x8 x9 x10 h).2.2.2.2.2.1
/-- Every entry of the third layer's [128] bias is a real number. -/
theorem real_x8 : ∀ i, ∃ r : ℝ, x8 i = (r : EReal) := (decoded x0 x1 x2 x3 x4 x5 x6 x7 x8 x9 x10 h).2.2.2.2.2.2.1
/-- Every entry of the classifier's [10, 128] weight is a real number. -/
theorem real_x9 : ∀ i, ∃ r : ℝ, x9 i = (r : EReal) := (decoded x0 x1 x2 x3 x4 x5 x6 x7 x8 x9 x10 h).2.2.2.2.2.2.2.1
/-- Every entry of the classifier's [10] bias is a real number. -/
theorem real_x10 : ∀ i, ∃ r : ℝ, x10 i = (r : EReal) := (decoded x0 x1 x2 x3 x4 x5 x6 x7 x8 x9 x10 h).2.2.2.2.2.2.2.2.1
/-- Every word of the [50000] graph-assignment array is nonnegative, read signed. -/
theorem batch_nonneg : ∀ i, 0 ≤ (x2 i).toInt := (decoded x0 x1 x2 x3 x4 x5 x6 x7 x8 x9 x10 h).2.2.2.2.2.2.2.2.2

end

end Cert.PreFacts

end
-- ==== Proof.LibSegCount.lean ====
/-
  A host operation read at an element, for any extents: a SCATTER-ADD of scalars onto a rank-1 operand
  (`operand.at[idx].add(updates)` with one update per index word — a segment count when the updates are ones, a segment
  sum of scalars in general). Element `n` of the result is the operand's plus the sum of the updates `e` whose index
  word, read signed and not clamped, is `n`; an update whose word names no element of the operand contributes nothing.
-/
import Idealize.ShloMosaic.Lib.ValueIdx
import Idealize.ShloMosaic.PureOps.Ideal

noncomputable section

open scoped BigOperators

namespace Cert.LibSegCount

open Idealize.ShloMosaic Idealize.ShloMosaic.ValueIdx

/-- The scatter-indices index update `e` reads, whatever the component: row `e` of the index column (the updates' one
    axis is a scatter axis, which reads the scatter indices' axis 0; the index vector's axis holds the component, and
    an index has one). -/
theorem scatter_siIdx {N E : Nat} (d : ScatterDims ⟨1, ![N]⟩ ⟨2, ![E, 1]⟩ ⟨1, ![E]⟩)
    (huw : d.updateWindowDims = []) (hsd : d.scatterDimsToOperandDims = [0]) (hivd : d.indexVectorDim = 1)
    (e : Fin E) (c : Fin d.scatterDimsToOperandDims.length) :
    d.siIdx (ix1 e) c = ix2 e (0 : Fin 1) := by
  obtain ⟨uw, iw, sd, iv, wf⟩ := d
  dsimp only at huw hsd hivd c ⊢
  subst huw hsd hivd
  funext b
  apply Fin.ext
  match b with
  | ⟨0, _⟩ => rfl
  | ⟨1, _⟩ => exact Nat.lt_one_iff.mp c.isLt

/-- The window of update `e` starts at its index word, read signed and not clamped. -/
theorem scatter_start {N E w : Nat} (d : ScatterDims ⟨1, ![N]⟩ ⟨2, ![E, 1]⟩ ⟨1, ![E]⟩)
    (huw : d.updateWindowDims = []) (hsd : d.scatterDimsToOperandDims = [0]) (hivd : d.indexVectorDim = 1)
    (idx : IVec ⟨2, ![E, 1]⟩ w) (e : Fin E) :
    d.start (ix1 e) idx (0 : Fin 1) = (idx (ix2 e (0 : Fin 1))).toInt := by
  have h0 : (0 : Fin 1) ∈ d.scatterDimsToOperandDims := by rw [hsd]; exact List.mem_singleton.mpr rfl
  unfold ScatterDims.start
  rw [dif_pos h0, scatter_siIdx d huw hsd hivd]

/-- The operand's one axis is the inserted axis: no window coordinate there. -/
theorem scatter_window {N E : Nat} (d : ScatterDims ⟨1, ![N]⟩ ⟨2, ![E, 1]⟩ ⟨1, ![E]⟩)
    (hiw : d.insertedWindowDims = [0]) (j : (⟨1, ![E]⟩ : Shape).Idx) :
    d.window j (0 : Fin 1) = 0 := by
  have h0 : (0 : Fin 1) ∉ d.sKept := by
    simp [ScatterDims.sKept, Shape.kept, List.mem_filter, hiw]
  unfold ScatterDims.window
  rw [dif_neg h0]

/-- WHERE AN UPDATE LANDS: update `e` lands at element `n` exactly when its index word, read signed, is `n`. The
    landing coordinate is the index word (start) plus 0 (no window coordinate), in range exactly when it is some `n`
    below `N`. -/
theorem scatter_resultIdx_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) (n : Fin N) :
    d.resultIdx? (ix1 e) idx = some (ix1 n) ↔ (idx (ix2 e (0 : Fin 1))).toInt = (n.val : ℤ) := by
  have hs0 := scatter_start d huw hsd hivd idx e
  have hw0 := scatter_window d hiw (ix1 e)
  have hN : (⟨1, ![N]⟩ : Shape).size (0 : Fin 1) = N := rfl
  have hn := n.isLt
  unfold ScatterDims.resultIdx?
  constructor
  · intro h
    split at h
    · next hin =>
      have hf := Option.some.inj h
      have c0 : (d.start (ix1 e) idx 0 + d.window (ix1 e) 0).toNat = n.val :=
        congrArg (fun f => (f (0 : Fin 1)).val) hf
      have b0 := hin 0
      rw [hs0, hw0] at c0 b0
      omega
    · exact absurd h (by simp)
  · intro hi
    have p0 : 0 ≤ d.start (ix1 e) idx 0 + d.window (ix1 e) 0
        ∧ d.start (ix1 e) idx 0 + d.window (ix1 e) 0 < (⟨1, ![N]⟩ : Shape).size (0 : Fin 1) := by
      rw [hs0, hw0, hi, hN]; omega
    rw [dif_pos (Fin.forall_fin_one.mpr p0)]
    congr 1
    funext a
    apply Fin.ext
    match a with
    | ⟨0, _⟩ =>
      show (d.start (ix1 e) idx 0 + d.window (ix1 e) 0).toNat = n.val
      rw [hs0, hw0, hi]; omega

/-- THE SCALAR SCATTER-ADD at the ideal instance: the dimension numbers are the printed ones of a segment sum of
    scalars (each hypothesis holds of a printed record by `rfl`). -/
theorem scatterAdd_count_apply {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w)
    (upd : (⟨1, ![E]⟩ : Shape).Idx → EReal) (n : Fin N) :
    (Host.scatterAdd (F := Ideal) (φ := .f32) d x idx upd : (⟨1, ![N]⟩ : Shape).Idx → EReal) (ix1 n)
      = x (ix1 n)
        + ∑ e ∈ Finset.univ.filter (fun e : Fin E => (idx (ix2 e (0 : Fin 1))).toInt = (n.val : ℤ)), upd (ix1 e) := by
  -- every update index is its one coordinate: the landing criterion read at it
  have key : ∀ j : (⟨1, ![E]⟩ : Shape).Idx, d.resultIdx? j idx = some (ix1 n)
      ↔ (idx (ix2 (j 0) (0 : Fin 1))).toInt = (n.val : ℤ) := fun j => by
    have := scatter_resultIdx_iff d huw hiw hsd hivd idx (j 0) n
    rw [congrArg (fun k => d.resultIdx? k idx) (eq_ix1 j)]
    exact this
  show x (ix1 n) + ∑ j ∈ Finset.univ.filter (fun j => d.resultIdx? j idx = some (ix1 n)), upd j = _
  congr 1
  -- so the updates landing at n are the e whose index word reads n: re-index by the coordinate
  refine Finset.sum_bij' (fun j _ => j 0) (fun e _ => ix1 e) ?_ ?_ ?_ ?_ ?_
  · intro j hj
    exact Finset.mem_filter.mpr ⟨Finset.mem_univ _, (key j).mp (Finset.mem_filter.mp hj).2⟩
  · intro e he
    exact Finset.mem_filter.mpr ⟨Finset.mem_univ _, (key (ix1 e)).mpr (Finset.mem_filter.mp he).2⟩
  · intro j _
    exact (eq_ix1 j).symm
  · intro e _
    rfl
  · intro j _
    exact congrArg upd (eq_ix1 j)

end Cert.LibSegCount

end
-- ==== Proof.LibSegCountInt.lean ====
/-
  A host operation read at an element, for any extents: the INTEGER scatter-add (`operand.at[idx].add(updates)` over
  machine words, printed as the left fold `Host.scatter d IntOp.addi`). Addition of words is commutative and
  associative, so the fold's order does not show: element `i` of the result is the operand's plus the sum, in the
  ring of words, of the updates landing there. For a rank-1 operand and one update per index word (a segment count
  when the updates are ones) the updates landing at `n` are those whose index word, read signed and not clamped,
  is `n`; with a zero operand and updates all one the result is the number of such words, as a word.
-/
import proofs.«429275_j68899865363005_1_alg».proof.Proof.LibSegCount
import Mathlib.Data.BitVec
import Mathlib.Algebra.BigOperators.Fin
import Mathlib.Algebra.BigOperators.Group.Finset.Basic

noncomputable section

open scoped BigOperators

namespace Cert.LibSegCountInt

open Idealize.ShloMosaic Idealize.ShloMosaic.ValueIdx

/-- A left fold whose step adds, at each element, a term of its own to the running value: read at an element it is
    the start value plus the sum of the terms, in the list's order. -/
theorem foldl_add_apply {ι κ M : Type} [AddCommMonoid M] (f : (ι → M) → κ → (ι → M)) (g : κ → ι → M)
    (hf : ∀ r n i, f r n i = r i + g n i) (l : List κ) (r : ι → M) (i : ι) :
    l.foldl f r i = r i + (l.map fun n => g n i).sum := by
  induction l generalizing r with
  | nil => simp
  | cons a l ih => rw [List.foldl_cons, ih, hf, List.map_cons, List.sum_cons, add_assoc]

/-- THE INTEGER SCATTER-ADD read at an element, any shapes and dimension numbers: the operand's element plus the
    sum of the updates landing there. One step of the fold adds the update where it lands and nothing elsewhere;
    the sum over the positions in row-major order is the sum over the update indices. -/
theorem scatter_addi_apply {s si u : Shape} {w wi : Nat} (d : ScatterDims s si u) (x : s.Idx → BitVec w)
    (idx : IVec si wi) (upd : u.Idx → BitVec w) (i : s.Idx) :
    Host.scatter d IntOp.addi x idx upd i
      = x i + ∑ j ∈ Finset.univ.filter (fun j : u.Idx => d.resultIdx? j idx = some i), upd j := by
  unfold Host.scatter
  rw [foldl_add_apply _
    (fun n i => if d.resultIdx? (u.rowMajor.symm n) idx = some i then upd (u.rowMajor.symm n) else 0) ?_ _ x i]
  · rw [Finset.sum_filter, ← Fin.sum_univ_def]
    congr 1
    exact Equiv.sum_comp u.rowMajor.symm (fun j => if d.resultIdx? j idx = some i then upd j else 0)
  · intro r n i
    cases hres : d.resultIdx? (u.rowMajor.symm n) idx with
    | none => simp
    | some i0 =>
      by_cases h : i = i0
      · subst h
        simp [IntOp.addi]
      · have h' : ¬ (some i0 = some i) := fun e => h (Option.some.inj e).symm
        simp [h, h']

/-- The segment form: a rank-1 operand, one index word per update. Element `n` is the operand's plus the sum of the
    updates whose index word, read signed, is `n`. -/
theorem scatter_addi_count_apply {N E w wi : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → BitVec w) (idx : IVec ⟨2, ![E, 1]⟩ wi)
    (upd : (⟨1, ![E]⟩ : Shape).Idx → BitVec w) (n : Fin N) :
    Host.scatter d IntOp.addi x idx upd (ix1 n)
      = x (ix1 n)
        + ∑ e ∈ Finset.univ.filter (fun e : Fin E => (idx (ix2 e (0 : Fin 1))).toInt = (n.val : ℤ)), upd (ix1 e) := by
  have key : ∀ j : (⟨1, ![E]⟩ : Shape).Idx, d.resultIdx? j idx = some (ix1 n)
      ↔ (idx (ix2 (j 0) (0 : Fin 1))).toInt = (n.val : ℤ) := fun j => by
    have := Cert.LibSegCount.scatter_resultIdx_iff d huw hiw hsd hivd idx (j 0) n
    rw [congrArg (fun k => d.resultIdx? k idx) (eq_ix1 j)]
    exact this
  rw [scatter_addi_apply]
  congr 1
  refine Finset.sum_bij' (fun j _ => j 0) (fun e _ => ix1 e) ?_ ?_ ?_ ?_ ?_
  · intro j hj
    exact Finset.mem_filter.mpr ⟨Finset.mem_univ _, (key j).mp (Finset.mem_filter.mp hj).2⟩
  · intro e he
    exact Finset.mem_filter.mpr ⟨Finset.mem_univ _, (key (ix1 e)).mpr (Finset.mem_filter.mp he).2⟩
  · intro j _
    exact (eq_ix1 j).symm
  · intro e _
    rfl
  · intro j _
    exact congrArg upd (eq_ix1 j)

/-- THE SEGMENT COUNT as a word: a zero operand and updates all one. Element `n` is the number of index words that
    read `n`, as a word (the count modulo `2 ^ w`). -/
theorem scatter_addi_ones_apply {N E w wi : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → BitVec w) (idx : IVec ⟨2, ![E, 1]⟩ wi)
    (upd : (⟨1, ![E]⟩ : Shape).Idx → BitVec w) (hx : ∀ i, x i = 0) (hu : ∀ j, upd j = 1) (n : Fin N) :
    Host.scatter d IntOp.addi x idx upd (ix1 n)
      = BitVec.ofNat w
          (Finset.univ.filter (fun e : Fin E => (idx (ix2 e (0 : Fin 1))).toInt = (n.val : ℤ))).card := by
  rw [scatter_addi_count_apply d huw hiw hsd hivd, hx, zero_add, Finset.sum_congr rfl (fun e _ => hu (ix1 e)),
    Finset.sum_const, nsmul_one]
  rfl

end Cert.LibSegCountInt

end
-- ==== Proof.Val.Counts.lean ====
/-
  The segment counts. The kernel's program and the reference count the graph ids of `batch` (50000 words, read
  signed) into 512 segments in two ways. The kernel's program clips the ids at zero (a signed maximum with 0), wraps
  a negative index by 512 (never taken after the clip), scatter-adds the WORD 1 at each index into 512 zero words,
  converts each count word to a real, and takes the maximum with 1. The reference scatter-adds the REAL 1 at each
  raw id into 512 zeros and takes the maximum with 1. When no id is negative the clip is the identity and the two
  index columns agree; the word count of a segment is the number of ids reading it, at most 50000, so the word reads
  back as that number, which is also the exact real sum of that many ones. Hence the two count columns are equal.
-/
import proofs.«429275_j68899865363005_1_alg».proof.Proof.Gen.KernelIdeal
import proofs.«429275_j68899865363005_1_alg».proof.Proof.Gen.ReferenceIdeal
import proofs.«429275_j68899865363005_1_alg».proof.Proof.LibSegCount
import proofs.«429275_j68899865363005_1_alg».proof.Proof.LibSegCountInt
import Idealize.ShloMosaic.Lib.ValueIdx
import Idealize.ShloMosaic.Lib.Pipeline.Value
import Idealize.ShloMosaic.Lib.IdealHost
import Idealize.ShloMosaic.PureOps.Ideal

noncomputable section

open scoped BigOperators

namespace Cert.Counts

open Idealize.ShloMosaic Idealize.ShloMosaic.ValueIdx

/-- The number of entries of `batch` that read `g` as a signed word. -/
def card (batch : IVec ⟨1, ![50000]⟩ 32) (g : Fin 512) : Nat :=
  (Finset.univ.filter fun e : Fin 50000 => (batch (ix1 e)).toInt = (g.val : ℤ)).card

theorem card_le (batch : IVec ⟨1, ![50000]⟩ 32) (g : Fin 512) : card batch g ≤ 50000 := by
  unfold card
  exact (Finset.card_le_univ _).trans (by simp)

/-! ## Words -/

/-- The signed maximum with zero leaves a non-negative word as it is. -/
theorem maxsi_zero_of_nonneg (b : BitVec 32) (hb : 0 ≤ b.toInt) : IntOp.maxsi 0#32 b = b := by
  unfold IntOp.maxsi
  rw [if_neg]
  rw [BitVec.slt_iff_toInt_lt, BitVec.toInt_zero]
  omega

/-- A non-negative word is not below zero: the comparison's bit is clear. -/
theorem cmpi_slt_zero_of_nonneg (b : BitVec 32) (hb : 0 ≤ b.toInt) : IntOp.cmpi .slt b 0#32 = 0#1 := by
  have h : b.slt 0#32 = false := by
    rw [Bool.eq_false_iff, Ne, BitVec.slt_iff_toInt_lt, BitVec.toInt_zero]
    omega
  show BitVec.ofBool (b.slt 0#32) = 0#1
  rw [h]
  rfl

/-- A count of at most 50000, written as a 32-bit word, reads back signed as itself. -/
theorem toInt_ofNat_count (c : Nat) (hc : c ≤ 50000) : (BitVec.ofNat 32 c).toInt = (c : ℤ) := by
  rw [BitVec.toInt_eq_toNat_of_lt (by rw [BitVec.toNat_ofNat]; omega), BitVec.toNat_ofNat]
  omega

/-! ## The kernel's side -/

section Kernel

open Cert.KernelIdeal Cert.KernelIdeal.Facts₀

/-- The clipped ids: the signed maximum of the zero word and each entry. -/
def kClip (batch : IVec S50000 32) : IVec S50000 32 :=
  maxsi (broadcastInDim S50000 ![] bcast_S_S50000 (constantI S_ 32 0#32)) batch

/-- The index words the kernel's program scatters at: a clipped id below zero is moved up by 512. -/
def kIndex (batch : IVec S50000 32) : IVec S50000 32 :=
  select (cmpi .slt (kClip batch) (broadcastInDim S50000 ![] bcast_S_S50000 (constantI S_ 32 0#32)))
    (addi (kClip batch) (broadcastInDim S50000 ![] bcast_S_S50000 (constantI S_ 32 512#32))) (kClip batch)

/-- The count words: the word 1 added at each index into 512 zero words. -/
def kWords (batch : IVec S50000 32) : IVec S512 32 :=
  Host.scatter scatter_S512_S50000x1_S50000_n_0_0_1 IntOp.addi
    (broadcastInDim S512 ![] bcast_S_S512 (constantI S_ 32 0#32))
    (broadcastInDim S50000x1 ![0] bcast_S50000_S50000x1_0 (kIndex batch))
    (broadcastInDim S50000 ![] bcast_S_S50000 (constantI S_ 32 1#32))

/-- The kernel program's count column: each count word as a real, at least 1, as a column. -/
def kCol (batch : IVec S50000 32) : FVec Ideal S512x1 .f32 :=
  shapeCast S512x1
    (maximumf (sitofp .f32 (kWords batch))
      (broadcastInDim S512 ![] bcast_S_S512 (constant S_ .f32 0x3F800000#32)))
    shapeCasts_S512_S512x1

theorem kClip_eq (batch : IVec S50000 32) (hb : ∀ i, 0 ≤ (batch i).toInt) : kClip batch = batch := by
  funext i
  exact maxsi_zero_of_nonneg (batch i) (hb i)

theorem kIndex_eq (batch : IVec S50000 32) (hb : ∀ i, 0 ≤ (batch i).toInt) : kIndex batch = batch := by
  unfold kIndex
  rw [kClip_eq batch hb]
  funext i
  show Scalar.select (IntOp.cmpi .slt (batch i) 0#32) _ (batch i) = batch i
  rw [cmpi_slt_zero_of_nonneg (batch i) (hb i), select_zero]

end Kernel

/-- The index column read at a row is the entry of that row. -/
theorem column_apply (batch : IVec ⟨1, ![50000]⟩ 32)
    (h : (⟨1, ![50000]⟩ : Shape).BroadcastsInDim ⟨2, ![50000, 1]⟩ ![0]) (e : Fin 50000) :
    broadcastInDim ⟨2, ![50000, 1]⟩ ![0] h batch (ix2 e (0 : Fin 1)) = batch (ix1 e) :=
  broadcastInDim_apply _ h batch (ix2 e (0 : Fin 1)) (ix1 e) (fun a => match a with
    | ⟨0, _⟩ => by show e.val = if (50000 : Nat) = 1 then 0 else e.val; rw [if_neg (by decide)])

section Kernel

open Cert.KernelIdeal Cert.KernelIdeal.Facts₀

/-- The count word of segment `g` is the number of ids reading `g`, as a word. -/
theorem kWords_apply (batch : IVec S50000 32) (hb : ∀ i, 0 ≤ (batch i).toInt) (g : Fin 512) :
    kWords batch (ix1 g) = BitVec.ofNat 32 (card batch g) := by
  have h := Cert.LibSegCountInt.scatter_addi_ones_apply scatter_S512_S50000x1_S50000_n_0_0_1 rfl rfl rfl rfl
    (broadcastInDim S512 ![] bcast_S_S512 (constantI S_ 32 0#32))
    (broadcastInDim S50000x1 ![0] bcast_S50000_S50000x1_0 batch)
    (broadcastInDim S50000 ![] bcast_S_S50000 (constantI S_ 32 1#32)) (fun _ => rfl) (fun _ => rfl) g
  have hcol : ∀ e : Fin 50000,
      broadcastInDim S50000x1 ![0] bcast_S50000_S50000x1_0 batch (ix2 e (0 : Fin 1)) = batch (ix1 e) :=
    fun e => column_apply batch _ e
  unfold kWords
  rw [kIndex_eq batch hb, h]
  simp only [hcol]
  rfl

/-- The kernel's count column at row `g`. -/
theorem kCol_apply_row (batch : IVec S50000 32) (hb : ∀ i, 0 ≤ (batch i).toInt) (g : Fin 512) :
    kCol batch (ix2 g (0 : Fin 1)) = max (((card batch g : ℕ) : ℝ) : EReal) 1 := by
  unfold kCol
  rw [shapeCast_apply _ shapeCasts_S512_S512x1 (ix2 g (0 : Fin 1)) (ix1 g) (by
    rw [Shape.rowMajor_val_two, Shape.rowMajor_val_one]
    show g.val = g.val * 1 + 0
    omega)]
  show max (((kWords batch (ix1 g)).toInt : ℝ) : EReal) (Ideal.ofBits .f32 0x3F800000#32) = _
  rw [kWords_apply batch hb, toInt_ofNat_count _ (card_le batch g), Ideal.ofBits_one_f32, Int.cast_natCast]

/-- THE KERNEL'S COUNT COLUMN at an index: the number of ids reading that segment, at least 1. -/
theorem kCol_apply (batch : IVec S50000 32) (hb : ∀ i, 0 ≤ (batch i).toInt) (j : S512x1.Idx) :
    kCol batch j = max (((card batch (j 0) : ℕ) : ℝ) : EReal) 1 := by
  have hj : j = ix2 (j 0) (0 : Fin 1) := (eq_ix2 j).trans (by congr 1; exact Fin.ext (Nat.lt_one_iff.mp (j 1).isLt))
  exact (congrArg (kCol batch) hj).trans (kCol_apply_row batch hb (j 0))

end Kernel

/-! ## The reference's side -/

section Reference

open Cert.ReferenceIdeal Cert.ReferenceIdeal.Facts₀

/-- The real counts: the real 1 added at each raw id into 512 zeros. -/
def rSums (batch : IVec S50000 32) : FVec Ideal S512 .f32 :=
  Host.scatterAdd scatter_S512_S50000x1_S50000_n_0_0_1
    (broadcastInDim S512 ![] bcast_S_S512 (constant S_ .f32 0x00000000#32))
    (broadcastInDim S50000x1 ![0] bcast_S50000_S50000x1_0 batch)
    (broadcastInDim S50000 ![] bcast_S_S50000 (constant S_ .f32 0x3F800000#32))

/-- The reference's count column: each count at least 1, as a column. -/
def rCol (batch : IVec S50000 32) : FVec Ideal S512x1 .f32 :=
  broadcastInDim S512x1 ![0] bcast_S512_S512x1_0
    (maximumf (rSums batch) (broadcastInDim S512 ![] bcast_S_S512 (constant S_ .f32 0x3F800000#32)))

/-- The real count of segment `g` is the number of ids reading `g`: that many ones, summed exactly. -/
theorem rSums_apply (batch : IVec S50000 32) (g : Fin 512) :
    rSums batch (ix1 g) = (((card batch g : ℕ) : ℝ) : EReal) := by
  have hcol : ∀ e : Fin 50000,
      broadcastInDim S50000x1 ![0] bcast_S50000_S50000x1_0 batch (ix2 e (0 : Fin 1)) = batch (ix1 e) :=
    fun e => column_apply batch _ e
  unfold rSums
  rw [Cert.LibSegCount.scatterAdd_count_apply scatter_S512_S50000x1_S50000_n_0_0_1 rfl rfl rfl rfl]
  simp only [hcol]
  show Ideal.ofBits .f32 0x00000000#32
      + ∑ e ∈ Finset.univ.filter (fun e : Fin 50000 => (batch (ix1 e)).toInt = (g.val : ℤ)),
          Ideal.ofBits .f32 0x3F800000#32 = _
  rw [Ideal.ofBits_zero_f32, Ideal.ofBits_one_f32, zero_add, Finset.sum_const, nsmul_one]
  exact EReal.coe_natCast.symm

/-- The reference's count column at row `g`. -/
theorem rCol_apply_row (batch : IVec S50000 32) (g : Fin 512) :
    rCol batch (ix2 g (0 : Fin 1)) = max (((card batch g : ℕ) : ℝ) : EReal) 1 := by
  unfold rCol
  rw [broadcastInDim_apply _ bcast_S512_S512x1_0 _ (ix2 g (0 : Fin 1)) (ix1 g) (fun a => match a with
    | ⟨0, _⟩ => by show g.val = if (512 : Nat) = 1 then 0 else g.val; rw [if_neg (by decide)])]
  show max (rSums batch (ix1 g)) (Ideal.ofBits .f32 0x3F800000#32) = _
  rw [rSums_apply, Ideal.ofBits_one_f32]

/-- THE REFERENCE'S COUNT COLUMN at an index: the number of ids reading that segment, at least 1. -/
theorem rCol_apply (batch : IVec S50000 32) (j : S512x1.Idx) :
    rCol batch j = max (((card batch (j 0) : ℕ) : ℝ) : EReal) 1 := by
  have hj : j = ix2 (j 0) (0 : Fin 1) := (eq_ix2 j).trans (by congr 1; exact Fin.ext (Nat.lt_one_iff.mp (j 1).isLt))
  exact (congrArg (rCol batch) hj).trans (rCol_apply_row batch (j 0))

end Reference

/-! ## The two columns are equal -/

/-- With no negative id the kernel program's count column is the reference's. -/
theorem kCol_eq_rCol (batch : IVec ⟨1, ![50000]⟩ 32) (hb : ∀ i, 0 ≤ (batch i).toInt) :
    kCol batch = rCol batch := by
  funext j
  rw [kCol_apply batch hb j, rCol_apply batch j]

/-- The scatter records of the two programs are the same dimension numbers. -/
theorem scatter_records_eq :
    Cert.KernelIdeal.scatter_S512_S50000x1_S50000_n_0_0_1 = Cert.ReferenceIdeal.scatter_S512_S50000x1_S50000_n_0_0_1 :=
  rfl

/-- The clipped ids as the kernel's program writes them. -/
theorem kClip_def (batch : IVec Cert.KernelIdeal.S50000 32) :
    kClip batch
      = maxsi (broadcastInDim Cert.KernelIdeal.S50000 ![] Cert.KernelIdeal.Facts₀.bcast_S_S50000
          (constantI Cert.KernelIdeal.S_ 32 0#32)) batch := rfl

/-- THE COUNTS, over the operations as the two programs print them: with no negative id, the kernel program's count
    column (clip at zero, wrap a negative index, integer scatter-add of ones, conversion to a real, maximum with 1,
    reshape to a column) is the reference's (real scatter-add of ones at the raw ids, maximum with 1, broadcast to
    a column). -/
theorem counts_eq (batch : IVec ⟨1, ![50000]⟩ 32) (hb : ∀ i, 0 ≤ (batch i).toInt) :
    (shapeCast Cert.KernelIdeal.S512x1
      (maximumf
        (sitofp .f32
          (Host.scatter Cert.KernelIdeal.scatter_S512_S50000x1_S50000_n_0_0_1 IntOp.addi
            (broadcastInDim Cert.KernelIdeal.S512 ![] Cert.KernelIdeal.Facts₀.bcast_S_S512
              (constantI Cert.KernelIdeal.S_ 32 0#32))
            (broadcastInDim Cert.KernelIdeal.S50000x1 ![0] Cert.KernelIdeal.Facts₀.bcast_S50000_S50000x1_0
              (select
                (cmpi .slt
                  (maxsi (broadcastInDim Cert.KernelIdeal.S50000 ![] Cert.KernelIdeal.Facts₀.bcast_S_S50000
                    (constantI Cert.KernelIdeal.S_ 32 0#32)) batch)
                  (broadcastInDim Cert.KernelIdeal.S50000 ![] Cert.KernelIdeal.Facts₀.bcast_S_S50000
                    (constantI Cert.KernelIdeal.S_ 32 0#32)))
                (addi
                  (maxsi (broadcastInDim Cert.KernelIdeal.S50000 ![] Cert.KernelIdeal.Facts₀.bcast_S_S50000
                    (constantI Cert.KernelIdeal.S_ 32 0#32)) batch)
                  (broadcastInDim Cert.KernelIdeal.S50000 ![] Cert.KernelIdeal.Facts₀.bcast_S_S50000
                    (constantI Cert.KernelIdeal.S_ 32 512#32)))
                (maxsi (broadcastInDim Cert.KernelIdeal.S50000 ![] Cert.KernelIdeal.Facts₀.bcast_S_S50000
                  (constantI Cert.KernelIdeal.S_ 32 0#32)) batch)))
            (broadcastInDim Cert.KernelIdeal.S50000 ![] Cert.KernelIdeal.Facts₀.bcast_S_S50000
              (constantI Cert.KernelIdeal.S_ 32 1#32))))
        (broadcastInDim Cert.KernelIdeal.S512 ![] Cert.KernelIdeal.Facts₀.bcast_S_S512
          (constant Cert.KernelIdeal.S_ .f32 0x3F800000#32)))
      Cert.KernelIdeal.Facts₀.shapeCasts_S512_S512x1 : FVec Ideal ⟨2, ![512, 1]⟩ .f32)
    = broadcastInDim Cert.ReferenceIdeal.S512x1 ![0] Cert.ReferenceIdeal.Facts₀.bcast_S512_S512x1_0
        (maximumf
          (Host.scatterAdd Cert.ReferenceIdeal.scatter_S512_S50000x1_S50000_n_0_0_1
            (broadcastInDim Cert.ReferenceIdeal.S512 ![] Cert.ReferenceIdeal.Facts₀.bcast_S_S512
              (constant Cert.ReferenceIdeal.S_ .f32 0x00000000#32))
            (broadcastInDim Cert.ReferenceIdeal.S50000x1 ![0] Cert.ReferenceIdeal.Facts₀.bcast_S50000_S50000x1_0 batch)
            (broadcastInDim Cert.ReferenceIdeal.S50000 ![] Cert.ReferenceIdeal.Facts₀.bcast_S_S50000
              (constant Cert.ReferenceIdeal.S_ .f32 0x3F800000#32)))
          (broadcastInDim Cert.ReferenceIdeal.S512 ![] Cert.ReferenceIdeal.Facts₀.bcast_S_S512
            (constant Cert.ReferenceIdeal.S_ .f32 0x3F800000#32))) :=
  kCol_eq_rCol batch hb

end Cert.Counts

end
-- ==== Proof.Val.CountsRead.lean ====
/-
  The reference's count column of the segment counts, named by the stage of the reference's own reading: the value
  the reference writes for its count column, as a function of `batch`, is the column `Cert.Counts.rCol` — the same
  operations in the same order.
-/
import proofs.«429275_j68899865363005_1_alg».proof.Proof.Val.Counts
import proofs.«429275_j68899865363005_1_alg».proof.Proof.Ref.Read

noncomputable section

namespace Cert.Counts

open Idealize.ShloMosaic Idealize.ShloMosaic.ValueIdx

/-- The reference's stage for its count column is `rCol`. -/
theorem rCol_eq_val (batch : IVec ⟨1, ![50000]⟩ 32) :
    rCol batch = Cert.ReferenceIdeal.Read.val_main_v133 (F := Ideal) batch := rfl

/-- The reference's count column stage at an index: the number of ids reading that segment, at least 1. -/
theorem val_main_v133_apply_card (batch : IVec ⟨1, ![50000]⟩ 32) (j : Cert.ReferenceIdeal.S512x1.Idx) :
    Cert.ReferenceIdeal.Read.val_main_v133 (F := Ideal) batch j = max (((card batch (j 0) : ℕ) : ℝ) : EReal) 1 :=
  (congrFun (rCol_eq_val batch).symm j).trans (rCol_apply batch j)

/-- The reference's stage before the column (the counts, at least 1) at segment `g`. -/
theorem val_main_v132_apply_card (batch : IVec ⟨1, ![50000]⟩ 32) (g : Fin 512) :
    Cert.ReferenceIdeal.Read.val_main_v132 (F := Ideal) batch (ix1 g) = max (((card batch g : ℕ) : ℝ) : EReal) 1 := by
  show max (rSums batch (ix1 g)) (Ideal.ofBits .f32 0x3F800000#32) = _
  rw [rSums_apply, Ideal.ofBits_one_f32]

/-- The reference's scatter stage (the real counts) at segment `g`. -/
theorem val_main_v130_apply_card (batch : IVec ⟨1, ![50000]⟩ 32) (g : Fin 512) :
    Cert.ReferenceIdeal.Read.val_main_v130 (F := Ideal) batch (ix1 g) = (((card batch g : ℕ) : ℝ) : EReal) :=
  rSums_apply batch g

/-- With no negative id the kernel program's count column is the reference's stage. -/
theorem kCol_eq_val (batch : IVec ⟨1, ![50000]⟩ 32) (hb : ∀ i, 0 ≤ (batch i).toInt) :
    kCol batch = Cert.ReferenceIdeal.Read.val_main_v133 (F := Ideal) batch :=
  (kCol_eq_rCol batch hb).trans (rCol_eq_val batch)

end Cert.Counts

end
-- ==== Proof.Val.RefNet1.lean ====
/-
  The reference program's layers read at an entry. A dense layer is the sum over the inner index of the row of the
  features against the row of the weights; the edge aggregation is the one shared operator applied to the entries; the
  bias is a row added to every row. Each reading is stated for an arbitrary array of node features, so that one
  statement serves all three layers: the second and third layers are the same compositions applied to the previous
  layer's output.
-/
import proofs.«429275_j68899865363005_1_alg».proof.Proof.Val.Spec
import proofs.«429275_j68899865363005_1_alg».proof.Proof.Val.AggOp

noncomputable section

open scoped BigOperators

namespace Cert.RefNet

open Cert.ReferenceIdeal Cert.ReferenceIdeal.Read Idealize.ShloMosaic Idealize.ShloMosaic.TcCoe Idealize.ShloMosaic.ValueIdx

/-- An array of node features. -/
abbrev Arr := (⟨S50000x128, .f32⟩ : BufTy).Contents (Elt Ideal)
/-- A square weight matrix. -/
abbrev Wt := (⟨S128x128, .f32⟩ : BufTy).Contents (Elt Ideal)
/-- A bias row. -/
abbrev Bs := (⟨S128, .f32⟩ : BufTy).Contents (Elt Ideal)
/-- The edge list. -/
abbrev Edg := (⟨S2x600000, .i32⟩ : BufTy).Contents (Elt Ideal)

/-- The entries of an array of node features. -/
abbrev ent (y : Arr) : Fin 50000 → Fin 128 → EReal := fun i k => y (ix2 i k)
/-- The entries of a weight matrix. -/
abbrev entW (w : Wt) : Fin 128 → Fin 128 → EReal := fun j k => w (ix2 j k)
/-- The entries of a bias row. -/
abbrev entB (b : Bs) : Fin 128 → EReal := fun j => b (ix1 j)

/-! ## The dense layer -/

/-- Entry `(i, j)` of `y · wᵀ` is the sum over `k` of `y i k * w j k`: the product contracts the features' columns
    against the transposed weights' rows, and the transpose swaps the weights' two coordinates back. -/
theorem lin_read (y : Arr) (w : Wt) (i : Fin 50000) (j : Fin 128) :
    val_main_v31 (F := Ideal) y w (ix2 i j) = Cert.Spec.lin (ent y) (entW w) i j := by
  rw [val_main_v31_apply]
  unfold Cert.Spec.lin
  refine Finset.sum_congr rfl fun k _ => ?_
  rw [val_main_v30_apply]
  have el : lidx_main_v31 (ix2 i j) k = ix2 i k :=
    funext fun a => Fin.ext (by match a with | ⟨0, _⟩ => rfl | ⟨1, _⟩ => rfl)
  have er : idx_main_v30 (ridx_main_v31 (ix2 i j) k) = ix2 j k :=
    funext fun a => Fin.ext (by match a with | ⟨0, _⟩ => rfl | ⟨1, _⟩ => rfl)
  rw [el, er]

/-- The same for the whole array of entries. -/
theorem lin_ent (y : Arr) (w : Wt) : ent (val_main_v31 (F := Ideal) y w) = Cert.Spec.lin (ent y) (entW w) :=
  funext fun i => funext fun j => lin_read y w i j

/-! ## The edge aggregation -/

/-- An array is the array of its entries. -/
theorem toArr_ent (h : Arr) : Cert.Agg.toArr (ent h) = h :=
  funext fun idx => (congrArg h (eq_ix2 idx)).symm

/-- The aggregation of an array, read at an entry, is the shared operator on the array's entries. -/
theorem agg_ent (x1 : Edg) (h : Arr) : ent (Cert.Agg.aggArr x1 h) = Cert.Agg.aggOp x1 (ent h) := by
  funext i j
  unfold Cert.Agg.aggOp
  rw [toArr_ent]

/-! ## The bias row -/

/-- The bias, broadcast to a one-row matrix and then down the rows, read at `(i, j)` is its `j`-th entry. -/
theorem bias_read (b : Bs) (i : Fin 50000) (j : Fin 128) : val_main_v46 (F := Ideal) b (ix2 i j) = b (ix1 j) := by
  rw [val_main_v46_apply, val_main_v45_apply]
  exact congrArg b (funext fun a => Fin.ext (by match a with | ⟨0, _⟩ => rfl))

/-- Adding the broadcast bias to an array adds the bias row to the entries. -/
theorem bias_ent (a : Arr) (b : Bs) : ent (addf (F := Ideal) (s := S50000x128) (φ := .f32) a (val_main_v46 (F := Ideal) b)) = Cert.Spec.bias (ent a) (entB b) := by
  funext i j
  show a (ix2 i j) + val_main_v46 (F := Ideal) b (ix2 i j) = a (ix2 i j) + b (ix1 j)
  rw [bias_read]

/-! ## The three layers are the same compositions -/

variable (x0 : Arr) (x1 : Edg) (x3 : Wt) (x4 : Bs) (x5 : Wt) (x6 : Bs) (x7 : Wt) (x8 : Bs)

/-- Layer one: the aggregation of the dense layer. -/
theorem v44_eq : val_main_v44 (F := Ideal) x0 x1 x3 = Cert.Agg.aggArr x1 (val_main_v31 (F := Ideal) x0 x3) := rfl
theorem v47_eq : val_main_v47 (F := Ideal) x0 x1 x3 x4
    = addf (F := Ideal) (s := S50000x128) (φ := .f32) (val_main_v44 (F := Ideal) x0 x1 x3) (val_main_v46 (F := Ideal) x4) := rfl

/-- Layer two: the dense layer of the first layer's output, with the same index and coefficient columns. -/
theorem v69_eq : val_main_v69 (F := Ideal) x0 x1 x3 x4 x5
    = val_main_v31 (F := Ideal) (val_main_v67 (F := Ideal) x0 x1 x3 x4) x5 := rfl
theorem v82_eq : val_main_v82 (F := Ideal) x0 x1 x3 x4 x5
    = Cert.Agg.aggArr x1 (val_main_v69 (F := Ideal) x0 x1 x3 x4 x5) := rfl
theorem v85_eq : val_main_v85 (F := Ideal) x0 x1 x3 x4 x5 x6
    = addf (F := Ideal) (s := S50000x128) (φ := .f32) (val_main_v82 (F := Ideal) x0 x1 x3 x4 x5) (val_main_v46 (F := Ideal) x6) := rfl

/-- Layer three likewise. -/
theorem v107_eq : val_main_v107 (F := Ideal) x0 x1 x3 x4 x5 x6 x7
    = val_main_v31 (F := Ideal) (val_main_v105 (F := Ideal) x0 x1 x3 x4 x5 x6) x7 := rfl
theorem v120_eq : val_main_v120 (F := Ideal) x0 x1 x3 x4 x5 x6 x7
    = Cert.Agg.aggArr x1 (val_main_v107 (F := Ideal) x0 x1 x3 x4 x5 x6 x7) := rfl
theorem v123_eq : val_main_v123 (F := Ideal) x0 x1 x3 x4 x5 x6 x7 x8
    = addf (F := Ideal) (s := S50000x128) (φ := .f32) (val_main_v120 (F := Ideal) x0 x1 x3 x4 x5 x6 x7) (val_main_v46 (F := Ideal) x8) := rfl

/-- The entries of each layer's pre-normalisation output, from the entries of its input. -/
theorem layer1_ent : ent (val_main_v47 (F := Ideal) x0 x1 x3 x4)
    = Cert.Spec.bias (Cert.Agg.aggOp x1 (Cert.Spec.lin (ent x0) (entW x3))) (entB x4) := by
  rw [v47_eq, bias_ent, v44_eq, agg_ent, lin_ent]

theorem layer2_ent : ent (val_main_v85 (F := Ideal) x0 x1 x3 x4 x5 x6)
    = Cert.Spec.bias (Cert.Agg.aggOp x1 (Cert.Spec.lin (ent (val_main_v67 (F := Ideal) x0 x1 x3 x4)) (entW x5))) (entB x6) := by
  rw [v85_eq, bias_ent, v82_eq, agg_ent, v69_eq, lin_ent]

theorem layer3_ent : ent (val_main_v123 (F := Ideal) x0 x1 x3 x4 x5 x6 x7 x8)
    = Cert.Spec.bias (Cert.Agg.aggOp x1 (Cert.Spec.lin (ent (val_main_v105 (F := Ideal) x0 x1 x3 x4 x5 x6)) (entW x7))) (entB x8) := by
  rw [v123_eq, bias_ent, v120_eq, agg_ent, v107_eq, lin_ent]

end Cert.RefNet

end
-- ==== Proof.Val.RefNet2.lean ====
/-
  The reference's normalisation of a layer's output, read at an entry: every feature column is shifted by its mean over
  the 50000 nodes, scaled by the reciprocal square root of its variance plus the floor, and clipped at 0. The variance is
  the mean of the squared deviations from the column's mean (two passes over the column). Both normalisations in the
  program are the same chain of stages; each is read stage by stage from the array it normalises, which stays a name.
-/
import proofs.«429275_j68899865363005_1_alg».proof.Proof.Val.RefNet1

noncomputable section

open scoped BigOperators

namespace Cert.RefNet

open Cert.ReferenceIdeal Cert.ReferenceIdeal.Read Idealize.ShloMosaic Idealize.ShloMosaic.TcCoe Idealize.ShloMosaic.ValueIdx

variable (x0 : Arr) (x1 : Edg) (x3 : Wt) (x4 : Bs) (x5 : Wt) (x6 : Bs)

/-! ## The first normalisation -/

/-- The column means: the sum down column `j` from the zero start, over the node count. -/
theorem mean1 (j : Fin 128) : val_main_v50 (F := Ideal) x0 x1 x3 x4 (ix1 j)
    = Cert.Spec.meanR (ent (val_main_v47 (F := Ideal) x0 x1 x3 x4)) j := by
  rw [val_main_v50_apply, val_main_v48_apply, val_main_v49_apply, val_main_cst_9_apply, val_main_cst_10_apply]
  simp only [Ideal.hostDivf_def, Ideal.ofBits_def, Ideal.ofBits_zero_f32]
  unfold Cert.Spec.meanR Cert.Spec.nE
  have hs : ∑ k : Fin 50000, val_main_v47 (F := Ideal) x0 x1 x3 x4 (idx_main_v48 (ix1 j) k)
      = ∑ i : Fin 50000, ent (val_main_v47 (F := Ideal) x0 x1 x3 x4) i j :=
    Finset.sum_congr rfl fun k _ =>
      congrArg (val_main_v47 (F := Ideal) x0 x1 x3 x4) (funext fun a => Fin.ext (by match a with | ⟨0, _⟩ => rfl | ⟨1, _⟩ => rfl))
  rw [hs]

/-- The means broadcast over the rows (for the deviations that are squared). -/
theorem v52_read (i : Fin 50000) (j : Fin 128) : val_main_v52 (F := Ideal) x0 x1 x3 x4 (ix2 i j)
    = val_main_v50 (F := Ideal) x0 x1 x3 x4 (ix1 j) := by
  rw [val_main_v52_apply, val_main_v51_apply]
  exact congrArg _ (funext fun a => Fin.ext (by match a with | ⟨0, _⟩ => rfl))

/-- The means broadcast over the rows (for the deviations that are scaled). -/
theorem v59_read (i : Fin 50000) (j : Fin 128) : val_main_v59 (F := Ideal) x0 x1 x3 x4 (ix2 i j)
    = val_main_v50 (F := Ideal) x0 x1 x3 x4 (ix1 j) := by
  rw [val_main_v59_apply, val_main_v58_apply]
  exact congrArg _ (funext fun a => Fin.ext (by match a with | ⟨0, _⟩ => rfl))

/-- The squared deviation of an entry from its column's mean. -/
theorem v54_read (i : Fin 50000) (j : Fin 128) : val_main_v54 (F := Ideal) x0 x1 x3 x4 (ix2 i j)
    = (val_main_v47 (F := Ideal) x0 x1 x3 x4 (ix2 i j) - Cert.Spec.meanR (ent (val_main_v47 (F := Ideal) x0 x1 x3 x4)) j)
      * (val_main_v47 (F := Ideal) x0 x1 x3 x4 (ix2 i j) - Cert.Spec.meanR (ent (val_main_v47 (F := Ideal) x0 x1 x3 x4)) j) := by
  rw [val_main_v54_apply, val_main_v53_apply, v52_read, mean1]
  rfl

/-- The column variances: the mean of the squared deviations. -/
theorem var1 (j : Fin 128) : val_main_v57 (F := Ideal) x0 x1 x3 x4 (ix1 j)
    = Cert.Spec.varR (ent (val_main_v47 (F := Ideal) x0 x1 x3 x4)) j := by
  rw [val_main_v57_apply, val_main_v55_apply, val_main_v56_apply, val_main_cst_11_apply, val_main_cst_12_apply]
  simp only [Ideal.hostDivf_def, Ideal.ofBits_def, Ideal.ofBits_zero_f32]
  unfold Cert.Spec.varR Cert.Spec.nE
  have hs : ∑ k : Fin 50000, val_main_v54 (F := Ideal) x0 x1 x3 x4 (idx_main_v55 (ix1 j) k)
      = ∑ i : Fin 50000, (ent (val_main_v47 (F := Ideal) x0 x1 x3 x4) i j - Cert.Spec.meanR (ent (val_main_v47 (F := Ideal) x0 x1 x3 x4)) j)
          * (ent (val_main_v47 (F := Ideal) x0 x1 x3 x4) i j - Cert.Spec.meanR (ent (val_main_v47 (F := Ideal) x0 x1 x3 x4)) j) :=
    Finset.sum_congr rfl fun k _ => by
      have e : idx_main_v55 (ix1 j) k = ix2 k j :=
        funext fun a => Fin.ext (by match a with | ⟨0, _⟩ => rfl | ⟨1, _⟩ => rfl)
      rw [e, v54_read]
  rw [hs]

/-- The scale broadcast over the rows: the reciprocal square root of the variance plus the floor. -/
theorem v65_read (i : Fin 50000) (j : Fin 128) : val_main_v65 (F := Ideal) x0 x1 x3 x4 (ix2 i j)
    = Ideal.rsqrt (Cert.Spec.varR (ent (val_main_v47 (F := Ideal) x0 x1 x3 x4)) j + Cert.Spec.epsE) := by
  rw [val_main_v65_apply, val_main_v64_apply]
  have e : idx_main_v64 (idx_main_v65 (ix2 i j)) = ix1 j :=
    funext fun a => Fin.ext (by match a with | ⟨0, _⟩ => rfl)
  rw [e, val_main_v63_apply, val_main_v62_apply, var1, val_main_v61_apply, val_main_cst_13_apply]
  rfl

/-- The first normalisation, at an entry. -/
theorem bn1_read (i : Fin 50000) (j : Fin 128) : val_main_v67 (F := Ideal) x0 x1 x3 x4 (ix2 i j)
    = Cert.Spec.bnR (ent (val_main_v47 (F := Ideal) x0 x1 x3 x4)) i j := by
  rw [val_main_v67_apply, val_main_v66_apply, val_main_v60_apply, v59_read, mean1, v65_read,
    val_main_call1_v0_apply, val_main_call1_cst_apply]
  simp only [Ideal.maximumf_def, Ideal.mulf_def, Ideal.subf_def, Ideal.ofBits_def, Ideal.ofBits_zero_f32]
  rfl

theorem bn1_ent : ent (val_main_v67 (F := Ideal) x0 x1 x3 x4)
    = Cert.Spec.bnR (ent (val_main_v47 (F := Ideal) x0 x1 x3 x4)) :=
  funext fun i => funext fun j => bn1_read x0 x1 x3 x4 i j

/-! ## The second normalisation -/

/-- The column means. -/
theorem mean2 (j : Fin 128) : val_main_v88 (F := Ideal) x0 x1 x3 x4 x5 x6 (ix1 j)
    = Cert.Spec.meanR (ent (val_main_v85 (F := Ideal) x0 x1 x3 x4 x5 x6)) j := by
  rw [val_main_v88_apply, val_main_v86_apply, val_main_v87_apply, val_main_cst_17_apply, val_main_cst_18_apply]
  simp only [Ideal.hostDivf_def, Ideal.ofBits_def, Ideal.ofBits_zero_f32]
  unfold Cert.Spec.meanR Cert.Spec.nE
  have hs : ∑ k : Fin 50000, val_main_v85 (F := Ideal) x0 x1 x3 x4 x5 x6 (idx_main_v86 (ix1 j) k)
      = ∑ i : Fin 50000, ent (val_main_v85 (F := Ideal) x0 x1 x3 x4 x5 x6) i j :=
    Finset.sum_congr rfl fun k _ =>
      congrArg (val_main_v85 (F := Ideal) x0 x1 x3 x4 x5 x6) (funext fun a => Fin.ext (by match a with | ⟨0, _⟩ => rfl | ⟨1, _⟩ => rfl))
  rw [hs]

/-- The means broadcast over the rows (for the deviations that are squared). -/
theorem v90_read (i : Fin 50000) (j : Fin 128) : val_main_v90 (F := Ideal) x0 x1 x3 x4 x5 x6 (ix2 i j)
    = val_main_v88 (F := Ideal) x0 x1 x3 x4 x5 x6 (ix1 j) := by
  rw [val_main_v90_apply, val_main_v89_apply]
  exact congrArg _ (funext fun a => Fin.ext (by match a with | ⟨0, _⟩ => rfl))

/-- The means broadcast over the rows (for the deviations that are scaled). -/
theorem v97_read (i : Fin 50000) (j : Fin 128) : val_main_v97 (F := Ideal) x0 x1 x3 x4 x5 x6 (ix2 i j)
    = val_main_v88 (F := Ideal) x0 x1 x3 x4 x5 x6 (ix1 j) := by
  rw [val_main_v97_apply, val_main_v96_apply]
  exact congrArg _ (funext fun a => Fin.ext (by match a with | ⟨0, _⟩ => rfl))

/-- The squared deviation of an entry from its column's mean. -/
theorem v92_read (i : Fin 50000) (j : Fin 128) : val_main_v92 (F := Ideal) x0 x1 x3 x4 x5 x6 (ix2 i j)
    = (val_main_v85 (F := Ideal) x0 x1 x3 x4 x5 x6 (ix2 i j)
        - Cert.Spec.meanR (ent (val_main_v85 (F := Ideal) x0 x1 x3 x4 x5 x6)) j)
      * (val_main_v85 (F := Ideal) x0 x1 x3 x4 x5 x6 (ix2 i j)
        - Cert.Spec.meanR (ent (val_main_v85 (F := Ideal) x0 x1 x3 x4 x5 x6)) j) := by
  rw [val_main_v92_apply, val_main_v91_apply, v90_read, mean2]
  rfl

/-- The column variances. -/
theorem var2 (j : Fin 128) : val_main_v95 (F := Ideal) x0 x1 x3 x4 x5 x6 (ix1 j)
    = Cert.Spec.varR (ent (val_main_v85 (F := Ideal) x0 x1 x3 x4 x5 x6)) j := by
  rw [val_main_v95_apply, val_main_v93_apply, val_main_v94_apply, val_main_cst_19_apply, val_main_cst_20_apply]
  simp only [Ideal.hostDivf_def, Ideal.ofBits_def, Ideal.ofBits_zero_f32]
  unfold Cert.Spec.varR Cert.Spec.nE
  have hs : ∑ k : Fin 50000, val_main_v92 (F := Ideal) x0 x1 x3 x4 x5 x6 (idx_main_v93 (ix1 j) k)
      = ∑ i : Fin 50000, (ent (val_main_v85 (F := Ideal) x0 x1 x3 x4 x5 x6) i j - Cert.Spec.meanR (ent (val_main_v85 (F := Ideal) x0 x1 x3 x4 x5 x6)) j)
          * (ent (val_main_v85 (F := Ideal) x0 x1 x3 x4 x5 x6) i j - Cert.Spec.meanR (ent (val_main_v85 (F := Ideal) x0 x1 x3 x4 x5 x6)) j) :=
    Finset.sum_congr rfl fun k _ => by
      have e : idx_main_v93 (ix1 j) k = ix2 k j :=
        funext fun a => Fin.ext (by match a with | ⟨0, _⟩ => rfl | ⟨1, _⟩ => rfl)
      rw [e, v92_read]
  rw [hs]

/-- The scale broadcast over the rows. -/
theorem v103_read (i : Fin 50000) (j : Fin 128) : val_main_v103 (F := Ideal) x0 x1 x3 x4 x5 x6 (ix2 i j)
    = Ideal.rsqrt (Cert.Spec.varR (ent (val_main_v85 (F := Ideal) x0 x1 x3 x4 x5 x6)) j + Cert.Spec.epsE) := by
  rw [val_main_v103_apply, val_main_v102_apply]
  have e : idx_main_v102 (idx_main_v103 (ix2 i j)) = ix1 j :=
    funext fun a => Fin.ext (by match a with | ⟨0, _⟩ => rfl)
  rw [e, val_main_v101_apply, val_main_v100_apply, var2, val_main_v99_apply, val_main_cst_21_apply]
  rfl

/-- The second normalisation, at an entry. -/
theorem bn2_read (i : Fin 50000) (j : Fin 128) : val_main_v105 (F := Ideal) x0 x1 x3 x4 x5 x6 (ix2 i j)
    = Cert.Spec.bnR (ent (val_main_v85 (F := Ideal) x0 x1 x3 x4 x5 x6)) i j := by
  rw [val_main_v105_apply, val_main_v104_apply, val_main_v98_apply, v97_read, mean2, v103_read,
    val_main_call2_v0_apply, val_main_call2_cst_apply]
  simp only [Ideal.maximumf_def, Ideal.mulf_def, Ideal.subf_def, Ideal.ofBits_def, Ideal.ofBits_zero_f32]
  rfl

theorem bn2_ent : ent (val_main_v105 (F := Ideal) x0 x1 x3 x4 x5 x6)
    = Cert.Spec.bnR (ent (val_main_v85 (F := Ideal) x0 x1 x3 x4 x5 x6)) :=
  funext fun i => funext fun j => bn2_read x0 x1 x3 x4 x5 x6 i j

end Cert.RefNet

end
-- ==== Proof.LibRows.lean ====
/-
  Two host operations read at an element, for any extents: a ROW GATHER (`table[idx]` over a rank-2 table: result row `e`
  is the table's row named by start index `e`, read signed and clamped into the table) and a ROW SCATTER-ADD onto a rank-2
  operand (`operand.at[idx].add(updates)`: element `(n, q)` of the result is the operand's plus the sum of the updates'
  `(e, q)` over the update rows `e` whose start index, read signed and not clamped, is `n`; a row landing outside the
  operand contributes nothing).
-/
import Idealize.ShloMosaic.Lib.ValueIdx
import Idealize.ShloMosaic.PureOps.Ideal

noncomputable section

open scoped BigOperators

namespace Cert.LibRows

open Idealize.ShloMosaic Idealize.ShloMosaic.ValueIdx

/-! ## The row gather -/

/-- The start-indices index a result index `(e, q)` reads, whatever the component: row `e` of the index column
    (the result's one batch axis is axis 0, which reads the start indices' axis 0; the index vector's axis holds the
    component, and a start index has one). -/
theorem gather_siIdx {N C E : Nat} (d : GatherDims ⟨2, ![N, C]⟩ ⟨2, ![E, 1]⟩ ⟨2, ![E, C]⟩)
    (hoff : d.offsetDims = [1]) (hsim : d.startIndexMap = [0]) (hivd : d.indexVectorDim = 1)
    (e : Fin E) (q : Fin C) (c : Fin d.startIndexMap.length) :
    d.siIdx (ix2 e q) c = ix2 e (0 : Fin 1) := by
  obtain ⟨od, cd, ob, sb, sm, iv, ss, wf⟩ := d
  dsimp only at hoff hsim hivd c ⊢
  subst hoff hsim hivd
  funext b
  apply Fin.ext
  match b with
  | ⟨0, _⟩ => rfl
  | ⟨1, _⟩ => exact Nat.lt_one_iff.mp c.isLt

/-- Axis 0 of the operand index: the start index of row `e`, read signed and clamped into the table (the axis is
    collapsed, slice size 1: no batching and no offset coordinate). -/
theorem gather_operandIdx_row {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (q : Fin C) :
    (d.operandIdx (ix2 e q) idx (0 : Fin 2)).val = min (idx (ix2 e (0 : Fin 1))).toInt.toNat (N - 1) := by
  have hsl : d.sliceSizes 0 = 1 := d.slice_collapsed 0 (by rw [hcoll]; exact List.mem_singleton.mpr rfl)
  have h0 : (0 : Fin 2) ∈ d.startIndexMap := by rw [hsim]; exact List.mem_singleton.mpr rfl
  have hc : (0 : Fin 2) ∉ d.sKept := fun h => ((d.mem_sKept 0).mp h).1 (by rw [hcoll]; exact List.mem_singleton.mpr rfl)
  have hb : (0 : Fin 2) ∉ d.operandBatchingDims := by rw [hob]; exact List.not_mem_nil
  show d.start (ix2 e q) idx 0 + d.batchCoord (ix2 e q) 0 + d.offCoord (ix2 e q) 0 = _
  rw [d.batchCoord_eq_zero _ _ hb, d.offCoord_eq_zero _ _ hc, Nat.add_zero]
  unfold GatherDims.start
  rw [dif_pos h0, gather_siIdx d hoff hsim hivd, hsl]
  rfl

/-- Axis 1 of the operand index: the result's column (the start index map does not name the axis, it is not a
    batching axis, and it is the one kept axis, read by the result's one offset axis). -/
theorem gather_operandIdx_col {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0])
    (idx : IVec ⟨2, ![E, 1]⟩ w) (e : Fin E) (q : Fin C) :
    (d.operandIdx (ix2 e q) idx (1 : Fin 2)).val = q.val := by
  obtain ⟨od, cd, ob, sb, sm, iv, ss, wf⟩ := d
  dsimp only at hoff hcoll hob hsim
  subst hoff hcoll hob hsim
  have h1 : (1 : Fin 2) ∉ ([0] : List (Fin 2)) := by decide
  simp only [GatherDims.operandIdx]
  rw [GatherDims.batchCoord_eq_zero _ _ _ List.not_mem_nil]
  unfold GatherDims.start GatherDims.offCoord
  rw [dif_neg h1, dif_pos ((GatherDims.mem_sKept _ _).mpr ⟨h1, List.not_mem_nil⟩), Nat.zero_add]
  rfl

/-- THE ROW GATHER: the dimension numbers are the printed ones of `table[idx]` over a rank-2 table with the start
    indices an [E × 1] column (each hypothesis holds of a printed record by `rfl`). -/
theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q)
      = x (ix2 (⟨min (idx (ix2 e (0 : Fin 1))).toInt.toNat (N - 1), by omega⟩ : Fin N) q) := by
  unfold Host.gather
  congr 1
  funext a
  apply Fin.ext
  match a with
  | ⟨0, _⟩ => exact gather_operandIdx_row d hoff hcoll hob hsim hivd idx e q
  | ⟨1, _⟩ => exact gather_operandIdx_col d hoff hcoll hob hsim idx e q

/-! ## The row scatter-add -/

/-- The scatter-indices index an update index `(e, q')` reads, whatever the component: row `e` of the index column
    (the updates' one scatter axis is axis 0, which reads the scatter indices' axis 0). -/
theorem scatter_siIdx {N C E : Nat} (d : ScatterDims ⟨2, ![N, C]⟩ ⟨2, ![E, 1]⟩ ⟨2, ![E, C]⟩)
    (huw : d.updateWindowDims = [1]) (hsd : d.scatterDimsToOperandDims = [0]) (hivd : d.indexVectorDim = 1)
    (e : Fin E) (q' : Fin C) (c : Fin d.scatterDimsToOperandDims.length) :
    d.siIdx (ix2 e q') c = ix2 e (0 : Fin 1) := by
  obtain ⟨uw, iw, sd, iv, wf⟩ := d
  dsimp only at huw hsd hivd c ⊢
  subst huw hsd hivd
  funext b
  apply Fin.ext
  match b with
  | ⟨0, _⟩ => rfl
  | ⟨1, _⟩ => exact Nat.lt_one_iff.mp c.isLt

/-- On axis 0 the window starts at the index word of row `e`, read signed and not clamped. -/
theorem scatter_start_row {N C E w : Nat} (d : ScatterDims ⟨2, ![N, C]⟩ ⟨2, ![E, 1]⟩ ⟨2, ![E, C]⟩)
    (huw : d.updateWindowDims = [1]) (hsd : d.scatterDimsToOperandDims = [0]) (hivd : d.indexVectorDim = 1)
    (idx : IVec ⟨2, ![E, 1]⟩ w) (e : Fin E) (q' : Fin C) :
    d.start (ix2 e q') idx (0 : Fin 2) = (idx (ix2 e (0 : Fin 1))).toInt := by
  have h0 : (0 : Fin 2) ∈ d.scatterDimsToOperandDims := by rw [hsd]; exact List.mem_singleton.mpr rfl
  unfold ScatterDims.start
  rw [dif_pos h0, scatter_siIdx d huw hsd hivd]

/-- On axis 1 it starts at 0: the map does not name that axis. -/
theorem scatter_start_col {N C E w : Nat} (d : ScatterDims ⟨2, ![N, C]⟩ ⟨2, ![E, 1]⟩ ⟨2, ![E, C]⟩)
    (hsd : d.scatterDimsToOperandDims = [0])
    (idx : IVec ⟨2, ![E, 1]⟩ w) (j : (⟨2, ![E, C]⟩ : Shape).Idx) :
    d.start j idx (1 : Fin 2) = 0 := by
  have h1 : (1 : Fin 2) ∉ d.scatterDimsToOperandDims := by
    rw [hsd]; exact (show (1 : Fin 2) ∉ ([0] : List (Fin 2)) by decide)
  unfold ScatterDims.start
  rw [dif_neg h1]

/-- Axis 0 is the inserted axis: no window coordinate there. -/
theorem scatter_window_row {N C E : Nat} (d : ScatterDims ⟨2, ![N, C]⟩ ⟨2, ![E, 1]⟩ ⟨2, ![E, C]⟩)
    (hiw : d.insertedWindowDims = [0]) (j : (⟨2, ![E, C]⟩ : Shape).Idx) :
    d.window j (0 : Fin 2) = 0 := by
  have h0 : (0 : Fin 2) ∉ d.sKept := by
    simp [ScatterDims.sKept, Shape.kept, List.mem_filter, hiw]
  unfold ScatterDims.window
  rw [dif_neg h0]

/-- Axis 1 is the one kept axis, read by the updates' one window axis: its coordinate is the update's column. -/
theorem scatter_window_col {N C E : Nat} (d : ScatterDims ⟨2, ![N, C]⟩ ⟨2, ![E, 1]⟩ ⟨2, ![E, C]⟩)
    (huw : d.updateWindowDims = [1]) (hiw : d.insertedWindowDims = [0]) (e : Fin E) (q' : Fin C) :
    d.window (ix2 e q') (1 : Fin 2) = q'.val := by
  have h1 : (1 : Fin 2) ∈ d.sKept := by
    simp [ScatterDims.sKept, Shape.kept, List.mem_filter, hiw]
  obtain ⟨uw, iw, sd, iv, wf⟩ := d
  dsimp only at huw hiw
  subst huw hiw
  unfold ScatterDims.window
  rw [dif_pos h1]
  rfl

/-- WHERE AN UPDATE LANDS: update `(e, q')` lands at `(n, q)` exactly when its row's index word, read signed, is `n`
    and the columns agree. On axis 0 the landing coordinate is the index word (start) plus 0 (no window coordinate),
    in range exactly when it is some `n` below `N`; on axis 1 it is 0 plus `q'`, always in range. -/
theorem scatter_resultIdx_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (q' : Fin C) (n : Fin N) (q : Fin C) :
    d.resultIdx? (ix2 e q') idx = some (ix2 n q)
      ↔ ((idx (ix2 e (0 : Fin 1))).toInt = (n.val : ℤ) ∧ q' = q) := by
  have hs0 := scatter_start_row d huw hsd hivd idx e q'
  have hs1 := scatter_start_col d hsd idx (ix2 e q')
  have hw0 := scatter_window_row d hiw (ix2 e q')
  have hw1 := scatter_window_col d huw hiw e q'
  have hN : (⟨2, ![N, C]⟩ : Shape).size (0 : Fin 2) = N := rfl
  have hC : (⟨2, ![N, C]⟩ : Shape).size (1 : Fin 2) = C := rfl
  have hn := n.isLt
  have hq' := q'.isLt
  unfold ScatterDims.resultIdx?
  constructor
  · intro h
    split at h
    · next hin =>
      -- in range on both axes: compare the landing index with (n, q) coordinate by coordinate
      have hf := Option.some.inj h
      have c0 : (d.start (ix2 e q') idx 0 + d.window (ix2 e q') 0).toNat = n.val :=
        congrArg (fun f => (f (0 : Fin 2)).val) hf
      have c1 : (d.start (ix2 e q') idx 1 + d.window (ix2 e q') 1).toNat = q.val :=
        congrArg (fun f => (f (1 : Fin 2)).val) hf
      have b0 := hin 0
      rw [hs0, hw0] at c0 b0
      rw [hs1, hw1] at c1
      exact ⟨by omega, Fin.ext (by omega)⟩
    · exact absurd h (by simp)
  · rintro ⟨hi, rfl⟩
    have p0 : 0 ≤ d.start (ix2 e q') idx 0 + d.window (ix2 e q') 0
        ∧ d.start (ix2 e q') idx 0 + d.window (ix2 e q') 0 < (⟨2, ![N, C]⟩ : Shape).size (0 : Fin 2) := by
      rw [hs0, hw0, hi, hN]; omega
    have p1 : 0 ≤ d.start (ix2 e q') idx 1 + d.window (ix2 e q') 1
        ∧ d.start (ix2 e q') idx 1 + d.window (ix2 e q') 1 < (⟨2, ![N, C]⟩ : Shape).size (1 : Fin 2) := by
      rw [hs1, hw1, hC]; omega
    rw [dif_pos (Fin.forall_fin_two.mpr ⟨p0, p1⟩)]
    congr 1
    funext a
    apply Fin.ext
    match a with
    | ⟨0, _⟩ =>
      show (d.start (ix2 e q') idx 0 + d.window (ix2 e q') 0).toNat = n.val
      rw [hs0, hw0, hi]; omega
    | ⟨1, _⟩ =>
      show (d.start (ix2 e q') idx 1 + d.window (ix2 e q') 1).toNat = q'.val
      rw [hs1, hw1]; omega

/-- THE ROW SCATTER-ADD at the ideal instance: the dimension numbers are the printed ones of a segment sum over rows
    (each hypothesis holds of a printed record by `rfl`). -/
theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w)
    (upd : (⟨2, ![E, C]⟩ : Shape).Idx → EReal) (n : Fin N) (q : Fin C) :
    (Host.scatterAdd (F := Ideal) (φ := .f32) d x idx upd : (⟨2, ![N, C]⟩ : Shape).Idx → EReal) (ix2 n q)
      = x (ix2 n q)
        + ∑ e ∈ Finset.univ.filter (fun e : Fin E => (idx (ix2 e (0 : Fin 1))).toInt = (n.val : ℤ)), upd (ix2 e q) := by
  -- every update index is (row, column): the landing criterion read at it
  have key : ∀ j : (⟨2, ![E, C]⟩ : Shape).Idx, d.resultIdx? j idx = some (ix2 n q)
      ↔ ((idx (ix2 (j 0) (0 : Fin 1))).toInt = (n.val : ℤ) ∧ j 1 = q) := fun j => by
    have := scatter_resultIdx_iff d huw hiw hsd hivd idx (j 0) (j 1) n q
    rw [congrArg (fun k => d.resultIdx? k idx) (eq_ix2 j)]
    exact this
  -- an update landing at (n, q) sits in column q
  have back : ∀ j : (⟨2, ![E, C]⟩ : Shape).Idx, d.resultIdx? j idx = some (ix2 n q) → ix2 (j 0) q = j := fun j hj => by
    rw [← ((key j).mp hj).2]; exact (eq_ix2 j).symm
  show x (ix2 n q) + ∑ j ∈ Finset.univ.filter (fun j => d.resultIdx? j idx = some (ix2 n q)), upd j = _
  congr 1
  -- so the updates landing at (n, q) are the (e, q) over the rows e whose index word reads n: re-index by the row
  refine Finset.sum_bij' (fun j _ => j 0) (fun e _ => ix2 e q) ?_ ?_ ?_ ?_ ?_
  · intro j hj
    exact Finset.mem_filter.mpr ⟨Finset.mem_univ _, ((key j).mp (Finset.mem_filter.mp hj).2).1⟩
  · intro e he
    exact Finset.mem_filter.mpr ⟨Finset.mem_univ _, (key (ix2 e q)).mpr ⟨(Finset.mem_filter.mp he).2, rfl⟩⟩
  · intro j hj
    exact back j (Finset.mem_filter.mp hj).2
  · intro e _
    rfl
  · intro j hj
    exact congrArg upd (back j (Finset.mem_filter.mp hj).2).symm

end Cert.LibRows

end
-- ==== Proof.Val.RefNet3.lean ====
/-
  The reference's pooling and classifier, read at an entry. The rows of the last layer are added into their graphs'
  rows (a row goes to the graph whose id its word reads, signed), each graph's row is divided by the graph's node count
  clipped below at 1, and the class scores are the pooled row against the classifier's rows plus its bias.
-/
import proofs.«429275_j68899865363005_1_alg».proof.Proof.Val.RefNet1
import proofs.«429275_j68899865363005_1_alg».proof.Proof.LibRows

noncomputable section

open scoped BigOperators

namespace Cert.RefNet

open Cert.ReferenceIdeal Cert.ReferenceIdeal.Read Idealize.ShloMosaic Idealize.ShloMosaic.TcCoe Idealize.ShloMosaic.ValueIdx

/-- The graph ids. -/
abbrev Gid := (⟨S50000, .i32⟩ : BufTy).Contents (Elt Ideal)

/-- The per-graph node count clipped below at 1. -/
def cntR (x2 : (⟨S50000, .i32⟩ : BufTy).Contents (Elt Ideal)) : Fin 512 → EReal :=
  fun g => val_main_v132 (F := Ideal) x2 (ValueIdx.ix1 g)

variable (x0 : Arr) (x1 : Edg) (x2 : Gid) (x3 : Wt) (x4 : Bs) (x5 : Wt) (x6 : Bs) (x7 : Wt) (x8 : Bs)
  (x9 : (⟨S10x128, .f32⟩ : BufTy).Contents (Elt Ideal)) (x10 : (⟨S10, .f32⟩ : BufTy).Contents (Elt Ideal))

/-- The graph-id column read at row `e` is the `e`-th graph id. -/
theorem v125_read (e : Fin 50000) : val_main_v125 (F := Ideal) x2 (ix2 e (0 : Fin 1)) = x2 (ix1 e) := by
  rw [val_main_v125_apply]
  exact congrArg x2 (funext fun a => Fin.ext (by match a with | ⟨0, _⟩ => rfl))

/-- The segment sums: entry `(g, j)` is the sum of column `j` over the rows whose graph id is `g` (the rows are added
    onto a zero array). -/
theorem seg_read (g : Fin 512) (j : Fin 128) :
    val_main_v126 (F := Ideal) x0 x1 x2 x3 x4 x5 x6 x7 x8 (ix2 g j)
      = Cert.Spec.seg (ent (val_main_v123 (F := Ideal) x0 x1 x3 x4 x5 x6 x7 x8)) (fun n => x2 (ix1 n)) g j := by
  unfold val_main_v126
  generalize val_main_v123 (F := Ideal) x0 x1 x3 x4 x5 x6 x7 x8 = H
  rw [Cert.LibRows.scatterAdd_rows_apply scatter_S512x128_S50000x1_S50000x128_1_0_0_1 rfl rfl rfl rfl]
  rw [val_main_v124_apply, val_main_cst_25_apply, Ideal.ofBits_def, Ideal.ofBits_zero_f32, zero_add]
  unfold Cert.Spec.seg
  simp only [v125_read]

/-- The divisor broadcast along a graph's row is the graph's clipped count. -/
theorem cnt_read (g : Fin 512) (j : Fin 128) : val_main_v134 (F := Ideal) x2 (ix2 g j) = cntR x2 g := by
  rw [val_main_v134_apply, val_main_v133_apply]
  unfold cntR
  exact congrArg _ (funext fun a => Fin.ext (by match a with | ⟨0, _⟩ => rfl))

/-- The class scores at `(g, k)`. -/
theorem pool_read (g : Fin 512) (k : Fin 10) :
    val_main_v140 (F := Ideal) x0 x1 x2 x3 x4 x5 x6 x7 x8 x9 x10 (ix2 g k)
      = Cert.Spec.pool (ent (val_main_v123 (F := Ideal) x0 x1 x3 x4 x5 x6 x7 x8)) (fun n => x2 (ix1 n)) (cntR x2)
          (fun k j => x9 (ix2 k j)) (fun k => x10 (ix1 k)) g k := by
  rw [val_main_v140_apply, val_main_v137_apply, val_main_v139_apply, val_main_v138_apply, Ideal.addf_def]
  unfold Cert.Spec.pool
  have hb : idx_main_v138 (idx_main_v139 (ix2 g k)) = ix1 k :=
    funext fun a => Fin.ext (by match a with | ⟨0, _⟩ => rfl)
  rw [hb]
  refine congrArg (· + x10 (ix1 k)) (Finset.sum_congr rfl fun j _ => ?_)
  have el : lidx_main_v137 (ix2 g k) j = ix2 g j :=
    funext fun a => Fin.ext (by match a with | ⟨0, _⟩ => rfl | ⟨1, _⟩ => rfl)
  have er : idx_main_v136 (ridx_main_v137 (ix2 g k) j) = ix2 k j :=
    funext fun a => Fin.ext (by match a with | ⟨0, _⟩ => rfl | ⟨1, _⟩ => rfl)
  rw [val_main_v136_apply, el, er, val_main_v135_apply, Ideal.hostDivf_def, seg_read, cnt_read]

end Cert.RefNet

end
-- ==== Proof.Val.RefNet.lean ====
/-
  The reference program's result as the shared specification: the class scores it returns are the three-layer network
  with two-pass normalisation, applied to the entries of its arguments, with the edge aggregation as the one shared
  operator and the per-graph counts as the program's own clipped counts. Every step is an exact reading of a stage at
  an entry; no finiteness of the inputs is used.
-/
import proofs.«429275_j68899865363005_1_alg».proof.Proof.Val.RefNet2
import proofs.«429275_j68899865363005_1_alg».proof.Proof.Val.RefNet3

noncomputable section

open scoped BigOperators

namespace Cert.RefNet

open Cert.ReferenceIdeal Cert.ReferenceIdeal.Read Idealize.ShloMosaic Idealize.ShloMosaic.TcCoe Idealize.ShloMosaic.ValueIdx

/-- The reference's class scores at graph `g` and class `k`. -/
theorem ref_net (x0 : (⟨S50000x128, .f32⟩ : BufTy).Contents (Elt Ideal)) (x1 : (⟨S2x600000, .i32⟩ : BufTy).Contents (Elt Ideal))
    (x2 : (⟨S50000, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S10x128, .f32⟩ : BufTy).Contents (Elt Ideal))
    (x10 : (⟨S10, .f32⟩ : BufTy).Contents (Elt Ideal)) (g : Fin 512) (k : Fin 10) :
    val_main_v140 (F := Ideal) x0 x1 x2 x3 x4 x5 x6 x7 x8 x9 x10 (ValueIdx.ix2 g k)
      = Cert.Spec.netR (Cert.Agg.aggOp x1) (fun i k => x0 (ix2 i k)) (fun j k => x3 (ix2 j k)) (fun j => x4 (ix1 j))
          (fun j k => x5 (ix2 j k)) (fun j => x6 (ix1 j)) (fun j k => x7 (ix2 j k)) (fun j => x8 (ix1 j))
          (fun n => x2 (ix1 n)) (cntR x2) (fun k j => x9 (ix2 k j)) (fun k => x10 (ix1 k)) g k := by
  rw [pool_read, layer3_ent, bn2_ent, layer2_ent, bn1_ent, layer1_ent]
  rfl

end Cert.RefNet

end
-- ==== Proof.KI.Val0.lean ====
/-
  Region 0 on exact values: the output of the dense layer.

  With exact arithmetic the tile product is an honest matrix product, and the ten row tiles laid side by side
  are the whole product. The result: after the region the output array holds, at row i and column j,

      ∑ k, x[i,k] * w[j,k]

  where x and w are the two input arrays as they stand when the region is entered. On the extended reals the
  sum of products is meaningful for every input, so nothing is assumed about the entries.
-/
import proofs.«429275_j68899865363005_1_alg».proof.Proof.KI.R0
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.ValueIdx
open Idealize.ShloMosaic.Pipeline (Dat)

/-! ## The contraction of the tile product

Both operands are contracted along their second axis: entry (p, q) of the product pairs row p of the left
operand with row q of the right one. The four statements below say which coordinate of which operand each
output coordinate and the summation index go to. -/

/-- Row of the left operand: the row of the output entry. -/
theorem tdot_lhs_0 (i : S5000x128.Idx) (q : dot_S5000x128_S128x128_S5000x128_1_1_0_0_n_n.contr.Idx) :
    (dot_S5000x128_S128x128_S5000x128_1_1_0_0_n_n.lhsIdx i q 0).val = (i 0).val := by
  unfold DotDims.lhsIdx
  rw [dif_neg (show ¬(0 : Fin S5000x128.rank) ∈ dot_S5000x128_S128x128_S5000x128_1_1_0_0_n_n.lhsBatch by decide),
    dif_pos (show (0 : Fin S5000x128.rank) ∈ dot_S5000x128_S128x128_S5000x128_1_1_0_0_n_n.lhsNonContracting by decide)]
  rfl
/-- Column of the left operand: the summation index. -/
theorem tdot_lhs_1 (i : S5000x128.Idx) (q : dot_S5000x128_S128x128_S5000x128_1_1_0_0_n_n.contr.Idx) :
    (dot_S5000x128_S128x128_S5000x128_1_1_0_0_n_n.lhsIdx i q 1).val = (q ⟨0, by decide⟩).val :=
  dot_S5000x128_S128x128_S5000x128_1_1_0_0_n_n.lhsIdx_val_of_single rfl i q
/-- Row of the right operand: the column of the output entry. -/
theorem tdot_rhs_0 (i : S5000x128.Idx) (q : dot_S5000x128_S128x128_S5000x128_1_1_0_0_n_n.contr.Idx) :
    (dot_S5000x128_S128x128_S5000x128_1_1_0_0_n_n.rhsIdx i q 0).val = (i 1).val := by
  unfold DotDims.rhsIdx
  rw [dif_neg (show ¬(0 : Fin S128x128.rank) ∈ dot_S5000x128_S128x128_S5000x128_1_1_0_0_n_n.rhsBatch by decide),
    dif_pos (show (0 : Fin S128x128.rank) ∈ dot_S5000x128_S128x128_S5000x128_1_1_0_0_n_n.rhsNonContracting by decide)]
  rfl
/-- Column of the right operand: the summation index. -/
theorem tdot_rhs_1 (i : S5000x128.Idx) (q : dot_S5000x128_S128x128_S5000x128_1_1_0_0_n_n.contr.Idx) :
    (dot_S5000x128_S128x128_S5000x128_1_1_0_0_n_n.rhsIdx i q 1).val = (q ⟨0, by decide⟩).val :=
  dot_S5000x128_S128x128_S5000x128_1_1_0_0_n_n.rhsIdx_val_of_single rfl i q

/-! ## One tile -/

/-- The tile product into a zero accumulator, entry (p, q): the sum over k of x[p,k] * w[q,k]. The two
    conversions to the narrower float format change nothing on exact values. -/
theorem tile_product_apply (x : Vec Ideal S5000x128 .f32) (w : Vec Ideal S128x128 .f32) (p : Fin 5000) (q : Fin 128) :
    k0_pay1 (F := Ideal) x w (ix2 p q) = ∑ k : Fin 128, x (ix2 p k) * w (ix2 q k) := by
  unfold k0_pay1
  try simp only [shapeCast_self]
  refine (Ideal.matmul_constant_zero_apply dot_S5000x128_S128x128_S5000x128_1_1_0_0_n_n none _ _ (ix2 p q)).trans ?_
  rw [← Equiv.sum_comp (contrEquiv1 dot_S5000x128_S128x128_S5000x128_1_1_0_0_n_n 128 rfl rfl).symm]
  refine Finset.sum_congr rfl fun k _ => ?_
  have hk := contrEquiv1_symm_val dot_S5000x128_S128x128_S5000x128_1_1_0_0_n_n 128 rfl rfl k
  have el : dot_S5000x128_S128x128_S5000x128_1_1_0_0_n_n.lhsIdx (ix2 p q)
      ((contrEquiv1 dot_S5000x128_S128x128_S5000x128_1_1_0_0_n_n 128 rfl rfl).symm k) = ix2 p k :=
    funext fun a => Fin.ext (by
      match a with
      | ⟨0, _⟩ => exact tdot_lhs_0 _ _
      | ⟨1, _⟩ => exact (tdot_lhs_1 _ _).trans hk)
  have er : dot_S5000x128_S128x128_S5000x128_1_1_0_0_n_n.rhsIdx (ix2 p q)
      ((contrEquiv1 dot_S5000x128_S128x128_S5000x128_1_1_0_0_n_n 128 rfl rfl).symm k) = ix2 q k :=
    funext fun a => Fin.ext (by
      match a with
      | ⟨0, _⟩ => exact tdot_rhs_0 _ _
      | ⟨1, _⟩ => exact (tdot_rhs_1 _ _).trans hk)
  show x (dot_S5000x128_S128x128_S5000x128_1_1_0_0_n_n.lhsIdx (ix2 p q) _) * w (dot_S5000x128_S128x128_S5000x128_1_1_0_0_n_n.rhsIdx (ix2 p q) _) = _
  rw [el, er]

/-- The same entry when the two tiles are known to be pieces of larger arrays X and W: if row p of the x tile is
    row i of X and the w tile is W itself, the entry is the sum over k of X[i,k] * W[j,k], j being q. -/
theorem tile_entry (X : S50000x128.Idx → EReal) (W : S128x128.Idx → EReal)
    (xt : Vec Ideal S5000x128 .f32) (wt : Vec Ideal S128x128 .f32) (n : Nat)
    (hx : ∀ (p : Fin 5000) (k : Fin 128) (i : Fin 50000), i.val = n * 5000 + p.val → xt (ix2 p k) = X (ix2 i k))
    (hw : ∀ (a : Fin 128) (b : Fin 128), wt (ix2 a b) = W (ix2 a b))
    (p : Fin 5000) (q : Fin 128) (i : Fin 50000) (j : Fin 128) (hi : i.val = n * 5000 + p.val) (hj : j.val = q.val) :
    k0_pay1 (F := Ideal) xt wt (ix2 p q) = ∑ k : Fin 128, X (ix2 i k) * W (ix2 j k) := by
  obtain rfl : j = q := Fin.ext hj
  refine (tile_product_apply xt wt p j).trans ?_
  exact Finset.sum_congr rfl fun k _ => by rw [hx p k i hi, hw j k]

/-! ## The whole array -/

variable (V : (c : Dev nD) → (b : Ref sig .tc) → Buf (Elt Ideal) ((c : Thread nD τ).loc b))

/-- The input array x on entry, as a 50000 × 128 table of extended reals. -/
abbrev xin (c : Dev nD) : S50000x128.Idx → EReal := V c (Pipeline.arrRef spec0 0)
/-- The weight array on entry, as a 128 × 128 table. -/
abbrev wts (c : Dev nD) : S128x128.Idx → EReal := V c (Pipeline.arrRef spec0 1)

/-- The layer: entry (i, j) is the sum over k of X[i,k] * W[j,k]. -/
def layer0 (X : S50000x128.Idx → EReal) (W : S128x128.Idx → EReal) : S50000x128.Idx → EReal :=
  fun i => ∑ k : Fin 128, X (ix2 (i 0 : Fin 50000) k) * W (ix2 (i 1 : Fin 128) k)

theorem zeros2 : (![0, 0] : Fin 2 → Nat) = fun _ => 0 := funext fun a => by fin_cases a <;> rfl

/-- Where the three windows sit at grid point t: the x tile and the output tile are the t-th row tile, the
    weights never move. -/
theorem where0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the x tile at point t is row 5000 t + p of x. -/
theorem tile0_x_apply (c : Dev nD) (t : Fin cfg0.N) (p : Fin 5000) (k : Fin 128) (i : Fin 50000)
    (hi : i.val = t.val * 5000 + p.val) :
    (tile0 (F := Ideal) V c 0 t : Vec Ideal S5000x128 .f32) (ix2 p k) = xin V c (ix2 i k) := by
  obtain ⟨e00, e01, -⟩ := where0 t
  show xin V c (((cfg0.win 0).blk t).view.emb (ix2 p k)) = xin V c (ix2 i k)
  refine congrArg (xin V c) (funext fun a => Fin.ext ?_)
  match a with
  | ⟨0, _⟩ => show win0_0.index t (0 : Fin 2) * 5000 + 1 * p.val = i.val; omega
  | ⟨1, _⟩ => show win0_0.index t (1 : Fin 2) * 128 + 1 * k.val = k.val; omega

/-- The w tile is the weight array, at every point. -/
theorem tile0_w_apply (c : Dev nD) (t : Fin cfg0.N) (a : Fin 128) (b : Fin 128) :
    (tile0 (F := Ideal) V c 1 t : Vec Ideal S128x128 .f32) (ix2 a b) = wts V c (ix2 a b) := by
  obtain ⟨-, -, e10, e11, -⟩ := where0 t
  show wts V c (((cfg0.win 1).blk t).view.emb (ix2 a b)) = wts V c (ix2 a b)
  refine congrArg (wts V c) (funext fun d => Fin.ext ?_)
  match d with
  | ⟨0, _⟩ => show win0_1.index t (0 : Fin 2) * 128 + 1 * a.val = a.val; omega
  | ⟨1, _⟩ => show win0_1.index t (1 : Fin 2) * 128 + 1 * b.val = b.val; omega

/-- What point t writes back is the t-th row tile of the layer's output. -/
theorem wrote_back0 (c : Dev nD) (t : Fin cfg0.N) :
    (dat0 (F := Ideal) V c).flushed 2 t
      = ((cfg0.win 2).blk t).view.read (Elt Ideal) (layer0 (xin V c) (wts V c)) := by
  show (cfg0.win 2).cut (grid0.coords t) ((dat0 (F := Ideal) V c).after 2 t) = _
  rw [after0_out]
  unfold prod0
  rw [View.canon_unit_zero zeros2]
  simp only [View.ld_unit_zero (S := S5000x128) zeros2, View.ld_unit_zero (S := S128x128) zeros2]
  obtain ⟨-, -, -, -, e20, e21⟩ := where0 t
  funext y
  obtain ⟨p, q, rfl⟩ : ∃ (p : Fin 5000) (q : Fin 128), y = ix2 p q := ⟨y 0, y 1, eq_ix2 y⟩
  have h0 : ((((cfg0.win 2).blk t).view.emb (ix2 p q)) 0).val = t.val * 5000 + p.val := by
    show win0_2.index t (0 : Fin 2) * 5000 + 1 * p.val = _; omega
  have h1 : ((((cfg0.win 2).blk t).view.emb (ix2 p q)) 1).val = q.val := by
    show win0_2.index t (1 : Fin 2) * 128 + 1 * q.val = _; omega
  exact tile_entry (xin V c) (wts V c) (tile0 (F := Ideal) V c 0 t) (tile0 (F := Ideal) V c 1 t) t.val
    (fun p k i hi => tile0_x_apply V c t p k i hi) (fun a b => tile0_w_apply V c t a b)
    p q ((((cfg0.win 2).blk t).view.emb (ix2 p q)) 0) ((((cfg0.win 2).blk t).view.emb (ix2 p q)) 1) h0 h1

/-- Being in the output tile of point t, coordinate by coordinate. -/
theorem mem_tile0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Every row lies in exactly the tile numbered by its quotient by 5000, and every tile is written back. -/
theorem covered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, e20, e21⟩ := where0 t
  refine ⟨t, flush0_2 t, ?_⟩
  rw [mem_tile0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After the region the output array is the layer's output. -/
theorem final0 (c : Dev nD) :
    (dat0 (F := Ideal) V c).arrAt 2 cfg0.N = layer0 (xin V c) (wts V c) :=
  (dat0 (F := Ideal) V c).arrAt_eq_of_cover 2 (layer0 (xin V c) (wts V c))
    (fun t _ => wrote_back0 V c t) covered0

/-- Entry (i, j) of the output array after the region: the sum over k of x[i,k] * w[j,k], with x and w the two
    input arrays as they were when the region was entered. -/
theorem value0 (c : Dev nD) (i : Fin 50000) (j : Fin 128) :
    ((dat0 (F := Ideal) V c).arrAt 2 cfg0.N : S50000x128.Idx → EReal) (ix2 i j)
      = ∑ k : Fin 128, (xin V c) (ix2 i k) * (wts V c) (ix2 j k) :=
  congrFun (final0 V c) (ix2 i j)

end Cert.KernelIdeal.Reg
-- ==== Proof.KI.Val1.lean ====
/-
  Region 1 of @main at the ideal instance: what its two output arrays hold after the region, as whole-array
  functions of the matrix and the bias row the region finds. The kernel adds the bias row to each row of the matrix
  and accumulates, row tile by row tile from zero, the column sums and the column sums of squares; on the extended
  reals addition is associative with neutral element zero, so the ten tile sums regroup into one sum over all
  50000 rows with no finiteness assumption.
-/
import proofs.«429275_j68899865363005_1_alg».proof.Proof.KI.R1
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-! ## One row tile's contribution, entry by entry -/

/-- The reset value is zero. -/
theorem reset1_apply (j : Fin 128) : (k1_pay1 (F := Ideal) : S1x128.Idx → EReal) (ix2 (0 : Fin 1) j) = 0 := by
  unfold k1_pay1
  rw [shapeCast_self]
  exact Ideal.ofBits_zero_f32

theorem resetsq1_apply (j : Fin 128) : (k1_pay2 (F := Ideal) : S1x128.Idx → EReal) (ix2 (0 : Fin 1) j) = 0 := by
  unfold k1_pay2
  rw [shapeCast_self]
  exact Ideal.ofBits_zero_f32

/-- The biased tile, entry by entry. -/
theorem biased1_apply (x : Vec Ideal S5000x128 .f32) (b : Vec Ideal S1x128 .f32) (r : Fin 5000) (j : Fin 128) :
    (k1_pay3 x b : S5000x128.Idx → EReal) (ix2 r j) = x (ix2 r j) + b (ix2 (0 : Fin 1) j) := by
  unfold k1_pay3
  rw [shapeCast_self, shapeCast_self]
  refine (addf_apply _ _ _).trans ?_
  exact congrArg (x (ix2 r j) + ·) (broadcastTo_1b_ab_apply b broadcasts_S1x128_S5000x128 r j)

/-- The index a column's reduction reads at row `k`. -/
theorem lift1 (j : Fin 128) (k : Fin (S5000x128.size 0)) :
    reduces_S5000x128_S128.lift (ix1 j) k = ix2 (n0 := 5000) k j := by
  funext a
  match a with
  | ⟨0, _⟩ => exact Fin.ext rfl
  | ⟨1, _⟩ => exact Fin.ext rfl

/-- The first sum after a tile: the sum before plus the tile's column sums. -/
theorem step1_apply (x : Vec Ideal S5000x128 .f32) (b s : Vec Ideal S1x128 .f32) (j : Fin 128) :
    (k1_pay4 x b s : S1x128.Idx → EReal) (ix2 (0 : Fin 1) j)
      = s (ix2 (0 : Fin 1) j) + ∑ r : Fin 5000, (x (ix2 r j) + b (ix2 (0 : Fin 1) j)) := by
  unfold k1_pay4
  rw [shapeCast_self]
  refine (addf_apply _ _ _).trans ?_
  refine congrArg (s (ix2 (0 : Fin 1) j) + ·) ?_
  refine (shapeCast_a_1a_apply _ shapeCasts_S128_S1x128 (0 : Fin 1) j).trans ?_
  refine (Ideal.multiReduction_add_single (k1_pay3 x b) _ reduces_S5000x128_S128 _ _ (ix1 j)).trans ?_
  refine Finset.sum_congr rfl fun r _ => ?_
  refine (congrArg (k1_pay3 x b) (lift1 j r)).trans ?_
  exact biased1_apply x b r j

/-- The second sum after a tile: the sum before plus the tile's column sums of squares. -/
theorem stepsq1_apply (x : Vec Ideal S5000x128 .f32) (b s : Vec Ideal S1x128 .f32) (j : Fin 128) :
    (k1_pay5 x b s : S1x128.Idx → EReal) (ix2 (0 : Fin 1) j)
      = s (ix2 (0 : Fin 1) j) + ∑ r : Fin 5000, (x (ix2 r j) + b (ix2 (0 : Fin 1) j)) * (x (ix2 r j) + b (ix2 (0 : Fin 1) j)) := by
  unfold k1_pay5
  rw [shapeCast_self]
  refine (addf_apply _ _ _).trans ?_
  refine congrArg (s (ix2 (0 : Fin 1) j) + ·) ?_
  refine (shapeCast_a_1a_apply _ shapeCasts_S128_S1x128 (0 : Fin 1) j).trans ?_
  refine (Ideal.multiReduction_add_single (mulf (k1_pay3 x b) (k1_pay3 x b)) _ reduces_S5000x128_S128 _ _ (ix1 j)).trans ?_
  refine Finset.sum_congr rfl fun r _ => ?_
  refine (congrArg (mulf (k1_pay3 x b) (k1_pay3 x b)) (lift1 j r)).trans ?_
  refine (mulf_apply _ _ _).trans ?_
  rw [biased1_apply x b r j]

/-! ## The windows' blocks as entries of the arrays -/

/-- The matrix as the region finds it. -/
abbrev mat1 (c : Dev nD) : S50000x128.Idx → EReal := V c (Pipeline.arrRef spec1 0)
/-- The bias row as the region finds it. -/
abbrev row1 (c : Dev nD) : S1x128.Idx → EReal := V c (Pipeline.arrRef spec1 1)

/-- Where the two input windows' blocks sit: row tile `t` of the matrix, the whole bias row. -/
theorem index1 : ∀ t : Fin cfg1.N, (win1_0.index t 0 = t.val ∧ win1_0.index t 1 = 0) ∧ (win1_1.index t 0 = 0 ∧ win1_1.index t 1 = 0) :=
  (by decide +kernel : ∀ t : Fin grid1.N, (win1_0.index t 0 = t.val ∧ win1_0.index t 1 = 0) ∧ (win1_1.index t 0 = 0 ∧ win1_1.index t 1 = 0))

/-- Row `r` of row tile `t` is row `5000 t + r` of the matrix. -/
theorem tile1_apply (c : Dev nD) (t : Fin cfg1.N) (r : Fin 5000) (j : Fin 128) (k : Fin 50000) (hk : k.val = 5000 * t.val + r.val) :
    (tile1 V c t : S5000x128.Idx → EReal) (ix2 r j) = mat1 V c (ix2 k j) := by
  show (blk1 V c 0 t : S5000x128.Idx → EReal) (ix2 r j) = _
  unfold blk1
  rw [View.read_apply]
  show (V c main_v43 : S50000x128.Idx → EReal) _ = (V c main_v43 : S50000x128.Idx → EReal) _
  congr 1
  funext a
  apply Fin.ext
  match a with
  | ⟨0, _⟩ => show win1_0.index t 0 * 5000 + 1 * r.val = k.val; rw [(index1 t).1.1, hk]; omega
  | ⟨1, _⟩ => show win1_0.index t 1 * 128 + 1 * j.val = j.val; rw [(index1 t).1.2]; omega

/-- The bias window's block is the bias row at every tile. -/
theorem bias1_apply (c : Dev nD) (t : Fin cfg1.N) (j : Fin 128) :
    (bias1 V c t : S1x128.Idx → EReal) (ix2 (0 : Fin 1) j) = row1 V c (ix2 (0 : Fin 1) j) := by
  show (blk1 V c 1 t : S1x128.Idx → EReal) (ix2 (0 : Fin 1) j) = _
  unfold blk1
  rw [View.read_apply]
  show (V c main_v44 : S1x128.Idx → EReal) _ = (V c main_v44 : S1x128.Idx → EReal) _
  congr 1
  funext a
  apply Fin.ext
  match a with
  | ⟨0, _⟩ => show win1_1.index t 0 * 1 + 1 * 0 = 0; rw [(index1 t).2.1]
  | ⟨1, _⟩ => show win1_1.index t 1 * 128 + 1 * j.val = j.val; rw [(index1 t).2.2]; omega

/-! ## The running sums as partial sums over the matrix rows -/

/-- The summand of the first output in column `j`, by row number (zero past the last row). -/
def term1 (c : Dev nD) (j : Fin 128) (i : ℕ) : EReal :=
  if h : i < 50000 then mat1 V c (ix2 ⟨i, h⟩ j) + row1 V c (ix2 (0 : Fin 1) j) else 0

/-- The summand of the second output: its square. -/
def termsq1 (c : Dev nD) (j : Fin 128) (i : ℕ) : EReal :=
  if h : i < 50000 then (mat1 V c (ix2 ⟨i, h⟩ j) + row1 V c (ix2 (0 : Fin 1) j)) * (mat1 V c (ix2 ⟨i, h⟩ j) + row1 V c (ix2 (0 : Fin 1) j)) else 0

theorem tiles1_lt (t : Fin cfg1.N) : t.val < 10 := lt_of_lt_of_eq t.isLt (show cfg1.N = 10 from N_1)

/-- Row tile `t`'s column sum is the sum of the 5000 summands from row `5000 t` on. -/
theorem tile_sum1 (c : Dev nD) (t : Fin cfg1.N) (j : Fin 128) :
    (∑ r : Fin 5000, ((tile1 V c t : S5000x128.Idx → EReal) (ix2 r j) + (bias1 V c t : S1x128.Idx → EReal) (ix2 (0 : Fin 1) j)))
      = ∑ r ∈ Finset.range 5000, term1 V c j (5000 * t.val + r) := by
  rw [Finset.sum_range]
  refine Finset.sum_congr rfl fun r _ => ?_
  have hN := tiles1_lt t
  have h : 5000 * t.val + r.val < 50000 := by have := r.isLt; omega
  unfold term1
  rw [dif_pos h, tile1_apply V c t r j ⟨5000 * t.val + r.val, h⟩ rfl, bias1_apply V c t j]

theorem tile_sumsq1 (c : Dev nD) (t : Fin cfg1.N) (j : Fin 128) :
    (∑ r : Fin 5000, ((tile1 V c t : S5000x128.Idx → EReal) (ix2 r j) + (bias1 V c t : S1x128.Idx → EReal) (ix2 (0 : Fin 1) j))
        * ((tile1 V c t : S5000x128.Idx → EReal) (ix2 r j) + (bias1 V c t : S1x128.Idx → EReal) (ix2 (0 : Fin 1) j)))
      = ∑ r ∈ Finset.range 5000, termsq1 V c j (5000 * t.val + r) := by
  rw [Finset.sum_range]
  refine Finset.sum_congr rfl fun r _ => ?_
  have hN := tiles1_lt t
  have h : 5000 * t.val + r.val < 50000 := by have := r.isLt; omega
  unfold termsq1
  rw [dif_pos h, tile1_apply V c t r j ⟨5000 * t.val + r.val, h⟩ rfl, bias1_apply V c t j]

theorem sums1_zero (c : Dev nD) (h : 0 < cfg1.N) :
    sums1 V c 0 h = (k1_pay4 (tile1 V c ⟨0, h⟩) (bias1 V c ⟨0, h⟩) (k1_pay1 (F := Ideal)), k1_pay5 (tile1 V c ⟨0, h⟩) (bias1 V c ⟨0, h⟩) (k1_pay2 (F := Ideal))) := rfl

theorem sums1_succ (c : Dev nD) (n : ℕ) (h : n + 1 < cfg1.N) :
    sums1 V c (n + 1) h
      = (k1_pay4 (tile1 V c ⟨n + 1, h⟩) (bias1 V c ⟨n + 1, h⟩) (sums1 V c n (Nat.lt_of_succ_lt h)).1,
         k1_pay5 (tile1 V c ⟨n + 1, h⟩) (bias1 V c ⟨n + 1, h⟩) (sums1 V c n (Nat.lt_of_succ_lt h)).2) := rfl

/-- After row tile `n` the first carried buffer holds, in column `j`, the sum of the summands of the first
    `5000 (n + 1)` rows. -/
theorem sums1_fst (c : Dev nD) (j : Fin 128) : ∀ (n : ℕ) (h : n < cfg1.N),
    ((sums1 V c n h).1 : S1x128.Idx → EReal) (ix2 (0 : Fin 1) j) = ∑ i ∈ Finset.range (5000 * (n + 1)), term1 V c j i
  | 0, h => by
    rw [sums1_zero]
    dsimp only
    refine (step1_apply (tile1 V c ⟨0, h⟩) (bias1 V c ⟨0, h⟩) (k1_pay1 (F := Ideal)) j).trans ?_
    rw [reset1_apply, zero_add, tile_sum1 V c ⟨0, h⟩ j]
    refine Finset.sum_congr rfl fun r _ => ?_
    show term1 V c j (5000 * 0 + r) = _
    rw [Nat.mul_zero, Nat.zero_add]
  | n + 1, h => by
    rw [sums1_succ]
    dsimp only
    refine (step1_apply (tile1 V c ⟨n + 1, h⟩) (bias1 V c ⟨n + 1, h⟩) (sums1 V c n (Nat.lt_of_succ_lt h)).1 j).trans ?_
    rw [sums1_fst c j n (Nat.lt_of_succ_lt h), tile_sum1 V c ⟨n + 1, h⟩ j,
      show 5000 * (n + 1 + 1) = 5000 * (n + 1) + 5000 from by omega, Finset.sum_range_add]

/-- And the second, the sum of their squares. -/
theorem sums1_snd (c : Dev nD) (j : Fin 128) : ∀ (n : ℕ) (h : n < cfg1.N),
    ((sums1 V c n h).2 : S1x128.Idx → EReal) (ix2 (0 : Fin 1) j) = ∑ i ∈ Finset.range (5000 * (n + 1)), termsq1 V c j i
  | 0, h => by
    rw [sums1_zero]
    dsimp only
    refine (stepsq1_apply (tile1 V c ⟨0, h⟩) (bias1 V c ⟨0, h⟩) (k1_pay2 (F := Ideal)) j).trans ?_
    rw [resetsq1_apply, zero_add, tile_sumsq1 V c ⟨0, h⟩ j]
    refine Finset.sum_congr rfl fun r _ => ?_
    show termsq1 V c j (5000 * 0 + r) = _
    rw [Nat.mul_zero, Nat.zero_add]
  | n + 1, h => by
    rw [sums1_succ]
    dsimp only
    refine (stepsq1_apply (tile1 V c ⟨n + 1, h⟩) (bias1 V c ⟨n + 1, h⟩) (sums1 V c n (Nat.lt_of_succ_lt h)).2 j).trans ?_
    rw [sums1_snd c j n (Nat.lt_of_succ_lt h), tile_sumsq1 V c ⟨n + 1, h⟩ j,
      show 5000 * (n + 1 + 1) = 5000 * (n + 1) + 5000 from by omega, Finset.sum_range_add]

/-! ## The output arrays after the region -/

theorem nine_lt1 : 9 < cfg1.N := by rw [show cfg1.N = 10 from N_1]; decide

/-- The first output array after the region: the first carried buffer after the last row tile. -/
abbrev total1 (c : Dev nD) : Buf (Elt Ideal) ((c : Thread nD τ).loc main_v45_0) := (sums1 V c 9 nine_lt1).1
/-- The second. -/
abbrev totalsq1 (c : Dev nD) : Buf (Elt Ideal) ((c : Thread nD τ).loc main_v45_1) := (sums1 V c 9 nine_lt1).2

/-- The one write-back of the first output, at the last row tile, writes the whole array. -/
theorem written1_2 (c : Dev nD) (t : Fin cfg1.N) (hf : (cfg1.win 2).flush t = true) :
    (dat1 V c).flushed 2 t = ((cfg1.win 2).blk t).view.read (Elt Ideal) (total1 V c) := by
  have h9 : t.val = 9 := by have := (flush1_2 t).mp hf; have := tiles1_lt t; omega
  obtain rfl : t = t1_9 := Fin.ext h9
  show (cfg1.win 2).cut (grid1.coords t1_9) ((dat1 V c).after 2 t1_9) = _
  rw [after1_2]
  have hz' : (fun a => win1_2.index t1_9 a * main_v45_0.ty.shape.size a) = fun _ => 0 := funext fun a => by fin_cases a <;> decide
  exact (Memref.read_access_unit_zero (Elt Ideal) main_v45_0 hz' (fun a => by rw [congrFun hz' a]; simp) (total1 V c)).symm

theorem written1_3 (c : Dev nD) (t : Fin cfg1.N) (hf : (cfg1.win 3).flush t = true) :
    (dat1 V c).flushed 3 t = ((cfg1.win 3).blk t).view.read (Elt Ideal) (totalsq1 V c) := by
  have h9 : t.val = 9 := by have := (flush1_3 t).mp hf; have := tiles1_lt t; omega
  obtain rfl : t = t1_9 := Fin.ext h9
  show (cfg1.win 3).cut (grid1.coords t1_9) ((dat1 V c).after 3 t1_9) = _
  rw [after1_3]
  have hz' : (fun a => win1_3.index t1_9 a * main_v45_1.ty.shape.size a) = fun _ => 0 := funext fun a => by fin_cases a <;> decide
  exact (Memref.read_access_unit_zero (Elt Ideal) main_v45_1 hz' (fun a => by rw [congrFun hz' a]; simp) (totalsq1 V c)).symm

/-- The last row tile's block of an output is the whole array. -/
theorem covers1_2 (i : S1x128.Idx) : i ∈ ((View.whole main_v45_0).slice (win1_2.rect t1_9)).set := by
  rw [View.set_slice_whole, Rect.mem_set_unit]
  intro a
  have h0 : (i 0 : Nat) < 1 := (i 0).isLt
  have h1 : (i 1 : Nat) < 128 := (i 1).isLt
  match a with
  | ⟨0, _⟩ =>
    show win1_2.index t1_9 0 * win1_2.size 0 ≤ (i 0 : Nat) ∧ (i 0 : Nat) < win1_2.index t1_9 0 * win1_2.size 0 + win1_2.xsize (grid1.coords t1_9) 0
    rw [show win1_2.index t1_9 0 * win1_2.size 0 = 0 from by decide +kernel, show win1_2.xsize (grid1.coords t1_9) 0 = 1 from by decide +kernel]; omega
  | ⟨1, _⟩ =>
    show win1_2.index t1_9 1 * win1_2.size 1 ≤ (i 1 : Nat) ∧ (i 1 : Nat) < win1_2.index t1_9 1 * win1_2.size 1 + win1_2.xsize (grid1.coords t1_9) 1
    rw [show win1_2.index t1_9 1 * win1_2.size 1 = 0 from by decide +kernel, show win1_2.xsize (grid1.coords t1_9) 1 = 128 from by decide +kernel]; omega

theorem covers1_3 (i : S1x128.Idx) : i ∈ ((View.whole main_v45_1).slice (win1_3.rect t1_9)).set := by
  rw [View.set_slice_whole, Rect.mem_set_unit]
  intro a
  have h0 : (i 0 : Nat) < 1 := (i 0).isLt
  have h1 : (i 1 : Nat) < 128 := (i 1).isLt
  match a with
  | ⟨0, _⟩ =>
    show win1_3.index t1_9 0 * win1_3.size 0 ≤ (i 0 : Nat) ∧ (i 0 : Nat) < win1_3.index t1_9 0 * win1_3.size 0 + win1_3.xsize (grid1.coords t1_9) 0
    rw [show win1_3.index t1_9 0 * win1_3.size 0 = 0 from by decide +kernel, show win1_3.xsize (grid1.coords t1_9) 0 = 1 from by decide +kernel]; omega
  | ⟨1, _⟩ =>
    show win1_3.index t1_9 1 * win1_3.size 1 ≤ (i 1 : Nat) ∧ (i 1 : Nat) < win1_3.index t1_9 1 * win1_3.size 1 + win1_3.xsize (grid1.coords t1_9) 1
    rw [show win1_3.index t1_9 1 * win1_3.size 1 = 0 from by decide +kernel, show win1_3.xsize (grid1.coords t1_9) 1 = 128 from by decide +kernel]; omega

/-- So the first output array ends at the first carried buffer's last contents, -/
theorem final1_2 (c : Dev nD) : (dat1 V c).arrAt 2 cfg1.N = total1 V c :=
  (dat1 V c).arrAt_eq_of_cover 2 (total1 V c) (written1_2 V c) fun i => ⟨t1_9, (flush1_2 t1_9).mpr rfl, covers1_2 i⟩

/-- and the second at the second's. -/
theorem final1_3 (c : Dev nD) : (dat1 V c).arrAt 3 cfg1.N = totalsq1 V c :=
  (dat1 V c).arrAt_eq_of_cover 3 (totalsq1 V c) (written1_3 V c) fun i => ⟨t1_9, (flush1_3 t1_9).mpr rfl, covers1_3 i⟩

/-- The first output array after the region's write-backs, at its literal type. -/
abbrev colsum1 (c : Dev nD) : S1x128.Idx → EReal := (dat1 V c).arrAt 2 cfg1.N
/-- The second. -/
abbrev colsumsq1 (c : Dev nD) : S1x128.Idx → EReal := (dat1 V c).arrAt 3 cfg1.N

/-- THE VALUE of the first output: column `j` holds the sum over all 50000 rows of the biased matrix entries. -/
theorem value1_sum (c : Dev nD) (j : Fin 128) :
    colsum1 V c (ix2 (0 : Fin 1) j) = ∑ i : Fin 50000, (mat1 V c (ix2 i j) + row1 V c (ix2 (0 : Fin 1) j)) := by
  show ((dat1 V c).arrAt 2 cfg1.N : S1x128.Idx → EReal) (ix2 (0 : Fin 1) j) = _
  rw [final1_2]
  refine (sums1_fst V c j 9 nine_lt1).trans ?_
  rw [show 5000 * (9 + 1) = 50000 from rfl, Finset.sum_range]
  refine Finset.sum_congr rfl fun i _ => ?_
  unfold term1
  rw [dif_pos i.isLt]

/-- THE VALUE of the second output: column `j` holds the sum over all rows of their squares. -/
theorem value1_sumsq (c : Dev nD) (j : Fin 128) :
    colsumsq1 V c (ix2 (0 : Fin 1) j)
      = ∑ i : Fin 50000, (mat1 V c (ix2 i j) + row1 V c (ix2 (0 : Fin 1) j)) * (mat1 V c (ix2 i j) + row1 V c (ix2 (0 : Fin 1) j)) := by
  show ((dat1 V c).arrAt 3 cfg1.N : S1x128.Idx → EReal) (ix2 (0 : Fin 1) j) = _
  rw [final1_3]
  refine (sums1_snd V c j 9 nine_lt1).trans ?_
  rw [show 5000 * (9 + 1) = 50000 from rfl, Finset.sum_range]
  refine Finset.sum_congr rfl fun i _ => ?_
  unfold termsq1
  rw [dif_pos i.isLt]

end Cert.KernelIdeal.Reg

end
-- ==== Proof.KI.Val2.lean ====
import proofs.«429275_j68899865363005_1_alg».proof.Proof.KI.R2
import Idealize.ShloMosaic.Lib.Pipeline.Value
import Idealize.ShloMosaic.Lib.ValueIdx
import Idealize.ShloMosaic.Lib.ValueLayout

/-!
# Region 2 over the extended reals: the array it writes

Region 2 overwrites the 50000 x 128 output array tile by tile. Here the result is read as one function
of the four arrays the region found on entry: entry (i, j) of the output is the larger of zero and
((x i j + b j) - mean j) * invstd j. The steps: the payload at one entry of a tile; where each window
sits at a grid point, so that a tile's entry is an entry of its array; hence what a point writes back
is a tile of the whole-array function; the ten tiles cover the array.
-/

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The payload at an index

Over the extended reals the payload is, entry by entry, the larger of zero and
((x + b) - mean) * invstd, where b, mean and invstd are rows spread down the 5000 rows of the tile. -/

/-- The entry of a 1 x 128 row that a broadcast to 5000 x 128 shows at row p, column q, is the row's
    entry in column q. -/
theorem spread_row2 (p : Fin 5000) (q : Fin 128) :
    ∀ a : Fin S1x128.rank, ((ix2 (0 : Fin 1) q : S1x128.Idx) a).val
      = if S1x128.size a = 1 then 0
        else ((ix2 p q : S5000x128.Idx) ⟨a.val + (S5000x128.rank - S1x128.rank), by have := a.isLt; omega⟩).val := by
  intro a
  match a with
  | ⟨0, _⟩ => rfl
  | ⟨1, _⟩ => rfl

theorem pay2_at (x : Vec Ideal S5000x128 .f32) (b mu sg : Vec Ideal S1x128 .f32) (p : Fin 5000) (q : Fin 128) :
    k2_pay1 x b mu sg (ix2 p q)
      = max (((x (ix2 p q) + b (ix2 0 q)) - mu (ix2 0 q)) * sg (ix2 0 q)) (Ideal.ofBits .f32 0x00000000#32) := by
  unfold k2_pay1
  simp only [shapeCast_self]
  rw [maximumf_apply, mulf_apply, subf_apply, addf_apply, broadcast_apply,
    broadcastTo_apply b _ (ix2 p q) (ix2 0 q) (spread_row2 p q),
    broadcastTo_apply mu _ (ix2 p q) (ix2 0 q) (spread_row2 p q),
    broadcastTo_apply sg _ (ix2 p q) (ix2 0 q) (spread_row2 p q)]
  rfl

/-! ## Where the windows sit at a grid point

The two big windows sit on row tile t at point t; the three row windows never move. -/

theorem where2 : ∀ t : Fin cfg2.N,
    win2_0.index t (0 : Fin 2) = t.val ∧ win2_0.index t (1 : Fin 2) = 0
    ∧ win2_4.index t (0 : Fin 2) = t.val ∧ win2_4.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- Entry (p, q) of the big input tile at point t is entry (5000 t + p, q) of the input array. -/
theorem tile2_0_at (c : Dev nD) (t : Fin cfg2.N) (p : Fin 5000) (q : Fin 128) (r : Fin 50000)
    (hr : r.val = t.val * 5000 + p.val) :
    (tile2 V c 0 t : Vec Ideal S5000x128 .f32) (ix2 p q)
      = (V c (Pipeline.arrRef spec2 0) : Vec Ideal S50000x128 .f32) (ix2 r q) := by
  obtain ⟨e0, e1, -⟩ := where2 t
  show (V c (Pipeline.arrRef spec2 0) : Vec Ideal S50000x128 .f32) (((cfg2.win 0).blk t).view.emb (ix2 p q)) = _
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * q.val = q.val; omega

/-- Column q of each row tile is column q of its row array, at every point. -/
theorem tile2_1_at (c : Dev nD) (t : Fin cfg2.N) (q : Fin 128) :
    (tile2 V c 1 t : Vec Ideal S1x128 .f32) (ix2 0 q)
      = (V c (Pipeline.arrRef spec2 1) : Vec Ideal S1x128 .f32) (ix2 0 q) := by
  obtain ⟨-, -, -, -, e0, e1, -⟩ := where2 t
  show (V c (Pipeline.arrRef spec2 1) : Vec Ideal S1x128 .f32) (((cfg2.win 1).blk t).view.emb (ix2 0 q)) = _
  refine congrArg _ (funext fun a => Fin.ext ?_)
  match a with
  | ⟨0, _⟩ => show win2_1.index t (0 : Fin 2) * 1 + 1 * 0 = 0; omega
  | ⟨1, _⟩ => show win2_1.index t (1 : Fin 2) * 128 + 1 * q.val = q.val; omega

theorem tile2_2_at (c : Dev nD) (t : Fin cfg2.N) (q : Fin 128) :
    (tile2 V c 2 t : Vec Ideal S1x128 .f32) (ix2 0 q)
      = (V c (Pipeline.arrRef spec2 2) : Vec Ideal S1x128 .f32) (ix2 0 q) := by
  obtain ⟨-, -, -, -, -, -, e0, e1, -⟩ := where2 t
  show (V c (Pipeline.arrRef spec2 2) : Vec Ideal S1x128 .f32) (((cfg2.win 2).blk t).view.emb (ix2 0 q)) = _
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

theorem tile2_3_at (c : Dev nD) (t : Fin cfg2.N) (q : Fin 128) :
    (tile2 V c 3 t : Vec Ideal S1x128 .f32) (ix2 0 q)
      = (V c (Pipeline.arrRef spec2 3) : Vec Ideal S1x128 .f32) (ix2 0 q) := by
  obtain ⟨-, -, -, -, -, -, -, -, e0, e1⟩ := where2 t
  show (V c (Pipeline.arrRef spec2 3) : Vec Ideal S1x128 .f32) (((cfg2.win 3).blk t).view.emb (ix2 0 q)) = _
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega

/-! ## The whole output array -/

/-- Normalise and clamp, entry by entry: from an array x and three rows b, mean, invstd, the array
    whose entry (i, j) is the larger of zero and ((x i j + b j) - mean j) * invstd j. -/
def normClamp2 (x : Vec Ideal S50000x128 .f32) (b mu sg : Vec Ideal S1x128 .f32) : Vec Ideal S50000x128 .f32 :=
  fun i => max (((x (ix2 (i 0) (i 1)) + b (ix2 0 (i 1))) - mu (ix2 0 (i 1))) * sg (ix2 0 (i 1)))
    (Ideal.ofBits .f32 0x00000000#32)

theorem normClamp2_at (x : Vec Ideal S50000x128 .f32) (b mu sg : Vec Ideal S1x128 .f32) (i : Fin 50000) (j : Fin 128) :
    normClamp2 x b mu sg (ix2 i j)
      = max (((x (ix2 i j) + b (ix2 0 j)) - mu (ix2 0 j)) * sg (ix2 0 j)) (Ideal.ofBits .f32 0x00000000#32) := rfl

/-- The four arrays region 2 reads, as it finds them, and the array it writes, as it leaves it: the
    same terms as V c (Pipeline.arrRef spec2 w) and (dat2 V c).arrAt 4 cfg2.N, under their literal types. -/
abbrev x2 (c : Dev nD) : Vec Ideal S50000x128 .f32 := V c (Pipeline.arrRef spec2 0)
abbrev b2 (c : Dev nD) : Vec Ideal S1x128 .f32 := V c (Pipeline.arrRef spec2 1)
abbrev mean2 (c : Dev nD) : Vec Ideal S1x128 .f32 := V c (Pipeline.arrRef spec2 2)
abbrev invstd2 (c : Dev nD) : Vec Ideal S1x128 .f32 := V c (Pipeline.arrRef spec2 3)
abbrev y2 (c : Dev nD) : Vec Ideal S50000x128 .f32 := (dat2 V c).arrAt 4 cfg2.N

theorem no_offset2 : (![0, 0] : Fin 2 → Nat) = fun _ => 0 :=
  funext fun a => by match a with | ⟨0, _⟩ => rfl | ⟨1, _⟩ => rfl

/-- What point t writes back is tile t of that array. -/
theorem wrote2 (c : Dev nD) (t : Fin cfg2.N) :
    (dat2 V c).flushed 4 t = ((cfg2.win 4).blk t).view.read (Elt Ideal) (normClamp2 (x2 V c) (b2 V c) (mean2 V c) (invstd2 V c)) := by
  show (cfg2.win 4).cut (grid2.coords t) ((dat2 V c).after 4 t) = _
  rw [after2_4]
  unfold res2
  rw [View.canon_unit_zero no_offset2]
  simp only [View.ld_unit_zero (S := S5000x128) no_offset2, View.ld_unit_zero (S := S1x128) no_offset2]
  funext j
  obtain ⟨p, q, rfl⟩ : ∃ (p : Fin 5000) (q : Fin 128), j = ix2 p q := ⟨j 0, j 1, eq_ix2 j⟩
  have h10 : cfg2.N = 10 := N_2
  have ht : t.val < cfg2.N := t.isLt
  obtain ⟨r, hr⟩ : ∃ r : Fin 50000, r.val = t.val * 5000 + p.val := ⟨⟨t.val * 5000 + p.val, by omega⟩, rfl⟩
  obtain ⟨-, -, e0, e1, -⟩ := where2 t
  have hemb : ((cfg2.win 4).blk t).view.emb (ix2 p q) = (ix2 r q : S50000x128.Idx) :=
    funext fun a => Fin.ext (by
      match a with
      | ⟨0, _⟩ => show win2_4.index t (0 : Fin 2) * 5000 + 1 * p.val = r.val; omega
      | ⟨1, _⟩ => show win2_4.index t (1 : Fin 2) * 128 + 1 * q.val = q.val; omega)
  show k2_pay1 (tile2 V c 0 t) (tile2 V c 1 t) (tile2 V c 2 t) (tile2 V c 3 t) (ix2 p q)
    = normClamp2 (x2 V c) (b2 V c) (mean2 V c) (invstd2 V c) (((cfg2.win 4).blk t).view.emb (ix2 p q))
  rw [hemb, pay2_at, tile2_0_at V c t p q r hr, tile2_1_at, tile2_2_at, tile2_3_at]
  rfl

/-- An entry of the output array lies under the window at point t exactly when its row is in row
    tile t (and its column anywhere). -/
theorem under2 (t : Fin cfg2.N) (i : S50000x128.Idx) :
    i ∈ ((cfg2.win 4).blk t).view.set
      ↔ ∀ a : Fin 2, win2_4.index t a * S5000x128.size a ≤ (i a).val
          ∧ (i a).val < win2_4.index t a * S5000x128.size a + S5000x128.size a := by
  show i ∈ ((View.whole main_v55).slice (win2_4.rect t)).set ↔ _
  rw [View.set_slice_whole, Rect.mem_set_unit]
  exact Iff.rfl

/-- Every entry is written by some point: row i by point i / 5000. -/
theorem all_written2 (i : S50000x128.Idx) :
    ∃ t : Fin cfg2.N, (cfg2.win 4).flush t = true ∧ i ∈ ((cfg2.win 4).blk t).view.set := by
  have h10 : cfg2.N = 10 := N_2
  have hi0 : (i 0).val < 50000 := (i 0).isLt
  have hi1 : (i 1).val < 128 := (i 1).isLt
  obtain ⟨t, ht⟩ : ∃ t : Fin cfg2.N, t.val = (i 0).val / 5000 := ⟨⟨(i 0).val / 5000, by omega⟩, rfl⟩
  obtain ⟨-, -, e0, e1, -⟩ := where2 t
  refine ⟨t, flush2_4 t, ?_⟩
  rw [under2]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 128 ≤ (i 1).val ∧ (i 1).val < win2_4.index t (1 : Fin 2) * 128 + 128
    omega

/-- So after the last point the output array is that function, everywhere. -/
theorem arr2 (c : Dev nD) : (dat2 V c).arrAt 4 cfg2.N = normClamp2 (x2 V c) (b2 V c) (mean2 V c) (invstd2 V c) :=
  (dat2 V c).arrAt_eq_of_cover 4 (normClamp2 (x2 V c) (b2 V c) (mean2 V c) (invstd2 V c)) (fun t _ => wrote2 V c t) all_written2

/-- The output array region 2 leaves, entry by entry, from the arrays it found. -/
theorem value2 (c : Dev nD) (i : Fin 50000) (j : Fin 128) :
    y2 V c (ix2 i j)
      = max (((x2 V c (ix2 i j) + b2 V c (ix2 0 j)) - mean2 V c (ix2 0 j)) * invstd2 V c (ix2 0 j))
          (Ideal.ofBits .f32 0x00000000#32) := by
  show (dat2 V c).arrAt 4 cfg2.N (ix2 i j) = _
  rw [arr2]
  rfl

end Cert.KernelIdeal.Reg

end
-- ==== Proof.Val.Moments.lean ====
/-
  The moments of a feature column from its two sums, as the host computes them: twelve elementwise operations on rows
  of 128 entries. With s1 the column sums and s2 the column sums of squares over the 50000 nodes,

      mean = s1 / n,      inv = rsqrt (s2 / n - mean * mean + eps),

  n and eps being two float constants spread over a row. Read at one entry, each operation is its textbook one on
  extended reals, so the two rows are the formulas above entry by entry. Nothing is assumed about s1 and s2.
-/
import proofs.«429275_j68899865363005_1_alg».proof.Proof.Val.Spec
import proofs.«429275_j68899865363005_1_alg».proof.KernelIdeal
import Idealize.ShloMosaic.Lib.IdealHost

noncomputable section

namespace Cert.KNet

open Cert.KernelIdeal
open Idealize.ShloMosaic Idealize.ShloMosaic.TcCoe Idealize.ShloMosaic.ValueIdx

/-- A row of 128 floats, as the host holds it. -/
abbrev Row : Type := FVec Ideal S1x128 .f32

/-- A float constant spread over a row. -/
abbrev spread (h : S_.BroadcastsInDim S1x128 (![] : Fin 0 → Fin S1x128.rank)) (b : BitVec 32) : Row :=
  broadcastInDim S1x128 ![] h (constant (F := Ideal) S_ .f32 b)

/-- The spread constant reads the same extended real at every entry. -/
theorem spread_at (h : S_.BroadcastsInDim S1x128 (![] : Fin 0 → Fin S1x128.rank)) (b : BitVec 32) (i : S1x128.Idx) :
    spread h b i = Ideal.ofBits .f32 b := by
  show broadcastInDim S1x128 ![] h (constant (F := Ideal) S_ .f32 b) i = _
  rw [broadcastInDim_scalar_apply, constant_apply]

/-- The mean row: the sums divided by the node count. -/
def meanRow (h : S_.BroadcastsInDim S1x128 (![] : Fin 0 → Fin S1x128.rank)) (s1 : Row) : Row :=
  Host.divf s1 (spread h 0x47435000#32)

/-- The inverse standard deviation row, from the mean row and the sums of squares. -/
def invRow (h : S_.BroadcastsInDim S1x128 (![] : Fin 0 → Fin S1x128.rank)) (mu s2 : Row) : Row :=
  Host.rsqrt (addf (subf (Host.divf s2 (spread h 0x47435000#32)) (mulf mu mu)) (spread h 0x3727C5AC#32))

/-- Entry j of the mean row is the j-th sum over the node count. -/
theorem meanRow_at (h : S_.BroadcastsInDim S1x128 (![] : Fin 0 → Fin S1x128.rank)) (s1 : Row) (j : Fin 128) :
    meanRow h s1 (ix2 0 j) = Ideal.div (s1 (ix2 0 j)) Cert.Spec.nE := by
  unfold meanRow
  rw [hostDivf_apply, spread_at]
  rfl

/-- Entry j of the inverse standard deviation row: the reciprocal root of the mean square less the squared mean,
    plus the floor. -/
theorem invRow_at (h : S_.BroadcastsInDim S1x128 (![] : Fin 0 → Fin S1x128.rank)) (mu s2 : Row) (j : Fin 128) :
    invRow h mu s2 (ix2 0 j)
      = Ideal.rsqrt ((Ideal.div (s2 (ix2 0 j)) Cert.Spec.nE - mu (ix2 0 j) * mu (ix2 0 j)) + Cert.Spec.epsE) := by
  unfold invRow
  show FloatOps.hostUnary .rsqrt (addf (subf (Host.divf s2 (spread h 0x47435000#32)) (mulf mu mu)) (spread h 0x3727C5AC#32) (ix2 0 j)) = _
  rw [Ideal.hostUnary_rsqrt_def, addf_apply, subf_apply, mulf_apply, hostDivf_apply, spread_at, spread_at]
  rfl

end Cert.KNet

end
-- ==== Proof.Val.KPre.lean ====
/-
  The part of @main that both programs share before the first kernel region, and the edge aggregation between regions.

  The three host stretches that open @main compute, from the edge-index argument alone, the source column and the
  destination column of the edge list (with one self-loop per node appended) and the normalisation coefficient of
  each edge. The reference program computes the same three arrays by the same operations, so the contents the kernel
  program holds there are the reference's stages of the same argument. Each later aggregation stretch gathers the rows
  of a node-feature array along the source column, scales each by its edge's coefficient and adds the results into
  the rows named by the destination column: one operator of the node features, the same one in all three layers.
-/
import proofs.«429275_j68899865363005_1_alg».proof.Proof.Gen.KernelIdeal.Regions
import proofs.«429275_j68899865363005_1_alg».proof.Proof.Val.AggOp
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KNet

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read

/-- Reads what is left of a stretch's results inside the operands of a concatenation, one operation at a time. -/
local macro "results_under_pairs" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The opening stretches, from any contents

Each statement reads one reference after one stretch, from arbitrary contents W before it. -/

section Stretches

variable (W : Valuation τ sig (Elt Ideal))
variable (x : (⟨S2x600000, .i32⟩ : BufTy).Contents (Elt Ideal))

/-- The source column: the first row of the edge index, then every node once. -/
theorem s0_v3 (hx : (W main_arg1 : (⟨S2x600000, .i32⟩ : BufTy).Contents (Elt Ideal)) = x) :
    (StableHlo.after hostOps0 W main_v3 : (⟨S650000, .i32⟩ : BufTy).Contents (Elt Ideal)) = val_main_v3 (F := Ideal) x := by
  show StableHlo.after hostOps0 _ (Proc.devRef .tc main_v3) = _
  after_results_simp
  results_under_pairs
  rw [hx]
  unfold val_main_v3 val_main_v2 val_main_v1 val_main_v0
  rfl

/-- The destination column: the second row of the edge index, then every node once. -/
theorem s0_v6 (hx : (W main_arg1 : (⟨S2x600000, .i32⟩ : BufTy).Contents (Elt Ideal)) = x) :
    (StableHlo.after hostOps0 W main_v6 : (⟨S650000, .i32⟩ : BufTy).Contents (Elt Ideal)) = val_main_v6 (F := Ideal) x := by
  show StableHlo.after hostOps0 _ (Proc.devRef .tc main_v6) = _
  after_results_simp
  results_under_pairs
  rw [hx]
  unfold val_main_v6 val_main_v5 val_main_v4 val_main_v0
  rfl

/-- Which nodes have a positive in-degree, counted along the destination column. -/
theorem s0_v12 (hx : (W main_arg1 : (⟨S2x600000, .i32⟩ : BufTy).Contents (Elt Ideal)) = x) :
    (StableHlo.after hostOps0 W main_v12 : (⟨S50000, .i1⟩ : BufTy).Contents (Elt Ideal)) = val_main_v12 (F := Ideal) x := by
  show StableHlo.after hostOps0 _ (Proc.devRef .tc main_v12) = _
  after_results_simp
  results_under_pairs
  rw [hx]
  unfold val_main_v12 val_main_v11 val_main_cst_1 val_main_v10 val_main_v9 val_main_v8 val_main_v7 val_main_cst val_main_cst_0
    val_main_v6 val_main_v5 val_main_v4 val_main_v0
  rfl

/-- The inverse square root of every node's in-degree. -/
theorem s0_v13 (hx : (W main_arg1 : (⟨S2x600000, .i32⟩ : BufTy).Contents (Elt Ideal)) = x) :
    (StableHlo.after hostOps0 W main_v13 : (⟨S50000, .f32⟩ : BufTy).Contents (Elt Ideal)) = val_main_v13 (F := Ideal) x := by
  show StableHlo.after hostOps0 _ (Proc.devRef .tc main_v13) = _
  after_results_simp
  results_under_pairs
  rw [hx]
  unfold val_main_v13 val_main_v10 val_main_v9 val_main_v8 val_main_v7 val_main_cst val_main_cst_0
    val_main_v6 val_main_v5 val_main_v4 val_main_v0
  rfl

/-- The zero that replaces the inverse square root at a node of in-degree zero. -/
theorem s0_cst2 :
    (StableHlo.after hostOps0 W main_cst_2 : (⟨S_, .f32⟩ : BufTy).Contents (Elt Ideal)) = val_main_cst_2 (F := Ideal) := by
  show StableHlo.after hostOps0 _ (Proc.devRef .tc main_cst_2) = _
  after_results_simp
  rfl

/-- The second stretch selects, node by node, between the inverse square root and zero. -/
theorem s01_v14
    (h12 : (W main_v12 : (⟨S50000, .i1⟩ : BufTy).Contents (Elt Ideal)) = val_main_v12 (F := Ideal) x)
    (h13 : (W main_v13 : (⟨S50000, .f32⟩ : BufTy).Contents (Elt Ideal)) = val_main_v13 (F := Ideal) x)
    (hc : (W main_cst_2 : (⟨S_, .f32⟩ : BufTy).Contents (Elt Ideal)) = val_main_cst_2 (F := Ideal)) :
    (StableHlo.after hostOps0_1 W main_v14 : (⟨S50000, .f32⟩ : BufTy).Contents (Elt Ideal)) = val_main_v14 (F := Ideal) x := by
  show StableHlo.after hostOps0_1 _ (Proc.devRef .tc main_v14) = _
  after_results_simp
  show select (W main_v12 : (⟨S50000, .i1⟩ : BufTy).Contents (Elt Ideal)) (W main_v13 : (⟨S50000, .f32⟩ : BufTy).Contents (Elt Ideal))
    (broadcastInDim S50000 ![] bcast_S_S50000 (id (W main_cst_2 : (⟨S_, .f32⟩ : BufTy).Contents (Elt Ideal)))) = _
  rw [h12, h13, hc]
  unfold val_main_v14 val_main_call0_v1 val_main_call0_v0
  rfl

/-- The third stretch: each edge's coefficient is the product of the two selected values at its end nodes. -/
theorem s02_v29
    (h3 : (W main_v3 : (⟨S650000, .i32⟩ : BufTy).Contents (Elt Ideal)) = val_main_v3 (F := Ideal) x)
    (h6 : (W main_v6 : (⟨S650000, .i32⟩ : BufTy).Contents (Elt Ideal)) = val_main_v6 (F := Ideal) x)
    (h14 : (W main_v14 : (⟨S50000, .f32⟩ : BufTy).Contents (Elt Ideal)) = val_main_v14 (F := Ideal) x) :
    (StableHlo.after hostOps0_2 W main_v29 : (⟨S650000, .f32⟩ : BufTy).Contents (Elt Ideal)) = val_main_v29 (F := Ideal) x := by
  show StableHlo.after hostOps0_2 _ (Proc.devRef .tc main_v29) = _
  after_results_simp
  rw [h3, h6, h14]
  unfold val_main_v29 val_main_v28 val_main_v27 val_main_v26 val_main_v25 val_main_v24 val_main_c_5 val_main_v23 val_main_v22
    val_main_c_4 val_main_v21 val_main_v20 val_main_v19 val_main_v18 val_main_v17 val_main_c_3 val_main_v16 val_main_v15 val_main_c
  rfl

/-! ## The aggregation stretches, from any contents that hold the three edge arrays -/

/-- First layer: the stretch's result is the edge aggregation of the node features it reads. -/
theorem agg_stretch1
    (h3 : (W main_v3 : (⟨S650000, .i32⟩ : BufTy).Contents (Elt Ideal)) = val_main_v3 (F := Ideal) x)
    (h6 : (W main_v6 : (⟨S650000, .i32⟩ : BufTy).Contents (Elt Ideal)) = val_main_v6 (F := Ideal) x)
    (h29 : (W main_v29 : (⟨S650000, .f32⟩ : BufTy).Contents (Elt Ideal)) = val_main_v29 (F := Ideal) x) :
    (StableHlo.after hostOps1 W main_v43 : (⟨S50000x128, .f32⟩ : BufTy).Contents (Elt Ideal)) = Cert.Agg.aggArr x (W main_v30) := by
  show StableHlo.after hostOps1 _ (Proc.devRef .tc main_v43) = _
  after_results_simp
  rw [h3, h6, h29]
  unfold Cert.Agg.aggArr val_main_v43 val_main_v42 val_main_cst_8 val_main_v40 val_main_v32 val_main_v38 val_main_v37 val_main_v36
    val_main_v35 val_main_c_7 val_main_v34 val_main_v33 val_main_c_6
  rfl

/-- Second layer: the stretch's result is the edge aggregation of the node features it reads. -/
theorem agg_stretch4
    (h3 : (W main_v3 : (⟨S650000, .i32⟩ : BufTy).Contents (Elt Ideal)) = val_main_v3 (F := Ideal) x)
    (h6 : (W main_v6 : (⟨S650000, .i32⟩ : BufTy).Contents (Elt Ideal)) = val_main_v6 (F := Ideal) x)
    (h29 : (W main_v29 : (⟨S650000, .f32⟩ : BufTy).Contents (Elt Ideal)) = val_main_v29 (F := Ideal) x) :
    (StableHlo.after hostOps4 W main_v69 : (⟨S50000x128, .f32⟩ : BufTy).Contents (Elt Ideal)) = Cert.Agg.aggArr x (W main_v56) := by
  show StableHlo.after hostOps4 _ (Proc.devRef .tc main_v69) = _
  after_results_simp
  rw [h3, h6, h29]
  unfold Cert.Agg.aggArr val_main_v43 val_main_v42 val_main_cst_8 val_main_v40 val_main_v32 val_main_v38 val_main_v37 val_main_v36
    val_main_v35 val_main_c_7 val_main_v34 val_main_v33 val_main_c_6
  rfl

/-- Third layer: the stretch's result is the edge aggregation of the node features it reads. -/
theorem agg_stretch7
    (h3 : (W main_v3 : (⟨S650000, .i32⟩ : BufTy).Contents (Elt Ideal)) = val_main_v3 (F := Ideal) x)
    (h6 : (W main_v6 : (⟨S650000, .i32⟩ : BufTy).Contents (Elt Ideal)) = val_main_v6 (F := Ideal) x)
    (h29 : (W main_v29 : (⟨S650000, .f32⟩ : BufTy).Contents (Elt Ideal)) = val_main_v29 (F := Ideal) x) :
    (StableHlo.after hostOps7 W main_v95 : (⟨S50000x128, .f32⟩ : BufTy).Contents (Elt Ideal)) = Cert.Agg.aggArr x (W main_v82) := by
  show StableHlo.after hostOps7 _ (Proc.devRef .tc main_v95) = _
  after_results_simp
  rw [h3, h6, h29]
  unfold Cert.Agg.aggArr val_main_v43 val_main_v42 val_main_cst_8 val_main_v40 val_main_v32 val_main_v38 val_main_v37 val_main_v36
    val_main_v35 val_main_c_7 val_main_v34 val_main_v33 val_main_c_6
  rfl

/-- The bias vector as one row, for the statistics kernel that follows. -/
theorem bias_stretch1 (j : Fin 128) :
    (StableHlo.after hostOps1 W main_v44 : (⟨S1x128, .f32⟩ : BufTy).Contents (Elt Ideal)) (ix2 (0 : Fin 1) j)
      = (W main_arg4 : (⟨S128, .f32⟩ : BufTy).Contents (Elt Ideal)) (ix1 j) := by
  show StableHlo.after hostOps1 _ (Proc.devRef .tc main_v44) _ = _
  after_results_simp
  exact shapeCast_a_1a_apply (W main_arg4 : (⟨S128, .f32⟩ : BufTy).Contents (Elt Ideal)) shapeCasts_S128_S1x128 0 j

/-- The bias vector as one row, for the statistics kernel that follows. -/
theorem bias_stretch4 (j : Fin 128) :
    (StableHlo.after hostOps4 W main_v70 : (⟨S1x128, .f32⟩ : BufTy).Contents (Elt Ideal)) (ix2 (0 : Fin 1) j)
      = (W main_arg6 : (⟨S128, .f32⟩ : BufTy).Contents (Elt Ideal)) (ix1 j) := by
  show StableHlo.after hostOps4 _ (Proc.devRef .tc main_v70) _ = _
  after_results_simp
  exact shapeCast_a_1a_apply (W main_arg6 : (⟨S128, .f32⟩ : BufTy).Contents (Elt Ideal)) shapeCasts_S128_S1x128 0 j

end Stretches

/-! ## The three edge arrays at the first region's entry -/

section Prefix

variable (m : (ℓ : Loc nD τ sig) → Buf (Elt Ideal) ℓ) (c : Dev nD)

/-- The edge-index argument as launched. -/
abbrev x1 : (⟨S2x600000, .i32⟩ : BufTy).Contents (Elt Ideal) := m ((c.tc : Thread nD τ).loc main_arg1)

theorem pre_v3 : (V3 m c main_v3 : (⟨S650000, .i32⟩ : BufTy).Contents (Elt Ideal)) = val_main_v3 (F := Ideal) (x1 m c) :=
  (V3_of m c main_v3 (by decide)).trans <| (V2_of m c main_v3 (by decide)).trans <| s0_v3 (V0 m c) (x1 m c) rfl

theorem pre_v6 : (V3 m c main_v6 : (⟨S650000, .i32⟩ : BufTy).Contents (Elt Ideal)) = val_main_v6 (F := Ideal) (x1 m c) :=
  (V3_of m c main_v6 (by decide)).trans <| (V2_of m c main_v6 (by decide)).trans <| s0_v6 (V0 m c) (x1 m c) rfl

theorem pre_v29 : (V3 m c main_v29 : (⟨S650000, .f32⟩ : BufTy).Contents (Elt Ideal)) = val_main_v29 (F := Ideal) (x1 m c) :=
  s02_v29 (V2 m c) (x1 m c)
    ((V2_of m c main_v3 (by decide)).trans (s0_v3 (V0 m c) (x1 m c) rfl))
    ((V2_of m c main_v6 (by decide)).trans (s0_v6 (V0 m c) (x1 m c) rfl))
    (s01_v14 (V1 m c) (x1 m c) (s0_v12 (V0 m c) (x1 m c) rfl) (s0_v13 (V0 m c) (x1 m c) rfl) (s0_cst2 (V0 m c)))

end Prefix

end Cert.KNet

end
-- ==== Proof.Val.KNet1.lean ====
/-
  The first layer of the kernel program, read at an entry.

  Between the launch and the end of region 2 the program does this to the node features x: region 0 multiplies them
  by the first weight matrix; a host stretch aggregates the product over the edges and lays the bias out as a row;
  region 1 sums every column of (aggregate + bias), and every column of its square, over the 50000 nodes; a host
  stretch turns the two sums into the column's mean and inverse standard deviation; region 2 normalises every entry
  with them and clips at zero. Each step is read here at one entry of the array it leaves, from the entries the step
  before left, and the last statement puts them together: the array region 2 leaves is the one-pass normalisation
  of aggregate-plus-bias, as the specification spells it.
-/
import proofs.«429275_j68899865363005_1_alg».proof.Proof.KI.Chain
import proofs.«429275_j68899865363005_1_alg».proof.Proof.KI.Val0
import proofs.«429275_j68899865363005_1_alg».proof.Proof.KI.Val1
import proofs.«429275_j68899865363005_1_alg».proof.Proof.KI.Val2
import proofs.«429275_j68899865363005_1_alg».proof.Proof.Val.Spec
import proofs.«429275_j68899865363005_1_alg».proof.Proof.Val.AggOp
import proofs.«429275_j68899865363005_1_alg».proof.Proof.Val.Moments
import proofs.«429275_j68899865363005_1_alg».proof.Proof.Val.KPre
import Idealize.ShloMosaic.Lib.StableHlo.Run
import Idealize.ShloMosaic.Lib.IdealHost
import Idealize.ShloMosaic.Lib.ValueIdx

noncomputable section

open scoped BigOperators

namespace Cert.KNet

open Cert.KernelIdeal Cert.KernelIdeal.Gen Cert.KernelIdeal.Reg
open Idealize.ShloMosaic Idealize.ShloMosaic.TcCoe Idealize.ShloMosaic.ValueIdx

/-- An array of floats as a table of extended reals. -/
abbrev tab {s : Shape} (a : (⟨s, .f32⟩ : BufTy).Contents (Elt Ideal)) : s.Idx → EReal := a

/-! ## The second host stretch, from any contents

Its twelve operations write the mean row and the inverse-deviation row from the two rows of sums, and nothing else
that is read later. -/

/-- The mean row it leaves: the row of sums over the node count. -/
theorem stretch2_mean (Y : Valuation τ sig (Elt Ideal)) :
    StableHlo.after hostOps2 Y (Proc.devRef .tc main_v47)
      = (meanRow bcast_S_S1x128 (Y (Proc.devRef .tc main_v45_0)) : (⟨S1x128, .f32⟩ : BufTy).Contents (Elt Ideal)) := by
  after_results
  rfl

/-- The inverse-deviation row it leaves, from the mean row and the row of sums of squares. -/
theorem stretch2_inv (Y : Valuation τ sig (Elt Ideal)) :
    StableHlo.after hostOps2 Y (Proc.devRef .tc main_v54)
      = (invRow bcast_S_S1x128 (meanRow bcast_S_S1x128 (Y (Proc.devRef .tc main_v45_0))) (Y (Proc.devRef .tc main_v45_1)) :
          (⟨S1x128, .f32⟩ : BufTy).Contents (Elt Ideal)) := by
  after_results
  rfl

/-- A reference it does not write keeps its contents. -/
theorem stretch2_keep (Y : Valuation τ sig (Elt Ideal)) (r : Ref sig .tc) (h : r ∉ hostOps2_W) :
    StableHlo.after hostOps2 Y (Proc.devRef .tc r) = Y (Proc.devRef .tc r) :=
  StableHlo.after_of_writes_sub hostOps2 Y hostOps2_writes h

/-! ## The inputs of the layer -/

variable (m : (ℓ : Loc nD τ sig) → Buf (Elt Ideal) ℓ) (c : Dev nD)

/-- The node features, the first weight matrix and the first bias, as entries of the launch memory. -/
abbrev x0 (i : Fin 50000) (k : Fin 128) : EReal := tab (s := S50000x128) (m ((c : Thread nD τ).loc main_arg0)) (ix2 i k)
abbrev w1 (j k : Fin 128) : EReal := tab (s := S128x128) (m ((c : Thread nD τ).loc main_arg3)) (ix2 j k)
abbrev b1 (j : Fin 128) : EReal := tab (s := S128) (m ((c : Thread nD τ).loc main_arg4)) (ix1 j)
/-- The edge aggregation over this launch's edge list. -/
abbrev Aop : (Fin 50000 → Fin 128 → EReal) → Fin 50000 → Fin 128 → EReal := Cert.Agg.aggOp (x1 m c)
/-- The first layer before normalisation, without its bias: the aggregated product. -/
abbrev pre1 : Fin 50000 → Fin 128 → EReal := Aop m c (Cert.Spec.lin (x0 m c) (w1 m c))

/-- No host stretch before region 0 writes a program argument: at region 0's entry it holds the launch memory. -/
theorem X3_keep (r : Ref sig .tc) (h0 : r ∉ hostOps0_W) (h1 : r ∉ hostOps0_1_W) (h2 : r ∉ hostOps0_2_W) :
    X3 m c r = m ((c : Thread nD τ).loc r) :=
  (V3_of m c r h2).trans <| (V2_of m c r h1).trans <| (V1_of m c r h0).trans rfl

/-! ## Region 0: the dense layer -/

/-- Entry (i, j) of the array region 0 leaves is row i of the features against row j of the weights. -/
theorem lin0 (i : Fin 50000) (j : Fin 128) :
    tab (s := S50000x128) (X4 m c main_v30) (ix2 i j) = Cert.Spec.lin (x0 m c) (w1 m c) i j := by
  have e : X4 m c main_v30 = (dat0 (F := Ideal) (fun c b => X3 m c b) c).arrAt 2 cfg0.N := (hF_0 m c 2).symm
  have h : tab (s := S50000x128) (X4 m c main_v30) (ix2 i j)
      = ∑ k : Fin 128, tab (s := S50000x128) (X3 m c main_arg0) (ix2 i k) * tab (s := S128x128) (X3 m c main_arg3) (ix2 j k) :=
    (congrFun e (ix2 i j)).trans (value0 (fun c b => X3 m c b) c i j)
  rw [h, X3_keep m c main_arg0 (by decide) (by decide) (by decide), X3_keep m c main_arg3 (by decide) (by decide) (by decide)]
  rfl

/-- The whole array, from its entries. -/
theorem lin0_arr : (X4 m c main_v30 : (⟨S50000x128, .f32⟩ : BufTy).Contents (Elt Ideal))
    = Cert.Agg.toArr (Cert.Spec.lin (x0 m c) (w1 m c)) :=
  funext fun idx => by
    rw [eq_ix2 idx]
    exact lin0 m c (idx 0) (idx 1)

/-- Region 0 writes one array only; every other reference is as it was at entry. -/
theorem X4_keep (r : Ref sig .tc) (h : r ∉ Finset.univ.image (Pipeline.arrRef spec0)) : X4 m c r = X3 m c r :=
  hrest_0 m c r h

/-! ## The first host stretch: the aggregation over the edges, and the bias as a row -/

/-- Region 0 leaves the edge columns and the edge coefficients as the opening stretches made them, so the stretch
    after it aggregates region 0's product over the launch's edges: entry (i, j) is the shared operator on the
    product's entries. -/
theorem agg1 (i : Fin 50000) (j : Fin 128) :
    tab (s := S50000x128) (X5 m c main_v43) (ix2 i j) = pre1 m c i j := by
  have h := agg_stretch1 (X4 m c) (x1 m c)
    ((X4_keep m c main_v3 (by decide)).trans (pre_v3 m c))
    ((X4_keep m c main_v6 (by decide)).trans (pre_v6 m c))
    ((X4_keep m c main_v29 (by decide)).trans (pre_v29 m c))
  refine (congrFun h (ix2 i j)).trans ?_
  rw [lin0_arr]
  rfl

/-- The bias row at region 1's entry: entry j of the first bias. -/
theorem bias1 (j : Fin 128) : tab (s := S1x128) (X5 m c main_v44) (ix2 0 j) = b1 m c j := by
  refine (bias_stretch1 (X4 m c) j).trans ?_
  show tab (s := S128) (X4 m c main_arg4) (ix1 j) = _
  rw [X4_keep m c main_arg4 (by decide), X3_keep m c main_arg4 (by decide) (by decide) (by decide)]

/-! ## Region 1: the two column sums -/

/-- Region 1 only reads its two input arrays: after it they are as at entry. -/
theorem X6_in (w : Fin cfg1.W) (h : (cfg1.win w).isOut = false) :
    X6 m c (Pipeline.arrRef spec1 w) = X5 m c (Pipeline.arrRef spec1 w) :=
  (hF_1 m c w).symm.trans (((pdats m 1 c).arrAt_in w h cfg1.N).trans (hA_1 m c w))

/-- The first output row: the column sums of aggregate-plus-bias. -/
theorem sums1_at (j : Fin 128) :
    tab (s := S1x128) (X6 m c main_v45_0) (ix2 0 j) = Cert.Spec.sum1 (pre1 m c) (b1 m c) j := by
  have e : X6 m c main_v45_0 = (dat1 (F := Ideal) (fun c b => X5 m c b) c).arrAt 2 cfg1.N := (hF_1 m c 2).symm
  have h : tab (s := S1x128) (X6 m c main_v45_0) (ix2 0 j)
      = ∑ i : Fin 50000, (tab (s := S50000x128) (X5 m c main_v43) (ix2 i j) + tab (s := S1x128) (X5 m c main_v44) (ix2 0 j)) :=
    (congrFun e (ix2 0 j)).trans (value1_sum (fun c b => X5 m c b) c j)
  rw [h]
  unfold Cert.Spec.sum1
  refine Finset.sum_congr rfl fun i _ => ?_
  rw [agg1, bias1]

/-- The second output row: the column sums of its square. -/
theorem sumsq1_at (j : Fin 128) :
    tab (s := S1x128) (X6 m c main_v45_1) (ix2 0 j) = Cert.Spec.sum2 (pre1 m c) (b1 m c) j := by
  have e : X6 m c main_v45_1 = (dat1 (F := Ideal) (fun c b => X5 m c b) c).arrAt 3 cfg1.N := (hF_1 m c 3).symm
  have h : tab (s := S1x128) (X6 m c main_v45_1) (ix2 0 j)
      = ∑ i : Fin 50000, (tab (s := S50000x128) (X5 m c main_v43) (ix2 i j) + tab (s := S1x128) (X5 m c main_v44) (ix2 0 j))
          * (tab (s := S50000x128) (X5 m c main_v43) (ix2 i j) + tab (s := S1x128) (X5 m c main_v44) (ix2 0 j)) :=
    (congrFun e (ix2 0 j)).trans (value1_sumsq (fun c b => X5 m c b) c j)
  rw [h]
  unfold Cert.Spec.sum2
  refine Finset.sum_congr rfl fun i _ => ?_
  rw [agg1, bias1]

/-! ## The second host stretch: mean and inverse deviation -/

/-- The aggregate passes region 1 and the stretch unchanged. -/
theorem pre1_r2 (i : Fin 50000) (j : Fin 128) :
    tab (s := S50000x128) (X7 m c main_v43) (ix2 i j) = pre1 m c i j := by
  have e : X7 m c main_v43 = X5 m c main_v43 :=
    (stretch2_keep (X6 m c) main_v43 (by decide)).trans (X6_in m c 0 (by decide))
  exact (congrFun e (ix2 i j)).trans (agg1 m c i j)

/-- So does the bias row. -/
theorem bias1_r2 (j : Fin 128) : tab (s := S1x128) (X7 m c main_v44) (ix2 0 j) = b1 m c j := by
  have e : X7 m c main_v44 = X5 m c main_v44 :=
    (stretch2_keep (X6 m c) main_v44 (by decide)).trans (X6_in m c 1 (by decide))
  exact (congrFun e (ix2 0 j)).trans (bias1 m c j)

/-- The mean row at region 2's entry. -/
theorem mean1_at (j : Fin 128) :
    tab (s := S1x128) (X7 m c main_v47) (ix2 0 j) = Cert.Spec.meanK (pre1 m c) (b1 m c) j := by
  have h : tab (s := S1x128) (X7 m c main_v47) (ix2 0 j)
      = meanRow bcast_S_S1x128 (tab (s := S1x128) (X6 m c main_v45_0)) (ix2 0 j) :=
    congrFun (stretch2_mean (X6 m c)) (ix2 0 j)
  rw [h, meanRow_at, sums1_at]
  rfl

/-- The inverse-deviation row at region 2's entry. -/
theorem inv1_at (j : Fin 128) :
    tab (s := S1x128) (X7 m c main_v54) (ix2 0 j) = Cert.Spec.invK (pre1 m c) (b1 m c) j := by
  have h : tab (s := S1x128) (X7 m c main_v54) (ix2 0 j)
      = invRow bcast_S_S1x128 (meanRow bcast_S_S1x128 (tab (s := S1x128) (X6 m c main_v45_0)))
          (tab (s := S1x128) (X6 m c main_v45_1)) (ix2 0 j) :=
    congrFun (stretch2_inv (X6 m c)) (ix2 0 j)
  rw [h, invRow_at, meanRow_at, sums1_at, sumsq1_at]
  rfl

/-! ## Region 2: normalise and clip -/

/-- The array region 2 leaves: the one-pass normalisation of aggregate-plus-bias, clipped at zero. -/
theorem layer1 (i : Fin 50000) (j : Fin 128) :
    (X8 m c main_v55 : S50000x128.Idx → EReal) (ix2 i j) = Cert.Spec.bnK (Aop m c (Cert.Spec.lin (x0 m c) (w1 m c))) (b1 m c) i j := by
  have e : X8 m c main_v55 = (dat2 (F := Ideal) (fun c b => X7 m c b) c).arrAt 4 cfg2.N := (hF_2 m c 4).symm
  have h : tab (s := S50000x128) (X8 m c main_v55) (ix2 i j)
      = max (((tab (s := S50000x128) (X7 m c main_v43) (ix2 i j) + tab (s := S1x128) (X7 m c main_v44) (ix2 0 j))
          - tab (s := S1x128) (X7 m c main_v47) (ix2 0 j)) * tab (s := S1x128) (X7 m c main_v54) (ix2 0 j))
          (Ideal.ofBits .f32 0x00000000#32) :=
    (congrFun e (ix2 i j)).trans (value2 (fun c b => X7 m c b) c i j)
  refine h.trans ?_
  rw [pre1_r2, bias1_r2, mean1_at, inv1_at, Ideal.ofBits_zero_f32]
  rfl

end Cert.KNet

end
-- ==== Proof.KI.Val3.lean ====
/-
  Region 3 on exact values: the output of the dense layer.

  With exact arithmetic the tile product is an honest matrix product, and the ten row tiles laid side by side
  are the whole product. The result: after the region the output array holds, at row i and column j,

      ∑ k, x[i,k] * w[j,k]

  where x and w are the two input arrays as they stand when the region is entered. On the extended reals the
  sum of products is meaningful for every input, so nothing is assumed about the entries.
-/
import proofs.«429275_j68899865363005_1_alg».proof.Proof.KI.R3
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.ValueIdx
open Idealize.ShloMosaic.Pipeline (Dat)

/-! ## The contraction of the tile product

Both operands are contracted along their second axis: entry (p, q) of the product pairs row p of the left
operand with row q of the right one. The four statements below say which coordinate of which operand each
output coordinate and the summation index go to. -/

/-- Row of the left operand: the row of the output entry. -/
theorem tdot3_lhs_0 (i : S5000x128.Idx) (q : dot_S5000x128_S128x128_S5000x128_1_1_0_0_n_n.contr.Idx) :
    (dot_S5000x128_S128x128_S5000x128_1_1_0_0_n_n.lhsIdx i q 0).val = (i 0).val := by
  unfold DotDims.lhsIdx
  rw [dif_neg (show ¬(0 : Fin S5000x128.rank) ∈ dot_S5000x128_S128x128_S5000x128_1_1_0_0_n_n.lhsBatch by decide),
    dif_pos (show (0 : Fin S5000x128.rank) ∈ dot_S5000x128_S128x128_S5000x128_1_1_0_0_n_n.lhsNonContracting by decide)]
  rfl
/-- Column of the left operand: the summation index. -/
theorem tdot3_lhs_1 (i : S5000x128.Idx) (q : dot_S5000x128_S128x128_S5000x128_1_1_0_0_n_n.contr.Idx) :
    (dot_S5000x128_S128x128_S5000x128_1_1_0_0_n_n.lhsIdx i q 1).val = (q ⟨0, by decide⟩).val :=
  dot_S5000x128_S128x128_S5000x128_1_1_0_0_n_n.lhsIdx_val_of_single rfl i q
/-- Row of the right operand: the column of the output entry. -/
theorem tdot3_rhs_0 (i : S5000x128.Idx) (q : dot_S5000x128_S128x128_S5000x128_1_1_0_0_n_n.contr.Idx) :
    (dot_S5000x128_S128x128_S5000x128_1_1_0_0_n_n.rhsIdx i q 0).val = (i 1).val := by
  unfold DotDims.rhsIdx
  rw [dif_neg (show ¬(0 : Fin S128x128.rank) ∈ dot_S5000x128_S128x128_S5000x128_1_1_0_0_n_n.rhsBatch by decide),
    dif_pos (show (0 : Fin S128x128.rank) ∈ dot_S5000x128_S128x128_S5000x128_1_1_0_0_n_n.rhsNonContracting by decide)]
  rfl
/-- Column of the right operand: the summation index. -/
theorem tdot3_rhs_1 (i : S5000x128.Idx) (q : dot_S5000x128_S128x128_S5000x128_1_1_0_0_n_n.contr.Idx) :
    (dot_S5000x128_S128x128_S5000x128_1_1_0_0_n_n.rhsIdx i q 1).val = (q ⟨0, by decide⟩).val :=
  dot_S5000x128_S128x128_S5000x128_1_1_0_0_n_n.rhsIdx_val_of_single rfl i q

/-! ## One tile -/

/-- The tile product into a zero accumulator, entry (p, q): the sum over k of x[p,k] * w[q,k]. The two
    conversions to the narrower float format change nothing on exact values. -/
theorem tile_product_apply3 (x : Vec Ideal S5000x128 .f32) (w : Vec Ideal S128x128 .f32) (p : Fin 5000) (q : Fin 128) :
    k3_pay1 (F := Ideal) x w (ix2 p q) = ∑ k : Fin 128, x (ix2 p k) * w (ix2 q k) := by
  unfold k3_pay1
  try simp only [shapeCast_self]
  refine (Ideal.matmul_constant_zero_apply dot_S5000x128_S128x128_S5000x128_1_1_0_0_n_n none _ _ (ix2 p q)).trans ?_
  rw [← Equiv.sum_comp (contrEquiv1 dot_S5000x128_S128x128_S5000x128_1_1_0_0_n_n 128 rfl rfl).symm]
  refine Finset.sum_congr rfl fun k _ => ?_
  have hk := contrEquiv1_symm_val dot_S5000x128_S128x128_S5000x128_1_1_0_0_n_n 128 rfl rfl k
  have el : dot_S5000x128_S128x128_S5000x128_1_1_0_0_n_n.lhsIdx (ix2 p q)
      ((contrEquiv1 dot_S5000x128_S128x128_S5000x128_1_1_0_0_n_n 128 rfl rfl).symm k) = ix2 p k :=
    funext fun a => Fin.ext (by
      match a with
      | ⟨0, _⟩ => exact tdot3_lhs_0 _ _
      | ⟨1, _⟩ => exact (tdot3_lhs_1 _ _).trans hk)
  have er : dot_S5000x128_S128x128_S5000x128_1_1_0_0_n_n.rhsIdx (ix2 p q)
      ((contrEquiv1 dot_S5000x128_S128x128_S5000x128_1_1_0_0_n_n 128 rfl rfl).symm k) = ix2 q k :=
    funext fun a => Fin.ext (by
      match a with
      | ⟨0, _⟩ => exact tdot3_rhs_0 _ _
      | ⟨1, _⟩ => exact (tdot3_rhs_1 _ _).trans hk)
  show x (dot_S5000x128_S128x128_S5000x128_1_1_0_0_n_n.lhsIdx (ix2 p q) _) * w (dot_S5000x128_S128x128_S5000x128_1_1_0_0_n_n.rhsIdx (ix2 p q) _) = _
  rw [el, er]

/-- The same entry when the two tiles are known to be pieces of larger arrays X and W: if row p of the x tile is
    row i of X and the w tile is W itself, the entry is the sum over k of X[i,k] * W[j,k], j being q. -/
theorem tile_entry3 (X : S50000x128.Idx → EReal) (W : S128x128.Idx → EReal)
    (xt : Vec Ideal S5000x128 .f32) (wt : Vec Ideal S128x128 .f32) (n : Nat)
    (hx : ∀ (p : Fin 5000) (k : Fin 128) (i : Fin 50000), i.val = n * 5000 + p.val → xt (ix2 p k) = X (ix2 i k))
    (hw : ∀ (a : Fin 128) (b : Fin 128), wt (ix2 a b) = W (ix2 a b))
    (p : Fin 5000) (q : Fin 128) (i : Fin 50000) (j : Fin 128) (hi : i.val = n * 5000 + p.val) (hj : j.val = q.val) :
    k3_pay1 (F := Ideal) xt wt (ix2 p q) = ∑ k : Fin 128, X (ix2 i k) * W (ix2 j k) := by
  obtain rfl : j = q := Fin.ext hj
  refine (tile_product_apply3 xt wt p j).trans ?_
  exact Finset.sum_congr rfl fun k _ => by rw [hx p k i hi, hw j k]

/-! ## The whole array -/

variable (V : (c : Dev nD) → (b : Ref sig .tc) → Buf (Elt Ideal) ((c : Thread nD τ).loc b))

/-- The input array x on entry, as a 50000 × 128 table of extended reals. -/
abbrev xin3 (c : Dev nD) : S50000x128.Idx → EReal := V c (Pipeline.arrRef spec3 0)
/-- The weight array on entry, as a 128 × 128 table. -/
abbrev wts3 (c : Dev nD) : S128x128.Idx → EReal := V c (Pipeline.arrRef spec3 1)

/-- The layer: entry (i, j) is the sum over k of X[i,k] * W[j,k]. -/
def layer3 (X : S50000x128.Idx → EReal) (W : S128x128.Idx → EReal) : S50000x128.Idx → EReal :=
  fun i => ∑ k : Fin 128, X (ix2 (i 0 : Fin 50000) k) * W (ix2 (i 1 : Fin 128) k)

theorem zeros2_r3 : (![0, 0] : Fin 2 → Nat) = fun _ => 0 := funext fun a => by fin_cases a <;> rfl

/-- Where the three windows sit at grid point t: the x tile and the output tile are the t-th row tile, the
    weights never move. -/
theorem where3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of the x tile at point t is row 5000 t + p of x. -/
theorem tile3_x_apply (c : Dev nD) (t : Fin cfg3.N) (p : Fin 5000) (k : Fin 128) (i : Fin 50000)
    (hi : i.val = t.val * 5000 + p.val) :
    (tile3 (F := Ideal) V c 0 t : Vec Ideal S5000x128 .f32) (ix2 p k) = xin3 V c (ix2 i k) := by
  obtain ⟨e00, e01, -⟩ := where3 t
  show xin3 V c (((cfg3.win 0).blk t).view.emb (ix2 p k)) = xin3 V c (ix2 i k)
  refine congrArg (xin3 V c) (funext fun a => Fin.ext ?_)
  match a with
  | ⟨0, _⟩ => show win3_0.index t (0 : Fin 2) * 5000 + 1 * p.val = i.val; omega
  | ⟨1, _⟩ => show win3_0.index t (1 : Fin 2) * 128 + 1 * k.val = k.val; omega

/-- The w tile is the weight array, at every point. -/
theorem tile3_w_apply (c : Dev nD) (t : Fin cfg3.N) (a : Fin 128) (b : Fin 128) :
    (tile3 (F := Ideal) V c 1 t : Vec Ideal S128x128 .f32) (ix2 a b) = wts3 V c (ix2 a b) := by
  obtain ⟨-, -, e10, e11, -⟩ := where3 t
  show wts3 V c (((cfg3.win 1).blk t).view.emb (ix2 a b)) = wts3 V c (ix2 a b)
  refine congrArg (wts3 V c) (funext fun d => Fin.ext ?_)
  match d with
  | ⟨0, _⟩ => show win3_1.index t (0 : Fin 2) * 128 + 1 * a.val = a.val; omega
  | ⟨1, _⟩ => show win3_1.index t (1 : Fin 2) * 128 + 1 * b.val = b.val; omega

/-- What point t writes back is the t-th row tile of the layer's output. -/
theorem wrote_back3 (c : Dev nD) (t : Fin cfg3.N) :
    (dat3 (F := Ideal) V c).flushed 2 t
      = ((cfg3.win 2).blk t).view.read (Elt Ideal) (layer3 (xin3 V c) (wts3 V c)) := by
  show (cfg3.win 2).cut (grid3.coords t) ((dat3 (F := Ideal) V c).after 2 t) = _
  rw [after3_out]
  unfold prod3
  rw [View.canon_unit_zero zeros2_r3]
  simp only [View.ld_unit_zero (S := S5000x128) zeros2_r3, View.ld_unit_zero (S := S128x128) zeros2_r3]
  obtain ⟨-, -, -, -, e20, e21⟩ := where3 t
  funext y
  obtain ⟨p, q, rfl⟩ : ∃ (p : Fin 5000) (q : Fin 128), y = ix2 p q := ⟨y 0, y 1, eq_ix2 y⟩
  have h0 : ((((cfg3.win 2).blk t).view.emb (ix2 p q)) 0).val = t.val * 5000 + p.val := by
    show win3_2.index t (0 : Fin 2) * 5000 + 1 * p.val = _; omega
  have h1 : ((((cfg3.win 2).blk t).view.emb (ix2 p q)) 1).val = q.val := by
    show win3_2.index t (1 : Fin 2) * 128 + 1 * q.val = _; omega
  exact tile_entry3 (xin3 V c) (wts3 V c) (tile3 (F := Ideal) V c 0 t) (tile3 (F := Ideal) V c 1 t) t.val
    (fun p k i hi => tile3_x_apply V c t p k i hi) (fun a b => tile3_w_apply V c t a b)
    p q ((((cfg3.win 2).blk t).view.emb (ix2 p q)) 0) ((((cfg3.win 2).blk t).view.emb (ix2 p q)) 1) h0 h1

/-- Being in the output tile of point t, coordinate by coordinate. -/
theorem mem_tile3 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v56).slice (win3_2.rect t)).set ↔ _
  rw [View.set_slice_whole, Rect.mem_set_unit]
  exact Iff.rfl

/-- Every row lies in exactly the tile numbered by its quotient by 5000, and every tile is written back. -/
theorem covered3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, by rw [show cfg3.N = 10 from N_3]; omega⟩, rfl⟩
  obtain ⟨-, -, -, -, e20, e21⟩ := where3 t
  refine ⟨t, flush3_2 t, ?_⟩
  rw [mem_tile3]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-- After the region the output array is the layer's output. -/
theorem final3 (c : Dev nD) :
    (dat3 (F := Ideal) V c).arrAt 2 cfg3.N = layer3 (xin3 V c) (wts3 V c) :=
  (dat3 (F := Ideal) V c).arrAt_eq_of_cover 2 (layer3 (xin3 V c) (wts3 V c))
    (fun t _ => wrote_back3 V c t) covered3

/-- Entry (i, j) of the output array after the region: the sum over k of x[i,k] * w[j,k], with x and w the two
    input arrays as they were when the region was entered. -/
theorem value3 (c : Dev nD) (i : Fin 50000) (j : Fin 128) :
    ((dat3 (F := Ideal) V c).arrAt 2 cfg3.N : S50000x128.Idx → EReal) (ix2 i j)
      = ∑ k : Fin 128, (xin3 V c) (ix2 i k) * (wts3 V c) (ix2 j k) :=
  congrFun (final3 V c) (ix2 i j)

end Cert.KernelIdeal.Reg
-- ==== Proof.KI.Val4.lean ====
/-
  Region 4 of @main at the ideal instance: what its two output arrays hold after the region, as whole-array
  functions of the matrix and the bias row the region finds. The kernel adds the bias row to each row of the matrix
  and accumulates, row tile by row tile from zero, the column sums and the column sums of squares; on the extended
  reals addition is associative with neutral element zero, so the ten tile sums regroup into one sum over all
  50000 rows with no finiteness assumption.
-/
import proofs.«429275_j68899865363005_1_alg».proof.Proof.KI.R4
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-! ## One row tile's contribution, entry by entry -/

/-- The reset value is zero. -/
theorem reset4_apply (j : Fin 128) : (k4_pay1 (F := Ideal) : S1x128.Idx → EReal) (ix2 (0 : Fin 1) j) = 0 := by
  unfold k4_pay1
  rw [shapeCast_self]
  exact Ideal.ofBits_zero_f32

theorem resetsq4_apply (j : Fin 128) : (k4_pay2 (F := Ideal) : S1x128.Idx → EReal) (ix2 (0 : Fin 1) j) = 0 := by
  unfold k4_pay2
  rw [shapeCast_self]
  exact Ideal.ofBits_zero_f32

/-- The biased tile, entry by entry. -/
theorem biased4_apply (x : Vec Ideal S5000x128 .f32) (b : Vec Ideal S1x128 .f32) (r : Fin 5000) (j : Fin 128) :
    (k4_pay3 x b : S5000x128.Idx → EReal) (ix2 r j) = x (ix2 r j) + b (ix2 (0 : Fin 1) j) := by
  unfold k4_pay3
  rw [shapeCast_self, shapeCast_self]
  refine (addf_apply _ _ _).trans ?_
  exact congrArg (x (ix2 r j) + ·) (broadcastTo_1b_ab_apply b broadcasts_S1x128_S5000x128 r j)

/-- The index a column's reduction reads at row `k`. -/
theorem lift4 (j : Fin 128) (k : Fin (S5000x128.size 0)) :
    reduces_S5000x128_S128.lift (ix1 j) k = ix2 (n0 := 5000) k j := by
  funext a
  match a with
  | ⟨0, _⟩ => exact Fin.ext rfl
  | ⟨1, _⟩ => exact Fin.ext rfl

/-- The first sum after a tile: the sum before plus the tile's column sums. -/
theorem step4_apply (x : Vec Ideal S5000x128 .f32) (b s : Vec Ideal S1x128 .f32) (j : Fin 128) :
    (k4_pay4 x b s : S1x128.Idx → EReal) (ix2 (0 : Fin 1) j)
      = s (ix2 (0 : Fin 1) j) + ∑ r : Fin 5000, (x (ix2 r j) + b (ix2 (0 : Fin 1) j)) := by
  unfold k4_pay4
  rw [shapeCast_self]
  refine (addf_apply _ _ _).trans ?_
  refine congrArg (s (ix2 (0 : Fin 1) j) + ·) ?_
  refine (shapeCast_a_1a_apply _ shapeCasts_S128_S1x128 (0 : Fin 1) j).trans ?_
  refine (Ideal.multiReduction_add_single (k4_pay3 x b) _ reduces_S5000x128_S128 _ _ (ix1 j)).trans ?_
  refine Finset.sum_congr rfl fun r _ => ?_
  refine (congrArg (k4_pay3 x b) (lift4 j r)).trans ?_
  exact biased4_apply x b r j

/-- The second sum after a tile: the sum before plus the tile's column sums of squares. -/
theorem stepsq4_apply (x : Vec Ideal S5000x128 .f32) (b s : Vec Ideal S1x128 .f32) (j : Fin 128) :
    (k4_pay5 x b s : S1x128.Idx → EReal) (ix2 (0 : Fin 1) j)
      = s (ix2 (0 : Fin 1) j) + ∑ r : Fin 5000, (x (ix2 r j) + b (ix2 (0 : Fin 1) j)) * (x (ix2 r j) + b (ix2 (0 : Fin 1) j)) := by
  unfold k4_pay5
  rw [shapeCast_self]
  refine (addf_apply _ _ _).trans ?_
  refine congrArg (s (ix2 (0 : Fin 1) j) + ·) ?_
  refine (shapeCast_a_1a_apply _ shapeCasts_S128_S1x128 (0 : Fin 1) j).trans ?_
  refine (Ideal.multiReduction_add_single (mulf (k4_pay3 x b) (k4_pay3 x b)) _ reduces_S5000x128_S128 _ _ (ix1 j)).trans ?_
  refine Finset.sum_congr rfl fun r _ => ?_
  refine (congrArg (mulf (k4_pay3 x b) (k4_pay3 x b)) (lift4 j r)).trans ?_
  refine (mulf_apply _ _ _).trans ?_
  rw [biased4_apply x b r j]

/-! ## The windows' blocks as entries of the arrays -/

/-- The matrix as the region finds it. -/
abbrev mat4 (c : Dev nD) : S50000x128.Idx → EReal := V c (Pipeline.arrRef spec4 0)
/-- The bias row as the region finds it. -/
abbrev row4 (c : Dev nD) : S1x128.Idx → EReal := V c (Pipeline.arrRef spec4 1)

/-- Where the two input windows' blocks sit: row tile `t` of the matrix, the whole bias row. -/
theorem index4 : ∀ t : Fin cfg4.N, (win4_0.index t 0 = t.val ∧ win4_0.index t 1 = 0) ∧ (win4_1.index t 0 = 0 ∧ win4_1.index t 1 = 0) :=
  (by decide +kernel : ∀ t : Fin grid4.N, (win4_0.index t 0 = t.val ∧ win4_0.index t 1 = 0) ∧ (win4_1.index t 0 = 0 ∧ win4_1.index t 1 = 0))

/-- Row `r` of row tile `t` is row `5000 t + r` of the matrix. -/
theorem tile4_apply (c : Dev nD) (t : Fin cfg4.N) (r : Fin 5000) (j : Fin 128) (k : Fin 50000) (hk : k.val = 5000 * t.val + r.val) :
    (tile4 V c t : S5000x128.Idx → EReal) (ix2 r j) = mat4 V c (ix2 k j) := by
  show (blk4 V c 0 t : S5000x128.Idx → EReal) (ix2 r j) = _
  unfold blk4
  rw [View.read_apply]
  show (V c main_v69 : S50000x128.Idx → EReal) _ = (V c main_v69 : S50000x128.Idx → EReal) _
  congr 1
  funext a
  apply Fin.ext
  match a with
  | ⟨0, _⟩ => show win4_0.index t 0 * 5000 + 1 * r.val = k.val; rw [(index4 t).1.1, hk]; omega
  | ⟨1, _⟩ => show win4_0.index t 1 * 128 + 1 * j.val = j.val; rw [(index4 t).1.2]; omega

/-- The bias window's block is the bias row at every tile. -/
theorem bias4_apply (c : Dev nD) (t : Fin cfg4.N) (j : Fin 128) :
    (bias4 V c t : S1x128.Idx → EReal) (ix2 (0 : Fin 1) j) = row4 V c (ix2 (0 : Fin 1) j) := by
  show (blk4 V c 1 t : S1x128.Idx → EReal) (ix2 (0 : Fin 1) j) = _
  unfold blk4
  rw [View.read_apply]
  show (V c main_v70 : S1x128.Idx → EReal) _ = (V c main_v70 : S1x128.Idx → EReal) _
  congr 1
  funext a
  apply Fin.ext
  match a with
  | ⟨0, _⟩ => show win4_1.index t 0 * 1 + 1 * 0 = 0; rw [(index4 t).2.1]
  | ⟨1, _⟩ => show win4_1.index t 1 * 128 + 1 * j.val = j.val; rw [(index4 t).2.2]; omega

/-! ## The running sums as partial sums over the matrix rows -/

/-- The summand of the first output in column `j`, by row number (zero past the last row). -/
def term4 (c : Dev nD) (j : Fin 128) (i : ℕ) : EReal :=
  if h : i < 50000 then mat4 V c (ix2 ⟨i, h⟩ j) + row4 V c (ix2 (0 : Fin 1) j) else 0

/-- The summand of the second output: its square. -/
def termsq4 (c : Dev nD) (j : Fin 128) (i : ℕ) : EReal :=
  if h : i < 50000 then (mat4 V c (ix2 ⟨i, h⟩ j) + row4 V c (ix2 (0 : Fin 1) j)) * (mat4 V c (ix2 ⟨i, h⟩ j) + row4 V c (ix2 (0 : Fin 1) j)) else 0

theorem tiles4_lt (t : Fin cfg4.N) : t.val < 10 := lt_of_lt_of_eq t.isLt (show cfg4.N = 10 from N_4)

/-- Row tile `t`'s column sum is the sum of the 5000 summands from row `5000 t` on. -/
theorem tile_sum4 (c : Dev nD) (t : Fin cfg4.N) (j : Fin 128) :
    (∑ r : Fin 5000, ((tile4 V c t : S5000x128.Idx → EReal) (ix2 r j) + (bias4 V c t : S1x128.Idx → EReal) (ix2 (0 : Fin 1) j)))
      = ∑ r ∈ Finset.range 5000, term4 V c j (5000 * t.val + r) := by
  rw [Finset.sum_range]
  refine Finset.sum_congr rfl fun r _ => ?_
  have hN := tiles4_lt t
  have h : 5000 * t.val + r.val < 50000 := by have := r.isLt; omega
  unfold term4
  rw [dif_pos h, tile4_apply V c t r j ⟨5000 * t.val + r.val, h⟩ rfl, bias4_apply V c t j]

theorem tile_sumsq4 (c : Dev nD) (t : Fin cfg4.N) (j : Fin 128) :
    (∑ r : Fin 5000, ((tile4 V c t : S5000x128.Idx → EReal) (ix2 r j) + (bias4 V c t : S1x128.Idx → EReal) (ix2 (0 : Fin 1) j))
        * ((tile4 V c t : S5000x128.Idx → EReal) (ix2 r j) + (bias4 V c t : S1x128.Idx → EReal) (ix2 (0 : Fin 1) j)))
      = ∑ r ∈ Finset.range 5000, termsq4 V c j (5000 * t.val + r) := by
  rw [Finset.sum_range]
  refine Finset.sum_congr rfl fun r _ => ?_
  have hN := tiles4_lt t
  have h : 5000 * t.val + r.val < 50000 := by have := r.isLt; omega
  unfold termsq4
  rw [dif_pos h, tile4_apply V c t r j ⟨5000 * t.val + r.val, h⟩ rfl, bias4_apply V c t j]

theorem sums4_zero (c : Dev nD) (h : 0 < cfg4.N) :
    sums4 V c 0 h = (k4_pay4 (tile4 V c ⟨0, h⟩) (bias4 V c ⟨0, h⟩) (k4_pay1 (F := Ideal)), k4_pay5 (tile4 V c ⟨0, h⟩) (bias4 V c ⟨0, h⟩) (k4_pay2 (F := Ideal))) := rfl

theorem sums4_succ (c : Dev nD) (n : ℕ) (h : n + 1 < cfg4.N) :
    sums4 V c (n + 1) h
      = (k4_pay4 (tile4 V c ⟨n + 1, h⟩) (bias4 V c ⟨n + 1, h⟩) (sums4 V c n (Nat.lt_of_succ_lt h)).1,
         k4_pay5 (tile4 V c ⟨n + 1, h⟩) (bias4 V c ⟨n + 1, h⟩) (sums4 V c n (Nat.lt_of_succ_lt h)).2) := rfl

/-- After row tile `n` the first carried buffer holds, in column `j`, the sum of the summands of the first
    `5000 (n + 1)` rows. -/
theorem sums4_fst (c : Dev nD) (j : Fin 128) : ∀ (n : ℕ) (h : n < cfg4.N),
    ((sums4 V c n h).1 : S1x128.Idx → EReal) (ix2 (0 : Fin 1) j) = ∑ i ∈ Finset.range (5000 * (n + 1)), term4 V c j i
  | 0, h => by
    rw [sums4_zero]
    dsimp only
    refine (step4_apply (tile4 V c ⟨0, h⟩) (bias4 V c ⟨0, h⟩) (k4_pay1 (F := Ideal)) j).trans ?_
    rw [reset4_apply, zero_add, tile_sum4 V c ⟨0, h⟩ j]
    refine Finset.sum_congr rfl fun r _ => ?_
    show term4 V c j (5000 * 0 + r) = _
    rw [Nat.mul_zero, Nat.zero_add]
  | n + 1, h => by
    rw [sums4_succ]
    dsimp only
    refine (step4_apply (tile4 V c ⟨n + 1, h⟩) (bias4 V c ⟨n + 1, h⟩) (sums4 V c n (Nat.lt_of_succ_lt h)).1 j).trans ?_
    rw [sums4_fst c j n (Nat.lt_of_succ_lt h), tile_sum4 V c ⟨n + 1, h⟩ j,
      show 5000 * (n + 1 + 1) = 5000 * (n + 1) + 5000 from by omega, Finset.sum_range_add]

/-- And the second, the sum of their squares. -/
theorem sums4_snd (c : Dev nD) (j : Fin 128) : ∀ (n : ℕ) (h : n < cfg4.N),
    ((sums4 V c n h).2 : S1x128.Idx → EReal) (ix2 (0 : Fin 1) j) = ∑ i ∈ Finset.range (5000 * (n + 1)), termsq4 V c j i
  | 0, h => by
    rw [sums4_zero]
    dsimp only
    refine (stepsq4_apply (tile4 V c ⟨0, h⟩) (bias4 V c ⟨0, h⟩) (k4_pay2 (F := Ideal)) j).trans ?_
    rw [resetsq4_apply, zero_add, tile_sumsq4 V c ⟨0, h⟩ j]
    refine Finset.sum_congr rfl fun r _ => ?_
    show termsq4 V c j (5000 * 0 + r) = _
    rw [Nat.mul_zero, Nat.zero_add]
  | n + 1, h => by
    rw [sums4_succ]
    dsimp only
    refine (stepsq4_apply (tile4 V c ⟨n + 1, h⟩) (bias4 V c ⟨n + 1, h⟩) (sums4 V c n (Nat.lt_of_succ_lt h)).2 j).trans ?_
    rw [sums4_snd c j n (Nat.lt_of_succ_lt h), tile_sumsq4 V c ⟨n + 1, h⟩ j,
      show 5000 * (n + 1 + 1) = 5000 * (n + 1) + 5000 from by omega, Finset.sum_range_add]

/-! ## The output arrays after the region -/

theorem nine_lt4 : 9 < cfg4.N := by rw [show cfg4.N = 10 from N_4]; decide

/-- The first output array after the region: the first carried buffer after the last row tile. -/
abbrev total4 (c : Dev nD) : Buf (Elt Ideal) ((c : Thread nD τ).loc main_v71_0) := (sums4 V c 9 nine_lt4).1
/-- The second. -/
abbrev totalsq4 (c : Dev nD) : Buf (Elt Ideal) ((c : Thread nD τ).loc main_v71_1) := (sums4 V c 9 nine_lt4).2

/-- The one write-back of the first output, at the last row tile, writes the whole array. -/
theorem written4_2 (c : Dev nD) (t : Fin cfg4.N) (hf : (cfg4.win 2).flush t = true) :
    (dat4 V c).flushed 2 t = ((cfg4.win 2).blk t).view.read (Elt Ideal) (total4 V c) := by
  have h9 : t.val = 9 := by have := (flush4_2 t).mp hf; have := tiles4_lt t; omega
  obtain rfl : t = t4_9 := Fin.ext h9
  show (cfg4.win 2).cut (grid4.coords t4_9) ((dat4 V c).after 2 t4_9) = _
  rw [after4_2]
  have hz' : (fun a => win4_2.index t4_9 a * main_v71_0.ty.shape.size a) = fun _ => 0 := funext fun a => by fin_cases a <;> decide
  exact (Memref.read_access_unit_zero (Elt Ideal) main_v71_0 hz' (fun a => by rw [congrFun hz' a]; simp) (total4 V c)).symm

theorem written4_3 (c : Dev nD) (t : Fin cfg4.N) (hf : (cfg4.win 3).flush t = true) :
    (dat4 V c).flushed 3 t = ((cfg4.win 3).blk t).view.read (Elt Ideal) (totalsq4 V c) := by
  have h9 : t.val = 9 := by have := (flush4_3 t).mp hf; have := tiles4_lt t; omega
  obtain rfl : t = t4_9 := Fin.ext h9
  show (cfg4.win 3).cut (grid4.coords t4_9) ((dat4 V c).after 3 t4_9) = _
  rw [after4_3]
  have hz' : (fun a => win4_3.index t4_9 a * main_v71_1.ty.shape.size a) = fun _ => 0 := funext fun a => by fin_cases a <;> decide
  exact (Memref.read_access_unit_zero (Elt Ideal) main_v71_1 hz' (fun a => by rw [congrFun hz' a]; simp) (totalsq4 V c)).symm

/-- The last row tile's block of an output is the whole array. -/
theorem covers4_2 (i : S1x128.Idx) : i ∈ ((View.whole main_v71_0).slice (win4_2.rect t4_9)).set := by
  rw [View.set_slice_whole, Rect.mem_set_unit]
  intro a
  have h0 : (i 0 : Nat) < 1 := (i 0).isLt
  have h1 : (i 1 : Nat) < 128 := (i 1).isLt
  match a with
  | ⟨0, _⟩ =>
    show win4_2.index t4_9 0 * win4_2.size 0 ≤ (i 0 : Nat) ∧ (i 0 : Nat) < win4_2.index t4_9 0 * win4_2.size 0 + win4_2.xsize (grid4.coords t4_9) 0
    rw [show win4_2.index t4_9 0 * win4_2.size 0 = 0 from by decide +kernel, show win4_2.xsize (grid4.coords t4_9) 0 = 1 from by decide +kernel]; omega
  | ⟨1, _⟩ =>
    show win4_2.index t4_9 1 * win4_2.size 1 ≤ (i 1 : Nat) ∧ (i 1 : Nat) < win4_2.index t4_9 1 * win4_2.size 1 + win4_2.xsize (grid4.coords t4_9) 1
    rw [show win4_2.index t4_9 1 * win4_2.size 1 = 0 from by decide +kernel, show win4_2.xsize (grid4.coords t4_9) 1 = 128 from by decide +kernel]; omega

theorem covers4_3 (i : S1x128.Idx) : i ∈ ((View.whole main_v71_1).slice (win4_3.rect t4_9)).set := by
  rw [View.set_slice_whole, Rect.mem_set_unit]
  intro a
  have h0 : (i 0 : Nat) < 1 := (i 0).isLt
  have h1 : (i 1 : Nat) < 128 := (i 1).isLt
  match a with
  | ⟨0, _⟩ =>
    show win4_3.index t4_9 0 * win4_3.size 0 ≤ (i 0 : Nat) ∧ (i 0 : Nat) < win4_3.index t4_9 0 * win4_3.size 0 + win4_3.xsize (grid4.coords t4_9) 0
    rw [show win4_3.index t4_9 0 * win4_3.size 0 = 0 from by decide +kernel, show win4_3.xsize (grid4.coords t4_9) 0 = 1 from by decide +kernel]; omega
  | ⟨1, _⟩ =>
    show win4_3.index t4_9 1 * win4_3.size 1 ≤ (i 1 : Nat) ∧ (i 1 : Nat) < win4_3.index t4_9 1 * win4_3.size 1 + win4_3.xsize (grid4.coords t4_9) 1
    rw [show win4_3.index t4_9 1 * win4_3.size 1 = 0 from by decide +kernel, show win4_3.xsize (grid4.coords t4_9) 1 = 128 from by decide +kernel]; omega

/-- So the first output array ends at the first carried buffer's last contents, -/
theorem final4_2 (c : Dev nD) : (dat4 V c).arrAt 2 cfg4.N = total4 V c :=
  (dat4 V c).arrAt_eq_of_cover 2 (total4 V c) (written4_2 V c) fun i => ⟨t4_9, (flush4_2 t4_9).mpr rfl, covers4_2 i⟩

/-- and the second at the second's. -/
theorem final4_3 (c : Dev nD) : (dat4 V c).arrAt 3 cfg4.N = totalsq4 V c :=
  (dat4 V c).arrAt_eq_of_cover 3 (totalsq4 V c) (written4_3 V c) fun i => ⟨t4_9, (flush4_3 t4_9).mpr rfl, covers4_3 i⟩

/-- The first output array after the region's write-backs, at its literal type. -/
abbrev colsum4 (c : Dev nD) : S1x128.Idx → EReal := (dat4 V c).arrAt 2 cfg4.N
/-- The second. -/
abbrev colsumsq4 (c : Dev nD) : S1x128.Idx → EReal := (dat4 V c).arrAt 3 cfg4.N

/-- THE VALUE of the first output: column `j` holds the sum over all 50000 rows of the biased matrix entries. -/
theorem value4_sum (c : Dev nD) (j : Fin 128) :
    colsum4 V c (ix2 (0 : Fin 1) j) = ∑ i : Fin 50000, (mat4 V c (ix2 i j) + row4 V c (ix2 (0 : Fin 1) j)) := by
  show ((dat4 V c).arrAt 2 cfg4.N : S1x128.Idx → EReal) (ix2 (0 : Fin 1) j) = _
  rw [final4_2]
  refine (sums4_fst V c j 9 nine_lt4).trans ?_
  rw [show 5000 * (9 + 1) = 50000 from rfl, Finset.sum_range]
  refine Finset.sum_congr rfl fun i _ => ?_
  unfold term4
  rw [dif_pos i.isLt]

/-- THE VALUE of the second output: column `j` holds the sum over all rows of their squares. -/
theorem value4_sumsq (c : Dev nD) (j : Fin 128) :
    colsumsq4 V c (ix2 (0 : Fin 1) j)
      = ∑ i : Fin 50000, (mat4 V c (ix2 i j) + row4 V c (ix2 (0 : Fin 1) j)) * (mat4 V c (ix2 i j) + row4 V c (ix2 (0 : Fin 1) j)) := by
  show ((dat4 V c).arrAt 3 cfg4.N : S1x128.Idx → EReal) (ix2 (0 : Fin 1) j) = _
  rw [final4_3]
  refine (sums4_snd V c j 9 nine_lt4).trans ?_
  rw [show 5000 * (9 + 1) = 50000 from rfl, Finset.sum_range]
  refine Finset.sum_congr rfl fun i _ => ?_
  unfold termsq4
  rw [dif_pos i.isLt]

end Cert.KernelIdeal.Reg

end
-- ==== Proof.KI.Val5.lean ====
import proofs.«429275_j68899865363005_1_alg».proof.Proof.KI.R5
import Idealize.ShloMosaic.Lib.Pipeline.Value
import Idealize.ShloMosaic.Lib.ValueIdx
import Idealize.ShloMosaic.Lib.ValueLayout

/-!
# Region 5 over the extended reals: the array it writes

Region 5 overwrites the 50000 x 128 output array tile by tile. Here the result is read as one function
of the four arrays the region found on entry: entry (i, j) of the output is the larger of zero and
((x i j + b j) - mean j) * invstd j. The steps: the payload at one entry of a tile; where each window
sits at a grid point, so that a tile's entry is an entry of its array; hence what a point writes back
is a tile of the whole-array function; the ten tiles cover the array.
-/

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The payload at an index

Over the extended reals the payload is, entry by entry, the larger of zero and
((x + b) - mean) * invstd, where b, mean and invstd are rows spread down the 5000 rows of the tile. -/

/-- The entry of a 1 x 128 row that a broadcast to 5000 x 128 shows at row p, column q, is the row's
    entry in column q. -/
theorem spread_row5 (p : Fin 5000) (q : Fin 128) :
    ∀ a : Fin S1x128.rank, ((ix2 (0 : Fin 1) q : S1x128.Idx) a).val
      = if S1x128.size a = 1 then 0
        else ((ix2 p q : S5000x128.Idx) ⟨a.val + (S5000x128.rank - S1x128.rank), by have := a.isLt; omega⟩).val := by
  intro a
  match a with
  | ⟨0, _⟩ => rfl
  | ⟨1, _⟩ => rfl

theorem pay5_at (x : Vec Ideal S5000x128 .f32) (b mu sg : Vec Ideal S1x128 .f32) (p : Fin 5000) (q : Fin 128) :
    k5_pay1 x b mu sg (ix2 p q)
      = max (((x (ix2 p q) + b (ix2 0 q)) - mu (ix2 0 q)) * sg (ix2 0 q)) (Ideal.ofBits .f32 0x00000000#32) := by
  unfold k5_pay1
  simp only [shapeCast_self]
  rw [maximumf_apply, mulf_apply, subf_apply, addf_apply, broadcast_apply,
    broadcastTo_apply b _ (ix2 p q) (ix2 0 q) (spread_row5 p q),
    broadcastTo_apply mu _ (ix2 p q) (ix2 0 q) (spread_row5 p q),
    broadcastTo_apply sg _ (ix2 p q) (ix2 0 q) (spread_row5 p q)]
  rfl

/-! ## Where the windows sit at a grid point

The two big windows sit on row tile t at point t; the three row windows never move. -/

theorem where5 : ∀ t : Fin cfg5.N,
    win5_0.index t (0 : Fin 2) = t.val ∧ win5_0.index t (1 : Fin 2) = 0
    ∧ win5_4.index t (0 : Fin 2) = t.val ∧ win5_4.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 :=
  (by decide +kernel : ∀ t : Fin grid5.N, _)

/-- Entry (p, q) of the big input tile at point t is entry (5000 t + p, q) of the input array. -/
theorem tile5_0_at (c : Dev nD) (t : Fin cfg5.N) (p : Fin 5000) (q : Fin 128) (r : Fin 50000)
    (hr : r.val = t.val * 5000 + p.val) :
    (tile5 V c 0 t : Vec Ideal S5000x128 .f32) (ix2 p q)
      = (V c (Pipeline.arrRef spec5 0) : Vec Ideal S50000x128 .f32) (ix2 r q) := by
  obtain ⟨e0, e1, -⟩ := where5 t
  show (V c (Pipeline.arrRef spec5 0) : Vec Ideal S50000x128 .f32) (((cfg5.win 0).blk t).view.emb (ix2 p q)) = _
  refine congrArg _ (funext fun a => Fin.ext ?_)
  match a with
  | ⟨0, _⟩ => show win5_0.index t (0 : Fin 2) * 5000 + 1 * p.val = r.val; omega
  | ⟨1, _⟩ => show win5_0.index t (1 : Fin 2) * 128 + 1 * q.val = q.val; omega

/-- Column q of each row tile is column q of its row array, at every point. -/
theorem tile5_1_at (c : Dev nD) (t : Fin cfg5.N) (q : Fin 128) :
    (tile5 V c 1 t : Vec Ideal S1x128 .f32) (ix2 0 q)
      = (V c (Pipeline.arrRef spec5 1) : Vec Ideal S1x128 .f32) (ix2 0 q) := by
  obtain ⟨-, -, -, -, e0, e1, -⟩ := where5 t
  show (V c (Pipeline.arrRef spec5 1) : Vec Ideal S1x128 .f32) (((cfg5.win 1).blk t).view.emb (ix2 0 q)) = _
  refine congrArg _ (funext fun a => Fin.ext ?_)
  match a with
  | ⟨0, _⟩ => show win5_1.index t (0 : Fin 2) * 1 + 1 * 0 = 0; omega
  | ⟨1, _⟩ => show win5_1.index t (1 : Fin 2) * 128 + 1 * q.val = q.val; omega

theorem tile5_2_at (c : Dev nD) (t : Fin cfg5.N) (q : Fin 128) :
    (tile5 V c 2 t : Vec Ideal S1x128 .f32) (ix2 0 q)
      = (V c (Pipeline.arrRef spec5 2) : Vec Ideal S1x128 .f32) (ix2 0 q) := by
  obtain ⟨-, -, -, -, -, -, e0, e1, -⟩ := where5 t
  show (V c (Pipeline.arrRef spec5 2) : Vec Ideal S1x128 .f32) (((cfg5.win 2).blk t).view.emb (ix2 0 q)) = _
  refine congrArg _ (funext fun a => Fin.ext ?_)
  match a with
  | ⟨0, _⟩ => show win5_2.index t (0 : Fin 2) * 1 + 1 * 0 = 0; omega
  | ⟨1, _⟩ => show win5_2.index t (1 : Fin 2) * 128 + 1 * q.val = q.val; omega

theorem tile5_3_at (c : Dev nD) (t : Fin cfg5.N) (q : Fin 128) :
    (tile5 V c 3 t : Vec Ideal S1x128 .f32) (ix2 0 q)
      = (V c (Pipeline.arrRef spec5 3) : Vec Ideal S1x128 .f32) (ix2 0 q) := by
  obtain ⟨-, -, -, -, -, -, -, -, e0, e1⟩ := where5 t
  show (V c (Pipeline.arrRef spec5 3) : Vec Ideal S1x128 .f32) (((cfg5.win 3).blk t).view.emb (ix2 0 q)) = _
  refine congrArg _ (funext fun a => Fin.ext ?_)
  match a with
  | ⟨0, _⟩ => show win5_3.index t (0 : Fin 2) * 1 + 1 * 0 = 0; omega
  | ⟨1, _⟩ => show win5_3.index t (1 : Fin 2) * 128 + 1 * q.val = q.val; omega

/-! ## The whole output array -/

/-- Normalise and clamp, entry by entry: from an array x and three rows b, mean, invstd, the array
    whose entry (i, j) is the larger of zero and ((x i j + b j) - mean j) * invstd j. -/
def normClamp5 (x : Vec Ideal S50000x128 .f32) (b mu sg : Vec Ideal S1x128 .f32) : Vec Ideal S50000x128 .f32 :=
  fun i => max (((x (ix2 (i 0) (i 1)) + b (ix2 0 (i 1))) - mu (ix2 0 (i 1))) * sg (ix2 0 (i 1)))
    (Ideal.ofBits .f32 0x00000000#32)

theorem normClamp5_at (x : Vec Ideal S50000x128 .f32) (b mu sg : Vec Ideal S1x128 .f32) (i : Fin 50000) (j : Fin 128) :
    normClamp5 x b mu sg (ix2 i j)
      = max (((x (ix2 i j) + b (ix2 0 j)) - mu (ix2 0 j)) * sg (ix2 0 j)) (Ideal.ofBits .f32 0x00000000#32) := rfl

/-- The four arrays region 5 reads, as it finds them, and the array it writes, as it leaves it: the
    same terms as V c (Pipeline.arrRef spec5 w) and (dat5 V c).arrAt 4 cfg5.N, under their literal types. -/
abbrev x5 (c : Dev nD) : Vec Ideal S50000x128 .f32 := V c (Pipeline.arrRef spec5 0)
abbrev b5 (c : Dev nD) : Vec Ideal S1x128 .f32 := V c (Pipeline.arrRef spec5 1)
abbrev mean5 (c : Dev nD) : Vec Ideal S1x128 .f32 := V c (Pipeline.arrRef spec5 2)
abbrev invstd5 (c : Dev nD) : Vec Ideal S1x128 .f32 := V c (Pipeline.arrRef spec5 3)
abbrev y5 (c : Dev nD) : Vec Ideal S50000x128 .f32 := (dat5 V c).arrAt 4 cfg5.N

theorem no_offset5 : (![0, 0] : Fin 2 → Nat) = fun _ => 0 :=
  funext fun a => by match a with | ⟨0, _⟩ => rfl | ⟨1, _⟩ => rfl

/-- What point t writes back is tile t of that array. -/
theorem wrote5 (c : Dev nD) (t : Fin cfg5.N) :
    (dat5 V c).flushed 4 t = ((cfg5.win 4).blk t).view.read (Elt Ideal) (normClamp5 (x5 V c) (b5 V c) (mean5 V c) (invstd5 V c)) := by
  show (cfg5.win 4).cut (grid5.coords t) ((dat5 V c).after 4 t) = _
  rw [after5_4]
  unfold res5
  rw [View.canon_unit_zero no_offset5]
  simp only [View.ld_unit_zero (S := S5000x128) no_offset5, View.ld_unit_zero (S := S1x128) no_offset5]
  funext j
  obtain ⟨p, q, rfl⟩ : ∃ (p : Fin 5000) (q : Fin 128), j = ix2 p q := ⟨j 0, j 1, eq_ix2 j⟩
  have h10 : cfg5.N = 10 := N_5
  have ht : t.val < cfg5.N := t.isLt
  obtain ⟨r, hr⟩ : ∃ r : Fin 50000, r.val = t.val * 5000 + p.val := ⟨⟨t.val * 5000 + p.val, by omega⟩, rfl⟩
  obtain ⟨-, -, e0, e1, -⟩ := where5 t
  have hemb : ((cfg5.win 4).blk t).view.emb (ix2 p q) = (ix2 r q : S50000x128.Idx) :=
    funext fun a => Fin.ext (by
      match a with
      | ⟨0, _⟩ => show win5_4.index t (0 : Fin 2) * 5000 + 1 * p.val = r.val; omega
      | ⟨1, _⟩ => show win5_4.index t (1 : Fin 2) * 128 + 1 * q.val = q.val; omega)
  show k5_pay1 (tile5 V c 0 t) (tile5 V c 1 t) (tile5 V c 2 t) (tile5 V c 3 t) (ix2 p q)
    = normClamp5 (x5 V c) (b5 V c) (mean5 V c) (invstd5 V c) (((cfg5.win 4).blk t).view.emb (ix2 p q))
  rw [hemb, pay5_at, tile5_0_at V c t p q r hr, tile5_1_at, tile5_2_at, tile5_3_at]
  rfl

/-- An entry of the output array lies under the window at point t exactly when its row is in row
    tile t (and its column anywhere). -/
theorem under5 (t : Fin cfg5.N) (i : S50000x128.Idx) :
    i ∈ ((cfg5.win 4).blk t).view.set
      ↔ ∀ a : Fin 2, win5_4.index t a * S5000x128.size a ≤ (i a).val
          ∧ (i a).val < win5_4.index t a * S5000x128.size a + S5000x128.size a := by
  show i ∈ ((View.whole main_v81).slice (win5_4.rect t)).set ↔ _
  rw [View.set_slice_whole, Rect.mem_set_unit]
  exact Iff.rfl

/-- Every entry is written by some point: row i by point i / 5000. -/
theorem all_written5 (i : S50000x128.Idx) :
    ∃ t : Fin cfg5.N, (cfg5.win 4).flush t = true ∧ i ∈ ((cfg5.win 4).blk t).view.set := by
  have h10 : cfg5.N = 10 := N_5
  have hi0 : (i 0).val < 50000 := (i 0).isLt
  have hi1 : (i 1).val < 128 := (i 1).isLt
  obtain ⟨t, ht⟩ : ∃ t : Fin cfg5.N, t.val = (i 0).val / 5000 := ⟨⟨(i 0).val / 5000, by omega⟩, rfl⟩
  obtain ⟨-, -, e0, e1, -⟩ := where5 t
  refine ⟨t, flush5_4 t, ?_⟩
  rw [under5]
  intro a
  match a with
  | ⟨0, _⟩ =>
    show win5_4.index t (0 : Fin 2) * 5000 ≤ (i 0).val ∧ (i 0).val < win5_4.index t (0 : Fin 2) * 5000 + 5000
    omega
  | ⟨1, _⟩ =>
    show win5_4.index t (1 : Fin 2) * 128 ≤ (i 1).val ∧ (i 1).val < win5_4.index t (1 : Fin 2) * 128 + 128
    omega

/-- So after the last point the output array is that function, everywhere. -/
theorem arr5 (c : Dev nD) : (dat5 V c).arrAt 4 cfg5.N = normClamp5 (x5 V c) (b5 V c) (mean5 V c) (invstd5 V c) :=
  (dat5 V c).arrAt_eq_of_cover 4 (normClamp5 (x5 V c) (b5 V c) (mean5 V c) (invstd5 V c)) (fun t _ => wrote5 V c t) all_written5

/-- The output array region 5 leaves, entry by entry, from the arrays it found. -/
theorem value5 (c : Dev nD) (i : Fin 50000) (j : Fin 128) :
    y5 V c (ix2 i j)
      = max (((x5 V c (ix2 i j) + b5 V c (ix2 0 j)) - mean5 V c (ix2 0 j)) * invstd5 V c (ix2 0 j))
          (Ideal.ofBits .f32 0x00000000#32) := by
  show (dat5 V c).arrAt 4 cfg5.N (ix2 i j) = _
  rw [arr5]
  rfl

end Cert.KernelIdeal.Reg

end
-- ==== Proof.Val.KNet2.lean ====
/-
  The second layer of the kernel program, on exact values.

  Between the exit of region 2 and the exit of region 5 the program runs: a dense product (region 3), the edge
  aggregation and the reshaping of the bias (a host stretch), the column sums of the biased aggregate and of its square
  (region 4), the two moment rows (a host stretch), and the normalisation with clipping at zero (region 5). Write n1 for
  what region 2 left in its output array, w2 and b2 for the layer's weight and bias arguments as launched, and A for the
  edge aggregation over the edge-index argument as launched. Following the contents of the buffers item by item,
  region 5's output array holds at row i and column j

      max (((a i j + b2 j) - mean j) * inv j) 0,        a = A (n1 · w2ᵀ),

  mean j the mean over the rows of a + b2 in column j and inv j the reciprocal root of that column's mean square less
  its squared mean plus the floor: the one-pass normalisation of the specification.

  Each region contributes its value theorem at the contents it is entered with; each host stretch is read as the
  composed term of its operations; what lies between is that no item writes a buffer it does not name.
-/
import proofs.«429275_j68899865363005_1_alg».proof.Proof.KI.Chain
import proofs.«429275_j68899865363005_1_alg».proof.Proof.KI.Val3
import proofs.«429275_j68899865363005_1_alg».proof.Proof.KI.Val4
import proofs.«429275_j68899865363005_1_alg».proof.Proof.KI.Val5
import proofs.«429275_j68899865363005_1_alg».proof.Proof.Val.Spec
import proofs.«429275_j68899865363005_1_alg».proof.Proof.Val.AggOp
import proofs.«429275_j68899865363005_1_alg».proof.Proof.Val.Moments
import proofs.«429275_j68899865363005_1_alg».proof.Proof.Val.KPre
import Idealize.ShloMosaic.Lib.StableHlo.Run
import Idealize.ShloMosaic.Lib.ValueIdx
import Idealize.ShloMosaic.PureOps.Ideal.Laws

set_option maxRecDepth 16384

noncomputable section

namespace Cert.KNet

open Cert.KernelIdeal Cert.KernelIdeal.Gen Cert.KernelIdeal.Reg
open Idealize.ShloMosaic Idealize.ShloMosaic.TcCoe Idealize.SL.Sem
open Idealize.ShloMosaic.ValueIdx
open scoped BigOperators

/-! ## The stretch between regions 4 and 5, at any contents before it -/

/-- After the stretch the mean row's buffer holds the mean row of the first sum row found before it. -/
theorem stretch5_mean (W : Valuation τ sig (Elt Ideal)) :
    (StableHlo.after hostOps5 W (Proc.devRef .tc main_v73) : Row) = meanRow bcast_S_S1x128 (W (Proc.devRef .tc main_v71_0)) := by
  show StableHlo.after hostOps5 W (Proc.devRef .tc main_v73) = _
  after_results
  rfl

/-- And the inverse deviation row's buffer holds the inverse deviation row of the two sum rows. -/
theorem stretch5_inv (W : Valuation τ sig (Elt Ideal)) :
    (StableHlo.after hostOps5 W (Proc.devRef .tc main_v80) : Row)
      = invRow bcast_S_S1x128 (meanRow bcast_S_S1x128 (W (Proc.devRef .tc main_v71_0))) (W (Proc.devRef .tc main_v71_1)) := by
  show StableHlo.after hostOps5 W (Proc.devRef .tc main_v80) = _
  after_results
  rfl

variable (m : (ℓ : Loc nD τ sig) → Buf (Elt Ideal) ℓ) (c : Dev nD)

/-! ## What no item writes stays -/

/-- A buffer that none of regions 0, 1, 2 and the two stretches among them writes holds at region 2's exit what it
    held at region 0's entry. -/
theorem X8_of_X3 (r : Ref sig .tc) (h4 : r ∉ ([main_v30] : List (Ref sig .tc))) (h5 : r ∉ hostOps1_W)
    (h6 : r ∉ ([main_v45_0, main_v45_1] : List (Ref sig .tc))) (h7 : r ∉ hostOps2_W)
    (h8 : r ∉ ([main_v55] : List (Ref sig .tc))) : X8 m c r = X3 m c r :=
  (congrFun (V8_eq m c) r).symm.trans <| (V8_of m (outs m) c r h8).trans <| (V7_of m (outs m) c r h7).trans <|
    (V6_of m (outs m) c r h6).trans <| (V5_of m (outs m) c r h5).trans <| V4_of m (outs m) c r h4

/-- The same up to region 3's exit, for a buffer region 3 does not write either. -/
theorem X9_of_X3 (r : Ref sig .tc) (h4 : r ∉ ([main_v30] : List (Ref sig .tc))) (h5 : r ∉ hostOps1_W)
    (h6 : r ∉ ([main_v45_0, main_v45_1] : List (Ref sig .tc))) (h7 : r ∉ hostOps2_W)
    (h8 : r ∉ ([main_v55] : List (Ref sig .tc))) (h9 : r ∉ ([main_v56] : List (Ref sig .tc))) : X9 m c r = X3 m c r :=
  (congrFun (V9_eq m c) r).symm.trans <| (V9_of m (outs m) c r h9).trans <|
    (congrFun (V8_eq m c) r).trans <| X8_of_X3 m c r h4 h5 h6 h7 h8

/-- A buffer the three opening stretches do not write holds at region 0's entry what it was launched with. -/
theorem X3_of_launch (r : Ref sig .tc) (h1 : r ∉ hostOps0_W) (h2 : r ∉ hostOps0_1_W) (h3 : r ∉ hostOps0_2_W) :
    X3 m c r = m ((c.tc : Thread nD τ).loc r) :=
  (V3_of m c r h3).trans <| (V2_of m c r h2).trans <| (V1_of m c r h1).trans rfl

/-- A buffer that neither region 4 nor the stretch after it writes keeps, up to region 5's entry, the contents it had at
    region 4's entry. -/
theorem X12_of_X10 (r : Ref sig .tc) (h11 : r ∉ ([main_v71_0, main_v71_1] : List (Ref sig .tc))) (h12 : r ∉ hostOps5_W) :
    X12 m c r = X10 m c r :=
  (congrFun (V12_eq m c) r).symm.trans <| (V12_of m (outs m) c r h12).trans <| (V11_of m (outs m) c r h11).trans <|
    congrFun (V10_eq m c) r

/-- The second layer's weights reach region 3 as launched. -/
theorem X8_w2 : X8 m c main_arg5 = m ((c.tc : Thread nD τ).loc main_arg5) :=
  (X8_of_X3 m c main_arg5 (by decide) (by decide) (by decide) (by decide) (by decide)).trans
    (X3_of_launch m c main_arg5 (by decide) (by decide) (by decide))

/-- The second layer's bias reaches the stretch after region 3 as launched. -/
theorem X9_b2 : X9 m c main_arg6 = m ((c.tc : Thread nD τ).loc main_arg6) :=
  (X9_of_X3 m c main_arg6 (by decide) (by decide) (by decide) (by decide) (by decide) (by decide)).trans
    (X3_of_launch m c main_arg6 (by decide) (by decide) (by decide))

/-! ## The layer -/

/-- What region 2 left in its output array, as a table: the first layer's output. -/
abbrev feat1 : Fin 50000 → Fin 128 → EReal :=
  fun i k => (X8 m c (Proc.devRef .tc main_v55) : S50000x128.Idx → EReal) (ix2 i k)
/-- The second layer's weights as launched. -/
abbrev wgt2 : Fin 128 → Fin 128 → EReal :=
  fun j k => (m ((c.tc : Thread nD τ).loc main_arg5) : S128x128.Idx → EReal) (ix2 j k)
/-- The second layer's bias as launched. -/
abbrev bia2 : Fin 128 → EReal :=
  fun j => (m ((c.tc : Thread nD τ).loc main_arg6) : S128.Idx → EReal) (ix1 j)
/-- The aggregate over the edges (the edge-index argument as launched) of the first layer's output times the
    transposed weights: the array the normalisation acts on, before the bias. -/
abbrev agg2 : Fin 50000 → Fin 128 → EReal :=
  Cert.Agg.aggOp (x1 m c) (Cert.Spec.lin (feat1 m c) (wgt2 m c))

/-- Region 3 leaves the product of region 2's output by the transposed weights. -/
theorem lin2_at (i : Fin 50000) (j : Fin 128) :
    (X9 m c (Proc.devRef .tc main_v56) : S50000x128.Idx → EReal) (ix2 i j)
      = Cert.Spec.lin (feat1 m c) (wgt2 m c) i j := by
  have e : (X9 m c (Proc.devRef .tc main_v56) : S50000x128.Idx → EReal)
      = (dat3 (fun c b => X8 m c b) c).arrAt 2 cfg3.N := by
    show X9 m c (Proc.devRef .tc (Pipeline.arrRef spec3 2)) = _
    unfold X9
    rw [Pipeline.withArrays_arr spec3 winFacts3.arr_inj]
  refine (congrFun e (ix2 i j)).trans ((value3 (fun c b => X8 m c b) c i j).trans ?_)
  show (∑ k : Fin 128, xin3 (fun c b => X8 m c b) c (ix2 i k) * wts3 (fun c b => X8 m c b) c (ix2 j k))
    = ∑ k : Fin 128, feat1 m c i k * wgt2 m c j k
  refine Finset.sum_congr rfl fun k _ => ?_
  have hw : wts3 (fun c b => X8 m c b) c (ix2 j k) = wgt2 m c j k := congrFun (X8_w2 m c) (ix2 j k)
  rw [hw]

/-- The array region 3 leaves is the table of that product. -/
theorem lin2_arr :
    Cert.Agg.toArr (Cert.Spec.lin (feat1 m c) (wgt2 m c)) = (X9 m c (Proc.devRef .tc main_v56) : S50000x128.Idx → EReal) := by
  funext idx
  obtain ⟨p, q, rfl⟩ : ∃ (p : Fin 50000) (q : Fin 128), idx = ix2 p q := ⟨idx 0, idx 1, eq_ix2 idx⟩
  exact (lin2_at m c p q).symm

/-- The stretch after region 3 leaves the aggregate of that product in region 4's first input array. -/
theorem agg2_at (i : Fin 50000) (j : Fin 128) :
    (X10 m c (Proc.devRef .tc main_v69) : S50000x128.Idx → EReal) (ix2 i j) = agg2 m c i j := by
  have e := agg_stretch4 (X9 m c) (x1 m c)
    ((X9_of_X3 m c main_v3 (by decide) (by decide) (by decide) (by decide) (by decide) (by decide)).trans (pre_v3 m c))
    ((X9_of_X3 m c main_v6 (by decide) (by decide) (by decide) (by decide) (by decide) (by decide)).trans (pre_v6 m c))
    ((X9_of_X3 m c main_v29 (by decide) (by decide) (by decide) (by decide) (by decide) (by decide)).trans (pre_v29 m c))
  show (StableHlo.after hostOps4 (X9 m c) (Proc.devRef .tc main_v69) : S50000x128.Idx → EReal) (ix2 i j) = _
  rw [e, ← lin2_arr m c]
  rfl

/-- And the layer's bias, as a row, in its second. -/
theorem bias2_at (j : Fin 128) :
    (X10 m c (Proc.devRef .tc main_v70) : S1x128.Idx → EReal) (ix2 0 j) = bia2 m c j := by
  refine (bias_stretch4 (X9 m c) j).trans ?_
  rw [X9_b2 m c]

/-! ## Region 4: the two sum rows -/

/-- Region 4's first output row: the column sums of the biased aggregate. -/
theorem sum1_at (j : Fin 128) :
    (X11 m c (Proc.devRef .tc main_v71_0) : S1x128.Idx → EReal) (ix2 0 j) = Cert.Spec.sum1 (agg2 m c) (bia2 m c) j := by
  have e : (X11 m c (Proc.devRef .tc main_v71_0) : S1x128.Idx → EReal)
      = (dat4 (fun c b => X10 m c b) c).arrAt 2 cfg4.N := by
    show X11 m c (Proc.devRef .tc (Pipeline.arrRef spec4 2)) = _
    unfold X11
    rw [Pipeline.withArrays_arr spec4 winFacts4.arr_inj]
  refine (congrFun e (ix2 0 j)).trans ((value4_sum (fun c b => X10 m c b) c j).trans ?_)
  show (∑ i : Fin 50000, (mat4 (fun c b => X10 m c b) c (ix2 i j) + row4 (fun c b => X10 m c b) c (ix2 (0 : Fin 1) j)))
    = ∑ i : Fin 50000, (agg2 m c i j + bia2 m c j)
  refine Finset.sum_congr rfl fun i _ => ?_
  have hx : mat4 (fun c b => X10 m c b) c (ix2 i j) = agg2 m c i j := agg2_at m c i j
  have hb : row4 (fun c b => X10 m c b) c (ix2 (0 : Fin 1) j) = bia2 m c j := bias2_at m c j
  rw [hx, hb]

/-- Region 4's second output row: the column sums of its square. -/
theorem sum2_at (j : Fin 128) :
    (X11 m c (Proc.devRef .tc main_v71_1) : S1x128.Idx → EReal) (ix2 0 j) = Cert.Spec.sum2 (agg2 m c) (bia2 m c) j := by
  have e : (X11 m c (Proc.devRef .tc main_v71_1) : S1x128.Idx → EReal)
      = (dat4 (fun c b => X10 m c b) c).arrAt 3 cfg4.N := by
    show X11 m c (Proc.devRef .tc (Pipeline.arrRef spec4 3)) = _
    unfold X11
    rw [Pipeline.withArrays_arr spec4 winFacts4.arr_inj]
  refine (congrFun e (ix2 0 j)).trans ((value4_sumsq (fun c b => X10 m c b) c j).trans ?_)
  show (∑ i : Fin 50000, (mat4 (fun c b => X10 m c b) c (ix2 i j) + row4 (fun c b => X10 m c b) c (ix2 (0 : Fin 1) j))
      * (mat4 (fun c b => X10 m c b) c (ix2 i j) + row4 (fun c b => X10 m c b) c (ix2 (0 : Fin 1) j)))
    = ∑ i : Fin 50000, (agg2 m c i j + bia2 m c j) * (agg2 m c i j + bia2 m c j)
  refine Finset.sum_congr rfl fun i _ => ?_
  have hx : mat4 (fun c b => X10 m c b) c (ix2 i j) = agg2 m c i j := agg2_at m c i j
  have hb : row4 (fun c b => X10 m c b) c (ix2 (0 : Fin 1) j) = bia2 m c j := bias2_at m c j
  rw [hx, hb]

/-! ## The moment rows -/

/-- The stretch after region 4 leaves the column means in region 5's third input array. -/
theorem mean2_at (j : Fin 128) :
    (X12 m c (Proc.devRef .tc main_v73) : S1x128.Idx → EReal) (ix2 0 j) = Cert.Spec.meanK (agg2 m c) (bia2 m c) j := by
  have e : (X12 m c (Proc.devRef .tc main_v73) : Row)
      = meanRow bcast_S_S1x128 (X11 m c (Proc.devRef .tc main_v71_0)) := stretch5_mean (X11 m c)
  exact (congrFun e (ix2 0 j)).trans ((meanRow_at _ _ j).trans
    (congrArg (fun t : EReal => Ideal.div t Cert.Spec.nE) (sum1_at m c j)))

/-- And the columns' reciprocal deviations in its fourth. -/
theorem inv2_at (j : Fin 128) :
    (X12 m c (Proc.devRef .tc main_v80) : S1x128.Idx → EReal) (ix2 0 j) = Cert.Spec.invK (agg2 m c) (bia2 m c) j := by
  have e : (X12 m c (Proc.devRef .tc main_v80) : Row)
      = invRow bcast_S_S1x128 (meanRow bcast_S_S1x128 (X11 m c (Proc.devRef .tc main_v71_0)))
          (X11 m c (Proc.devRef .tc main_v71_1)) := stretch5_inv (X11 m c)
  have hmu : meanRow bcast_S_S1x128 (X11 m c (Proc.devRef .tc main_v71_0)) (ix2 0 j)
      = Cert.Spec.meanK (agg2 m c) (bia2 m c) j :=
    (meanRow_at _ _ j).trans (congrArg (fun t : EReal => Ideal.div t Cert.Spec.nE) (sum1_at m c j))
  have hs2 : (X11 m c (Proc.devRef .tc main_v71_1) : Row) (ix2 0 j) = Cert.Spec.sum2 (agg2 m c) (bia2 m c) j :=
    sum2_at m c j
  refine (congrFun e (ix2 0 j)).trans ((invRow_at _ _ _ j).trans ?_)
  rw [hmu, hs2]
  rfl

/-! ## Region 5: the normalised, clipped layer -/

/-- Region 5 leaves the one-pass normalisation, clipped at zero, of the biased aggregate of region 2's output times
    the transposed weights. -/
theorem layer2 (i : Fin 50000) (j : Fin 128) :
    (X13 m c main_v81 : S50000x128.Idx → EReal) (ix2 i j) = Cert.Spec.bnK (agg2 m c) (bia2 m c) i j := by
  have e : (X13 m c (Proc.devRef .tc main_v81) : S50000x128.Idx → EReal)
      = (dat5 (fun c b => X12 m c b) c).arrAt 4 cfg5.N := by
    show X13 m c (Proc.devRef .tc (Pipeline.arrRef spec5 4)) = _
    unfold X13
    rw [Pipeline.withArrays_arr spec5 winFacts5.arr_inj]
  refine (congrFun e (ix2 i j)).trans ((value5 (fun c b => X12 m c b) c i j).trans ?_)
  have hx : x5 (fun c b => X12 m c b) c (ix2 i j) = agg2 m c i j :=
    (congrFun (X12_of_X10 m c main_v69 (by decide) (by decide)) (ix2 i j)).trans (agg2_at m c i j)
  have hb : b5 (fun c b => X12 m c b) c (ix2 0 j) = bia2 m c j :=
    (congrFun (X12_of_X10 m c main_v70 (by decide) (by decide)) (ix2 0 j)).trans (bias2_at m c j)
  have hm : mean5 (fun c b => X12 m c b) c (ix2 0 j) = Cert.Spec.meanK (agg2 m c) (bia2 m c) j := mean2_at m c j
  have hs : invstd5 (fun c b => X12 m c b) c (ix2 0 j) = Cert.Spec.invK (agg2 m c) (bia2 m c) j := inv2_at m c j
  rw [hx, hb, hm, hs, Ideal.ofBits_zero_f32]
  rfl

end Cert.KNet

end
-- ==== Proof.KI.Val6.lean ====
/-
  Region 6 on exact values: the output of the dense layer.

  With exact arithmetic the tile product is an honest matrix product, and the ten row tiles laid side by side
  are the whole product. The result: after the region the output array holds, at row i and column j,

      ∑ k, x[i,k] * w[j,k]

  where x and w are the two input arrays as they stand when the region is entered. On the extended reals the
  sum of products is meaningful for every input, so nothing is assumed about the entries.
-/
import proofs.«429275_j68899865363005_1_alg».proof.Proof.KI.R6
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.SL.Sem
open Idealize.ShloMosaic.ValueIdx
open Idealize.ShloMosaic.Pipeline (Dat)

/-! ## The contraction of the tile product

Both operands are contracted along their second axis: entry (p, q) of the product pairs row p of the left
operand with row q of the right one. The four statements below say which coordinate of which operand each
output coordinate and the summation index go to. -/

/-- Row of the left operand: the row of the output entry. -/
theorem tdot6_lhs_0 (i : S5000x128.Idx) (q : dot_S5000x128_S128x128_S5000x128_1_1_0_0_n_n.contr.Idx) :
    (dot_S5000x128_S128x128_S5000x128_1_1_0_0_n_n.lhsIdx i q 0).val = (i 0).val := by
  unfold DotDims.lhsIdx
  rw [dif_neg (show ¬(0 : Fin S5000x128.rank) ∈ dot_S5000x128_S128x128_S5000x128_1_1_0_0_n_n.lhsBatch by decide),
    dif_pos (show (0 : Fin S5000x128.rank) ∈ dot_S5000x128_S128x128_S5000x128_1_1_0_0_n_n.lhsNonContracting by decide)]
  rfl
/-- Column of the left operand: the summation index. -/
theorem tdot6_lhs_1 (i : S5000x128.Idx) (q : dot_S5000x128_S128x128_S5000x128_1_1_0_0_n_n.contr.Idx) :
    (dot_S5000x128_S128x128_S5000x128_1_1_0_0_n_n.lhsIdx i q 1).val = (q ⟨0, by decide⟩).val :=
  dot_S5000x128_S128x128_S5000x128_1_1_0_0_n_n.lhsIdx_val_of_single rfl i q
/-- Row of the right operand: the column of the output entry. -/
theorem tdot6_rhs_0 (i : S5000x128.Idx) (q : dot_S5000x128_S128x128_S5000x128_1_1_0_0_n_n.contr.Idx) :
    (dot_S5000x128_S128x128_S5000x128_1_1_0_0_n_n.rhsIdx i q 0).val = (i 1).val := by
  unfold DotDims.rhsIdx
  rw [dif_neg (show ¬(0 : Fin S128x128.rank) ∈ dot_S5000x128_S128x128_S5000x128_1_1_0_0_n_n.rhsBatch by decide),
    dif_pos (show (0 : Fin S128x128.rank) ∈ dot_S5000x128_S128x128_S5000x128_1_1_0_0_n_n.rhsNonContracting by decide)]
  rfl
/-- Column of the right operand: the summation index. -/
theorem tdot6_rhs_1 (i : S5000x128.Idx) (q : dot_S5000x128_S128x128_S5000x128_1_1_0_0_n_n.contr.Idx) :
    (dot_S5000x128_S128x128_S5000x128_1_1_0_0_n_n.rhsIdx i q 1).val = (q ⟨0, by decide⟩).val :=
  dot_S5000x128_S128x128_S5000x128_1_1_0_0_n_n.rhsIdx_val_of_single rfl i q

/-! ## One tile -/

/-- The tile product into a zero accumulator, entry (p, q): the sum over k of x[p,k] * w[q,k]. The two
    conversions to the narrower float format change nothing on exact values. -/
theorem tile_product_apply6 (x : Vec Ideal S5000x128 .f32) (w : Vec Ideal S128x128 .f32) (p : Fin 5000) (q : Fin 128) :
    k6_pay1 (F := Ideal) x w (ix2 p q) = ∑ k : Fin 128, x (ix2 p k) * w (ix2 q k) := by
  unfold k6_pay1
  try simp only [shapeCast_self]
  refine (Ideal.matmul_constant_zero_apply dot_S5000x128_S128x128_S5000x128_1_1_0_0_n_n none _ _ (ix2 p q)).trans ?_
  rw [← Equiv.sum_comp (contrEquiv1 dot_S5000x128_S128x128_S5000x128_1_1_0_0_n_n 128 rfl rfl).symm]
  refine Finset.sum_congr rfl fun k _ => ?_
  have hk := contrEquiv1_symm_val dot_S5000x128_S128x128_S5000x128_1_1_0_0_n_n 128 rfl rfl k
  have el : dot_S5000x128_S128x128_S5000x128_1_1_0_0_n_n.lhsIdx (ix2 p q)
      ((contrEquiv1 dot_S5000x128_S128x128_S5000x128_1_1_0_0_n_n 128 rfl rfl).symm k) = ix2 p k :=
    funext fun a => Fin.ext (by
      match a with
      | ⟨0, _⟩ => exact tdot6_lhs_0 _ _
      | ⟨1, _⟩ => exact (tdot6_lhs_1 _ _).trans hk)
  have er : dot_S5000x128_S128x128_S5000x128_1_1_0_0_n_n.rhsIdx (ix2 p q)
      ((contrEquiv1 dot_S5000x128_S128x128_S5000x128_1_1_0_0_n_n 128 rfl rfl).symm k) = ix2 q k :=
    funext fun a => Fin.ext (by
      match a with
      | ⟨0, _⟩ => exact tdot6_rhs_0 _ _
      | ⟨1, _⟩ => exact (tdot6_rhs_1 _ _).trans hk)
  show x (dot_S5000x128_S128x128_S5000x128_1_1_0_0_n_n.lhsIdx (ix2 p q) _) * w (dot_S5000x128_S128x128_S5000x128_1_1_0_0_n_n.rhsIdx (ix2 p q) _) = _
  rw [el, er]

/-- The same entry when the two tiles are known to be pieces of larger arrays X and W: if row p of the x tile is
    row i of X and the w tile is W itself, the entry is the sum over k of X[i,k] * W[j,k], j being q. -/
theorem tile_entry6 (X : S50000x128.Idx → EReal) (W : S128x128.Idx → EReal)
    (xt : Vec Ideal S5000x128 .f32) (wt : Vec Ideal S128x128 .f32) (n : Nat)
    (hx : ∀ (p : Fin 5000) (k : Fin 128) (i : Fin 50000), i.val = n * 5000 + p.val → xt (ix2 p k) = X (ix2 i k))
    (hw : ∀ (a : Fin 128) (b : Fin 128), wt (ix2 a b) = W (ix2 a b))
    (p : Fin 5000) (q : Fin 128) (i : Fin 50000) (j : Fin 128) (hi : i.val = n * 5000 + p.val) (hj : j.val = q.val) :
    k6_pay1 (F := Ideal) xt wt (ix2 p q) = ∑ k : Fin 128, X (ix2 i k) * W (ix2 j k) := by
  obtain rfl : j = q := Fin.ext hj
  refine (tile_product_apply6 xt wt p j).trans ?_
  exact Finset.sum_congr rfl fun k _ => by rw [hx p k i hi, hw j k]

/-! ## The whole array -/

variable (V : (c : Dev nD) → (b : Ref sig .tc) → Buf (Elt Ideal) ((c : Thread nD τ).loc b))

/-- The input array x on entry, as a 50000 × 128 table of extended reals. -/
abbrev xin6 (c : Dev nD) : S50000x128.Idx → EReal := V c (Pipeline.arrRef spec6 0)
/-- The weight array on entry, as a 128 × 128 table. -/
abbrev wts6 (c : Dev nD) : S128x128.Idx → EReal := V c (Pipeline.arrRef spec6 1)

/-- The layer: entry (i, j) is the sum over k of X[i,k] * W[j,k]. -/
def layer6 (X : S50000x128.Idx → EReal) (W : S128x128.Idx → EReal) : S50000x128.Idx → EReal :=
  fun i => ∑ k : Fin 128, X (ix2 (i 0 : Fin 50000) k) * W (ix2 (i 1 : Fin 128) k)

theorem zeros2_r6 : (![0, 0] : Fin 2 → Nat) = fun _ => 0 := funext fun a => by fin_cases a <;> rfl

/-- Where the three windows sit at grid point t: the x tile and the output tile are the t-th row tile, the
    weights never move. -/
theorem where6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Row p of the x tile at point t is row 5000 t + p of x. -/
theorem tile6_x_apply (c : Dev nD) (t : Fin cfg6.N) (p : Fin 5000) (k : Fin 128) (i : Fin 50000)
    (hi : i.val = t.val * 5000 + p.val) :
    (tile6 (F := Ideal) V c 0 t : Vec Ideal S5000x128 .f32) (ix2 p k) = xin6 V c (ix2 i k) := by
  obtain ⟨e00, e01, -⟩ := where6 t
  show xin6 V c (((cfg6.win 0).blk t).view.emb (ix2 p k)) = xin6 V c (ix2 i k)
  refine congrArg (xin6 V c) (funext fun a => Fin.ext ?_)
  match a with
  | ⟨0, _⟩ => show win6_0.index t (0 : Fin 2) * 5000 + 1 * p.val = i.val; omega
  | ⟨1, _⟩ => show win6_0.index t (1 : Fin 2) * 128 + 1 * k.val = k.val; omega

/-- The w tile is the weight array, at every point. -/
theorem tile6_w_apply (c : Dev nD) (t : Fin cfg6.N) (a : Fin 128) (b : Fin 128) :
    (tile6 (F := Ideal) V c 1 t : Vec Ideal S128x128 .f32) (ix2 a b) = wts6 V c (ix2 a b) := by
  obtain ⟨-, -, e10, e11, -⟩ := where6 t
  show wts6 V c (((cfg6.win 1).blk t).view.emb (ix2 a b)) = wts6 V c (ix2 a b)
  refine congrArg (wts6 V c) (funext fun d => Fin.ext ?_)
  match d with
  | ⟨0, _⟩ => show win6_1.index t (0 : Fin 2) * 128 + 1 * a.val = a.val; omega
  | ⟨1, _⟩ => show win6_1.index t (1 : Fin 2) * 128 + 1 * b.val = b.val; omega

/-- What point t writes back is the t-th row tile of the layer's output. -/
theorem wrote_back6 (c : Dev nD) (t : Fin cfg6.N) :
    (dat6 (F := Ideal) V c).flushed 2 t
      = ((cfg6.win 2).blk t).view.read (Elt Ideal) (layer6 (xin6 V c) (wts6 V c)) := by
  show (cfg6.win 2).cut (grid6.coords t) ((dat6 (F := Ideal) V c).after 2 t) = _
  rw [after6_out]
  unfold prod6
  rw [View.canon_unit_zero zeros2_r6]
  simp only [View.ld_unit_zero (S := S5000x128) zeros2_r6, View.ld_unit_zero (S := S128x128) zeros2_r6]
  obtain ⟨-, -, -, -, e20, e21⟩ := where6 t
  funext y
  obtain ⟨p, q, rfl⟩ : ∃ (p : Fin 5000) (q : Fin 128), y = ix2 p q := ⟨y 0, y 1, eq_ix2 y⟩
  have h0 : ((((cfg6.win 2).blk t).view.emb (ix2 p q)) 0).val = t.val * 5000 + p.val := by
    show win6_2.index t (0 : Fin 2) * 5000 + 1 * p.val = _; omega
  have h1 : ((((cfg6.win 2).blk t).view.emb (ix2 p q)) 1).val = q.val := by
    show win6_2.index t (1 : Fin 2) * 128 + 1 * q.val = _; omega
  exact tile_entry6 (xin6 V c) (wts6 V c) (tile6 (F := Ideal) V c 0 t) (tile6 (F := Ideal) V c 1 t) t.val
    (fun p k i hi => tile6_x_apply V c t p k i hi) (fun a b => tile6_w_apply V c t a b)
    p q ((((cfg6.win 2).blk t).view.emb (ix2 p q)) 0) ((((cfg6.win 2).blk t).view.emb (ix2 p q)) 1) h0 h1

/-- Being in the output tile of point t, coordinate by coordinate. -/
theorem mem_tile6 (t : Fin cfg6.N) (i : S50000x128.Idx) :
    i ∈ ((cfg6.win 2).blk t).view.set ↔ ∀ a : Fin 2, win6_2.index t a * S5000x128.size a ≤ (i a).val
      ∧ (i a).val < win6_2.index t a * S5000x128.size a + S5000x128.size a := by
  show i ∈ ((View.whole main_v82).slice (win6_2.rect t)).set ↔ _
  rw [View.set_slice_whole, Rect.mem_set_unit]
  exact Iff.rfl

/-- Every row lies in exactly the tile numbered by its quotient by 5000, and every tile is written back. -/
theorem covered6 (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  obtain ⟨t, ht⟩ : ∃ t : Fin cfg6.N, t.val = (i 0).val / 5000 :=
    ⟨⟨(i 0).val / 5000, by rw [show cfg6.N = 10 from N_6]; omega⟩, rfl⟩
  obtain ⟨-, -, -, -, e20, e21⟩ := where6 t
  refine ⟨t, flush6_2 t, ?_⟩
  rw [mem_tile6]
  intro a
  match a with
  | ⟨0, _⟩ =>
    show win6_2.index t (0 : Fin 2) * 5000 ≤ (i 0).val ∧ (i 0).val < win6_2.index t (0 : Fin 2) * 5000 + 5000
    omega
  | ⟨1, _⟩ =>
    show win6_2.index t (1 : Fin 2) * 128 ≤ (i 1).val ∧ (i 1).val < win6_2.index t (1 : Fin 2) * 128 + 128
    omega

/-- After the region the output array is the layer's output. -/
theorem final6 (c : Dev nD) :
    (dat6 (F := Ideal) V c).arrAt 2 cfg6.N = layer6 (xin6 V c) (wts6 V c) :=
  (dat6 (F := Ideal) V c).arrAt_eq_of_cover 2 (layer6 (xin6 V c) (wts6 V c))
    (fun t _ => wrote_back6 V c t) covered6

/-- Entry (i, j) of the output array after the region: the sum over k of x[i,k] * w[j,k], with x and w the two
    input arrays as they were when the region was entered. -/
theorem value6 (c : Dev nD) (i : Fin 50000) (j : Fin 128) :
    ((dat6 (F := Ideal) V c).arrAt 2 cfg6.N : S50000x128.Idx → EReal) (ix2 i j)
      = ∑ k : Fin 128, (xin6 V c) (ix2 i k) * (wts6 V c) (ix2 j k) :=
  congrFun (final6 V c) (ix2 i j)

end Cert.KernelIdeal.Reg
-- ==== Proof.KI.Val7.lean ====
import proofs.«429275_j68899865363005_1_alg».proof.Proof.KI.R7
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-! # Region 7 at the ideal values: the output array as one function of the region's input arrays -/

/-! ## The one-hot factor -/

/-- The factor the body forms from a batch word `b` and the segment number `g`: the comparison's bit, widened
    to a word and converted as a signed integer. -/
def hot (b : BitVec 32) (g : ℕ) : EReal :=
  FloatOps.sitofp (F := Ideal) .f32 ((IntOp.cmpi .eq b (BitVec.ofNat 32 g)).setWidth 32)

/-- It is one where the batch word is the segment's, zero elsewhere. -/
theorem hot_eq (b : BitVec 32) (g : ℕ) : hot b g = if b = BitVec.ofNat 32 g then (1 : EReal) else 0 := by
  unfold hot
  show ((((IntOp.cmpi .eq b (BitVec.ofNat 32 g)).setWidth 32).toInt : ℝ) : EReal) = _
  rw [toInt_setWidth_bit]
  unfold IntOp.cmpi
  by_cases h : b = BitVec.ofNat 32 g
  · simp [h]
  · simp [h]

/-! ## The two contractions' operand indices -/

/-- The pooling contraction: over the tile's 5000 rows. -/
theorem poolL (g : Fin 512) (j : Fin 128) (r : Fin 5000) :
    dot_S5000x512_S5000x128_S512x128_0_0_1_1_n_n.lhsIdx (ix2 g j)
      ((contrEquiv1 dot_S5000x512_S5000x128_S512x128_0_0_1_1_n_n 5000 rfl rfl).symm r) = ix2 r g := by
  have cr := contrEquiv1_symm_val dot_S5000x512_S5000x128_S512x128_0_0_1_1_n_n 5000 rfl rfl r
  funext ax; apply Fin.ext
  match ax with
  | ⟨0, _⟩ => simp [DotDims.lhsIdx, dot_S5000x512_S5000x128_S512x128_0_0_1_1_n_n]; exact cr
  | ⟨1, _⟩ => simp [DotDims.lhsIdx, dot_S5000x512_S5000x128_S512x128_0_0_1_1_n_n]; rfl
theorem poolR (g : Fin 512) (j : Fin 128) (r : Fin 5000) :
    dot_S5000x512_S5000x128_S512x128_0_0_1_1_n_n.rhsIdx (ix2 g j)
      ((contrEquiv1 dot_S5000x512_S5000x128_S512x128_0_0_1_1_n_n 5000 rfl rfl).symm r) = ix2 r j := by
  have cr := contrEquiv1_symm_val dot_S5000x512_S5000x128_S512x128_0_0_1_1_n_n 5000 rfl rfl r
  funext ax; apply Fin.ext
  match ax with
  | ⟨0, _⟩ => simp [DotDims.rhsIdx, dot_S5000x512_S5000x128_S512x128_0_0_1_1_n_n]; exact cr
  | ⟨1, _⟩ => simp [DotDims.rhsIdx, dot_S5000x512_S5000x128_S512x128_0_0_1_1_n_n]; rfl

/-- The classifier's contraction: over the 128 features. -/
theorem clsL (g : Fin 512) (k : Fin 10) (j : Fin 128) :
    dot_S512x128_S10x128_S512x10_1_1_0_0_n_n.lhsIdx (ix2 g k)
      ((contrEquiv1 dot_S512x128_S10x128_S512x10_1_1_0_0_n_n 128 rfl rfl).symm j) = ix2 g j := by
  have cr := contrEquiv1_symm_val dot_S512x128_S10x128_S512x10_1_1_0_0_n_n 128 rfl rfl j
  funext ax; apply Fin.ext
  match ax with
  | ⟨0, _⟩ => simp [DotDims.lhsIdx, dot_S512x128_S10x128_S512x10_1_1_0_0_n_n]; rfl
  | ⟨1, _⟩ => simp [DotDims.lhsIdx, dot_S512x128_S10x128_S512x10_1_1_0_0_n_n]; exact cr
theorem clsR (g : Fin 512) (k : Fin 10) (j : Fin 128) :
    dot_S512x128_S10x128_S512x10_1_1_0_0_n_n.rhsIdx (ix2 g k)
      ((contrEquiv1 dot_S512x128_S10x128_S512x10_1_1_0_0_n_n 128 rfl rfl).symm j) = ix2 k j := by
  have cr := contrEquiv1_symm_val dot_S512x128_S10x128_S512x10_1_1_0_0_n_n 128 rfl rfl j
  funext ax; apply Fin.ext
  match ax with
  | ⟨0, _⟩ => simp [DotDims.rhsIdx, dot_S512x128_S10x128_S512x10_1_1_0_0_n_n]; rfl
  | ⟨1, _⟩ => simp [DotDims.rhsIdx, dot_S512x128_S10x128_S512x10_1_1_0_0_n_n]; exact cr

/-! ## The three payloads read at an index -/

/-- The clearing store writes zero. -/
theorem cleared_apply (y : S512x128.Idx) : k7_pay1 (F := Ideal) y = 0 := by
  unfold k7_pay1
  simp only [shapeCast_self]
  exact Ideal.ofBits_zero_f32

/-- The accumulating store: the scratch plus the tile's one-hot contraction. -/
theorem pooled_apply (v3 : Vec Ideal S5000x128 .f32) (v6 : Vec Ideal S5000x1 .i32) (v15 : Vec Ideal S512x128 .f32)
    (g : Fin 512) (j : Fin 128) :
    k7_pay2 v3 v6 v15 (ix2 g j) = v15 (ix2 g j) + ∑ r : Fin 5000, hot (v6 (ix2 r 0)) g.val * v3 (ix2 r j) := by
  unfold k7_pay2
  simp only [shapeCast_self]
  refine (addf_apply _ _ _).trans (congrArg (v15 (ix2 g j) + ·) ?_)
  refine (Ideal.matmul_constant_zero_apply _ none _ _ _).trans ?_
  rw [← Equiv.sum_comp (contrEquiv1 dot_S5000x512_S5000x128_S512x128_0_0_1_1_n_n 5000 rfl rfl).symm]
  refine Finset.sum_congr rfl fun r _ => ?_
  rw [poolL, poolR]
  refine congrArg (· * v3 (ix2 r j)) ?_
  show FloatOps.sitofp (F := Ideal) .f32 ((IntOp.cmpi .eq (broadcastTo S5000x512 v6 broadcasts_S5000x1_S5000x512 (ix2 r g))
      (iota .tc S5000x512 32 [1] iota_S5000x512_d1_w32 (ix2 r g))).setWidth 32) = hot (v6 (ix2 r 0)) g.val
  rw [iota_single_apply, broadcastTo_apply v6 broadcasts_S5000x1_S5000x512 (ix2 r g) (ix2 r 0) (fun a => by
    match a with
    | ⟨0, _⟩ => rfl
    | ⟨1, _⟩ => rfl)]
  rfl

/-- The output store: the scratch divided by the count column, contracted with the weights, plus the bias row. -/
theorem logits_apply (v23 : Vec Ideal S512x128 .f32) (v24 : Vec Ideal S512x1 .f32) (v29 : Vec Ideal S10x128 .f32)
    (v32 : Vec Ideal S1x10 .f32) (g : Fin 512) (k : Fin 10) :
    k7_pay3 v23 v24 v29 v32 (ix2 g k)
      = (∑ j : Fin 128, Ideal.div (v23 (ix2 g j)) (v24 (ix2 g 0)) * v29 (ix2 k j)) + v32 (ix2 0 k) := by
  unfold k7_pay3
  simp only [shapeCast_self]
  refine (addf_apply _ _ _).trans ?_
  rw [broadcastTo_apply v32 broadcasts_S1x10_S512x10 (ix2 g k) (ix2 0 k) (fun a => by
    match a with
    | ⟨0, _⟩ => rfl
    | ⟨1, _⟩ => rfl)]
  refine congrArg (· + v32 (ix2 0 k)) ?_
  refine (Ideal.matmul_constant_zero_apply _ none _ _ _).trans ?_
  rw [← Equiv.sum_comp (contrEquiv1 dot_S512x128_S10x128_S512x10_1_1_0_0_n_n 128 rfl rfl).symm]
  refine Finset.sum_congr rfl fun j _ => ?_
  rw [clsL, clsR]
  refine congrArg (· * v29 (ix2 k j)) ?_
  show Ideal.div (v23 (ix2 g j)) (broadcastTo S512x128 v24 broadcasts_S512x1_S512x128 (ix2 g j)) = _
  rw [broadcastTo_apply v24 broadcasts_S512x1_S512x128 (ix2 g j) (ix2 g 0) (fun a => by
    match a with
    | ⟨0, _⟩ => rfl
    | ⟨1, _⟩ => rfl)]

/-! ## The stores and loads through whole buffers -/

theorem hz : (![0, 0] : Fin 2 → Nat) = fun _ => 0 := funext fun a => by fin_cases a <;> rfl

theorem cleared7_apply (g : Fin 512) (j : Fin 128) : cleared7 (F := Ideal) (ix2 g j) = 0 := by
  unfold cleared7
  rw [View.canon_unit_zero hz]
  exact cleared_apply _

theorem pooled7_apply (h : Vec Ideal S5000x128 .f32) (b : Vec Ideal S5000x1 .i32) (s : Vec Ideal S512x128 .f32)
    (g : Fin 512) (j : Fin 128) :
    pooled7 h b s (ix2 g j) = s (ix2 g j) + ∑ r : Fin 5000, hot (b (ix2 r 0)) g.val * h (ix2 r j) := by
  unfold pooled7
  rw [View.canon_unit_zero hz]
  simp only [View.ld_unit_zero (S := S5000x128) hz, View.ld_unit_zero (S := S5000x1) hz, View.ld_unit_zero (S := S512x128) hz]
  exact pooled_apply h b s g j

theorem logits7_apply (s : Vec Ideal S512x128 .f32) (n : Vec Ideal S512x1 .f32) (w : Vec Ideal S10x128 .f32)
    (l : Vec Ideal S1x10 .f32) (g : Fin 512) (k : Fin 10) :
    logits7 s n w l (ix2 g k)
      = (∑ j : Fin 128, Ideal.div (s (ix2 g j)) (n (ix2 g 0)) * w (ix2 k j)) + l (ix2 0 k) := by
  unfold logits7
  rw [View.canon_unit_zero hz]
  simp only [View.ld_unit_zero (S := S512x128) hz, View.ld_unit_zero (S := S512x1) hz, View.ld_unit_zero (S := S10x128) hz,
    View.ld_unit_zero (S := S1x10) hz]
  exact logits_apply s n w l g k

/-! ## The region's arrays and their blocks -/

section Arrays

variable (V : (c : Dev nD) → (b : Ref sig .tc) → Buf (Elt Ideal) ((c : Thread nD τ).loc b))

/-- The five input arrays as the region finds them, at their literal types. -/
abbrev arrH (c : Dev nD) : Vec Ideal S50000x128 .f32 := V c (Pipeline.arrRef spec7 0)
abbrev arrB (c : Dev nD) : Vec Ideal S50000x1 .i32 := V c (Pipeline.arrRef spec7 1)
abbrev arrN (c : Dev nD) : Vec Ideal S512x1 .f32 := V c (Pipeline.arrRef spec7 2)
abbrev arrW (c : Dev nD) : Vec Ideal S10x128 .f32 := V c (Pipeline.arrRef spec7 3)
abbrev arrL (c : Dev nD) : Vec Ideal S1x10 .f32 := V c (Pipeline.arrRef spec7 4)

/-- The index maps over the grid: the two tiled windows step one block a point along the rows, the others stay. -/
theorem steps7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

/-- Row `r` of tile `t` as a row of the whole array. -/
abbrev row7 (t : ℕ) (h : t < 10) (r : Fin 5000) : Fin 50000 := ⟨r.val + 5000 * t, by have := r.isLt; omega⟩

theorem lt10 (t : Fin cfg7.N) : t.val < 10 := lt_of_lt_of_eq t.isLt (show cfg7.N = 10 from N_7)

theorem tileH_apply (c : Dev nD) (t : Fin cfg7.N) (r : Fin 5000) (j : Fin 128) :
    blk7 V c 0 t (ix2 r j) = arrH V c (ix2 (row7 t.val (lt10 t) r) j) := by
  unfold blk7
  rw [View.read_apply]
  show V c (Pipeline.arrRef spec7 0) (((cfg7.win 0).blk t).view.emb (ix2 r j)) = V c (Pipeline.arrRef spec7 0) _
  refine congrArg _ (funext fun a => Fin.ext ?_)
  obtain ⟨e0, e1, -⟩ := steps7 t
  match a with
  | ⟨0, _⟩ => show win7_0.index t (0 : Fin 2) * 5000 + 1 * r.val = r.val + 5000 * t.val; rw [e0]; omega
  | ⟨1, _⟩ => show win7_0.index t (1 : Fin 2) * 128 + 1 * j.val = j.val; rw [e1]; omega

theorem tileB_apply (c : Dev nD) (t : Fin cfg7.N) (r : Fin 5000) :
    blk7 V c 1 t (ix2 r 0) = arrB V c (ix2 (row7 t.val (lt10 t) r) 0) := by
  unfold blk7
  rw [View.read_apply]
  show V c (Pipeline.arrRef spec7 1) (((cfg7.win 1).blk t).view.emb (ix2 r 0)) = V c (Pipeline.arrRef spec7 1) _
  refine congrArg _ (funext fun a => Fin.ext ?_)
  obtain ⟨-, -, e0, e1, -⟩ := steps7 t
  match a with
  | ⟨0, _⟩ => show win7_1.index t (0 : Fin 2) * 5000 + 1 * r.val = r.val + 5000 * t.val; rw [e0]; omega
  | ⟨1, _⟩ => show win7_1.index t (1 : Fin 2) * 1 + 1 * 0 = 0; rw [e1]

theorem blkN_apply (c : Dev nD) (t : Fin cfg7.N) (g : Fin 512) : blk7 V c 2 t (ix2 g 0) = arrN V c (ix2 g 0) := by
  unfold blk7
  rw [View.read_apply]
  show V c (Pipeline.arrRef spec7 2) (((cfg7.win 2).blk t).view.emb (ix2 g 0)) = V c (Pipeline.arrRef spec7 2) _
  refine congrArg _ (funext fun a => Fin.ext ?_)
  obtain ⟨-, -, -, -, e0, e1, -⟩ := steps7 t
  match a with
  | ⟨0, _⟩ => show win7_2.index t (0 : Fin 2) * 512 + 1 * g.val = g.val; rw [e0]; omega
  | ⟨1, _⟩ => show win7_2.index t (1 : Fin 2) * 1 + 1 * 0 = 0; rw [e1]

theorem blkW_apply (c : Dev nD) (t : Fin cfg7.N) (k : Fin 10) (j : Fin 128) : blk7 V c 3 t (ix2 k j) = arrW V c (ix2 k j) := by
  unfold blk7
  rw [View.read_apply]
  show V c (Pipeline.arrRef spec7 3) (((cfg7.win 3).blk t).view.emb (ix2 k j)) = V c (Pipeline.arrRef spec7 3) _
  refine congrArg _ (funext fun a => Fin.ext ?_)
  obtain ⟨-, -, -, -, -, -, e0, e1, -⟩ := steps7 t
  match a with
  | ⟨0, _⟩ => show win7_3.index t (0 : Fin 2) * 10 + 1 * k.val = k.val; rw [e0]; omega
  | ⟨1, _⟩ => show win7_3.index t (1 : Fin 2) * 128 + 1 * j.val = j.val; rw [e1]; omega

theorem blkL_apply (c : Dev nD) (t : Fin cfg7.N) (k : Fin 10) : blk7 V c 4 t (ix2 0 k) = arrL V c (ix2 0 k) := by
  unfold blk7
  rw [View.read_apply]
  show V c (Pipeline.arrRef spec7 4) (((cfg7.win 4).blk t).view.emb (ix2 0 k)) = V c (Pipeline.arrRef spec7 4) _
  refine congrArg _ (funext fun a => Fin.ext ?_)
  obtain ⟨-, -, -, -, -, -, -, -, e0, e1, -⟩ := steps7 t
  match a with
  | ⟨0, _⟩ => show win7_4.index t (0 : Fin 2) * 1 + 1 * 0 = 0; rw [e0]
  | ⟨1, _⟩ => show win7_4.index t (1 : Fin 2) * 10 + 1 * k.val = k.val; rw [e1]; omega

/-! ## The scratch after each point: the tiles' contributions added up -/

/-- What tile `t` adds to entry (g, j) of the scratch; nothing past the grid. -/
def tileSum (c : Dev nD) (g : Fin 512) (j : Fin 128) (t : ℕ) : EReal :=
  if h : t < 10 then ∑ r : Fin 5000, hot (arrB V c (ix2 (row7 t h r) 0)) g.val * arrH V c (ix2 (row7 t h r) j) else 0

theorem tileSum_at (c : Dev nD) (g : Fin 512) (j : Fin 128) (t : Fin cfg7.N) :
    ∑ r : Fin 5000, hot (blk7 V c 1 t (ix2 r 0)) g.val * blk7 V c 0 t (ix2 r j) = tileSum V c g j t.val := by
  unfold tileSum
  rw [dif_pos (lt10 t)]
  exact Finset.sum_congr rfl fun r _ => by rw [tileB_apply, tileH_apply]

/-- After point `n` the scratch holds the sum of the contributions of tiles 0 to n. -/
theorem acc7_apply (c : Dev nD) (g : Fin 512) (j : Fin 128) :
    ∀ (n : ℕ) (h : n < cfg7.N), acc7 V c n h (ix2 g j) = ∑ t ∈ Finset.range (n + 1), tileSum V c g j t
  | 0, h => by
    show pooled7 (blk7 V c 0 ⟨0, h⟩) (blk7 V c 1 ⟨0, h⟩) cleared7 (ix2 g j) = _
    rw [pooled7_apply, cleared7_apply, zero_add, tileSum_at V c g j ⟨0, h⟩, Finset.sum_range_one]
  | n + 1, h => by
    show pooled7 (blk7 V c 0 ⟨n + 1, h⟩) (blk7 V c 1 ⟨n + 1, h⟩) (acc7 V c n (Nat.lt_of_succ_lt h)) (ix2 g j) = _
    rw [pooled7_apply, acc7_apply c g j n, tileSum_at V c g j ⟨n + 1, h⟩, Finset.sum_range_succ _ (n + 1)]

/-- Ten tiles of 5000 rows are the 50000 rows. -/
theorem sum_rows (f : Fin 50000 → EReal) :
    ∑ m : Fin 50000, f m = ∑ t : Fin 10, ∑ r : Fin 5000, f (row7 t.val t.isLt r) := by
  rw [← Equiv.sum_comp (finProdFinEquiv (m := 10) (n := 5000)) f, Fintype.sum_prod_type]
  rfl

/-- After the last point the scratch holds the whole one-hot contraction. -/
theorem acc7_last (c : Dev nD) (g : Fin 512) (j : Fin 128) (t : Fin cfg7.N) (ht : t.val = 9) :
    acc7 V c t.val t.isLt (ix2 g j) = ∑ m : Fin 50000, hot (arrB V c (ix2 m 0)) g.val * arrH V c (ix2 m j) := by
  rw [acc7_apply V c g j t.val t.isLt, ht, Finset.sum_range, sum_rows]
  exact Finset.sum_congr rfl fun t _ => by unfold tileSum; rw [dif_pos t.isLt]

/-! ## The output array after the region -/

/-- The pooled-and-classified array as one function of the five input arrays. -/
def poolLogits (h : Vec Ideal S50000x128 .f32) (b : Vec Ideal S50000x1 .i32) (n : Vec Ideal S512x1 .f32)
    (w : Vec Ideal S10x128 .f32) (l : Vec Ideal S1x10 .f32) : Vec Ideal S512x10 .f32 := fun y =>
  (∑ j : Fin 128, Ideal.div (∑ m : Fin 50000, hot (b (ix2 m 0)) (y 0).val * h (ix2 m j)) (n (ix2 (y 0) 0)) * w (ix2 (y 1) j))
    + l (ix2 0 (y 1))

theorem poolLogits_apply (h : Vec Ideal S50000x128 .f32) (b : Vec Ideal S50000x1 .i32) (n : Vec Ideal S512x1 .f32)
    (w : Vec Ideal S10x128 .f32) (l : Vec Ideal S1x10 .f32) (g : Fin 512) (k : Fin 10) :
    poolLogits h b n w l (ix2 g k)
      = (∑ j : Fin 128, Ideal.div (∑ m : Fin 50000, hot (b (ix2 m 0)) g.val * h (ix2 m j)) (n (ix2 g 0)) * w (ix2 k j))
        + l (ix2 0 k) := rfl

/-- The one write-back, at the last point, writes that array: the output's one block is the whole of it. -/
theorem flushed7_eq (c : Dev nD) (t : Fin cfg7.N) (hf : (cfg7.win 5).flush t = true) :
    (dat7 V c).flushed 5 t
      = ((cfg7.win 5).blk t).view.read (Elt Ideal) (poolLogits (arrH V c) (arrB V c) (arrN V c) (arrW V c) (arrL V c)) := by
  have h9 : t.val = 9 := by have := (flush7_5 t).mp hf; have := lt10 t; omega
  show (cfg7.win 5).cut (grid7.coords t) ((dat7 V c).after 5 t) = _
  rw [after7_5]
  funext y
  obtain ⟨g, k, rfl⟩ : ∃ (g : Fin 512) (k : Fin 10), y = ix2 g k := ⟨y 0, y 1, eq_ix2 y⟩
  rw [View.read_apply]
  have he : ((cfg7.win 5).blk t).view.emb (ix2 g k) = ix2 g k := by
    funext a; apply Fin.ext
    obtain ⟨-, -, -, -, -, -, -, -, -, -, e0, e1⟩ := steps7 t
    match a with
    | ⟨0, _⟩ => show win7_5.index t (0 : Fin 2) * 512 + 1 * g.val = g.val; rw [e0]; omega
    | ⟨1, _⟩ => show win7_5.index t (1 : Fin 2) * 10 + 1 * k.val = k.val; rw [e1]; omega
  rw [he, poolLogits_apply]
  show logits7 (acc7 V c t.val t.isLt) (blk7 V c 2 t) (blk7 V c 3 t) (blk7 V c 4 t) (ix2 g k) = _
  rw [logits7_apply, blkN_apply, blkL_apply]
  refine congrArg (· + arrL V c (ix2 0 k)) (Finset.sum_congr rfl fun j _ => ?_)
  rw [acc7_last V c g j t h9, blkW_apply]

/-- THE VALUE of region 7: after the region the output array is `poolLogits` of the five input arrays as the
    region found them. -/
theorem value7 (c : Dev nD) :
    (dat7 V c).arrAt 5 cfg7.N = poolLogits (arrH V c) (arrB V c) (arrN V c) (arrW V c) (arrL V c) :=
  (dat7 V c).arrAt_eq_of_cover 5 _ (flushed7_eq V c) fun i =>
    ⟨t7_9, (flush7_5 t7_9).mpr rfl, by
      show i ∈ ((View.whole main_v115).slice (win7_5.rect t7_9)).set
      rw [View.set_slice_whole, Rect.mem_set_unit]
      intro a
      have h0 : (i 0 : Nat) < 512 := (i 0).isLt
      have h1 : (i 1 : Nat) < 10 := (i 1).isLt
      match a with
      | ⟨0, _⟩ => show win7_5.index t7_9 0 * win7_5.size 0 ≤ (i 0 : Nat) ∧ (i 0 : Nat) < win7_5.index t7_9 0 * win7_5.size 0 + win7_5.xsize (grid7.coords t7_9) 0
                  rw [show win7_5.index t7_9 0 * win7_5.size 0 = 0 from by decide +kernel, show win7_5.xsize (grid7.coords t7_9) 0 = 512 from by decide +kernel]; omega
      | ⟨1, _⟩ => show win7_5.index t7_9 1 * win7_5.size 1 ≤ (i 1 : Nat) ∧ (i 1 : Nat) < win7_5.index t7_9 1 * win7_5.size 1 + win7_5.xsize (grid7.coords t7_9) 1
                  rw [show win7_5.index t7_9 1 * win7_5.size 1 = 0 from by decide +kernel, show win7_5.xsize (grid7.coords t7_9) 1 = 10 from by decide +kernel]; omega⟩

end Arrays

end Cert.KernelIdeal.Reg

end
-- ==== Proof.Val.KNet3.lean ====
/-
  The kernel program's third layer and its pooling, read at an entry.

  After the second normalisation the node features `n2` go through a dense layer (a kernel region), the edge
  aggregation and a bias (host operations), and then the pooling region: the rows of the result are added into their
  graphs' rows by a product with an indicator matrix (entry (n, g) is 1 where node n's graph id is the word of g),
  each graph's row is divided by the graph's clipped node count, and the class scores are the pooled row against the
  classifier's rows plus its bias. Between the items every buffer holds a definite value; what the pooling region
  finds in its five input arrays is read off the host operations that wrote them, and the arguments among them still
  hold their launch contents because nothing before writes an argument. The indicator-weighted sum over all nodes is
  the sum over the nodes of the graph, which is the specification's segment sum.
-/
import proofs.«429275_j68899865363005_1_alg».proof.Proof.KI.Chain
import proofs.«429275_j68899865363005_1_alg».proof.Proof.KI.Val6
import proofs.«429275_j68899865363005_1_alg».proof.Proof.KI.Val7
import proofs.«429275_j68899865363005_1_alg».proof.Proof.Val.Spec
import proofs.«429275_j68899865363005_1_alg».proof.Proof.Val.AggOp
import proofs.«429275_j68899865363005_1_alg».proof.Proof.Val.Counts
import proofs.«429275_j68899865363005_1_alg».proof.Proof.Val.KPre
import Idealize.ShloMosaic.Lib.StableHlo.Run
import Idealize.ShloMosaic.Lib.ValueIdx
import Idealize.ShloMosaic.Lib.Pipeline.Value
import Idealize.ShloMosaic.PureOps.Ideal

set_option maxRecDepth 16384

noncomputable section

open scoped BigOperators

namespace Cert.KNet.L3

open Cert.KernelIdeal Cert.KernelIdeal.Gen Cert.KernelIdeal.Reg
open Idealize.ShloMosaic Idealize.ShloMosaic.TcCoe Idealize.ShloMosaic.ValueIdx

/-! ## The indicator-weighted sum is the segment sum -/

/-- A 32-bit word is the word of a number below 512 exactly when its signed reading is that number. -/
theorem word_eq_iff (b : BitVec 32) (g : Fin 512) : b = BitVec.ofNat 32 g.val ↔ b.toInt = (g.val : ℤ) := by
  have hg : (BitVec.ofNat 32 g.val).toInt = (g.val : ℤ) := by
    have := g.isLt
    rw [BitVec.toInt_eq_toNat_of_lt (by rw [BitVec.toNat_ofNat]; omega), BitVec.toNat_ofNat]
    omega
  constructor
  · rintro rfl
    exact hg
  · intro h
    exact BitVec.eq_of_toInt_eq (h.trans hg.symm)

/-- Summing the rows of `h` weighted by the indicator "row `n` belongs to graph `g`" is the segment sum. -/
theorem onehot_sum (h : Fin 50000 → Fin 128 → EReal) (bt : Fin 50000 → BitVec 32) (g : Fin 512) (j : Fin 128) :
    (∑ n : Fin 50000, (if bt n = BitVec.ofNat 32 g.val then (1 : EReal) else 0) * h n j) = Cert.Spec.seg h bt g j := by
  unfold Cert.Spec.seg
  rw [Finset.sum_filter]
  refine Finset.sum_congr rfl fun n _ => ?_
  by_cases hn : bt n = BitVec.ofNat 32 g.val
  · rw [if_pos hn, if_pos ((word_eq_iff _ _).mp hn), one_mul]
  · rw [if_neg hn, if_neg (fun e => hn ((word_eq_iff _ _).mpr e)), zero_mul]

/-! ## The host stretches between the third dense layer and the pooling region, from any contents `Y` -/

section Stretches

variable (Y : Valuation τ sig (Elt Ideal))

/-- The contents when the pooling region is entered, from those at the third dense layer's exit: three host stretches. -/
abbrev into7 : Valuation τ sig (Elt Ideal) :=
  StableHlo.after (hostOps7_2 (F := Ideal)) (StableHlo.after (hostOps7_1 (F := Ideal)) (StableHlo.after (hostOps7 (F := Ideal)) Y))

abbrev arg2 : IVec S50000 32 := Y (Proc.devRef .tc main_arg2)
abbrev arg8 : FVec Ideal S128 .f32 := Y (Proc.devRef .tc main_arg8)
abbrev arg10 : FVec Ideal S10 .f32 := Y (Proc.devRef .tc main_arg10)
abbrev at95 : FVec Ideal S50000x128 .f32 := StableHlo.after (hostOps7 (F := Ideal)) Y (Proc.devRef .tc main_v95)
abbrev at98 : FVec Ideal S50000x128 .f32 := StableHlo.after (hostOps7 (F := Ideal)) Y (Proc.devRef .tc main_v98)
abbrev at110 : IVec S50000x1 32 := into7 Y (Proc.devRef .tc main_v110)
abbrev at113 : FVec Ideal S512x1 .f32 := into7 Y (Proc.devRef .tc main_v113)
abbrev at114 : FVec Ideal S1x10 .f32 := into7 Y (Proc.devRef .tc main_v114)

set_option maxHeartbeats 4000000 in
/-- After the first stretch the biased array is the aggregated array plus the bias row laid under every node. -/
theorem bias7_arr :
    at98 Y = addf (at95 Y)
      (broadcastInDim S50000x128 ![0, 1] bcast_S1x128_S50000x128_0_1 (broadcastInDim S1x128 ![1] bcast_S128_S1x128_1 (arg8 Y))) := by
  obtain ⟨T, h95, h98⟩ : ∃ T : FVec Ideal S50000x128 .f32, at95 Y = T ∧ at98 Y = addf T
      (broadcastInDim S50000x128 ![0, 1] bcast_S1x128_S50000x128_0_1 (broadcastInDim S1x128 ![1] bcast_S128_S1x128_1 (arg8 Y))) := by
    refine ⟨?T, ?h1, ?h2⟩
    case h1 =>
      show StableHlo.after (hostOps7 (F := Ideal)) Y (Proc.devRef .tc main_v95) = _
      after_results
    case h2 =>
      show StableHlo.after (hostOps7 (F := Ideal)) Y (Proc.devRef .tc main_v98) = _
      after_results
  rw [h98, h95]

/-- The same at an entry. -/
theorem bias7 (i : Fin 50000) (j : Fin 128) : at98 Y (ix2 i j) = at95 Y (ix2 i j) + arg8 Y (ix1 j) := by
  rw [bias7_arr Y, addf_apply]
  congr 1
  rw [broadcastInDim_apply _ bcast_S1x128_S50000x128_0_1 _ (ix2 i j) (ix2 (0 : Fin 1) j) (fun a => match a with
    | ⟨0, _⟩ => by show (0 : Nat) = if (1 : Nat) = 1 then 0 else i.val; rw [if_pos rfl]
    | ⟨1, _⟩ => by show j.val = if (128 : Nat) = 1 then 0 else j.val; rw [if_neg (by decide)])]
  rw [broadcastInDim_apply _ bcast_S128_S1x128_1 _ (ix2 (0 : Fin 1) j) (ix1 j) (fun a => match a with
    | ⟨0, _⟩ => by show j.val = if (128 : Nat) = 1 then 0 else j.val; rw [if_neg (by decide)])]

set_option maxHeartbeats 4000000 in
/-- The graph-id column the pooling region reads is the graph-id argument, reshaped to a column. -/
theorem batch7_arr : at110 Y = shapeCast S50000x1 (arg2 Y) shapeCasts_S50000_S50000x1 := by
  show StableHlo.after (hostOps7_2 (F := Ideal)) (StableHlo.after (hostOps7_1 (F := Ideal)) (StableHlo.after (hostOps7 (F := Ideal)) Y))
    (Proc.devRef .tc main_v110) = _
  after_results
  rfl

/-- At row `n` it is the `n`-th graph id. -/
theorem batch7 (n : Fin 50000) : at110 Y (ix2 n (0 : Fin 1)) = arg2 Y (ix1 n) := by
  rw [batch7_arr Y, shapeCast_apply _ shapeCasts_S50000_S50000x1 (ix2 n (0 : Fin 1)) (ix1 n) (by
    rw [Shape.rowMajor_val_two, Shape.rowMajor_val_one]
    show n.val = n.val * 1 + 0
    omega)]

set_option maxHeartbeats 4000000 in
/-- The classifier's bias row the pooling region reads is the bias argument, reshaped to a row. -/
theorem lbias7_arr : at114 Y = shapeCast S1x10 (arg10 Y) shapeCasts_S10_S1x10 := by
  show StableHlo.after (hostOps7_2 (F := Ideal)) (StableHlo.after (hostOps7_1 (F := Ideal)) (StableHlo.after (hostOps7 (F := Ideal)) Y))
    (Proc.devRef .tc main_v114) = _
  after_results
  rfl

/-- At column `k` it is the `k`-th bias. -/
theorem lbias7 (k : Fin 10) : at114 Y (ix2 (0 : Fin 1) k) = arg10 Y (ix1 k) := by
  rw [lbias7_arr Y, shapeCast_apply _ shapeCasts_S10_S1x10 (ix2 (0 : Fin 1) k) (ix1 k) (by
    rw [Shape.rowMajor_val_two, Shape.rowMajor_val_one]
    show k.val = 0 * 10 + k.val
    omega)]

set_option maxHeartbeats 4000000 in
/-- The count column the pooling region reads is the count operations of the printed program applied to the
    graph-id argument. -/
theorem counts7 : at113 Y = Cert.Counts.kCol (arg2 Y) := by
  show StableHlo.after (hostOps7_2 (F := Ideal)) (StableHlo.after (hostOps7_1 (F := Ideal)) (StableHlo.after (hostOps7 (F := Ideal)) Y))
    (Proc.devRef .tc main_v113) = _
  after_results
  rfl

end Stretches

/-! ## What nothing writes -/

section Run

variable (m : (ℓ : Loc nD τ sig) → Buf (Elt Ideal) ℓ) (c : Dev nD)

/-- The references read after the second normalisation that nothing writes between the first region's entry and the
    third dense layer's exit: the edge columns and coefficients, and the arguments. -/
abbrev kept : List (Ref sig .tc) := [main_v3, main_v6, main_v29, main_arg2, main_arg7, main_arg8, main_arg9, main_arg10]

/-- Each of them holds at the second normalisation's exit what it held at the first region's entry. -/
theorem keep_gen13 (r : Ref sig .tc) (hr : r ∈ kept) :
    Gen.V13 m (outs m) c (Proc.devRef .tc r) = Gen.V3 m c (Proc.devRef .tc r) :=
  (V13_of m (outs m) c r ((by decide : ∀ r ∈ kept, r ∉ ([main_v81] : List (Ref sig .tc))) r hr)).trans <|
    (V12_of m (outs m) c r ((by decide : ∀ r ∈ kept, r ∉ hostOps5_W) r hr)).trans <|
    (V11_of m (outs m) c r ((by decide : ∀ r ∈ kept, r ∉ ([main_v71_0, main_v71_1] : List (Ref sig .tc))) r hr)).trans <|
    (V10_of m (outs m) c r ((by decide : ∀ r ∈ kept, r ∉ hostOps4_W) r hr)).trans <|
    (V9_of m (outs m) c r ((by decide : ∀ r ∈ kept, r ∉ ([main_v56] : List (Ref sig .tc))) r hr)).trans <|
    (V8_of m (outs m) c r ((by decide : ∀ r ∈ kept, r ∉ ([main_v55] : List (Ref sig .tc))) r hr)).trans <|
    (V7_of m (outs m) c r ((by decide : ∀ r ∈ kept, r ∉ hostOps2_W) r hr)).trans <|
    (V6_of m (outs m) c r ((by decide : ∀ r ∈ kept, r ∉ ([main_v45_0, main_v45_1] : List (Ref sig .tc))) r hr)).trans <|
    (V5_of m (outs m) c r ((by decide : ∀ r ∈ kept, r ∉ hostOps1_W) r hr)).trans <|
    (V4_of m (outs m) c r ((by decide : ∀ r ∈ kept, r ∉ ([main_v30] : List (Ref sig .tc))) r hr))

theorem keep_3_13 (r : Ref sig .tc) (hr : r ∈ kept) :
    X13 m c (Proc.devRef .tc r) = Gen.V3 m c (Proc.devRef .tc r) := by
  rw [← V13_eq m c]
  exact keep_gen13 m c r hr

/-- And at the third dense layer's exit. -/
theorem keep_3_14 (r : Ref sig .tc) (hr : r ∈ kept) :
    X14 m c (Proc.devRef .tc r) = Gen.V3 m c (Proc.devRef .tc r) := by
  rw [← V14_eq m c]
  exact (V14_of m (outs m) c r ((by decide : ∀ r ∈ kept, r ∉ ([main_v82] : List (Ref sig .tc))) r hr)).trans
    (keep_gen13 m c r hr)

/-- The arguments read after the second normalisation. -/
abbrev keptArgs : List (Ref sig .tc) := [main_arg2, main_arg7, main_arg8, main_arg9, main_arg10]

/-- The opening stretches write no argument. -/
theorem keep_0_3 (r : Ref sig .tc) (hr : r ∈ keptArgs) :
    Gen.V3 m c (Proc.devRef .tc r) = m ((c.tc : Thread nD τ).loc r) :=
  (V3_of m c r ((by decide : ∀ r ∈ keptArgs, r ∉ hostOps0_2_W) r hr)).trans <|
    (V2_of m c r ((by decide : ∀ r ∈ keptArgs, r ∉ hostOps0_1_W) r hr)).trans <|
    (V1_of m c r ((by decide : ∀ r ∈ keptArgs, r ∉ hostOps0_W) r hr)).trans rfl

/-- So an argument holds its launch contents when the third dense layer is entered, -/
theorem arg_at_13 (r : Ref sig .tc) (hr : r ∈ keptArgs) :
    X13 m c (Proc.devRef .tc r) = m ((c.tc : Thread nD τ).loc r) :=
  (keep_3_13 m c r ((by decide : ∀ r ∈ keptArgs, r ∈ kept) r hr)).trans (keep_0_3 m c r hr)

/-- and when it is left. -/
theorem arg_at_14 (r : Ref sig .tc) (hr : r ∈ keptArgs) :
    X14 m c (Proc.devRef .tc r) = m ((c.tc : Thread nD τ).loc r) :=
  (keep_3_14 m c r ((by decide : ∀ r ∈ keptArgs, r ∈ kept) r hr)).trans (keep_0_3 m c r hr)

/-- The last two stretches before the pooling region write neither the biased array nor an argument. -/
theorem keep_15_17 (r : Ref sig .tc) (hr : r ∈ (main_v98 :: keptArgs)) :
    X17 m c (Proc.devRef .tc r) = X15 m c (Proc.devRef .tc r) :=
  (StableHlo.after_of_writes_sub (hostOps7_2 (F := Ideal)) _ hostOps7_2_writes
      ((by decide : ∀ r ∈ (main_v98 :: keptArgs), r ∉ hostOps7_2_W) r hr)).trans
    (StableHlo.after_of_writes_sub (hostOps7_1 (F := Ideal)) _ hostOps7_1_writes
      ((by decide : ∀ r ∈ (main_v98 :: keptArgs), r ∉ hostOps7_1_W) r hr))

/-- The stretch after the third dense layer writes no argument. -/
theorem keep_14_15 (r : Ref sig .tc) (hr : r ∈ keptArgs) :
    X15 m c (Proc.devRef .tc r) = X14 m c (Proc.devRef .tc r) :=
  StableHlo.after_of_writes_sub (hostOps7 (F := Ideal)) _ hostOps7_writes ((by decide : ∀ r ∈ keptArgs, r ∉ hostOps7_W) r hr)

/-- An argument holds its launch contents when the pooling region is entered. -/
theorem arg_at_17 (r : Ref sig .tc) (hr : r ∈ keptArgs) :
    X17 m c (Proc.devRef .tc r) = m ((c.tc : Thread nD τ).loc r) :=
  (keep_15_17 m c r (List.mem_cons_of_mem _ hr)).trans ((keep_14_15 m c r hr).trans (arg_at_14 m c r hr))

/-! ## The arrays of the third layer, at their literal types -/

/-- The edge-index argument as launched. -/
abbrev edges : (⟨S2x600000, .i32⟩ : BufTy).Contents (Elt Ideal) := m ((c.tc : Thread nD τ).loc main_arg1)
/-- The second normalisation's output. -/
abbrev n2Arr : FVec Ideal S50000x128 .f32 := X13 m c (Proc.devRef .tc main_v81)
/-- The third layer's weights and bias, the graph ids, the classifier's weights and bias, as launched. -/
abbrev w3Arr : FVec Ideal S128x128 .f32 := m ((c.tc : Thread nD τ).loc main_arg7)
abbrev b3Arr : FVec Ideal S128 .f32 := m ((c.tc : Thread nD τ).loc main_arg8)
abbrev btArr : IVec S50000 32 := m ((c.tc : Thread nD τ).loc main_arg2)
abbrev wlArr : FVec Ideal S10x128 .f32 := m ((c.tc : Thread nD τ).loc main_arg9)
abbrev blArr : FVec Ideal S10 .f32 := m ((c.tc : Thread nD τ).loc main_arg10)
/-- The third dense layer's output, and the class scores when @main returns. -/
abbrev d3Arr : FVec Ideal S50000x128 .f32 := X14 m c (Proc.devRef .tc main_v82)
abbrev outArr : FVec Ideal S512x10 .f32 := X18 m c (Proc.devRef .tc main_v115)

/-- The same as functions of plain index pairs. -/
abbrev n2 : Fin 50000 → Fin 128 → EReal := fun i k => n2Arr m c (ix2 i k)
abbrev w3 : Fin 128 → Fin 128 → EReal := fun j k => w3Arr m c (ix2 j k)
abbrev b3 : Fin 128 → EReal := fun j => b3Arr m c (ix1 j)
abbrev bt : Fin 50000 → BitVec 32 := fun n => btArr m c (ix1 n)
abbrev wl : Fin 10 → Fin 128 → EReal := fun k j => wlArr m c (ix2 k j)
abbrev bl : Fin 10 → EReal := fun k => blArr m c (ix1 k)
/-- The clipped node counts the printed program computes from the graph ids. -/
abbrev cntK : Fin 512 → EReal := fun g => Cert.Counts.kCol (btArr m c) (ix2 g (0 : Fin 1))

/-! ## The third dense layer -/

/-- Its output at an entry. -/
theorem dense3 (i : Fin 50000) (j : Fin 128) : d3Arr m c (ix2 i j) = Cert.Spec.lin (n2 m c) (w3 m c) i j := by
  have hF : (dat6 (F := Ideal) (fun c b => X13 m c b) c).arrAt 2 cfg6.N = d3Arr m c := hF_6 m c 2
  have hw : (X13 m c (Proc.devRef .tc main_arg7) : FVec Ideal S128x128 .f32) = w3Arr m c :=
    arg_at_13 m c main_arg7 (by decide)
  have h6 : d3Arr m c (ix2 i j)
      = ∑ k : Fin 128, xin6 (fun c b => X13 m c b) c (ix2 i k) * wts6 (fun c b => X13 m c b) c (ix2 j k) := by
    rw [← hF]
    exact value6 (fun c b => X13 m c b) c i j
  rw [h6]
  unfold Cert.Spec.lin
  refine Finset.sum_congr rfl fun k _ => ?_
  exact congrArg (fun W : FVec Ideal S128x128 .f32 => n2Arr m c (ix2 i k) * W (ix2 j k)) hw

/-- As an array it is the array of the specification's dense layer. -/
theorem dense3_arr : d3Arr m c = Cert.Agg.toArr (Cert.Spec.lin (n2 m c) (w3 m c)) := by
  funext idx
  obtain ⟨a, b, rfl⟩ : ∃ (a : Fin 50000) (b : Fin 128), idx = ix2 a b := ⟨idx 0, idx 1, eq_ix2 idx⟩
  rw [dense3]
  rfl

/-! ## The aggregation and the bias

The aggregation stretch is the shared edge operator applied to the dense layer's output; that fact is taken as a
hypothesis in this section and discharged where the opening stretches have been read. -/

variable (hagg : at95 (X14 m c) = Cert.Agg.aggArr (edges m c) (d3Arr m c))

include hagg in
/-- The biased array the pooling region reads, at an entry. -/
theorem biased3 (i : Fin 50000) (j : Fin 128) :
    (X17 m c (Proc.devRef .tc main_v98) : FVec Ideal S50000x128 .f32) (ix2 i j)
      = Cert.Spec.bias (Cert.Agg.aggOp (edges m c) (Cert.Spec.lin (n2 m c) (w3 m c))) (b3 m c) i j := by
  have hk : (X17 m c (Proc.devRef .tc main_v98) : FVec Ideal S50000x128 .f32) = at98 (X14 m c) :=
    keep_15_17 m c main_v98 (List.mem_cons_self ..)
  have hb : arg8 (X14 m c) = b3Arr m c := arg_at_14 m c main_arg8 (by decide)
  rw [hk, bias7, hagg, dense3_arr, hb]
  rfl

/-! ## The pooling region -/

include hagg in
/-- THE THIRD LAYER AND THE POOLING: the class scores the kernel program returns, at graph `g` and class `k`. -/
theorem layer3_of (g : Fin 512) (k : Fin 10) :
    outArr m c (ix2 g k)
      = Cert.Spec.pool (Cert.Spec.bias (Cert.Agg.aggOp (edges m c) (Cert.Spec.lin (n2 m c) (w3 m c))) (b3 m c))
          (bt m c) (cntK m c) (wl m c) (bl m c) g k := by
  have hF : (dat7 (F := Ideal) (fun c b => X17 m c b) c).arrAt 5 cfg7.N = outArr m c := hF_7 m c 5
  have hL : arrL (fun c b => X17 m c b) c (ix2 (0 : Fin 1) k) = bl m c k :=
    (lbias7 (X14 m c) k).trans (congrFun (arg_at_14 m c main_arg10 (by decide) : arg10 (X14 m c) = blArr m c) (ix1 k))
  have hN : arrN (fun c b => X17 m c b) c = Cert.Counts.kCol (btArr m c) :=
    (counts7 (X14 m c)).trans (congrArg Cert.Counts.kCol (arg_at_14 m c main_arg2 (by decide) : arg2 (X14 m c) = btArr m c))
  have hW : arrW (fun c b => X17 m c b) c = wlArr m c := arg_at_17 m c main_arg9 (by decide)
  have hB : ∀ n : Fin 50000, arrB (fun c b => X17 m c b) c (ix2 n (0 : Fin 1)) = bt m c n := fun n =>
    (batch7 (X14 m c) n).trans (congrFun (arg_at_14 m c main_arg2 (by decide) : arg2 (X14 m c) = btArr m c) (ix1 n))
  have hH : ∀ (n : Fin 50000) (j : Fin 128), arrH (fun c b => X17 m c b) c (ix2 n j)
      = Cert.Spec.bias (Cert.Agg.aggOp (edges m c) (Cert.Spec.lin (n2 m c) (w3 m c))) (b3 m c) n j :=
    fun n j => biased3 m c hagg n j
  rw [← hF, value7 (fun c b => X17 m c b) c, poolLogits_apply, hL, hN, hW]
  unfold Cert.Spec.pool
  refine congrArg (· + bl m c k) (Finset.sum_congr rfl fun j _ => ?_)
  have hs : (∑ n : Fin 50000, hot (arrB (fun c b => X17 m c b) c (ix2 n (0 : Fin 1))) g.val * arrH (fun c b => X17 m c b) c (ix2 n j))
      = Cert.Spec.seg (Cert.Spec.bias (Cert.Agg.aggOp (edges m c) (Cert.Spec.lin (n2 m c) (w3 m c))) (b3 m c)) (bt m c) g j := by
    rw [← onehot_sum]
    refine Finset.sum_congr rfl fun n _ => ?_
    rw [hot_eq, hB, hH]
  rw [hs]

end Run

end Cert.KNet.L3

namespace Cert.KNet

open Cert.KernelIdeal Cert.KernelIdeal.Gen Cert.KernelIdeal.Reg
open Idealize.ShloMosaic Idealize.ShloMosaic.TcCoe Idealize.ShloMosaic.ValueIdx

variable (m : (ℓ : Loc nD τ sig) → Buf (Elt Ideal) ℓ) (c : Dev nD)

/-- THE THIRD LAYER AND THE POOLING over the launch memory: the class scores the kernel program returns are the pooled,
    classified third layer of what the second normalisation left, with the shared edge operator, the launched weights,
    biases and graph ids, and the node counts the program itself computes. The edge columns and coefficients the
    aggregation stretch reads are still those the opening stretches made, which are the shared operator's own. -/
theorem layer3 : ∀ (g : Fin 512) (k : Fin 10),
    (X18 m c (Proc.devRef .tc main_v115) : Vec Ideal S512x10 .f32) (ix2 g k)
      = Cert.Spec.pool
          (Cert.Spec.bias
            (Cert.Agg.aggOp (m ((c.tc : Thread nD τ).loc main_arg1))
              (Cert.Spec.lin
                (fun (i : Fin 50000) (k : Fin 128) => (X13 m c (Proc.devRef .tc main_v81) : Vec Ideal S50000x128 .f32) (ix2 i k))
                (fun (j : Fin 128) (k : Fin 128) => (m ((c.tc : Thread nD τ).loc main_arg7) : Vec Ideal S128x128 .f32) (ix2 j k))))
            (fun (j : Fin 128) => (m ((c.tc : Thread nD τ).loc main_arg8) : Vec Ideal S128 .f32) (ix1 j)))
          (fun (n : Fin 50000) => (m ((c.tc : Thread nD τ).loc main_arg2) : Vec Ideal S50000 .i32) (ix1 n))
          (fun (g : Fin 512) => Cert.Counts.kCol (m ((c.tc : Thread nD τ).loc main_arg2)) (ix2 g (0 : Fin 1)))
          (fun (k : Fin 10) (j : Fin 128) => (m ((c.tc : Thread nD τ).loc main_arg9) : Vec Ideal S10x128 .f32) (ix2 k j))
          (fun (k : Fin 10) => (m ((c.tc : Thread nD τ).loc main_arg10) : Vec Ideal S10 .f32) (ix1 k)) g k :=
  fun g k => L3.layer3_of m c
    (agg_stretch7 (X14 m c) (x1 m c)
      ((L3.keep_3_14 m c main_v3 (by decide)).trans (pre_v3 m c))
      ((L3.keep_3_14 m c main_v6 (by decide)).trans (pre_v6 m c))
      ((L3.keep_3_14 m c main_v29 (by decide)).trans (pre_v29 m c))) g k

end Cert.KNet

end
-- ==== Proof.Val.KNet.lean ====
/- The kernel program's class scores as the shared specification with one-pass normalisation.
   Three facts say what the program's buffers hold after its second normalisation region, after its
   fifth, and after its last region: the first normalised layer of the launched features, the second
   normalised layer of what the first left, and the pooled scores of the third layer of what the second
   left. Substituting each into the next gives the whole network as one function of the launched
   arguments; nothing else is used. The three facts are the three layer theorems. -/
import proofs.«429275_j68899865363005_1_alg».proof.Proof.KI.Chain
import proofs.«429275_j68899865363005_1_alg».proof.Proof.Val.Spec
import proofs.«429275_j68899865363005_1_alg».proof.Proof.Val.AggOp
import proofs.«429275_j68899865363005_1_alg».proof.Proof.Val.Counts
import proofs.«429275_j68899865363005_1_alg».proof.Proof.Val.KNet1
import proofs.«429275_j68899865363005_1_alg».proof.Proof.Val.KNet2
import proofs.«429275_j68899865363005_1_alg».proof.Proof.Val.KNet3
import Idealize.ShloMosaic.Lib.ValueIdx

set_option maxRecDepth 4096
set_option quotPrecheck false

noncomputable section

namespace Cert.KNet

open Cert.KernelIdeal Cert.KernelIdeal.Gen Cert.KernelIdeal.Reg
open Idealize.ShloMosaic Idealize.ShloMosaic.TcCoe Idealize.SL.Sem
open Idealize.ShloMosaic.ValueIdx
open scoped BigOperators

/-- Three layers chained: if a table n1 is the first normalised layer of x0, a table n2 the second
    normalised layer of n1, and a table out the pooled third layer of n2, then out is the network of x0. -/
theorem netK_of_layers (A : (Fin 50000 → Fin 128 → EReal) → Fin 50000 → Fin 128 → EReal)
    (x0 : Fin 50000 → Fin 128 → EReal) (w1 : Fin 128 → Fin 128 → EReal) (b1 : Fin 128 → EReal)
    (w2 : Fin 128 → Fin 128 → EReal) (b2 : Fin 128 → EReal) (w3 : Fin 128 → Fin 128 → EReal) (b3 : Fin 128 → EReal)
    (bt : Fin 50000 → BitVec 32) (cnt : Fin 512 → EReal) (wl : Fin 10 → Fin 128 → EReal) (bl : Fin 10 → EReal)
    (n1 n2 : Fin 50000 → Fin 128 → EReal) (out : Fin 512 → Fin 10 → EReal)
    (h1 : ∀ i j, n1 i j = Cert.Spec.bnK (A (Cert.Spec.lin x0 w1)) b1 i j)
    (h2 : ∀ i j, n2 i j = Cert.Spec.bnK (A (Cert.Spec.lin n1 w2)) b2 i j)
    (h3 : ∀ g k, out g k = Cert.Spec.pool (Cert.Spec.bias (A (Cert.Spec.lin n2 w3)) b3) bt cnt wl bl g k)
    (g : Fin 512) (k : Fin 10) :
    out g k = Cert.Spec.netK A x0 w1 b1 w2 b2 w3 b3 bt cnt wl bl g k := by
  have e1 : n1 = Cert.Spec.bnK (A (Cert.Spec.lin x0 w1)) b1 := funext fun i => funext fun j => h1 i j
  have e2 : n2 = Cert.Spec.bnK (A (Cert.Spec.lin n1 w2)) b2 := funext fun i => funext fun j => h2 i j
  rw [h3 g k, e2, e1]
  rfl

variable (m : (ℓ : Loc nD τ sig) → Buf (Elt Ideal) ℓ) (c : Dev nD)

/-- The launched node features as a table. -/
local notation "x0" => (fun (i : Fin 50000) (k : Fin 128) => (m ((c.tc : Thread nD τ).loc main_arg0) : Vec Ideal S50000x128 .f32) (ix2 i k))
/-- The three layers' weights and biases as launched. -/
local notation "w1" => (fun (j : Fin 128) (k : Fin 128) => (m ((c.tc : Thread nD τ).loc main_arg3) : Vec Ideal S128x128 .f32) (ix2 j k))
local notation "b1" => (fun (j : Fin 128) => (m ((c.tc : Thread nD τ).loc main_arg4) : Vec Ideal S128 .f32) (ix1 j))
local notation "w2" => (fun (j : Fin 128) (k : Fin 128) => (m ((c.tc : Thread nD τ).loc main_arg5) : Vec Ideal S128x128 .f32) (ix2 j k))
local notation "b2" => (fun (j : Fin 128) => (m ((c.tc : Thread nD τ).loc main_arg6) : Vec Ideal S128 .f32) (ix1 j))
local notation "w3" => (fun (j : Fin 128) (k : Fin 128) => (m ((c.tc : Thread nD τ).loc main_arg7) : Vec Ideal S128x128 .f32) (ix2 j k))
local notation "b3" => (fun (j : Fin 128) => (m ((c.tc : Thread nD τ).loc main_arg8) : Vec Ideal S128 .f32) (ix1 j))
/-- The graph ids, the classifier's weights and bias as launched. -/
local notation "bt" => (fun (n : Fin 50000) => (m ((c.tc : Thread nD τ).loc main_arg2) : Vec Ideal S50000 .i32) (ix1 n))
local notation "wl" => (fun (k : Fin 10) (j : Fin 128) => (m ((c.tc : Thread nD τ).loc main_arg9) : Vec Ideal S10x128 .f32) (ix2 k j))
local notation "bl" => (fun (k : Fin 10) => (m ((c.tc : Thread nD τ).loc main_arg10) : Vec Ideal S10 .f32) (ix1 k))
/-- The per-graph counts the program divides by. -/
local notation "cntK" => (fun (g : Fin 512) => Cert.Counts.kCol (m ((c.tc : Thread nD τ).loc main_arg2)) (ix2 g (0 : Fin 1)))
/-- The edge aggregation over the edge-index argument as launched. -/
local notation "Aop" => Cert.Agg.aggOp (m ((c.tc : Thread nD τ).loc main_arg1))
/-- What the second and the fifth region left in their output arrays. -/
local notation "n1" => (fun (i : Fin 50000) (k : Fin 128) => (X8 m c (Proc.devRef .tc main_v55) : Vec Ideal S50000x128 .f32) (ix2 i k))
local notation "n2" => (fun (i : Fin 50000) (k : Fin 128) => (X13 m c (Proc.devRef .tc main_v81) : Vec Ideal S50000x128 .f32) (ix2 i k))

/-- The program's result array is the one-pass network of its launched arguments, given the three layers. -/
theorem kernel_net_of
    (layer1 : ∀ i j, (X8 m c (Proc.devRef .tc main_v55) : Vec Ideal S50000x128 .f32) (ix2 i j)
      = Cert.Spec.bnK (Aop (Cert.Spec.lin x0 w1)) b1 i j)
    (layer2 : ∀ i j, (X13 m c (Proc.devRef .tc main_v81) : Vec Ideal S50000x128 .f32) (ix2 i j)
      = Cert.Spec.bnK (Aop (Cert.Spec.lin n1 w2)) b2 i j)
    (layer3 : ∀ g k, (X18 m c (Proc.devRef .tc main_v115) : Vec Ideal S512x10 .f32) (ix2 g k)
      = Cert.Spec.pool (Cert.Spec.bias (Aop (Cert.Spec.lin n2 w3)) b3) bt cntK wl bl g k)
    (g : Fin 512) (k : Fin 10) :
    (X18 m c (Proc.devRef .tc main_v115) : Vec Ideal S512x10 .f32) (ix2 g k)
      = Cert.Spec.netK Aop x0 w1 b1 w2 b2 w3 b3 bt cntK wl bl g k :=
  netK_of_layers Aop x0 w1 b1 w2 b2 w3 b3 bt cntK wl bl n1 n2
    (fun g k => (X18 m c (Proc.devRef .tc main_v115) : Vec Ideal S512x10 .f32) (ix2 g k)) layer1 layer2 layer3 g k

/-- The program's result array is the one-pass network of its launched arguments. -/
theorem kernel_net (g : Fin 512) (k : Fin 10) :
    (X18 m c (Proc.devRef .tc main_v115) : Vec Ideal S512x10 .f32) (ix2 g k)
      = Cert.Spec.netK Aop x0 w1 b1 w2 b2 w3 b3 bt cntK wl bl g k :=
  kernel_net_of m c (fun i j => layer1 m c i j) (fun i j => layer2 m c i j) (layer3 m c) g k

end Cert.KNet

end
-- ==== Proof.Val.Bridge.lean ====
/- The reference's class scores, read at the kernel program's launched arguments, are what the kernel
   program's last region leaves in its result array.
   The reference computes the network with two-pass column moments and its own per-graph counts; the
   kernel program computes it with one-pass column moments and integer counts of the clipped graph ids.
   The precondition makes every float argument entry a real number and every graph id nonnegative. On
   real inputs the two networks agree (the edge aggregation keeps reals real for any edge list), and
   with no negative id both count columns are the number of nodes of each graph, at least one. -/
import proofs.«429275_j68899865363005_1_alg».proof.Proof.KI.Chain
import proofs.«429275_j68899865363005_1_alg».proof.Proof.Ref.Read
import proofs.«429275_j68899865363005_1_alg».proof.Proof.Val.Spec
import proofs.«429275_j68899865363005_1_alg».proof.Proof.Val.SpecEq
import proofs.«429275_j68899865363005_1_alg».proof.Proof.Val.AggReal
import proofs.«429275_j68899865363005_1_alg».proof.Proof.Val.PreFacts
import proofs.«429275_j68899865363005_1_alg».proof.Proof.Val.CountsRead
import proofs.«429275_j68899865363005_1_alg».proof.Proof.Val.RefNet
import proofs.«429275_j68899865363005_1_alg».proof.Proof.Val.KNet
import Idealize.ShloMosaic.Lib.ValueIdx

set_option maxRecDepth 4096
set_option quotPrecheck false

noncomputable section

namespace Cert.Bridge

open Cert.KernelIdeal Cert.KernelIdeal.Gen Cert.KernelIdeal.Reg
open Idealize.ShloMosaic Idealize.ShloMosaic.TcCoe Idealize.SL.Sem
open Idealize.ShloMosaic.ValueIdx
open Cert.Alg

/-- Two score arrays that are the two-pass and the one-pass network of the same real arguments, over an
    aggregation that keeps reals real and with equal count columns, are equal. -/
theorem scores_eq (A : (Fin 50000 → Fin 128 → EReal) → Fin 50000 → Fin 128 → EReal)
    (hA : ∀ h, (∀ i j, IsReal (h i j)) → ∀ i j, IsReal (A h i j))
    (x0 : Fin 50000 → Fin 128 → EReal) (w1 : Fin 128 → Fin 128 → EReal) (b1 : Fin 128 → EReal)
    (w2 : Fin 128 → Fin 128 → EReal) (b2 : Fin 128 → EReal) (w3 : Fin 128 → Fin 128 → EReal) (b3 : Fin 128 → EReal)
    (hx : ∀ i k, IsReal (x0 i k)) (hw1 : ∀ j k, IsReal (w1 j k)) (hb1 : ∀ j, IsReal (b1 j))
    (hw2 : ∀ j k, IsReal (w2 j k)) (hb2 : ∀ j, IsReal (b2 j))
    (bt : Fin 50000 → BitVec 32) (cntR cntK : Fin 512 → EReal) (hcnt : cntK = cntR)
    (wl : Fin 10 → Fin 128 → EReal) (bl : Fin 10 → EReal)
    (refv kerv : (⟨2, ![512, 10]⟩ : Shape).Idx → EReal)
    (href : ∀ g k, refv (ix2 g k) = Cert.Spec.netR A x0 w1 b1 w2 b2 w3 b3 bt cntR wl bl g k)
    (hker : ∀ g k, kerv (ix2 g k) = Cert.Spec.netK A x0 w1 b1 w2 b2 w3 b3 bt cntK wl bl g k) :
    refv = kerv := by
  funext idx
  obtain ⟨g, k, rfl⟩ : ∃ (g : Fin 512) (k : Fin 10), idx = ix2 g k :=
    ⟨⟨(idx 0).val, (idx 0).isLt⟩, ⟨(idx 1).val, (idx 1).isLt⟩, by
      funext a; match a with | ⟨0, _⟩ => rfl | ⟨1, _⟩ => rfl⟩
  rw [href, hker, hcnt,
    Cert.SpecEq.net_eq A hA x0 w1 b1 w2 b2 w3 b3 hx hw1 hb1 hw2 hb2 bt cntR wl bl]

variable [Cert.Pre_finite_inputs.Facts]
variable (m : (ℓ : Loc nD τ sig) → Buf (Elt Ideal) ℓ) (c : Dev nD)

/-- The launched node features as a table. -/
local notation "x0" => (fun (i : Fin 50000) (k : Fin 128) => (m ((c.tc : Thread nD τ).loc main_arg0) : Vec Ideal S50000x128 .f32) (ix2 i k))
/-- The three layers' weights and biases as launched. -/
local notation "w1" => (fun (j : Fin 128) (k : Fin 128) => (m ((c.tc : Thread nD τ).loc main_arg3) : Vec Ideal S128x128 .f32) (ix2 j k))
local notation "b1" => (fun (j : Fin 128) => (m ((c.tc : Thread nD τ).loc main_arg4) : Vec Ideal S128 .f32) (ix1 j))
local notation "w2" => (fun (j : Fin 128) (k : Fin 128) => (m ((c.tc : Thread nD τ).loc main_arg5) : Vec Ideal S128x128 .f32) (ix2 j k))
local notation "b2" => (fun (j : Fin 128) => (m ((c.tc : Thread nD τ).loc main_arg6) : Vec Ideal S128 .f32) (ix1 j))
local notation "w3" => (fun (j : Fin 128) (k : Fin 128) => (m ((c.tc : Thread nD τ).loc main_arg7) : Vec Ideal S128x128 .f32) (ix2 j k))
local notation "b3" => (fun (j : Fin 128) => (m ((c.tc : Thread nD τ).loc main_arg8) : Vec Ideal S128 .f32) (ix1 j))
/-- The graph ids, the classifier's weights and bias as launched. -/
local notation "bt" => (fun (n : Fin 50000) => (m ((c.tc : Thread nD τ).loc main_arg2) : Vec Ideal S50000 .i32) (ix1 n))
local notation "wl" => (fun (k : Fin 10) (j : Fin 128) => (m ((c.tc : Thread nD τ).loc main_arg9) : Vec Ideal S10x128 .f32) (ix2 k j))
local notation "bl" => (fun (k : Fin 10) => (m ((c.tc : Thread nD τ).loc main_arg10) : Vec Ideal S10 .f32) (ix1 k))
/-- The per-graph counts each program divides by. -/
local notation "cntK" => (fun (g : Fin 512) => Cert.Counts.kCol (m ((c.tc : Thread nD τ).loc main_arg2)) (ix2 g (0 : Fin 1)))
local notation "cntR" => (fun (g : Fin 512) => Cert.ReferenceIdeal.Read.val_main_v132 (F := Ideal) (m ((c.tc : Thread nD τ).loc main_arg2)) (ix1 g))
/-- The edge aggregation over the edge-index argument as launched. -/
local notation "Aop" => Cert.Agg.aggOp (m ((c.tc : Thread nD τ).loc main_arg1))

/-- With no negative graph id the two programs divide by the same counts. -/
theorem counts_eq (hb : ∀ i, 0 ≤ ((m ((c.tc : Thread nD τ).loc main_arg2) : Vec Ideal S50000 .i32) i).toInt) :
    cntK = cntR := by
  funext g
  rw [Cert.Counts.kCol_apply_row _ hb g, Cert.Counts.val_main_v132_apply_card]

/-- The reference's result at the launched arguments is the kernel program's result array, given each
    side as its network. -/
theorem result_eq_of
    (href : ∀ g k, Cert.ReferenceIdeal.Read.val_main_v140 (F := Ideal)
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) (ix2 g k)
      = Cert.Spec.netR Aop x0 w1 b1 w2 b2 w3 b3 bt cntR wl bl g k)
    (hker : ∀ g k, (X18 m c (Proc.devRef .tc main_v115) : Vec Ideal S512x10 .f32) (ix2 g k)
      = Cert.Spec.netK Aop x0 w1 b1 w2 b2 w3 b3 bt cntK wl bl g k)
    (hp : Cert.Pre_finite_inputs.fn (F := Ideal)
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) = fun _ => 1#1) :
    Cert.ReferenceIdeal.Read.val_main_v140 (F := Ideal)
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10))
      = X18 m c main_v115 :=
  scores_eq Aop (fun h hh => Cert.AggReal.aggOp_real _ h hh) x0 w1 b1 w2 b2 w3 b3
    (fun i k => Cert.PreFacts.real_x0 hp (ix2 i k)) (fun j k => Cert.PreFacts.real_x3 hp (ix2 j k))
    (fun j => Cert.PreFacts.real_x4 hp (ix1 j)) (fun j k => Cert.PreFacts.real_x5 hp (ix2 j k))
    (fun j => Cert.PreFacts.real_x6 hp (ix1 j))
    bt cntR cntK (counts_eq m c (Cert.PreFacts.batch_nonneg hp)) wl bl _ _ href hker

/-- The reference's class scores at the launched arguments, as the two-pass network. -/
theorem ref_side (g : Fin 512) (k : Fin 10) :
    Cert.ReferenceIdeal.Read.val_main_v140 (F := Ideal)
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) (ix2 g k)
      = Cert.Spec.netR Aop x0 w1 b1 w2 b2 w3 b3 bt cntR wl bl g k :=
  Cert.RefNet.ref_net _ _ _ _ _ _ _ _ _ _ _ g k

/-- The same with only the kernel program's side left as a hypothesis. -/
theorem result_eq_of_kernel
    (hker : ∀ g k, (X18 m c (Proc.devRef .tc main_v115) : Vec Ideal S512x10 .f32) (ix2 g k)
      = Cert.Spec.netK Aop x0 w1 b1 w2 b2 w3 b3 bt cntK wl bl g k)
    (hp : Cert.Pre_finite_inputs.fn (F := Ideal)
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) = fun _ => 1#1) :
    Cert.ReferenceIdeal.Read.val_main_v140 (F := Ideal)
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10))
      = X18 m c main_v115 :=
  result_eq_of m c (ref_side m c) hker hp

/-- The reference's result at the launched arguments is the kernel program's result array. -/
theorem result_eq
    (hp : Cert.Pre_finite_inputs.fn (F := Ideal)
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) = fun _ => 1#1) :
    Cert.ReferenceIdeal.Read.val_main_v140 (F := Ideal)
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10))
      = X18 m c main_v115 :=
  result_eq_of_kernel m c (Cert.KNet.kernel_net m c) hp

end Cert.Bridge

end
-- ==== Proof.lean ====
/-
  The certificate of a three-layer graph-convolution classifier (a dense layer, an aggregation over the edges, a
  column normalisation with clipping at zero, twice; a third dense layer and aggregation; mean pooling per graph and
  a linear classifier) against its plain array-program reference, over the extended reals.

  The two programs share the aggregation over the edges and differ in three places. (1) The dense layers are row
  tiles of a matrix product on one side and one matrix product on the other: the same sums of products. (2) A
  column's variance is E[y²] − E[y]² from one pass over the rows on one side and the mean of the squared deviations
  from two passes on the other; these agree once every entry is a real number, which holds because the inputs are
  real and every operation on the way (sums of products, the aggregation — whose coefficients are reciprocal square
  roots of positive vertex degrees —, the normalisation with its positive variance floor) keeps real numbers real.
  (3) The per-graph sums are a one-hot matrix product accumulated over row tiles on one side and a segment sum on
  the other — the same sums —, and the per-graph counts are an integer count of the graph ids clipped at zero on one
  side and a segment sum of ones on the other: equal when no graph id is negative, which the precondition states.

  Each program's frame (it terminates, faults nowhere and leaves its arguments as launched) comes from one record
  per kernel region: what the region's body leaves in each staging buffer at each grid point, with the accumulators
  of the two reduction kernels and of the pooling kernel carried in the region's invariant.
-/
import proofs.«429275_j68899865363005_1_alg».proof.Defs
import proofs.«429275_j68899865363005_1_alg».proof.Proof.Gen.Kernel
import proofs.«429275_j68899865363005_1_alg».proof.Proof.Gen.KernelIdeal
import proofs.«429275_j68899865363005_1_alg».proof.Proof.Gen.ReferenceIdeal
import proofs.«429275_j68899865363005_1_alg».proof.Proof.Gen.Pre_finite_inputs
import proofs.«429275_j68899865363005_1_alg».proof.Proof.K.Run
import proofs.«429275_j68899865363005_1_alg».proof.Proof.KI.Run
import proofs.«429275_j68899865363005_1_alg».proof.Proof.Ref.Read
import proofs.«429275_j68899865363005_1_alg».proof.Proof.Val.Bridge

noncomputable section

namespace Cert.Proof

open Idealize.ShloMosaic Idealize.ShloMosaic.TcCoe Idealize.SL.Sem

/-- The word-level program runs and leaves its arguments as launched. -/
theorem frame_kernel : Cert.frame_Kernel :=
  fun m ρ _ => Cert.Kernel.Reg.frame m ρ

/-- So does the program read over the extended reals. -/
theorem frame_kernelIdeal : Cert.frame_KernelIdeal :=
  fun m ρ _ => Cert.KernelIdeal.Reg.frame m ρ

/-- The reference is a straight line of host operations: its run, the result dropped. -/
theorem frame_reference : Cert.frame_ReferenceIdeal :=
  fun m ρ _ => (θ_run Cert.ReferenceIdeal.defs _ _).mono (fun _ h c => (h c).2) (Cert.ReferenceIdeal.Value.run (F := Ideal) m ρ)

/-- Both programs end with the same class scores: the kernel program's result array as its last region leaves it,
    and the reference's result read as the same function of the arguments. -/
theorem algebraic : Cert.algebraic_KernelIdeal_ReferenceIdeal := by
  intro m ρ m' ρ' hpre hagree
  refine ⟨fun c => Cert.KernelIdeal.Reg.X18 m c Cert.KernelIdeal.main_v115, Cert.KernelIdeal.Reg.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v140_eq, e0, e1, e2, e3, e4, e5, e6, e7, e8, e9, e10]
  exact Cert.Bridge.result_eq m c (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
